-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x10 : Shape := ⟨2, ![256, 10]⟩
abbrev S10 : Shape := ⟨1, ![10]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_
  bcast_S_S8192 : S_.BroadcastsInDim S8192 (![] : Fin 0 → Fin S8192.rank)
  reducesTo_S8192_S_d0 : S8192.ReducesTo [0] S_

variable [Facts]

def fn_part2 {F : FTy → Type} [FloatOps F] (main_arg1 : IVec S8192 32) (main_v33 : IVec S_ 1) : IVec S_ 1 :=
  let main_c_12 : IVec S_ 32 := constantI S_ 32 0#32
  let main_v34 : IVec S8192 32 := broadcastInDim S8192 ![] bcast_S_S8192 main_c_12
  let main_v35 : IVec S8192 1 := cmpi .sge main_arg1 main_v34
  let main_c_13 : IVec S_ 32 := constantI S_ 32 10#32
  let main_v36 : IVec S8192 32 := broadcastInDim S8192 ![] bcast_S_S8192 main_c_13
  let main_v37 : IVec S8192 1 := cmpi .slt main_arg1 main_v36
  let main_v38 : IVec S8192 1 := andi main_v35 main_v37
  let main_c_14 : IVec S_ 1 := constantI S_ 1 1#1
  let main_v39 : IVec S_ 1 := (fun x v => Host.reduce IntOp.andi x v reducesTo_S8192_S_d0 h_S_) main_v38 main_c_14
  let main_v40 : IVec S_ 1 := andi main_v33 main_v39
  main_v40

def fn_part1 {F : FTy → Type} [FloatOps F] (main_arg1 : IVec S8192 32) (main_arg5 : FVec F S256 .f32) (main_arg6 : FVec F S256x10 .f32) (main_arg7 : FVec F S10 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x10 .f32 := Host.absf main_arg6
  let main_cst_8 : FVec F S_ .f32 := constant S_ .f32 0x7F800000#32
  let main_v25 : FVec F S256x10 .f32 := broadcastInDim S256x10 ![] bcast_S_S256x10 main_cst_8
  let main_v26 : IVec S256x10 1 := cmpf .olt main_v24 main_v25
  let main_c_9 : IVec S_ 1 := constantI S_ 1 1#1
  let main_v27 : IVec S_ 1 := (fun x v => Host.reduce IntOp.andi x v reducesTo_S256x10_S_d0_1 h_S_) main_v26 main_c_9
  let main_v28 : IVec S_ 1 := andi main_v23 main_v27
  let main_v29 : FVec F S10 .f32 := Host.absf main_arg7
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg1 main_v33

def fn {F : FTy → Type} [FloatOps F] (main_arg0 : FVec F S8192x1024 .f32) (main_arg1 : IVec S8192 32) (main_arg2 : FVec F S1024x512 .f32) (main_arg3 : FVec F S512 .f32) (main_arg4 : FVec F S512x256 .f32) (main_arg5 : FVec F S256 .f32) (main_arg6 : FVec F S256x10 .f32) (main_arg7 : FVec F S10 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x512 .f32 := Host.absf main_arg2
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg4
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg1 main_arg5 main_arg6 main_arg7 main_v13 main_v16
-- ==== Kernel.lean ====
abbrev S8192x1024 : Shape := ⟨2, ![8192, 1024]⟩
abbrev S8192 : Shape := ⟨1, ![8192]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x10 : Shape := ⟨2, ![256, 10]⟩
abbrev S10 : Shape := ⟨1, ![10]⟩
abbrev S8192x10 : Shape := ⟨2, ![8192, 10]⟩
abbrev S8192x1 : Shape := ⟨2, ![8192, 1]⟩
abbrev S1024x1024 : Shape := ⟨2, ![1024, 1024]⟩
abbrev S1024x10 : Shape := ⟨2, ![1024, 10]⟩
abbrev S1024x1 : Shape := ⟨2, ![1024, 1]⟩
abbrev S1x512 : Shape := ⟨2, ![1, 512]⟩
abbrev S1024x256 : Shape := ⟨2, ![1024, 256]⟩
abbrev S1x256 : Shape := ⟨2, ![1, 256]⟩
abbrev S1x10 : Shape := ⟨2, ![1, 10]⟩
abbrev S1024 : Shape := ⟨1, ![1024]⟩
abbrev S1x8192 : Shape := ⟨2, ![1, 8192]⟩
abbrev S1x1024 : Shape := ⟨2, ![1, 1024]⟩
abbrev S10x1024 : Shape := ⟨2, ![10, 1024]⟩
abbrev S_ : Shape := ⟨0, ![]⟩

abbrev nBuf : Space → Nat
  | .hbm => 33
  | .vmem => 29
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S1024x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S256x10, .f32⟩
  | .hbm, ⟨7, _⟩ => ⟨S10, .f32⟩
  | .hbm, ⟨8, _⟩ => ⟨S1024x512, .bf16⟩
  | .hbm, ⟨9, _⟩ => ⟨S512x256, .bf16⟩
  | .hbm, ⟨10, _⟩ => ⟨S256x10, .bf16⟩
  | .hbm, ⟨11, _⟩ => ⟨S8192x10, .f32⟩
  | .hbm, ⟨12, _⟩ => ⟨S8192x1, .f32⟩
  | .hbm, ⟨13, _⟩ => ⟨S8192x1, .i32⟩
  | .hbm, ⟨14, _⟩ => ⟨S1x10, .i32⟩
  | .hbm, ⟨15, _⟩ => ⟨S8192x10, .i32⟩
  | .hbm, ⟨16, _⟩ => ⟨S8192x10, .i32⟩
  | .hbm, ⟨17, _⟩ => ⟨S8192x10, .i1⟩
  | .hbm, ⟨18, _⟩ => ⟨S8192x10, .f32⟩
  | .hbm, ⟨19, _⟩ => ⟨S1x8192, .f32⟩
  | .hbm, ⟨20, _⟩ => ⟨S8192x10, .f32⟩
  | .hbm, ⟨21, _⟩ => ⟨S8192x1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S512, .f32⟩
  | .local _ .vmem, ⟨4, _⟩ => ⟨S512x256, .bf16⟩
  | .local _ .vmem, ⟨5, _⟩ => ⟨S256, .f32⟩
  | .local _ .vmem, ⟨6, _⟩ => ⟨S256x10, .bf16⟩
  | .local _ .vmem, ⟨7, _⟩ => ⟨S10, .f32⟩
  | .local _ .vmem, ⟨8, _⟩ => ⟨S1024x10, .f32⟩
  | .local _ .vmem, ⟨9, _⟩ => ⟨S1024x10, .f32⟩
  | .local _ .vmem, ⟨10, _⟩ => ⟨S1024x1, .f32⟩
  | .local _ .vmem, ⟨11, _⟩ => ⟨S1024x1, .f32⟩
  | .local _ .vmem, ⟨12, _⟩ => ⟨S1024x10, .f32⟩
  | .local _ .vmem, ⟨13, _⟩ => ⟨S1024x10, .f32⟩
  | .local _ .vmem, ⟨14, _⟩ => ⟨S1024x10, .f32⟩
  | .local _ .vmem, ⟨15, _⟩ => ⟨S1024x10, .f32⟩
  | .local _ .vmem, ⟨16, _⟩ => ⟨S1024x1, .f32⟩
  | .local _ .vmem, ⟨17, _⟩ => ⟨S1024x1, .f32⟩
  | .local _ .vmem, ⟨18, _⟩ => ⟨S1x1024, .f32⟩
  | .local _ .vmem, ⟨19, _⟩ => ⟨S1x1024, .f32⟩
  | .local _ .vmem, ⟨20, _⟩ => ⟨S1024x10, .f32⟩
  | .local _ .vmem, ⟨21, _⟩ => ⟨S1024x10, .f32⟩
  | .local _ .vmem, ⟨22, _⟩ => ⟨S1024x10, .f32⟩
  | .local _ .vmem, ⟨23, _⟩ => ⟨S1024x10, .f32⟩
  | .local _ .vmem, ⟨24, _⟩ => ⟨S1024x10, .f32⟩
  | .local _ .vmem, ⟨25, _⟩ => ⟨S1024x10, .f32⟩
  | .local _ .vmem, ⟨26, _⟩ => ⟨S1024x1, .f32⟩
  | .local _ .vmem, ⟨27, _⟩ => ⟨S1024x1, .f32⟩
  | .local _ .vmem, ⟨28, _⟩ => ⟨S1024x10, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v4 : Ref sig .tc := ⟨.hbm, 18, rfl⟩
abbrev main_v5 : Ref sig .tc := ⟨.hbm, 19, rfl⟩
abbrev main_v6_0 : Ref sig .tc := ⟨.hbm, 20, rfl⟩
abbrev main_v6_1 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_cst_3 : Ref sig .tc := ⟨.hbm, 31, rfl⟩
abbrev main_v12 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_scratch0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x10 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x10 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v43 : BitVec 1 := Scalar.cmpi .eq arg1 c7_i32
  let v44 : BitVec 32 := Scalar.extui v43
  let c0_i32_19 : BitVec 32 := 0#32
  let v45 : BitVec 1 := Scalar.cmpi .ne v44 c0_i32_19
  v45

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x10 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x10 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x10 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1024x10 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1024x10 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1024x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S256x10_S256x10_0_0 : ∀ a, (![0, 0] : Fin 2 → Nat) a + S256x10.size a ≤ S256x10.size a
  h_S256x10 : 0 < S256x10.numel
  shapeCasts_S256x10_S256x10 : S256x10.ShapeCasts S256x10
  inb_S10_S10_0 : ∀ a, (![0] : Fin 1 → Nat) a + S10.size a ≤ S10.size a
  h_S10 : 0 < S10.numel
  shapeCasts_S10_S1x10 : S10.ShapeCasts S1x10
  broadcasts_S1x10_S1024x10 : S1x10.Broadcasts S1024x10
  inb_S1024x10_S1024x10_0_0 : ∀ a, (![0, 0] : Fin 2 → Nat) a + S1024x10.size a ≤ S1024x10.size a
  h_S1024x10 : 0 < S1024x10.numel
  reduces_S1024x10_S1024 : S1024x10.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  bcast_S8192_S8192x1_0 : S8192.BroadcastsInDim S8192x1 (![0] : Fin 1 → Fin S8192x1.rank)
  bcast_S8192x1_S8192x10_0_1 : S8192x1.BroadcastsInDim S8192x10 (![0, 1] : Fin 2 → Fin S8192x10.rank)
  bcast_S1x10_S8192x10_0_1 : S1x10.BroadcastsInDim S8192x10 (![0, 1] : Fin 2 → Fin S8192x10.rank)
  shapeCasts_S8192x1_S1x8192 : S8192x1.ShapeCasts S1x8192
  shapeCasts_S1024x10_S1024x10 : S1024x10.ShapeCasts S1024x10
  transposes_S1024x10_p1_0_S10x1024 : S1024x10.Transposes [1, 0] S10x1024
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  iota_S1024x1_d0_w32 : S1024x1.Iotas .tc 32 [0]
  iota_S1x1024_d1_w32 : S1x1024.Iotas .tc 32 [1]
  broadcasts_S1024x1_S1024x10 : S1024x1.Broadcasts S1024x10
  reducesTo_S8192x1_S_d0_1 : S8192x1.ReducesTo [0, 1] S_
  h_S_ : 0 < S_.numel
  dot_S1024x1024_S1024x512_S1024x512_1_0_0_1_n_n_wf : DotDims.WF S1024x1024 S1024x512 S1024x512 [1] [0] [0] [1] [] []
  dot_S1024x512_S512x256_S1024x256_1_0_0_1_n_n_wf : DotDims.WF S1024x512 S512x256 S1024x256 [1] [0] [0] [1] [] []
  dot_S1024x256_S256x10_S1024x10_1_0_0_1_n_n_wf : DotDims.WF S1024x256 S256x10 S1024x10 [1] [0] [0] [1] [] []
  dot_S1024x10_S10x1024_S1024x1024_1_0_0_1_n_n_wf : DotDims.WF S1024x10 S10x1024 S1024x1024 [1] [0] [0] [1] [] []
  dot_S1024x1024_S1024x10_S1024x10_1_0_0_1_n_n_wf : DotDims.WF S1024x1024 S1024x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x10.size a ≤ S256x10.size a
  hwx0_5 : ∀ i : grid0.Coords, EltTy.bits .bf16 = 32 ∨ (Rect.block (s := S256x10) S256x10.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S10.size a ≤ S10.size a
  hwx0_6 : ∀ i : grid0.Coords, EltTy.bits .f32 = 32 ∨ (Rect.block (s := S10) S10.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x10.size a ≤ S8192x10.size a
  hwx0_7 : ∀ i : grid0.Coords, EltTy.bits .f32 = 32 ∨ (Rect.block (s := S8192x10) S1024x10.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1.size a ≤ S8192x1.size a
  hwx0_8 : ∀ i : grid0.Coords, EltTy.bits .f32 = 32 ∨ (Rect.block (s := S8192x1) S1024x1.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x10.size a ≤ S8192x10.size a
  hwx1_0 : ∀ i : grid1.Coords, EltTy.bits .f32 = 32 ∨ (Rect.block (s := S8192x10) S1024x10.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x10.size a ≤ S8192x10.size a
  hwx1_1 : ∀ i : grid1.Coords, EltTy.bits .f32 = 32 ∨ (Rect.block (s := S8192x10) S1024x10.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .f32 = 32 ∨ (Rect.block (s := S1x8192) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x10.size a ≤ S8192x10.size a
  hwx1_4 : ∀ i : grid1.Coords, EltTy.bits .f32 = 32 ∨ (Rect.block (s := S8192x10) S1024x10.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x10.size a ≤ S8192x10.size a
  hwx1_5 : ∀ i : grid1.Coords, EltTy.bits .f32 = 32 ∨ (Rect.block (s := S8192x10) S1024x10.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x10.size a ≤ S8192x10.size a
  hwx1_6 : ∀ i : grid1.Coords, EltTy.bits .f32 = 32 ∨ (Rect.block (s := S8192x10) S1024x10.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x1.size a ≤ S8192x1.size a
  hwx1_7 : ∀ i : grid1.Coords, EltTy.bits .f32 = 32 ∨ (Rect.block (s := S8192x1) S1024x1.size (cc1_transform_7 i) (hinb1_7 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x10_S1024x10_1_0_0_1_n_n : DotDims S1024x256 S256x10 S1024x10 where
  lhsContracting := [1]
  rhsContracting := [0]
  lhsNonContracting := [0]
  rhsNonContracting := [1]
  lhsBatch := []
  rhsBatch := []
  wf := dot_S1024x256_S256x10_S1024x10_1_0_0_1_n_n_wf
def dot_S1024x10_S10x1024_S1024x1024_1_0_0_1_n_n : DotDims S1024x10 S10x1024 S1024x1024 where
  lhsContracting := [1]
  rhsContracting := [0]
  lhsNonContracting := [0]
  rhsNonContracting := [1]
  lhsBatch := []
  rhsBatch := []
  wf := dot_S1024x10_S10x1024_S1024x1024_1_0_0_1_n_n_wf
def dot_S1024x1024_S1024x10_S1024x10_1_0_0_1_n_n : DotDims S1024x1024 S1024x10 S1024x10 where
  lhsContracting := [1]
  rhsContracting := [0]
  lhsNonContracting := [0]
  rhsNonContracting := [1]
  lhsBatch := []
  rhsBatch := []
  wf := dot_S1024x1024_S1024x10_S1024x10_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3_0) S1024x10.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_1) S1024x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v3_0) S1024x10.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_0) S1024x10.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_1) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1024x10.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1024x10.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v6_0) S1024x10.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v6_1) S1024x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun i => !(k1_cond2 i == 1#1) | 7 => fun i => !(k1_cond2 i == 1#1) | ⟨_ + 8, h⟩ => absurd h (Nat.not_lt.2 (Nat.le_add_left _ _))

class Facts : Prop extends Facts₀ where

variable [Facts]
-- ==== ReferenceIdeal.lean ====
abbrev S8192x1024 : Shape := ⟨2, ![8192, 1024]⟩
abbrev S8192 : Shape := ⟨1, ![8192]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x10 : Shape := ⟨2, ![256, 10]⟩
abbrev S10 : Shape := ⟨1, ![10]⟩
abbrev S8192x512 : Shape := ⟨2, ![8192, 512]⟩
abbrev S1x512 : Shape := ⟨2, ![1, 512]⟩
abbrev S_ : Shape := ⟨0, ![]⟩
abbrev S8192x256 : Shape := ⟨2, ![8192, 256]⟩
abbrev S1x256 : Shape := ⟨2, ![1, 256]⟩
abbrev S8192x10 : Shape := ⟨2, ![8192, 10]⟩
abbrev S1x10 : Shape := ⟨2, ![1, 10]⟩
abbrev S8192x1 : Shape := ⟨2, ![8192, 1]⟩
abbrev S1x8192 : Shape := ⟨2, ![1, 8192]⟩
abbrev S8192x8192 : Shape := ⟨2, ![8192, 8192]⟩
abbrev S10x8192 : Shape := ⟨2, ![10, 8192]⟩
abbrev S8192x2 : Shape := ⟨2, ![8192, 2]⟩

abbrev nBuf : Space → Nat
  | .hbm => 100
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S1024x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S256x10, .f32⟩
  | .hbm, ⟨7, _⟩ => ⟨S10, .f32⟩
  | .hbm, ⟨8, _⟩ => ⟨S8192x512, .f32⟩
  | .hbm, ⟨9, _⟩ => ⟨S1x512, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S8192x256, .f32⟩
  | .hbm, ⟨16, _⟩ => ⟨S1x256, .f32⟩
  | .hbm, ⟨17, _⟩ => ⟨S8192x256, .f32⟩
  | .hbm, ⟨18, _⟩ => ⟨S8192x256, .f32⟩
  | .hbm, ⟨19, _⟩ => ⟨S8192x10, .f32⟩
  | .hbm, ⟨20, _⟩ => ⟨S1x10, .f32⟩
  | .hbm, ⟨21, _⟩ => ⟨S8192x10, .f32⟩
  | .hbm, ⟨22, _⟩ => ⟨S8192x10, .f32⟩
  | .hbm, ⟨23, _⟩ => ⟨S8192x10, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S1x8192, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S10x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S8192x8192, .i32⟩
  | .hbm, ⟨42, _⟩ => ⟨S8192x8192, .i32⟩
  | .hbm, ⟨43, _⟩ => ⟨S_, .i32⟩
  | .hbm, ⟨44, _⟩ => ⟨S8192x8192, .i32⟩
  | .hbm, ⟨45, _⟩ => ⟨S8192x8192, .i32⟩
  | .hbm, ⟨46, _⟩ => ⟨S8192x8192, .i1⟩
  | .hbm, ⟨47, _⟩ => ⟨S8192x8192, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S8192x8192, .f32⟩
  | .hbm, ⟨52, _⟩ => ⟨S8192x1, .i32⟩
  | .hbm, ⟨53, _⟩ => ⟨S1x10, .i32⟩
  | .hbm, ⟨54, _⟩ => ⟨S8192x10, .i32⟩
  | .hbm, ⟨55, _⟩ => ⟨S8192x10, .i32⟩
  | .hbm, ⟨56, _⟩ => ⟨S8192x10, .i1⟩
  | .hbm, ⟨57, _⟩ => ⟨S8192x10, .f32⟩
  | .hbm, ⟨58, _⟩ => ⟨S8192x10, .f32⟩
  | .hbm, ⟨59, _⟩ => ⟨S_, .f32⟩
  | .hbm, ⟨60, _⟩ => ⟨S8192x10, .f32⟩
  | .hbm, ⟨61, _⟩ => ⟨S8192x10, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x10, .f32⟩
  | .hbm, ⟨66, _⟩ => ⟨S8192x10, .f32⟩
  | .hbm, ⟨67, _⟩ => ⟨S8192x10, .f32⟩
  | .hbm, ⟨68, _⟩ => ⟨S8192, .i32⟩
  | .hbm, ⟨69, _⟩ => ⟨S_, .i32⟩
  | .hbm, ⟨70, _⟩ => ⟨S8192, .i32⟩
  | .hbm, ⟨71, _⟩ => ⟨S8192, .i1⟩
  | .hbm, ⟨72, _⟩ => ⟨S_, .i32⟩
  | .hbm, ⟨73, _⟩ => ⟨S8192, .i32⟩
  | .hbm, ⟨74, _⟩ => ⟨S8192, .i32⟩
  | .hbm, ⟨75, _⟩ => ⟨S8192, .i32⟩
  | .hbm, ⟨76, _⟩ => ⟨S_, .i32⟩
  | .hbm, ⟨77, _⟩ => ⟨S8192, .i32⟩
  | .hbm, ⟨78, _⟩ => ⟨S8192, .i1⟩
  | .hbm, ⟨79, _⟩ => ⟨S_, .i32⟩
  | .hbm, ⟨80, _⟩ => ⟨S8192, .i32⟩
  | .hbm, ⟨81, _⟩ => ⟨S8192, .i32⟩
  | .hbm, ⟨82, _⟩ => ⟨S8192, .i32⟩
  | .hbm, ⟨83, _⟩ => ⟨S8192x1, .i32⟩
  | .hbm, ⟨84, _⟩ => ⟨S8192x1, .i32⟩
  | .hbm, ⟨85, _⟩ => ⟨S8192x2, .i32⟩
  | .hbm, ⟨86, _⟩ => ⟨S8192, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S8192x10, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_2 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v37 : Ref sig .tc := ⟨.hbm, 57, rfl⟩
abbrev main_v38 : Ref sig .tc := ⟨.hbm, 58, rfl⟩
abbrev main_cst_3 : Ref sig .tc := ⟨.hbm, 59, rfl⟩
abbrev main_v39 : Ref sig .tc := ⟨.hbm, 60, rfl⟩
abbrev main_v40 : Ref sig .tc := ⟨.hbm, 61, rfl⟩
abbrev main_cst_4 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_5 : Ref sig .tc := ⟨.hbm, 69, rfl⟩
abbrev main_v47 : Ref sig .tc := ⟨.hbm, 70, rfl⟩
abbrev main_v48 : Ref sig .tc := ⟨.hbm, 71, rfl⟩
abbrev main_c_6 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_7 : Ref sig .tc := ⟨.hbm, 76, rfl⟩
abbrev main_v52 : Ref sig .tc := ⟨.hbm, 77, rfl⟩
abbrev main_v53 : Ref sig .tc := ⟨.hbm, 78, rfl⟩
abbrev main_c_8 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_9 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_10 : Ref sig .tc := ⟨.hbm, 91, rfl⟩
abbrev main_v64 : Ref sig .tc := ⟨.hbm, 92, rfl⟩
abbrev main_cst_11 : Ref sig .tc := ⟨.hbm, 93, rfl⟩
abbrev main_v65 : Ref sig .tc := ⟨.hbm, 94, rfl⟩
abbrev main_cst_12 : Ref sig .tc := ⟨.hbm, 95, rfl⟩
abbrev main_v66 : Ref sig .tc := ⟨.hbm, 96, rfl⟩
abbrev main_v67 : Ref sig .tc := ⟨.hbm, 97, rfl⟩
abbrev main_cst_13 : Ref sig .tc := ⟨.hbm, 98, rfl⟩
abbrev main_v68 : Ref sig .tc := ⟨.hbm, 99, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S10_S1x10_1 : S10.BroadcastsInDim S1x10 (![1] : Fin 1 → Fin S1x10.rank)
  bcast_S1x10_S8192x10_0_1 : S1x10.BroadcastsInDim S8192x10 (![0, 1] : Fin 2 → Fin S8192x10.rank)
  reducesTo_S8192x10_S8192_d1 : S8192x10.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x10_S10x8192_1_0 : S8192x10.Transposes [1, 0] S10x8192
  bcast_S_S8192x8192 : S_.BroadcastsInDim S8192x8192 (![] : Fin 0 → Fin S8192x8192.rank)
  bcast_S8192x1_S8192x10_0_1 : S8192x1.BroadcastsInDim S8192x10 (![0, 1] : Fin 2 → Fin S8192x10.rank)
  bcast_S_S8192x10 : S_.BroadcastsInDim S8192x10 (![] : Fin 0 → Fin S8192x10.rank)
  bcast_S_S8192 : S_.BroadcastsInDim S8192 (![] : Fin 0 → Fin S8192.rank)
  concatenates_S8192x1_S8192x1_S8192x2_d1 : Shape.Concatenates [S8192x1, S8192x1] S8192x2 1
  reducesTo_S8192_S_d0 : S8192.ReducesTo [0] S_
  reducesTo_S8192x10_S_d0_1 : S8192x10.ReducesTo [0, 1] S_
  dot_S8192x1024_S1024x512_S8192x512_1_0_0_1_n_n_wf : DotDims.WF S8192x1024 S1024x512 S8192x512 [1] [0] [0] [1] [] []
  dot_S8192x512_S512x256_S8192x256_1_0_0_1_n_n_wf : DotDims.WF S8192x512 S512x256 S8192x256 [1] [0] [0] [1] [] []
  dot_S8192x256_S256x10_S8192x10_1_0_0_1_n_n_wf : DotDims.WF S8192x256 S256x10 S8192x10 [1] [0] [0] [1] [] []
  dot_S8192x10_S10x8192_S8192x8192_1_0_0_1_n_n_wf : DotDims.WF S8192x10 S10x8192 S8192x8192 [1] [0] [0] [1] [] []
  dot_S8192x8192_S8192x10_S8192x10_1_0_0_1_n_n_wf : DotDims.WF S8192x8192 S8192x10 S8192x10 [1] [0] [0] [1] [] []
  gather_S8192x10_S8192x2_S8192_n_01_n_n_01_1_11_wf : GatherDims.WF S8192x10 S8192x2 S8192 [] [0, 1] [] [0, 1] [] 1 ![1, 1]

variable [Facts₀]

def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x10_S8192x10_1_0_0_1_n_n : DotDims S8192x256 S256x10 S8192x10 where
  lhsContracting := [1]
  rhsContracting := [0]
  lhsNonContracting := [0]
  rhsNonContracting := [1]
  lhsBatch := []
  rhsBatch := []
  wf := dot_S8192x256_S256x10_S8192x10_1_0_0_1_n_n_wf
def dot_S8192x10_S10x8192_S8192x8192_1_0_0_1_n_n : DotDims S8192x10 S10x8192 S8192x8192 where
  lhsContracting := [1]
  rhsContracting := [0]
  lhsNonContracting := [0]
  rhsNonContracting := [1]
  lhsBatch := []
  rhsBatch := []
  wf := dot_S8192x10_S10x8192_S8192x8192_1_0_0_1_n_n_wf
def dot_S8192x8192_S8192x10_S8192x10_1_0_0_1_n_n : DotDims S8192x8192 S8192x10 S8192x10 where
  lhsContracting := [1]
  rhsContracting := [0]
  lhsNonContracting := [0]
  rhsNonContracting := [1]
  lhsBatch := []
  rhsBatch := []
  wf := dot_S8192x8192_S8192x10_S8192x10_1_0_0_1_n_n_wf
def gather_S8192x10_S8192x2_S8192_n_01_n_n_01_1_11 : GatherDims S8192x10 S8192x2 S8192 where
  offsetDims := []
  collapsedSliceDims := [0, 1]
  operandBatchingDims := []
  startIndicesBatchingDims := []
  startIndexMap := [0, 1]
  indexVectorDim := 1
  sliceSizes := ![1, 1]
  wf := gather_S8192x10_S8192x2_S8192_n_01_n_n_01_1_11_wf

class Facts : Prop extends Facts₀ where

variable [Facts]
-- ==== Proof.Kernel.RunCond.lean ====
/-
  The program's run from one segment record per kernel region, with its final memory read at EVERY
  unscoped buffer: given, per region, a record entered from the buffers' contents before it and left
  at the contents after it, every weakly fair execution of @main from memory `m` terminates and
  every unscoped buffer ends at the last valuation `V6` — the launch contents carried through each
  host stretch and, at the two regions, through what the regions leave (`outs`). The frame claim
  reads this at the arguments, the value claim at the three results.
-/
import proofs.«423389_j72705206387155_1_alg».proof.Proof.Gen.Kernel.Regions

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- the launch theorem's implicit arguments are found by unifying its conclusion with this one, which takes unfolding
-- plain definitions in a metavariable's type
set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V4 m outs c) ∗ E 1 c) ⊢ R1.pre c)
    (hpost1 : ∀ c : Dev nD, R1.post c ⊢ iprop(StableHlo.held (c : Thread nD τ) (Pipeline.ucRefs τ sig) (V5 m outs c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = V6 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V6 m outs c))
    (hch := fun c => ⟨.rfl, hpre0 c, hpost0 c, .rfl, hpre1 c, hpost1 c, sep_mono .rfl (hE2 c)⟩)
    (hinit := ?_) (QY := fun c s => ∀ b ∈ Pipeline.ucRefs τ sig, s.mem (((c : Thread nD τ)).1, b) = V6 m outs c b)
    (hfin := fun c s' => ?_) (hQ := fun _ h => h)
  · -- the launch: the unscoped buffers are held at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V6 m outs c) s') $$ [Hh HSI]
    · isplitl [Hh] <;> iassumption
    icases Hr with ⟨%h, HSI⟩
    imodintro
    isplitr
    · ipureintro
      exact h
    · iexact HSI

end Cert.Kernel.Hand

end
-- ==== Proof.Kernel.MlpRegion.lean ====
import proofs.«423389_j72705206387155_1_alg».proof.Proof.Gen.Kernel.Launch
import proofs.«423389_j72705206387155_1_alg».proof.Proof.Gen.Kernel.Skeleton
import proofs.«423389_j72705206387155_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # The first pallas_call (the three-layer perceptron), at the buffer contents its region is entered with

The call walks a grid of 8 points. At point `t` it is handed rows `1024·t … 1024·t + 1023` of the
sample matrix, and the whole of the three weight matrices and three bias vectors; it leaves, for those
rows, the 10 output activations and the sum of their squares. This module states, at ANY contents `V`
of the core's buffers on entry, what every window's staging buffer holds before and after the body at
every point, and proves the body's separation-logic triple at a generic point. -/

-- deciding that one whole-block store tiles a 1024-row buffer recurses once per row
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the contents of the core's buffers when the region is entered: everything below is a function of it
variable (V : (c : Dev nD) → (b : Ref sig .tc) → Buf (Elt F) ((c : Thread nD τ).loc b))

/-! ## Blocks -/

/-- The block of window `w` at point `t`: the part of the window's array, as the region finds it, that the
    window's index map selects there. For the sample window that is a band of 1024 rows; for a weight or a
    bias it is the whole array at every point. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block at every point, whether the pipeline
    fetched it there or not (an unfetched window's block index has not moved since the point before, and the
    body left the block in place): for any proof data whose array is `V`'s and whose body keeps the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds the window's block at every point, whether the pipeline
    fetched it there or not (an unfetched window's block index has not moved since the point before, and the
    body left the block in place): for any proof data whose array is `V`'s and whose body keeps the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds the window's block at every point, whether the pipeline
    fetched it there or not (an unfetched window's block index has not moved since the point before, and the
    body left the block in place): for any proof data whose array is `V`'s and whose body keeps the block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds the window's block at every point, whether the pipeline
    fetched it there or not (an unfetched window's block index has not moved since the point before, and the
    body left the block in place): for any proof data whose array is `V`'s and whose body keeps the block. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds the window's block at every point, whether the pipeline
    fetched it there or not (an unfetched window's block index has not moved since the point before, and the
    body left the block in place): for any proof data whose array is `V`'s and whose body keeps the block. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds the window's block at every point, whether the pipeline
    fetched it there or not (an unfetched window's block index has not moved since the point before, and the
    body left the block in place): for any proof data whose array is `V`'s and whose body keeps the block. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds the window's block at every point, whether the pipeline
    fetched it there or not (an unfetched window's block index has not moved since the point before, and the
    body left the block in place): for any proof data whose array is `V`'s and whose body keeps the block. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body loads and stores through: each is a whole staging buffer, at offset zero -/

abbrev rX : Rect S1024x1024 := Rect.unit (s := S1024x1024) ![0, 0] S1024x1024.size inb_S1024x1024_S1024x1024_0_0
abbrev rW1 : Rect S1024x512 := Rect.unit (s := S1024x512) ![0, 0] S1024x512.size inb_S1024x512_S1024x512_0_0
abbrev rb1 : Rect S512 := Rect.unit (s := S512) ![0] S512.size inb_S512_S512_0
abbrev rW2 : Rect S512x256 := Rect.unit (s := S512x256) ![0, 0] S512x256.size inb_S512x256_S512x256_0_0
abbrev rb2 : Rect S256 := Rect.unit (s := S256) ![0] S256.size inb_S256_S256_0
abbrev rW3 : Rect S256x10 := Rect.unit (s := S256x10) ![0, 0] S256x10.size inb_S256x10_S256x10_0_0
abbrev rb3 : Rect S10 := Rect.unit (s := S10) ![0] S10.size inb_S10_S10_0
abbrev rZ : Rect S1024x10 := Rect.unit (s := S1024x10) ![0, 0] S1024x10.size inb_S1024x10_S1024x10_0_0
abbrev rN : Rect S1024x1 := Rect.unit (s := S1024x1) ![0, 0] S1024x1.size inb_S1024x1_S1024x1_0_0

/-! ## What the body leaves in the two output buffers -/

/-- The activations' buffer after the body, as a function of the seven input buffers' contents: the one store,
    through the whole buffer, of the three-layer network's output on what the loads read. -/
def out0_7 (x0 : Vec F S1024x1024 .f32) (x1 : Vec F S1024x512 .bf16) (x2 : Vec F S512 .f32) (x3 : Vec F S512x256 .bf16) (x4 : Vec F S256 .f32) (x5 : Vec F S256x10 .bf16) (x6 : Vec F S10 .f32) : Vec F S1024x10 .f32 :=
  View.canon [⟨rZ, k0_pay1 (View.ld x0 rX) (View.ld x1 rW1) (View.ld x2 rb1) (View.ld x3 rW2) (View.ld x4 rb2) (View.ld x5 rW3) (View.ld x6 rb3)⟩]

/-- The squared-norm buffer after the body: the one store, through the whole buffer, of the row sums of the squared
    activations. -/
def out0_8 (x0 : Vec F S1024x1024 .f32) (x1 : Vec F S1024x512 .bf16) (x2 : Vec F S512 .f32) (x3 : Vec F S512x256 .bf16) (x4 : Vec F S256 .f32) (x5 : Vec F S256x10 .bf16) (x6 : Vec F S10 .f32) : Vec F S1024x1 .f32 :=
  View.canon [⟨rN, k0_pay2 (View.ld x0 rX) (View.ld x1 rW1) (View.ld x2 rb1) (View.ld x3 rW2) (View.ld x4 rb2) (View.ld x5 rW3) (View.ld x6 rb3)⟩]

/-- One store through the whole buffer covers it. -/
theorem cover0_7 (p0 : Vec F S1024x10 .f32) (y : S1024x10.Idx) :
    ∃ pc ∈ ([⟨rZ, p0⟩] : List (View.Piece (Elt F) S1024x10 .f32)), y ∈ pc.1.set :=
  View.cover_of_tiled [⟨rZ, p0⟩] S1024x10.size (by rfl) y

theorem cover0_8 (p0 : Vec F S1024x1 .f32) (y : S1024x1.Idx) :
    ∃ pc ∈ ([⟨rN, p0⟩] : List (View.Piece (Elt F) S1024x1 .f32)), y ∈ pc.1.set :=
  View.cover_of_tiled [⟨rN, p0⟩] S1024x1.size (by rfl) y

/-- The offsets of every rectangle above are zero, on two axes and on one. -/
theorem zero_off2 : (![0, 0] : Fin 2 → Nat) = fun _ => 0 := funext fun a => by fin_cases a <;> rfl
theorem zero_off1 : (![0] : Fin 1 → Nat) = fun _ => 0 := funext fun a => by fin_cases a; rfl

/-- A load through a whole buffer reads the buffer and a single store through a whole buffer leaves its payload:
    the activations' buffer after the body is the network's output on the input buffers' contents, -/
theorem out0_7_eq (x0 : Vec F S1024x1024 .f32) (x1 : Vec F S1024x512 .bf16) (x2 : Vec F S512 .f32) (x3 : Vec F S512x256 .bf16) (x4 : Vec F S256 .f32) (x5 : Vec F S256x10 .bf16) (x6 : Vec F S10 .f32) :
    out0_7 x0 x1 x2 x3 x4 x5 x6 = k0_pay1 x0 x1 x2 x3 x4 x5 x6 := by
  unfold out0_7
  rw [View.canon_unit_zero zero_off2]
  simp only [View.ld_unit_zero (S := S1024x1024) zero_off2, View.ld_unit_zero (S := S1024x512) zero_off2,
    View.ld_unit_zero (S := S512) zero_off1, View.ld_unit_zero (S := S512x256) zero_off2,
    View.ld_unit_zero (S := S256) zero_off1, View.ld_unit_zero (S := S256x10) zero_off2,
    View.ld_unit_zero (S := S10) zero_off1]

/-- and the squared-norm buffer its row sums of squares. -/
theorem out0_8_eq (x0 : Vec F S1024x1024 .f32) (x1 : Vec F S1024x512 .bf16) (x2 : Vec F S512 .f32) (x3 : Vec F S512x256 .bf16) (x4 : Vec F S256 .f32) (x5 : Vec F S256x10 .bf16) (x6 : Vec F S10 .f32) :
    out0_8 x0 x1 x2 x3 x4 x5 x6 = k0_pay2 x0 x1 x2 x3 x4 x5 x6 := by
  unfold out0_8
  rw [View.canon_unit_zero zero_off2]
  simp only [View.ld_unit_zero (S := S1024x1024) zero_off2, View.ld_unit_zero (S := S1024x512) zero_off2,
    View.ld_unit_zero (S := S512) zero_off1, View.ld_unit_zero (S := S512x256) zero_off2,
    View.ld_unit_zero (S := S256) zero_off1, View.ld_unit_zero (S := S256x10) zero_off2,
    View.ld_unit_zero (S := S10) zero_off1]

/-! ## The body's triple -/

set_option maxHeartbeats 1000000 in
/-- The body, called at any grid point on nine whole staging buffers — the seven inputs' reading `x0 … x6`, the two
    outputs' holding anything — runs to any continuation that accepts the inputs' as they were, the activations'
    buffer at `out0_7` of them and the squared-norm buffer at `out0_8` of them. The body loads every input buffer
    whole, loads each output buffer once without using what it read, and stores each output buffer whole. -/
theorem sound_kernel0 (c : Dev nD) (E : Set ℕ) (i : grid0.Coords) (arg1 : Memref sig .tc .vmem S1024x1024 .f32) (harg1 : arg1.IsWhole) (arg2 : Memref sig .tc .vmem S1024x512 .bf16) (harg2 : arg2.IsWhole) (arg3 : Memref sig .tc .vmem S512 .f32) (harg3 : arg3.IsWhole) (arg4 : Memref sig .tc .vmem S512x256 .bf16) (harg4 : arg4.IsWhole) (arg5 : Memref sig .tc .vmem S256 .f32) (harg5 : arg5.IsWhole) (arg6 : Memref sig .tc .vmem S256x10 .bf16) (harg6 : arg6.IsWhole) (arg7 : Memref sig .tc .vmem S10 .f32) (harg7 : arg7.IsWhole) (arg8 : Memref sig .tc .vmem S1024x10 .f32) (harg8 : arg8.IsWhole) (arg9 : Memref sig .tc .vmem S1024x1 .f32) (harg9 : arg9.IsWhole)
    (x0 : Vec F S1024x1024 .f32) (x1 : Vec F S1024x512 .bf16) (x2 : Vec F S512 .f32) (x3 : Vec F S512x256 .bf16) (x4 : Vec F S256 .f32) (x5 : Vec F S256x10 .bf16) (x6 : Vec F S10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 x1 x2 x3 x4 x5 x6) ∗ owns (c : Thread nD τ) arg9 fullShare (out0_8 x0 x1 x2 x3 x4 x5 x6)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  iexists _; isplitr
  swap; · iexact H8
  ipureintro
  exact View.read_writes_eq_canon _ _ _ (cover0_8 _)

/-! ## The proof data of the pipeline -/

/-- The pipeline's proof data on core `c`: every windowed array as the region finds it; after the body at point
    `t` each input's staging buffer still at its block, the activations' at `out0_7` and the squared norms' at
    `out0_8` of the seven input blocks at `t`; the invariant that of a body which touches nothing but its
    windows' buffers; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the contents on entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]

/-- What the body finds in each input's current staging buffer: the window's block at the point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation at a generic point -/

/-- What the body is called with at point `t`: the invariant, the core's debts, and each window's current staging
    buffer at what it then holds; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

set_option maxHeartbeats 1000000 in
/-- The body at any point: the inputs' buffers hold their blocks, so the body's triple applies at those blocks;
    the invariant and the core's debts pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the pipeline's loop rule, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.Kernel.DistRuns.lean ====
/-
  The second kernel's body on whole staging memrefs, case by case.

  The body runs at a point `(i, j)` of an 8 × 8 grid. Its first conditional holds when `j = 0`: it
  then clears the accumulator held in the scratch buffer. It always adds this tile's contribution
  to the accumulator. Its last conditional holds when `j = 7`: it then turns the finished
  accumulator into the two results and stores them. On this grid the two conditions exclude one
  another, so a point is in one of three cases: first column (A), an inner column (B), last
  column (C). For each case: which pieces the body's stores leave in the scratch buffer and in the
  two output buffers, with the proof that the body, given the five input blocks (and in case C the
  row block of the class indicator), runs to a state holding the inputs as they were and those
  pieces written.
-/
import proofs.«423389_j72705206387155_1_alg».proof.Proof.Gen.Kernel.Launch
import proofs.«423389_j72705206387155_1_alg».proof.Proof.Gen.Kernel.Skeleton
import proofs.«423389_j72705206387155_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, decided over the grid -/

/-- The first conditional: the column coordinate is `0`. -/
abbrev cond1_0 (i : grid1.Coords) : Prop := (Scalar.cmpi .ne (Scalar.extui (Scalar.cmpi .eq (BitVec.ofNat 32 (i 1).val) 0#32)) 0#32) = 1#1
/-- It holds exactly in the first column. -/
theorem hcond1_0 : ∀ t : Fin cfg1.N, cond1_0 (grid1.coords t) ↔ t.val % 8 = 0 :=
  (by decide +kernel : ∀ t : Fin grid1.N, cond1_0 (grid1.coords t) ↔ t.val % 8 = 0)
/-- The last conditional: the column coordinate is `7`. -/
abbrev cond1_1 (i : grid1.Coords) : Prop := k1_cond2 i = 1#1
/-- It holds exactly in the last column. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Case A: the first column — clear the accumulator, then add the tile -/

set_option maxHeartbeats 1000000 in
noncomputable def kernelRun1_A (c : Dev nD) (i : grid1.Coords) (arg2 : Memref sig .tc .vmem S1024x10 .f32) (harg2 : arg2.IsWhole) (arg3 : Memref sig .tc .vmem S1024x10 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x10 .f32) (harg6 : arg6.IsWhole) (arg7 : Memref sig .tc .vmem S1024x10 .f32) (harg7 : arg7.IsWhole) (arg8 : Memref sig .tc .vmem S1024x10 .f32) (harg8 : arg8.IsWhole) (arg9 : Memref sig .tc .vmem S1024x1 .f32) (harg9 : arg9.IsWhole) (arg10 : Memref sig .tc .vmem S1024x10 .f32) (harg10 : arg10.IsWhole) (hc0 : cond1_0 i) (hc1 : ¬cond1_1 i)
    (x0 x1 : Vec F S1024x10 .f32) (x2 : Vec F S1024x1 .f32) (x3 : Vec F S1x1024 .f32) (x4 : Vec F S1024x10 .f32) :
    { Ls : List (View.Piece (Elt F) S1024x10 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ (∃ d, owns (c : Thread nD τ) arg10 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                ∗ (∃ f, arg10.view.loc (c : Thread nD τ) ↦[arg10.view.set]{fullShare} arg10.view.writes (Elt F) f Ls)) -∗ K ⟨⟩))
          ⊢ wp frame (wpE (defs₀ (F := F)) Variants.none c none) E (cc1__dist_kernel i arg2 harg2 arg3 harg3 arg4 harg4 arg5 harg5 arg6 harg6 arg7 harg7 arg8 harg8 arg9 harg9 arg10 harg10) K } := by
  refine ⟨?_, fun E K => ?run⟩
  case run =>
    simp only [cc1__dist_kernel_eq_skeleton]; unfold cc1__dist_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, Hs⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact Hs

/-! ## Case B: an inner column — add the tile -/

set_option maxHeartbeats 1000000 in
noncomputable def kernelRun1_B (c : Dev nD) (i : grid1.Coords) (arg2 : Memref sig .tc .vmem S1024x10 .f32) (harg2 : arg2.IsWhole) (arg3 : Memref sig .tc .vmem S1024x10 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x10 .f32) (harg6 : arg6.IsWhole) (arg7 : Memref sig .tc .vmem S1024x10 .f32) (harg7 : arg7.IsWhole) (arg8 : Memref sig .tc .vmem S1024x10 .f32) (harg8 : arg8.IsWhole) (arg9 : Memref sig .tc .vmem S1024x1 .f32) (harg9 : arg9.IsWhole) (arg10 : Memref sig .tc .vmem S1024x10 .f32) (harg10 : arg10.IsWhole) (hc0 : ¬cond1_0 i) (hc1 : ¬cond1_1 i)
    (x0 x1 : Vec F S1024x10 .f32) (x2 : Vec F S1024x1 .f32) (x3 : Vec F S1x1024 .f32) (x4 : Vec F S1024x10 .f32) (xs : Vec F S1024x10 .f32) :
    { Ls : List (View.Piece (Elt F) S1024x10 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg10 fullShare xs
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                ∗ (∃ f, arg10.view.loc (c : Thread nD τ) ↦[arg10.view.set]{fullShare} arg10.view.writes (Elt F) f Ls)) -∗ K ⟨⟩))
          ⊢ wp frame (wpE (defs₀ (F := F)) Variants.none c none) E (cc1__dist_kernel i arg2 harg2 arg3 harg3 arg4 harg4 arg5 harg5 arg6 harg6 arg7 harg7 arg8 harg8 arg9 harg9 arg10 harg10) K } := by
  refine ⟨?_, fun E K => ?run⟩
  case run =>
    simp only [cc1__dist_kernel_eq_skeleton]; unfold cc1__dist_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, Hs⟩, Hk⟩
    obtain rfl := harg2.eq_unread hf0; obtain rfl := harg3.eq_unread hf1; obtain rfl := harg4.eq_unread hf2
    obtain rfl := harg5.eq_unread hf3; obtain rfl := harg6.eq_unread hf4; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact Hs

/-! ## Case C: the last column — add the tile, then store the two results -/

set_option maxHeartbeats 1000000 in
noncomputable def kernelRun1_C (c : Dev nD) (i : grid1.Coords) (arg2 : Memref sig .tc .vmem S1024x10 .f32) (harg2 : arg2.IsWhole) (arg3 : Memref sig .tc .vmem S1024x10 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x10 .f32) (harg6 : arg6.IsWhole) (arg7 : Memref sig .tc .vmem S1024x10 .f32) (harg7 : arg7.IsWhole) (arg8 : Memref sig .tc .vmem S1024x10 .f32) (harg8 : arg8.IsWhole) (arg9 : Memref sig .tc .vmem S1024x1 .f32) (harg9 : arg9.IsWhole) (arg10 : Memref sig .tc .vmem S1024x10 .f32) (harg10 : arg10.IsWhole) (hc0 : ¬cond1_0 i) (hc1 : cond1_1 i)
    (x0 x1 : Vec F S1024x10 .f32) (x2 : Vec F S1024x1 .f32) (x3 : Vec F S1x1024 .f32) (x4 : Vec F S1024x10 .f32) (x5 : Vec F S1024x10 .f32) (xs : Vec F S1024x10 .f32) :
    { L : List (View.Piece (Elt F) S1024x10 .f32) × List (View.Piece (Elt F) S1024x10 .f32) × List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5 ∗ owns (c : Thread nD τ) arg10 fullShare xs
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
                ∗ (∃ f, arg10.view.loc (c : Thread nD τ) ↦[arg10.view.set]{fullShare} arg10.view.writes (Elt F) f L.1)
                ∗ (∃ f, arg8.view.loc (c : Thread nD τ) ↦[arg8.view.set]{fullShare} arg8.view.writes (Elt F) f L.2.1)
                ∗ (∃ f, arg9.view.loc (c : Thread nD τ) ↦[arg9.view.set]{fullShare} arg9.view.writes (Elt F) f L.2.2)) -∗ K ⟨⟩))
          ⊢ wp frame (wpE (defs₀ (F := F)) Variants.none c none) E (cc1__dist_kernel i arg2 harg2 arg3 harg3 arg4 harg4 arg5 harg5 arg6 harg6 arg7 harg7 arg8 harg8 arg9 harg9 arg10 harg10) K } := by
  refine ⟨⟨?_, ?_, ?_⟩, fun E K => ?run⟩
  case run =>
    simp only [cc1__dist_kernel_eq_skeleton]; unfold cc1__dist_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, Hs⟩, ⟨%d6, %f6, -, H6⟩, ⟨%d7, %f7, -, H7⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [Hs]; · iexists _; iexact Hs
    isplitl [H6]; · iexists _; iexact H6
    iexists _; iexact H7

end Cert.Kernel.Hand

end
-- ==== Proof.Kernel.DistRegion.lean ====
import proofs.«423389_j72705206387155_1_alg».proof.Proof.Kernel.DistRuns
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # The second pallas_call, at the buffer contents its region is entered with

The call walks an 8 × 8 grid row by row; point `t` is tile `(i, j) = (t / 8, t % 8)`. For a fixed `i` it sweeps the
eight `j`, adding each tile's contribution (a 1024 × 1024 matrix built from the tile's row and column blocks, times
the column block of window 4) to a 1024 × 10 accumulator kept in a scratch buffer: the accumulator is cleared at
`j = 0` and, at `j = 7`, the two results' blocks (windows 6 and 7) are computed from it and stored. So what the
scratch holds after a point is a recurrence along the row of tiles, and the two results' buffers are written in the
last column only. This module states, at ANY contents `V` of the core's buffers on entry, that recurrence, what each
window's staging buffer holds before and after the body at every point, and proves the body's triple at a generic
point case by case. -/

-- deciding that whole-block stores tile a 1024-row buffer recurses once per row
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which windows are idle where -/

/-- The six inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl

/-- Off the last column the configuration calls the two results' windows idle (the body stores nothing into them
    there), and the pipeline does not write their blocks back; in the last column they are live. -/
theorem idleAt1_6 (t : Fin cfg1.N) (h : ¬t.val % 8 = 7) : cfg1.idle 6 (grid1.coords t) = true := by
  have hc : ¬k1_cond2 (grid1.coords t) = 1#1 := fun hc => h ((hcond1_1 t).mp hc)
  show (!(k1_cond2 (grid1.coords t) == 1#1)) = true
  simp [hc]
theorem noFlush1_6 (t : Fin cfg1.N) (h : ¬t.val % 8 = 7) : (cfg1.win 6).flush t = false :=
  Bool.eq_false_iff.mpr fun hf => h ((flush1_6 t).mp hf)
theorem liveAt1_6 (t : Fin cfg1.N) (h : t.val % 8 = 7) : cfg1.idle 6 (grid1.coords t) = false := by
  have hc : k1_cond2 (grid1.coords t) = 1#1 := (hcond1_1 t).mpr h
  show (!(k1_cond2 (grid1.coords t) == 1#1)) = false
  simp [hc]
theorem idleAt1_7 (t : Fin cfg1.N) (h : ¬t.val % 8 = 7) : cfg1.idle 7 (grid1.coords t) = true := by
  have hc : ¬k1_cond2 (grid1.coords t) = 1#1 := fun hc => h ((hcond1_1 t).mp hc)
  show (!(k1_cond2 (grid1.coords t) == 1#1)) = true
  simp [hc]
theorem noFlush1_7 (t : Fin cfg1.N) (h : ¬t.val % 8 = 7) : (cfg1.win 7).flush t = false :=
  Bool.eq_false_iff.mpr fun hf => h ((flush1_7 t).mp hf)
theorem liveAt1_7 (t : Fin cfg1.N) (h : t.val % 8 = 7) : cfg1.idle 7 (grid1.coords t) = false := by
  have hc : k1_cond2 (grid1.coords t) = 1#1 := (hcond1_1 t).mpr h
  show (!(k1_cond2 (grid1.coords t) == 1#1)) = false
  simp [hc]

/-! ## The memrefs the body is called with -/

/-- Each window's current staging memref at point `t`, as the pipeline passes it, and its wholeness. -/
abbrev ms1_0 (t : Fin cfg1.N) : Memref sig .tc .vmem S1024x10 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x10 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x10 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x10 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x10 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x1 .f32 := win1_7.stage (cfg1.slots t 7)
abbrev hs1_7 (t : Fin cfg1.N) : (ms1_7 t).IsWhole := hstage1_7 ((cfg1.slots t 7).cast nbuf1_7)
/-- The accumulator: a whole scoped buffer of the kernel's own, passed beside the windows. -/
abbrev scM1 : Memref sig .tc .vmem S1024x10 .f32 := Memref.whole cc1_scratch0
/-- The views through which the accumulator's and the two results' contents are stated (which buffer of a window is
    chosen does not matter: a covering list of stores reads the same through any view of the shape). -/
abbrev VS1 : View sig .tc .vmem S1024x10 .f32 := scM1.view
abbrev VO1_6 : View sig .tc .vmem S1024x10 .f32 := (Memref.whole cc1_stg6_0 : Memref sig .tc .vmem S1024x10 .f32).view
abbrev VO1_7 : View sig .tc .vmem S1024x1 .f32 := (Memref.whole cc1_stg7_0 : Memref sig .tc .vmem S1024x1 .f32).view

/-! ## The invariant a region of this kind is handed, with the accumulator split off -/

/-- The core's scoped buffers that are neither a staging buffer of this call nor its accumulator — the first call's
    twelve staging buffers — each at some contents, and the generator register at some state: what the body never
    touches. -/
def restPhi1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg7_1), ((c : Thread nD τ).loc cc0_stg7_1) ↦{fullShare} f)
    ∗ (∃ f : Buf (Elt F) ((c : Thread nD τ).loc cc0_stg8_0), ((c : Thread nD τ).loc cc0_stg8_0) ↦{fullShare} f)
    ∗ (∃ f : Buf (Elt F) ((c : Thread nD τ).loc cc0_stg8_1), ((c : Thread nD τ).loc cc0_stg8_1) ↦{fullShare} f)
    ∗ (∃ r, prngReg c r))

/-- What the launch hands the region gives the accumulator owned at some contents beside that rest, -/
theorem PhiA1_in (c : Dev nD) :
    (Pipeline.ΦA spec1 c : sProp 𝕄) ⊢ iprop((∃ d, owns (c : Thread nD τ) scM1 fullShare d) ∗ restPhi1 c) := by
  unfold Pipeline.ΦA restPhi1; rw [scopedRest1_eq]; simp only [scM1, owns_whole]
  iintro ⟨⟨B0, B1, B2, B3, B4, B5, B6, B7, B8, B9, B10, B11, S⟩, G⟩
  isplitl [S]; · iexact S
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  iexact G

/-- and is given back by them: -/
theorem PhiA1_out (c : Dev nD) :
    iprop((∃ d, owns (c : Thread nD τ) scM1 fullShare d) ∗ restPhi1 c) ⊢ (Pipeline.ΦA spec1 c : sProp 𝕄) := by
  unfold Pipeline.ΦA restPhi1; rw [scopedRest1_eq]; simp only [scM1, owns_whole]
  iintro ⟨S, B0, B1, B2, B3, B4, B5, B6, B7, B8, B9, B10, B11, G⟩
  isplitr [G]
  swap; · iexact G
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  iexact S

/-- the two are one proposition. -/
theorem PhiA1_eq (c : Dev nD) :
    (Pipeline.ΦA spec1 c : sProp 𝕄) = iprop((∃ d, owns (c : Thread nD τ) scM1 fullShare d) ∗ restPhi1 c) :=
  BI.equiv_iff.mp ⟨PhiA1_in c, PhiA1_out c⟩

/-! ## What each case leaves in the accumulator and in the two results' buffers -/

/-- First column: the stores into the accumulator (the clearing store, then the store of the first tile's sum) tile it. -/
theorem scover1_A (c : Dev nD) (i : grid1.Coords) (arg2 : Memref sig .tc .vmem S1024x10 .f32) (harg2 : arg2.IsWhole) (arg3 : Memref sig .tc .vmem S1024x10 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x10 .f32) (harg6 : arg6.IsWhole) (arg7 : Memref sig .tc .vmem S1024x10 .f32) (harg7 : arg7.IsWhole) (arg8 : Memref sig .tc .vmem S1024x10 .f32) (harg8 : arg8.IsWhole) (arg9 : Memref sig .tc .vmem S1024x1 .f32) (harg9 : arg9.IsWhole) (arg10 : Memref sig .tc .vmem S1024x10 .f32) (harg10 : arg10.IsWhole) (hc0 : cond1_0 i) (hc1 : ¬cond1_1 i)
    (x0 x1 : Vec F S1024x10 .f32) (x2 : Vec F S1024x1 .f32) (x3 : Vec F S1x1024 .f32) (x4 : Vec F S1024x10 .f32) (y : S1024x10.Idx) :
    ∃ pc ∈ (kernelRun1_A c i arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).1 S1024x10.size (by sl_kernel_rfl) y

/-- What the first column leaves in the accumulator: its stores read back. -/
def sout1_A (c : Dev nD) (i : grid1.Coords) (arg2 : Memref sig .tc .vmem S1024x10 .f32) (harg2 : arg2.IsWhole) (arg3 : Memref sig .tc .vmem S1024x10 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x10 .f32) (harg6 : arg6.IsWhole) (arg7 : Memref sig .tc .vmem S1024x10 .f32) (harg7 : arg7.IsWhole) (arg8 : Memref sig .tc .vmem S1024x10 .f32) (harg8 : arg8.IsWhole) (arg9 : Memref sig .tc .vmem S1024x1 .f32) (harg9 : arg9.IsWhole) (arg10 : Memref sig .tc .vmem S1024x10 .f32) (harg10 : arg10.IsWhole) (hc0 : cond1_0 i) (hc1 : ¬cond1_1 i)
    (x0 x1 : Vec F S1024x10 .f32) (x2 : Vec F S1024x1 .f32) (x3 : Vec F S1x1024 .f32) (x4 : Vec F S1024x10 .f32) : Vec F S1024x10 .f32 :=
  VS1.read (Elt F) (VS1.writes (Elt F) VS1.junk (kernelRun1_A c i arg2 harg2 arg3 harg3 arg4 harg4 arg5 harg5 arg6 harg6 arg7 harg7 arg8 harg8 arg9 harg9 arg10 harg10 hc0 hc1 x0 x1 x2 x3 x4).1)

/-- An inner column: the one store into the accumulator tiles it. -/
theorem scover1_B (c : Dev nD) (i : grid1.Coords) (arg2 : Memref sig .tc .vmem S1024x10 .f32) (harg2 : arg2.IsWhole) (arg3 : Memref sig .tc .vmem S1024x10 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x10 .f32) (harg6 : arg6.IsWhole) (arg7 : Memref sig .tc .vmem S1024x10 .f32) (harg7 : arg7.IsWhole) (arg8 : Memref sig .tc .vmem S1024x10 .f32) (harg8 : arg8.IsWhole) (arg9 : Memref sig .tc .vmem S1024x1 .f32) (harg9 : arg9.IsWhole) (arg10 : Memref sig .tc .vmem S1024x10 .f32) (harg10 : arg10.IsWhole) (hc0 : ¬cond1_0 i) (hc1 : ¬cond1_1 i)
    (x0 x1 : Vec F S1024x10 .f32) (x2 : Vec F S1024x1 .f32) (x3 : Vec F S1x1024 .f32) (x4 : Vec F S1024x10 .f32) (xs : Vec F S1024x10 .f32) (y : S1024x10.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs).1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs).1 S1024x10.size (by sl_kernel_rfl) y

/-- What an inner column leaves in the accumulator, from what it found there (`xs`). -/
def sout1_B (c : Dev nD) (i : grid1.Coords) (arg2 : Memref sig .tc .vmem S1024x10 .f32) (harg2 : arg2.IsWhole) (arg3 : Memref sig .tc .vmem S1024x10 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x10 .f32) (harg6 : arg6.IsWhole) (arg7 : Memref sig .tc .vmem S1024x10 .f32) (harg7 : arg7.IsWhole) (arg8 : Memref sig .tc .vmem S1024x10 .f32) (harg8 : arg8.IsWhole) (arg9 : Memref sig .tc .vmem S1024x1 .f32) (harg9 : arg9.IsWhole) (arg10 : Memref sig .tc .vmem S1024x10 .f32) (harg10 : arg10.IsWhole) (hc0 : ¬cond1_0 i) (hc1 : ¬cond1_1 i)
    (x0 x1 : Vec F S1024x10 .f32) (x2 : Vec F S1024x1 .f32) (x3 : Vec F S1x1024 .f32) (x4 : Vec F S1024x10 .f32) (xs : Vec F S1024x10 .f32) : Vec F S1024x10 .f32 :=
  VS1.read (Elt F) (VS1.writes (Elt F) VS1.junk (kernelRun1_B c i arg2 harg2 arg3 harg3 arg4 harg4 arg5 harg5 arg6 harg6 arg7 harg7 arg8 harg8 arg9 harg9 arg10 harg10 hc0 hc1 x0 x1 x2 x3 x4 xs).1)

/-- The last column: its store into the accumulator, and its one store into each result's buffer, tile them. -/
theorem scover1_C (c : Dev nD) (i : grid1.Coords) (arg2 : Memref sig .tc .vmem S1024x10 .f32) (harg2 : arg2.IsWhole) (arg3 : Memref sig .tc .vmem S1024x10 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x10 .f32) (harg6 : arg6.IsWhole) (arg7 : Memref sig .tc .vmem S1024x10 .f32) (harg7 : arg7.IsWhole) (arg8 : Memref sig .tc .vmem S1024x10 .f32) (harg8 : arg8.IsWhole) (arg9 : Memref sig .tc .vmem S1024x1 .f32) (harg9 : arg9.IsWhole) (arg10 : Memref sig .tc .vmem S1024x10 .f32) (harg10 : arg10.IsWhole) (hc0 : ¬cond1_0 i) (hc1 : cond1_1 i)
    (x0 x1 : Vec F S1024x10 .f32) (x2 : Vec F S1024x1 .f32) (x3 : Vec F S1x1024 .f32) (x4 : Vec F S1024x10 .f32) (x5 : Vec F S1024x10 .f32) (xs : Vec F S1024x10 .f32) (y : S1024x10.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 xs).1.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 xs).1.1 S1024x10.size (by sl_kernel_rfl) y
theorem cover1_C_6 (c : Dev nD) (i : grid1.Coords) (arg2 : Memref sig .tc .vmem S1024x10 .f32) (harg2 : arg2.IsWhole) (arg3 : Memref sig .tc .vmem S1024x10 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x10 .f32) (harg6 : arg6.IsWhole) (arg7 : Memref sig .tc .vmem S1024x10 .f32) (harg7 : arg7.IsWhole) (arg8 : Memref sig .tc .vmem S1024x10 .f32) (harg8 : arg8.IsWhole) (arg9 : Memref sig .tc .vmem S1024x1 .f32) (harg9 : arg9.IsWhole) (arg10 : Memref sig .tc .vmem S1024x10 .f32) (harg10 : arg10.IsWhole) (hc0 : ¬cond1_0 i) (hc1 : cond1_1 i)
    (x0 x1 : Vec F S1024x10 .f32) (x2 : Vec F S1024x1 .f32) (x3 : Vec F S1x1024 .f32) (x4 : Vec F S1024x10 .f32) (x5 : Vec F S1024x10 .f32) (xs : Vec F S1024x10 .f32) (y : S1024x10.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 xs).1.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 xs).1.2.1 S1024x10.size (by sl_kernel_rfl) y
theorem cover1_C_7 (c : Dev nD) (i : grid1.Coords) (arg2 : Memref sig .tc .vmem S1024x10 .f32) (harg2 : arg2.IsWhole) (arg3 : Memref sig .tc .vmem S1024x10 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x10 .f32) (harg6 : arg6.IsWhole) (arg7 : Memref sig .tc .vmem S1024x10 .f32) (harg7 : arg7.IsWhole) (arg8 : Memref sig .tc .vmem S1024x10 .f32) (harg8 : arg8.IsWhole) (arg9 : Memref sig .tc .vmem S1024x1 .f32) (harg9 : arg9.IsWhole) (arg10 : Memref sig .tc .vmem S1024x10 .f32) (harg10 : arg10.IsWhole) (hc0 : ¬cond1_0 i) (hc1 : cond1_1 i)
    (x0 x1 : Vec F S1024x10 .f32) (x2 : Vec F S1024x1 .f32) (x3 : Vec F S1x1024 .f32) (x4 : Vec F S1024x10 .f32) (x5 : Vec F S1024x10 .f32) (xs : Vec F S1024x10 .f32) (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 xs).1.2.2, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 xs).1.2.2 S1024x1.size (by sl_kernel_rfl) y

/-- What the last column leaves in the accumulator, in window 6's buffer and in window 7's buffer. -/
def sout1_C (c : Dev nD) (i : grid1.Coords) (arg2 : Memref sig .tc .vmem S1024x10 .f32) (harg2 : arg2.IsWhole) (arg3 : Memref sig .tc .vmem S1024x10 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x10 .f32) (harg6 : arg6.IsWhole) (arg7 : Memref sig .tc .vmem S1024x10 .f32) (harg7 : arg7.IsWhole) (arg8 : Memref sig .tc .vmem S1024x10 .f32) (harg8 : arg8.IsWhole) (arg9 : Memref sig .tc .vmem S1024x1 .f32) (harg9 : arg9.IsWhole) (arg10 : Memref sig .tc .vmem S1024x10 .f32) (harg10 : arg10.IsWhole) (hc0 : ¬cond1_0 i) (hc1 : cond1_1 i)
    (x0 x1 : Vec F S1024x10 .f32) (x2 : Vec F S1024x1 .f32) (x3 : Vec F S1x1024 .f32) (x4 : Vec F S1024x10 .f32) (x5 : Vec F S1024x10 .f32) (xs : Vec F S1024x10 .f32) : Vec F S1024x10 .f32 :=
  VS1.read (Elt F) (VS1.writes (Elt F) VS1.junk (kernelRun1_C c i arg2 harg2 arg3 harg3 arg4 harg4 arg5 harg5 arg6 harg6 arg7 harg7 arg8 harg8 arg9 harg9 arg10 harg10 hc0 hc1 x0 x1 x2 x3 x4 x5 xs).1.1)
def out1_C_6 (c : Dev nD) (i : grid1.Coords) (arg2 : Memref sig .tc .vmem S1024x10 .f32) (harg2 : arg2.IsWhole) (arg3 : Memref sig .tc .vmem S1024x10 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x10 .f32) (harg6 : arg6.IsWhole) (arg7 : Memref sig .tc .vmem S1024x10 .f32) (harg7 : arg7.IsWhole) (arg8 : Memref sig .tc .vmem S1024x10 .f32) (harg8 : arg8.IsWhole) (arg9 : Memref sig .tc .vmem S1024x1 .f32) (harg9 : arg9.IsWhole) (arg10 : Memref sig .tc .vmem S1024x10 .f32) (harg10 : arg10.IsWhole) (hc0 : ¬cond1_0 i) (hc1 : cond1_1 i)
    (x0 x1 : Vec F S1024x10 .f32) (x2 : Vec F S1024x1 .f32) (x3 : Vec F S1x1024 .f32) (x4 : Vec F S1024x10 .f32) (x5 : Vec F S1024x10 .f32) (xs : Vec F S1024x10 .f32) : Vec F S1024x10 .f32 :=
  VO1_6.read (Elt F) (VO1_6.writes (Elt F) VO1_6.junk (kernelRun1_C c i arg2 harg2 arg3 harg3 arg4 harg4 arg5 harg5 arg6 harg6 arg7 harg7 arg8 harg8 arg9 harg9 arg10 harg10 hc0 hc1 x0 x1 x2 x3 x4 x5 xs).1.2.1)
def out1_C_7 (c : Dev nD) (i : grid1.Coords) (arg2 : Memref sig .tc .vmem S1024x10 .f32) (harg2 : arg2.IsWhole) (arg3 : Memref sig .tc .vmem S1024x10 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x10 .f32) (harg6 : arg6.IsWhole) (arg7 : Memref sig .tc .vmem S1024x10 .f32) (harg7 : arg7.IsWhole) (arg8 : Memref sig .tc .vmem S1024x10 .f32) (harg8 : arg8.IsWhole) (arg9 : Memref sig .tc .vmem S1024x1 .f32) (harg9 : arg9.IsWhole) (arg10 : Memref sig .tc .vmem S1024x10 .f32) (harg10 : arg10.IsWhole) (hc0 : ¬cond1_0 i) (hc1 : cond1_1 i)
    (x0 x1 : Vec F S1024x10 .f32) (x2 : Vec F S1024x1 .f32) (x3 : Vec F S1x1024 .f32) (x4 : Vec F S1024x10 .f32) (x5 : Vec F S1024x10 .f32) (xs : Vec F S1024x10 .f32) : Vec F S1024x1 .f32 :=
  VO1_7.read (Elt F) (VO1_7.writes (Elt F) VO1_7.junk (kernelRun1_C c i arg2 harg2 arg3 harg3 arg4 harg4 arg5 harg5 arg6 harg6 arg7 harg7 arg8 harg8 arg9 harg9 arg10 harg10 hc0 hc1 x0 x1 x2 x3 x4 x5 xs).1.2.2)

section Region
-- the contents of the core's buffers when the region is entered: everything below is a function of it
variable (V : (c : Dev nD) → (b : Ref sig .tc) → Buf (Elt F) ((c : Thread nD τ).loc b))

/-! ## Blocks -/

/-- The block of window `w` at point `t`: the part of the window's array, as the region finds it, that the window's
    index map selects at tile `(i, j)` — a row band `i` for windows 0, 2, 5, 6, 7, a column band `j` for 1, 3, 4. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block at every point, fetched there or not (an
    unfetched window's block index has not moved since the point before, and the body left the block in place). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block at every point, fetched there or not (an
    unfetched window's block index has not moved since the point before, and the body left the block in place). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block at every point, fetched there or not (an
    unfetched window's block index has not moved since the point before, and the body left the block in place). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds the window's block at every point, fetched there or not (an
    unfetched window's block index has not moved since the point before, and the body left the block in place). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds the window's block at every point, fetched there or not (an
    unfetched window's block index has not moved since the point before, and the body left the block in place). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds the window's block at every point, fetched there or not (an
    unfetched window's block index has not moved since the point before, and the body left the block in place). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator, point by point -/

/-- One step of the recurrence: what the accumulator holds after the body at point `t`, from what it held before
    (`prev`, not consulted in the first column). -/
def accStep1 (c : Dev nD) (t : Fin cfg1.N) (prev : Vec F S1024x10 .f32) : Vec F S1024x10 .f32 :=
  if h0 : t.val % 8 = 0 then
    sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((hcond1_0 t).mpr h0) (fun h => (by omega : ¬t.val % 8 = 7) ((hcond1_1 t).mp h)) (iblk1 V c 0 t) (iblk1 V c 1 t) (iblk1 V c 2 t) (iblk1 V c 3 t) (iblk1 V c 4 t)
  else if h7 : t.val % 8 = 7 then
    sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h7) (iblk1 V c 0 t) (iblk1 V c 1 t) (iblk1 V c 2 t) (iblk1 V c 3 t) (iblk1 V c 4 t) (iblk1 V c 5 t) prev
  else
    sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) (fun h => h7 ((hcond1_1 t).mp h)) (iblk1 V c 0 t) (iblk1 V c 1 t) (iblk1 V c 2 t) (iblk1 V c 3 t) (iblk1 V c 4 t) prev

/-- THE RECURRENCE ALONG A ROW OF TILES. What the accumulator holds after the body at position `n`: the step at `n`
    over what it held after `n - 1`. -/
def accAt1 (c : Dev nD) : (n : ℕ) → n < cfg1.N → Vec F S1024x10 .f32
  | 0, hn => accStep1 V c ⟨0, hn⟩ (VS1.read (Elt F) VS1.junk)
  | n + 1, hn => accStep1 V c ⟨n + 1, hn⟩ (accAt1 c n (Nat.lt_of_succ_lt hn))

theorem accAt1_zero (c : Dev nD) (hn : 0 < cfg1.N) :
    accAt1 V c 0 hn = accStep1 V c ⟨0, hn⟩ (VS1.read (Elt F) VS1.junk) := rfl
theorem accAt1_succ (c : Dev nD) (n : ℕ) (hn : n + 1 < cfg1.N) :
    accAt1 V c (n + 1) hn = accStep1 V c ⟨n + 1, hn⟩ (accAt1 V c n (Nat.lt_of_succ_lt hn)) := rfl

/-- Off the first point the recurrence steps from the point before. -/
theorem accAt1_pos (c : Dev nD) (t : Fin cfg1.N) (hz : t.val ≠ 0) :
    accAt1 V c t.val t.isLt = accStep1 V c t (accAt1 V c (t.val - 1) (Nat.lt_of_le_of_lt (Nat.sub_le _ _) t.isLt)) := by
  obtain ⟨n, hn⟩ := t
  cases n with
  | zero => exact absurd rfl hz
  | succ n => rfl

/-- At a point of the first column: that case's contents. -/
theorem accAt1_A (c : Dev nD) (t : Fin cfg1.N) (h0 : t.val % 8 = 0) :
    accAt1 V c t.val t.isLt = sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((hcond1_0 t).mpr h0) (fun h => (by omega : ¬t.val % 8 = 7) ((hcond1_1 t).mp h)) (iblk1 V c 0 t) (iblk1 V c 1 t) (iblk1 V c 2 t) (iblk1 V c 3 t) (iblk1 V c 4 t) := by
  obtain ⟨n, hn⟩ := t
  cases n with
  | zero => exact (accAt1_zero V c hn).trans (by unfold accStep1; exact dif_pos h0)
  | succ n => exact (accAt1_succ V c n hn).trans (by unfold accStep1; exact dif_pos h0)

/-- At a point of an inner column: that case's contents, over what the point before left. -/
theorem accAt1_B (c : Dev nD) (t : Fin cfg1.N) (h0 : ¬t.val % 8 = 0) (h7 : ¬t.val % 8 = 7) :
    accAt1 V c t.val t.isLt = sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) (fun h => h7 ((hcond1_1 t).mp h)) (iblk1 V c 0 t) (iblk1 V c 1 t) (iblk1 V c 2 t) (iblk1 V c 3 t) (iblk1 V c 4 t) (accAt1 V c (t.val - 1) (Nat.lt_of_le_of_lt (Nat.sub_le _ _) t.isLt)) := by
  rw [accAt1_pos V c t (fun hz => h0 (by rw [hz]))]
  unfold accStep1
  exact (dif_neg h0).trans (dif_neg h7)

/-- At a point of the last column: that case's contents, over what the point before left. -/
theorem accAt1_C (c : Dev nD) (t : Fin cfg1.N) (h0 : ¬t.val % 8 = 0) (h7 : t.val % 8 = 7) :
    accAt1 V c t.val t.isLt = sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h7) (iblk1 V c 0 t) (iblk1 V c 1 t) (iblk1 V c 2 t) (iblk1 V c 3 t) (iblk1 V c 4 t) (iblk1 V c 5 t) (accAt1 V c (t.val - 1) (Nat.lt_of_le_of_lt (Nat.sub_le _ _) t.isLt)) := by
  rw [accAt1_pos V c t (fun hz => h0 (by rw [hz]))]
  unfold accStep1
  exact (dif_neg h0).trans (dif_pos h7)

/-- Window 6's buffer after the body at point `t`: in the last column what that case stores, from the accumulator
    as the point before left it; elsewhere the body stores nothing there and nothing consults this value. -/
def out6At1 (c : Dev nD) (t : Fin cfg1.N) : Vec F S1024x10 .f32 :=
  if h7 : t.val % 8 = 7 then
    out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => (by omega : ¬t.val % 8 = 0) ((hcond1_0 t).mp h)) ((hcond1_1 t).mpr h7) (iblk1 V c 0 t) (iblk1 V c 1 t) (iblk1 V c 2 t) (iblk1 V c 3 t) (iblk1 V c 4 t) (iblk1 V c 5 t) (accAt1 V c (t.val - 1) (Nat.lt_of_le_of_lt (Nat.sub_le _ _) t.isLt))
  else VO1_6.read (Elt F) VO1_6.junk

/-- Window 7's buffer after the body at point `t`, likewise. -/
def out7At1 (c : Dev nD) (t : Fin cfg1.N) : Vec F S1024x1 .f32 :=
  if h7 : t.val % 8 = 7 then
    out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => (by omega : ¬t.val % 8 = 0) ((hcond1_0 t).mp h)) ((hcond1_1 t).mpr h7) (iblk1 V c 0 t) (iblk1 V c 1 t) (iblk1 V c 2 t) (iblk1 V c 3 t) (iblk1 V c 4 t) (iblk1 V c 5 t) (accAt1 V c (t.val - 1) (Nat.lt_of_le_of_lt (Nat.sub_le _ _) t.isLt))
  else VO1_7.read (Elt F) VO1_7.junk

theorem out6At1_C (c : Dev nD) (t : Fin cfg1.N) (h0 : ¬t.val % 8 = 0) (h7 : t.val % 8 = 7) :
    out6At1 V c t = out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h7) (iblk1 V c 0 t) (iblk1 V c 1 t) (iblk1 V c 2 t) (iblk1 V c 3 t) (iblk1 V c 4 t) (iblk1 V c 5 t) (accAt1 V c (t.val - 1) (Nat.lt_of_le_of_lt (Nat.sub_le _ _) t.isLt)) := by
  unfold out6At1; exact dif_pos h7
theorem out7At1_C (c : Dev nD) (t : Fin cfg1.N) (h0 : ¬t.val % 8 = 0) (h7 : t.val % 8 = 7) :
    out7At1 V c t = out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h7) (iblk1 V c 0 t) (iblk1 V c 1 t) (iblk1 V c 2 t) (iblk1 V c 3 t) (iblk1 V c 4 t) (iblk1 V c 5 t) (accAt1 V c (t.val - 1) (Nat.lt_of_le_of_lt (Nat.sub_le _ _) t.isLt)) := by
  unfold out7At1; exact dif_pos h7

/-! ## The invariant with the accumulator carried -/

/-- The region's invariant before position `n`: before the first point what the launch hands over (the accumulator at
    anything); afterwards the accumulator owned at what the point before left in it, beside the untouched rest. -/
def PhiS1 (c : Dev nD) : (n : ℕ) → n ≤ cfg1.N → sProp 𝕄
  | 0, _ => Pipeline.ΦA spec1 c
  | n + 1, hn => iprop(owns (c : Thread nD τ) scM1 fullShare (accAt1 V c n hn) ∗ restPhi1 c)

theorem PhiS1_zero (c : Dev nD) (n : ℕ) (h : n ≤ cfg1.N) (hz : n = 0) : PhiS1 V c n h = Pipeline.ΦA spec1 c := by
  subst hz; rfl

/-- After point `n`: the accumulator at that point's contents. -/
theorem PhiS1_succ (c : Dev nD) (n : ℕ) (hn : n < cfg1.N) :
    PhiS1 V c (n + 1) hn = iprop(owns (c : Thread nD τ) scM1 fullShare (accAt1 V c n hn) ∗ restPhi1 c) := rfl

/-- Before a point that is not the first: the accumulator at what the point before left. -/
theorem PhiS1_pos (c : Dev nD) (n : ℕ) (h : n ≤ cfg1.N) (hz : n ≠ 0) :
    PhiS1 V c n h = iprop(owns (c : Thread nD τ) scM1 fullShare (accAt1 V c (n - 1) (by omega)) ∗ restPhi1 c) := by
  cases n with
  | zero => exact absurd rfl hz
  | succ n => rfl

/-! ## The proof data of the pipeline -/

/-- The pipeline's proof data on core `c`: every windowed array as the region finds it; after the body at point `t`
    each input's staging buffer still at its block, window 6's at `out6At1` and window 7's at `out7At1`; the invariant
    the accumulator's recurrence; an array two windows stage is held half and half by them, the others whole; nothing
    owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out6At1 V c t
    | ⟨7, _⟩ => out7At1 V c t
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare.left
    | ⟨5, _⟩ => fullShare.right
    | ⟨6, _⟩ => fullShare
    | ⟨7, _⟩ => fullShare
  owed _ := 0

/-- The proof data's arrays are the contents on entry. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out6At1 V c t := by dsimp only [dat1]
theorem after1_7 (c : Dev nD) (t : Fin cfg1.N) : (dat1 V c).after 7 t = out7At1 V c t := by dsimp only [dat1]

/-- What the body finds in each input's current staging buffer: the window's block at the point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- The shares the pipeline holds of the windows' arrays. -/
theorem q1_0 (c : Dev nD) : (dat1 V c).q 0 = fullShare.left := by dsimp only [dat1]
theorem q1_1 (c : Dev nD) : (dat1 V c).q 1 = fullShare.right := by dsimp only [dat1]
theorem q1_2 (c : Dev nD) : (dat1 V c).q 2 = fullShare := by dsimp only [dat1]
theorem q1_3 (c : Dev nD) : (dat1 V c).q 3 = fullShare := by dsimp only [dat1]
theorem q1_4 (c : Dev nD) : (dat1 V c).q 4 = fullShare.left := by dsimp only [dat1]
theorem q1_5 (c : Dev nD) : (dat1 V c).q 5 = fullShare.right := by dsimp only [dat1]
theorem q1_6 (c : Dev nD) : (dat1 V c).q 6 = fullShare := by dsimp only [dat1]
theorem q1_7 (c : Dev nD) : (dat1 V c).q 7 = fullShare := by dsimp only [dat1]

/-! ## The body obligation at a generic point -/

/-- What the body is called with at point `t`: the invariant, the core's debts, and each window's current staging
    buffer at what it then holds; -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it hands back: a window live at the point at what the body leaves, an idle one as it was found. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point. The inputs' buffers hold their blocks; the point's column says which of the three cases
    runs; the invariant hands the body the accumulator at what the point before left (at anything at the first point)
    and takes it back at this point's contents; off the last column the two results' buffers and window 5's are not
    touched and pass through; in the last column the results' buffers are handed over at anything and taken back at
    what the case stores. The untouched rest and the core's debts pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  rw [show (dat1 V c).leavesExact 4 t = owns (c : Thread nD τ) (ms1_4 t) fullShare ((dat1 V c).after 4 t) from by
      unfold Dat.leavesExact; rw [liveAt1_4 t], after1_4]
  rw [show (dat1 V c).leavesExact 5 t = owns (c : Thread nD τ) (ms1_5 t) fullShare ((dat1 V c).after 5 t) from by
      unfold Dat.leavesExact; rw [liveAt1_5 t], after1_5]
  by_cases h0 : t.val % 8 = 0
  · -- first column
    rw [Dat.leavesExact_idle (dat1 V c) 6 t (idleAt1_6 t (by omega)) (noFlush1_6 t (by omega)),
      Dat.leavesExact_idle (dat1 V c) 7 t (idleAt1_7 t (by omega)) (noFlush1_7 t (by omega))]
    rw [accAt1_A V c t h0]
    unfold sout1_A; (try dsimp only)
    by_cases hz : t.val = 0
    · rw [PhiS1_castSucc V c t, PhiS1_zero V c _ _ hz, PhiA1_eq]
      iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ ((hcond1_0 t).mpr h0) (fun h => (by omega : ¬t.val % 8 = 7) ((hcond1_1 t).mp h)) (iblk1 V c 0 t) (iblk1 V c 1 t) (iblk1 V c 2 t) (iblk1 V c 3 t) (iblk1 V c 4 t)).2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR]
      · isplitl [HS]
        · unfold owns; iexists _; isplitr
          swap; · iexact HS
          ipureintro; exact View.read_writes_of_cover _ _ _ _ _ (scover1_A c _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [PhiS1_castSucc V c t, PhiS1_pos V c _ _ hz]
      iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ ((hcond1_0 t).mpr h0) (fun h => (by omega : ¬t.val % 8 = 7) ((hcond1_1 t).mp h)) (iblk1 V c 0 t) (iblk1 V c 1 t) (iblk1 V c 2 t) (iblk1 V c 3 t) (iblk1 V c 4 t)).2 Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS HR]
      · isplitl [HS]
        · unfold owns; iexists _; isplitr
          swap; · iexact HS
          ipureintro; exact View.read_writes_of_cover _ _ _ _ _ (scover1_A c _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have hz : t.val ≠ 0 := fun hz => h0 (by rw [hz])
    by_cases h7 : t.val % 8 = 7
    · -- last column
      rw [show (dat1 V c).leavesExact 6 t = owns (c : Thread nD τ) (ms1_6 t) fullShare ((dat1 V c).after 6 t) from by
        unfold Dat.leavesExact; rw [liveAt1_6 t h7], after1_6]
      rw [show (dat1 V c).leavesExact 7 t = owns (c : Thread nD τ) (ms1_7 t) fullShare ((dat1 V c).after 7 t) from by
        unfold Dat.leavesExact; rw [liveAt1_7 t h7], after1_7]
      rw [accAt1_C V c t h0 h7, out6At1_C V c t h0 h7, out7At1_C V c t h0 h7]
      unfold sout1_C out1_C_6 out1_C_7; (try dsimp only)
      rw [PhiS1_castSucc V c t, PhiS1_pos V c _ _ hz]
      iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) _ _ _ _ _ _ _ _ _ _ _ _ _ _ _ _ _ _ (fun h => h0 ((hcond1_0 t).mp h)) ((hcond1_1 t).mpr h7) (iblk1 V c 0 t) (iblk1 V c 1 t) (iblk1 V c 2 t) (iblk1 V c 3 t) (iblk1 V c 4 t) (iblk1 V c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      isplitl [H6]; · iexists _; iexact H6
      isplitl [H7]; · iexists _; iexact H7
      iintro ⟨H0, H1, H2, H3, H4, H5, ⟨%es, HS⟩, ⟨%e6, H6⟩, ⟨%e7, H7⟩⟩
      isplitl [HS HR]
      · isplitl [HS]
        · unfold owns; iexists _; isplitr
          swap; · iexact HS
          ipureintro; exact View.read_writes_of_cover _ _ _ _ _ (scover1_C c _ _ _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_C_6 c _ _ _ _ _ _ _ _ _ _ _ _ _ _ _ _ _ _ _ _ _ _ _ _ _ _ _ _)
      unfold owns; iexists _; isplitr
      swap; · iexact H7
      ipureintro; exact View.read_writes_of_cover _ _ _ _ _ (cover1_C_7 c _ _ _ _ _ _ _ _ _ _ _ _ _ _ _ _ _ _ _ _ _ _ _ _ _ _ _ _)
    · -- an inner column
      rw [Dat.leavesExact_idle (dat1 V c) 6 t (idleAt1_6 t h7) (noFlush1_6 t h7),
        Dat.leavesExact_idle (dat1 V c) 7 t (idleAt1_7 t h7) (noFlush1_7 t h7)]
      rw [accAt1_B V c t h0 h7]
      unfold sout1_B; (try dsimp only)
      rw [PhiS1_castSucc V c t, PhiS1_pos V c _ _ hz]
      iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ _ _ (fun h => h0 ((hcond1_0 t).mp h)) (fun h => h7 ((hcond1_1 t).mp h)) (iblk1 V c 0 t) (iblk1 V c 1 t) (iblk1 V c 2 t) (iblk1 V c 3 t) (iblk1 V c 4 t) _).2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR]
      · isplitl [HS]
        · unfold owns; iexists _; isplitr
          swap; · iexact HS
          ipureintro; exact View.read_writes_of_cover _ _ _ _ _ (scover1_B c _ _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The body obligation of the pipeline's loop rule, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the accumulator's contents
    are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HS, HR⟩
  isplitl [HS]
  · iexists _; iexact HS
  iexact HR

/-- The same after the last point. -/
theorem hout1 (c : Dev nD) : (dat1 V c).Φ (Fin.last cfg1.N) ⊢ Pipeline.ΦA spec1 c :=
  Phi1_out V c _ (by rw [Fin.val_last]; have : cfg1.N = 64 := N_1; omega)

/-! ## The cases' contents as the body's arithmetic

Every load in the body reads a whole staging buffer and every store writes one whole, so what a case leaves is the
stored payload itself, with each loaded value the buffer's contents. -/

/-- Every rectangle the body loads or stores through sits at offset zero. -/
theorem offs_zero2 : (![0, 0] : Fin 2 → Nat) = fun _ => 0 := funext fun a => by fin_cases a <;> rfl

/-- First column: the accumulator is cleared (`k1_pay4`, the zero matrix) and the tile's term is added to that. -/
theorem sout1_A_eq (c : Dev nD) (i : grid1.Coords) (arg2 : Memref sig .tc .vmem S1024x10 .f32) (harg2 : arg2.IsWhole) (arg3 : Memref sig .tc .vmem S1024x10 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x10 .f32) (harg6 : arg6.IsWhole) (arg7 : Memref sig .tc .vmem S1024x10 .f32) (harg7 : arg7.IsWhole) (arg8 : Memref sig .tc .vmem S1024x10 .f32) (harg8 : arg8.IsWhole) (arg9 : Memref sig .tc .vmem S1024x1 .f32) (harg9 : arg9.IsWhole) (arg10 : Memref sig .tc .vmem S1024x10 .f32) (harg10 : arg10.IsWhole) (hc0 : cond1_0 i) (hc1 : ¬cond1_1 i)
    (x0 x1 : Vec F S1024x10 .f32) (x2 : Vec F S1024x1 .f32) (x3 : Vec F S1x1024 .f32) (x4 : Vec F S1024x10 .f32) :
    sout1_A c i arg2 harg2 arg3 harg3 arg4 harg4 arg5 harg5 arg6 harg6 arg7 harg7 arg8 harg8 arg9 harg9 arg10 harg10 hc0 hc1 x0 x1 x2 x3 x4 = k1_pay1 (k1_pay5 i x0 x1 x2 x3) (k1_pay4 (F := F)) x4 := by
  unfold sout1_A
  rw [View.read_writes_eq_canon _ _ _ (scover1_A c i arg2 harg2 arg3 harg3 arg4 harg4 arg5 harg5 arg6 harg6 arg7 harg7 arg8 harg8 arg9 harg9 arg10 harg10 hc0 hc1 x0 x1 x2 x3 x4)]
  unfold kernelRun1_A
  dsimp only
  sl_unfold_words
  (try dsimp only)
  rw [View.canon_cons_unit_zero (S := S1024x10) offs_zero2]
  simp only [View.readAt_eq_ld, harg2.read_unread, harg3.read_unread, harg4.read_unread, harg5.read_unread, harg6.read_unread,
    View.ld_unit_zero (S := S1024x10) offs_zero2, View.ld_unit_zero (S := S1024x1) offs_zero2, View.ld_unit_zero (S := S1x1024) offs_zero2,
    View.readCov_unit_zero (S := S1024x10) _ offs_zero2]

/-- An inner column: the tile's term is added to what the accumulator held. -/
theorem sout1_B_eq (c : Dev nD) (i : grid1.Coords) (arg2 : Memref sig .tc .vmem S1024x10 .f32) (harg2 : arg2.IsWhole) (arg3 : Memref sig .tc .vmem S1024x10 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x10 .f32) (harg6 : arg6.IsWhole) (arg7 : Memref sig .tc .vmem S1024x10 .f32) (harg7 : arg7.IsWhole) (arg8 : Memref sig .tc .vmem S1024x10 .f32) (harg8 : arg8.IsWhole) (arg9 : Memref sig .tc .vmem S1024x1 .f32) (harg9 : arg9.IsWhole) (arg10 : Memref sig .tc .vmem S1024x10 .f32) (harg10 : arg10.IsWhole) (hc0 : ¬cond1_0 i) (hc1 : ¬cond1_1 i)
    (x0 x1 : Vec F S1024x10 .f32) (x2 : Vec F S1024x1 .f32) (x3 : Vec F S1x1024 .f32) (x4 : Vec F S1024x10 .f32) (xs : Vec F S1024x10 .f32) :
    sout1_B c i arg2 harg2 arg3 harg3 arg4 harg4 arg5 harg5 arg6 harg6 arg7 harg7 arg8 harg8 arg9 harg9 arg10 harg10 hc0 hc1 x0 x1 x2 x3 x4 xs = k1_pay1 (k1_pay5 i x0 x1 x2 x3) xs x4 := by
  unfold sout1_B
  rw [View.read_writes_eq_canon _ _ _ (scover1_B c i arg2 harg2 arg3 harg3 arg4 harg4 arg5 harg5 arg6 harg6 arg7 harg7 arg8 harg8 arg9 harg9 arg10 harg10 hc0 hc1 x0 x1 x2 x3 x4 xs)]
  unfold kernelRun1_B
  dsimp only
  sl_unfold_words
  (try dsimp only)
  rw [View.canon_unit_zero (S := S1024x10) offs_zero2]
  simp only [View.readAt_eq_ld, harg2.read_unread, harg3.read_unread, harg4.read_unread, harg5.read_unread, harg6.read_unread, harg10.read_unread,
    View.ld_unit_zero (S := S1024x10) offs_zero2, View.ld_unit_zero (S := S1024x1) offs_zero2, View.ld_unit_zero (S := S1x1024) offs_zero2,
    View.readCov_unit_zero (S := S1024x10) _ offs_zero2]

/-- The last column: the same for the accumulator; window 6's block is `k1_pay2` of the finished accumulator and
    window 7's is `k1_pay3` of it and of window 5's block. -/
theorem sout1_C_eq (c : Dev nD) (i : grid1.Coords) (arg2 : Memref sig .tc .vmem S1024x10 .f32) (harg2 : arg2.IsWhole) (arg3 : Memref sig .tc .vmem S1024x10 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x10 .f32) (harg6 : arg6.IsWhole) (arg7 : Memref sig .tc .vmem S1024x10 .f32) (harg7 : arg7.IsWhole) (arg8 : Memref sig .tc .vmem S1024x10 .f32) (harg8 : arg8.IsWhole) (arg9 : Memref sig .tc .vmem S1024x1 .f32) (harg9 : arg9.IsWhole) (arg10 : Memref sig .tc .vmem S1024x10 .f32) (harg10 : arg10.IsWhole) (hc0 : ¬cond1_0 i) (hc1 : cond1_1 i)
    (x0 x1 : Vec F S1024x10 .f32) (x2 : Vec F S1024x1 .f32) (x3 : Vec F S1x1024 .f32) (x4 : Vec F S1024x10 .f32) (x5 xs : Vec F S1024x10 .f32) :
    sout1_C c i arg2 harg2 arg3 harg3 arg4 harg4 arg5 harg5 arg6 harg6 arg7 harg7 arg8 harg8 arg9 harg9 arg10 harg10 hc0 hc1 x0 x1 x2 x3 x4 x5 xs = k1_pay1 (k1_pay5 i x0 x1 x2 x3) xs x4 := by
  unfold sout1_C
  rw [View.read_writes_eq_canon _ _ _ (scover1_C c i arg2 harg2 arg3 harg3 arg4 harg4 arg5 harg5 arg6 harg6 arg7 harg7 arg8 harg8 arg9 harg9 arg10 harg10 hc0 hc1 x0 x1 x2 x3 x4 x5 xs)]
  unfold kernelRun1_C
  dsimp only
  sl_unfold_words
  (try dsimp only)
  rw [View.canon_unit_zero (S := S1024x10) offs_zero2]
  simp only [View.readAt_eq_ld, harg2.read_unread, harg3.read_unread, harg4.read_unread, harg5.read_unread, harg6.read_unread, harg7.read_unread, harg10.read_unread,
    View.ld_unit_zero (S := S1024x10) offs_zero2, View.ld_unit_zero (S := S1024x1) offs_zero2, View.ld_unit_zero (S := S1x1024) offs_zero2,
    View.readCov_unit_zero (S := S1024x10) _ offs_zero2]

theorem out1_C_6_eq (c : Dev nD) (i : grid1.Coords) (arg2 : Memref sig .tc .vmem S1024x10 .f32) (harg2 : arg2.IsWhole) (arg3 : Memref sig .tc .vmem S1024x10 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x10 .f32) (harg6 : arg6.IsWhole) (arg7 : Memref sig .tc .vmem S1024x10 .f32) (harg7 : arg7.IsWhole) (arg8 : Memref sig .tc .vmem S1024x10 .f32) (harg8 : arg8.IsWhole) (arg9 : Memref sig .tc .vmem S1024x1 .f32) (harg9 : arg9.IsWhole) (arg10 : Memref sig .tc .vmem S1024x10 .f32) (harg10 : arg10.IsWhole) (hc0 : ¬cond1_0 i) (hc1 : cond1_1 i)
    (x0 x1 : Vec F S1024x10 .f32) (x2 : Vec F S1024x1 .f32) (x3 : Vec F S1x1024 .f32) (x4 : Vec F S1024x10 .f32) (x5 xs : Vec F S1024x10 .f32) :
    out1_C_6 c i arg2 harg2 arg3 harg3 arg4 harg4 arg5 harg5 arg6 harg6 arg7 harg7 arg8 harg8 arg9 harg9 arg10 harg10 hc0 hc1 x0 x1 x2 x3 x4 x5 xs = k1_pay2 (k1_pay1 (k1_pay5 i x0 x1 x2 x3) xs x4) := by
  unfold out1_C_6
  rw [View.read_writes_eq_canon _ _ _ (cover1_C_6 c i arg2 harg2 arg3 harg3 arg4 harg4 arg5 harg5 arg6 harg6 arg7 harg7 arg8 harg8 arg9 harg9 arg10 harg10 hc0 hc1 x0 x1 x2 x3 x4 x5 xs)]
  unfold kernelRun1_C
  dsimp only
  sl_unfold_words
  (try dsimp only)
  rw [View.canon_unit_zero (S := S1024x10) offs_zero2]
  simp only [View.readAt_eq_ld, harg2.read_unread, harg3.read_unread, harg4.read_unread, harg5.read_unread, harg6.read_unread, harg7.read_unread, harg10.read_unread,
    View.ld_unit_zero (S := S1024x10) offs_zero2, View.ld_unit_zero (S := S1024x1) offs_zero2, View.ld_unit_zero (S := S1x1024) offs_zero2,
    View.readCov_unit_zero (S := S1024x10) _ offs_zero2]

theorem out1_C_7_eq (c : Dev nD) (i : grid1.Coords) (arg2 : Memref sig .tc .vmem S1024x10 .f32) (harg2 : arg2.IsWhole) (arg3 : Memref sig .tc .vmem S1024x10 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x10 .f32) (harg6 : arg6.IsWhole) (arg7 : Memref sig .tc .vmem S1024x10 .f32) (harg7 : arg7.IsWhole) (arg8 : Memref sig .tc .vmem S1024x10 .f32) (harg8 : arg8.IsWhole) (arg9 : Memref sig .tc .vmem S1024x1 .f32) (harg9 : arg9.IsWhole) (arg10 : Memref sig .tc .vmem S1024x10 .f32) (harg10 : arg10.IsWhole) (hc0 : ¬cond1_0 i) (hc1 : cond1_1 i)
    (x0 x1 : Vec F S1024x10 .f32) (x2 : Vec F S1024x1 .f32) (x3 : Vec F S1x1024 .f32) (x4 : Vec F S1024x10 .f32) (x5 xs : Vec F S1024x10 .f32) :
    out1_C_7 c i arg2 harg2 arg3 harg3 arg4 harg4 arg5 harg5 arg6 harg6 arg7 harg7 arg8 harg8 arg9 harg9 arg10 harg10 hc0 hc1 x0 x1 x2 x3 x4 x5 xs = k1_pay3 (k1_pay1 (k1_pay5 i x0 x1 x2 x3) xs x4) x5 := by
  unfold out1_C_7
  rw [View.read_writes_eq_canon _ _ _ (cover1_C_7 c i arg2 harg2 arg3 harg3 arg4 harg4 arg5 harg5 arg6 harg6 arg7 harg7 arg8 harg8 arg9 harg9 arg10 harg10 hc0 hc1 x0 x1 x2 x3 x4 x5 xs)]
  unfold kernelRun1_C
  dsimp only
  sl_unfold_words
  (try dsimp only)
  rw [View.canon_unit_zero (S := S1024x1) offs_zero2]
  simp only [View.readAt_eq_ld, harg2.read_unread, harg3.read_unread, harg4.read_unread, harg5.read_unread, harg6.read_unread, harg7.read_unread, harg10.read_unread,
    View.ld_unit_zero (S := S1024x10) offs_zero2, View.ld_unit_zero (S := S1024x1) offs_zero2, View.ld_unit_zero (S := S1x1024) offs_zero2,
    View.readCov_unit_zero (S := S1024x10) _ offs_zero2]

/-! ## The recurrence and the two results, in the body's arithmetic -/

/-- In the first column the accumulator restarts: the tile's term added to the zero matrix. -/
theorem accAt1_A_eq (c : Dev nD) (t : Fin cfg1.N) (h0 : t.val % 8 = 0) :
    accAt1 V c t.val t.isLt = k1_pay1 (k1_pay5 (grid1.coords t) (iblk1 V c 0 t) (iblk1 V c 1 t) (iblk1 V c 2 t) (iblk1 V c 3 t)) (k1_pay4 (F := F)) (iblk1 V c 4 t) :=
  (accAt1_A V c t h0).trans
    (sout1_A_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((hcond1_0 t).mpr h0) (fun h => (by omega : ¬t.val % 8 = 7) ((hcond1_1 t).mp h)) (iblk1 V c 0 t) (iblk1 V c 1 t) (iblk1 V c 2 t) (iblk1 V c 3 t) (iblk1 V c 4 t))

/-- In every other column the tile's term is added to what the point before left. -/
theorem accAt1_BC_eq (c : Dev nD) (t : Fin cfg1.N) (h0 : ¬t.val % 8 = 0) :
    accAt1 V c t.val t.isLt = k1_pay1 (k1_pay5 (grid1.coords t) (iblk1 V c 0 t) (iblk1 V c 1 t) (iblk1 V c 2 t) (iblk1 V c 3 t)) (accAt1 V c (t.val - 1) (Nat.lt_of_le_of_lt (Nat.sub_le _ _) t.isLt)) (iblk1 V c 4 t) := by
  by_cases h7 : t.val % 8 = 7
  · exact (accAt1_C V c t h0 h7).trans
      (sout1_C_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h7) (iblk1 V c 0 t) (iblk1 V c 1 t) (iblk1 V c 2 t) (iblk1 V c 3 t) (iblk1 V c 4 t) (iblk1 V c 5 t) (accAt1 V c (t.val - 1) (Nat.lt_of_le_of_lt (Nat.sub_le _ _) t.isLt)))
  · exact (accAt1_B V c t h0 h7).trans
      (sout1_B_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) (fun h => h7 ((hcond1_1 t).mp h)) (iblk1 V c 0 t) (iblk1 V c 1 t) (iblk1 V c 2 t) (iblk1 V c 3 t) (iblk1 V c 4 t) (accAt1 V c (t.val - 1) (Nat.lt_of_le_of_lt (Nat.sub_le _ _) t.isLt)))

/-- In the last column window 6's block is `k1_pay2` of the accumulator as this point leaves it, -/
theorem out6At1_eq (c : Dev nD) (t : Fin cfg1.N) (h7 : t.val % 8 = 7) :
    out6At1 V c t = k1_pay2 (accAt1 V c t.val t.isLt) := by
  have h0 : ¬t.val % 8 = 0 := by omega
  rw [accAt1_BC_eq V c t h0]
  exact (out6At1_C V c t h0 h7).trans
    (out1_C_6_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h7) (iblk1 V c 0 t) (iblk1 V c 1 t) (iblk1 V c 2 t) (iblk1 V c 3 t) (iblk1 V c 4 t) (iblk1 V c 5 t) (accAt1 V c (t.val - 1) (Nat.lt_of_le_of_lt (Nat.sub_le _ _) t.isLt)))

/-- and window 7's is `k1_pay3` of it and of window 5's block. -/
theorem out7At1_eq (c : Dev nD) (t : Fin cfg1.N) (h7 : t.val % 8 = 7) :
    out7At1 V c t = k1_pay3 (accAt1 V c t.val t.isLt) (iblk1 V c 5 t) := by
  have h0 : ¬t.val % 8 = 0 := by omega
  rw [accAt1_BC_eq V c t h0]
  exact (out7At1_C V c t h0 h7).trans
    (out1_C_7_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h7) (iblk1 V c 0 t) (iblk1 V c 1 t) (iblk1 V c 2 t) (iblk1 V c 3 t) (iblk1 V c 4 t) (iblk1 V c 5 t) (accAt1 V c (t.val - 1) (Nat.lt_of_le_of_lt (Nat.sub_le _ _) t.isLt)))

end Region

end Cert.Kernel.Hand

end
-- ==== Proof.Kernel.WholeRun.lean ====
/-
  The whole program as a run: @main is a host stretch, the first kernel region, two host stretches, the
  second kernel region and a host tail. Each region is a segment record over the thread state "every
  unscoped buffer at the contents this point of @main has reached, the generator register at some
  state, nothing owed": region 0 with distinct arrays, region 1 with two of its buffers each read
  through two windows. The launch over those records gives the final memory at every unscoped
  buffer; read at the arguments it is the frame.
-/
import proofs.«423389_j72705206387155_1_alg».proof.Proof.Kernel.RunCond
import proofs.«423389_j72705206387155_1_alg».proof.Proof.Kernel.MlpRegion
import proofs.«423389_j72705206387155_1_alg».proof.Proof.Kernel.DistRegion
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two regions are entered from, and what they leave -/

/-- Region 0 is entered from the launch contents carried through the first host stretch. -/
abbrev entry0 : (c : Dev nD) → (b : Ref sig .tc) → Buf (Elt F) ((c : Thread nD τ).loc b) := fun c b => V1 m c b

/-- The launch contents at a reference, per core: the value at the references no region changes. -/
abbrev launchAt : (r : Ref sig .tc) → (c : Dev nD) → Buf (Elt F) ((c : Thread nD τ).loc r) := fun r c => m ((c : Thread nD τ).loc r)

/-- What region 0 leaves: its two output arrays after all eight write-backs. -/
def outs0 : Outs (F := F) := fun _ =>
  Function.update (β := fun r : Ref sig .tc => (c : Dev nD) → Buf (Elt F) ((c : Thread nD τ).loc r))
    (Function.update (β := fun r : Ref sig .tc => (c : Dev nD) → Buf (Elt F) ((c : Thread nD τ).loc r)) (launchAt m) main_v3_0
      (fun c => (dat0 (entry0 m) c).arrAt 7 cfg0.N))
    main_v3_1 (fun c => (dat0 (entry0 m) c).arrAt 8 cfg0.N)

theorem outs0_z (J : ℕ) (c : Dev nD) : outs0 m J main_v3_0 c = (dat0 (entry0 m) c).arrAt 7 cfg0.N := by
  dsimp only [outs0]; rw [Function.update_of_ne (by decide : main_v3_0 ≠ main_v3_1), Function.update_self]
theorem outs0_n (J : ℕ) (c : Dev nD) : outs0 m J main_v3_1 c = (dat0 (entry0 m) c).arrAt 8 cfg0.N := by
  dsimp only [outs0]; rw [Function.update_self]

/-- Region 1 is entered from those contents carried through the two host stretches between the regions. -/
abbrev entry1 : (c : Dev nD) → (b : Ref sig .tc) → Buf (Elt F) ((c : Thread nD τ).loc b) := fun c b => V4 m (outs0 m) c b

/-- What both regions leave: region 0's two arrays, and region 1's two output arrays after its write-backs. -/
def outsAll : Outs (F := F) := fun _ =>
  Function.update (β := fun r : Ref sig .tc => (c : Dev nD) → Buf (Elt F) ((c : Thread nD τ).loc r))
    (Function.update (β := fun r : Ref sig .tc => (c : Dev nD) → Buf (Elt F) ((c : Thread nD τ).loc r))
      (Function.update (β := fun r : Ref sig .tc => (c : Dev nD) → Buf (Elt F) ((c : Thread nD τ).loc r))
        (Function.update (β := fun r : Ref sig .tc => (c : Dev nD) → Buf (Elt F) ((c : Thread nD τ).loc r)) (launchAt m) main_v3_0
          (fun c => (dat0 (entry0 m) c).arrAt 7 cfg0.N))
        main_v3_1 (fun c => (dat0 (entry0 m) c).arrAt 8 cfg0.N))
      main_v6_0 (fun c => (dat1 (entry1 m) c).arrAt 6 cfg1.N))
    main_v6_1 (fun c => (dat1 (entry1 m) c).arrAt 7 cfg1.N)

theorem outsAll_z (J : ℕ) (c : Dev nD) : outsAll m J main_v3_0 c = (dat0 (entry0 m) c).arrAt 7 cfg0.N := by
  dsimp only [outsAll]
  rw [Function.update_of_ne (by decide : main_v3_0 ≠ main_v6_1), Function.update_of_ne (by decide : main_v3_0 ≠ main_v6_0),
    Function.update_of_ne (by decide : main_v3_0 ≠ main_v3_1), Function.update_self]
theorem outsAll_n (J : ℕ) (c : Dev nD) : outsAll m J main_v3_1 c = (dat0 (entry0 m) c).arrAt 8 cfg0.N := by
  dsimp only [outsAll]
  rw [Function.update_of_ne (by decide : main_v3_1 ≠ main_v6_1), Function.update_of_ne (by decide : main_v3_1 ≠ main_v6_0), Function.update_self]
theorem outsAll_p (J : ℕ) (c : Dev nD) : outsAll m J main_v6_0 c = (dat1 (entry1 m) c).arrAt 6 cfg1.N := by
  dsimp only [outsAll]
  rw [Function.update_of_ne (by decide : main_v6_0 ≠ main_v6_1), Function.update_self]
theorem outsAll_l (J : ℕ) (c : Dev nD) : outsAll m J main_v6_1 c = (dat1 (entry1 m) c).arrAt 7 cfg1.N := by
  dsimp only [outsAll]; rw [Function.update_self]

/-- Up to region 1 only region 0's outputs are read: the two families give the same contents there. -/
theorem V2_all (c : Dev nD) : V2 m (outsAll m) c = V2 m (outs0 m) c := by
  simp only [V2, outsAll_z, outsAll_n, outs0_z, outs0_n]
theorem V4_all (c : Dev nD) : V4 m (outsAll m) c = V4 m (outs0 m) c := by
  show StableHlo.after hostOps1_1 (StableHlo.after hostOps1 (V2 m (outsAll m) c)) = StableHlo.after hostOps1_1 (StableHlo.after hostOps1 (V2 m (outs0 m) c))
  rw [V2_all]

/-! ## The proof data family and what rides along -/

/-- Each pipeline's proof data at its region's entry contents: a literal match, so that the configuration at a numeral
    reduces to the printed one. -/
def pdats : (p : Fin 2) → (c : Dev nD) → Dat τ (Elt F) Unit ℕ (UR sig nD τ) ℕ (cfgs p) c
  | ⟨0, _⟩ => fun c => dat0 (entry0 m) c
  | ⟨1, _⟩ => fun c => dat1 (entry1 m) c

/-- No core owes another anything: no level is assigned. -/
abbrev noLevels : GSem nD τ sig → Finset Unit := fun _ => ∅
abbrev levelZero : GSem nD τ sig → Unit → ℕ := fun _ _ => 0
/-- What rides beside the buffers through every item: the generator register at some state, and nothing owed. -/
abbrev alongside (c : Dev nD) : sProp 𝕄 := iprop((∃ r, prngReg c r) ∗ ∃ W, owes (c : Thread nD τ) (0 : CellTallies nD τ sig Unit) W)

/-! ## Region 0 as a segment -/

/-- After region 0 each of its arrays holds what the pipeline leaves: an input its entry contents, an output its
    write-backs folded. -/
theorem exit0_in (c : Dev nD) (w : Fin cfg0.W) (hin : (cfg0.win w).isOut = false)
    (hne : Pipeline.arrRef spec0 w ∉ ([main_v3_0, main_v3_1] : List (Ref sig .tc))) :
    (pdats m 0 c).arrAt w cfg0.N = V2 m (outsAll m) c (Pipeline.arrRef spec0 w) :=
  ((dat0 (entry0 m) c).arrAt_in w hin _).trans ((A_eq0 (entry0 m) c w).trans (V2_of m (outsAll m) c _ hne).symm)

theorem exit0 (c : Dev nD) (w : Fin cfg0.W) : (pdats m 0 c).arrAt w cfg0.N = V2 m (outsAll m) c (Pipeline.arrRef spec0 w) :=
  match w with
  | ⟨0, _⟩ => exit0_in m c 0 rfl (by decide)
  | ⟨1, _⟩ => exit0_in m c 1 rfl (by decide)
  | ⟨2, _⟩ => exit0_in m c 2 rfl (by decide)
  | ⟨3, _⟩ => exit0_in m c 3 rfl (by decide)
  | ⟨4, _⟩ => exit0_in m c 4 rfl (by decide)
  | ⟨5, _⟩ => exit0_in m c 5 rfl (by decide)
  | ⟨6, _⟩ => exit0_in m c 6 rfl (by decide)
  | ⟨7, _⟩ => by
    show (dat0 (entry0 m) c).arrAt 7 cfg0.N = V2 m (outsAll m) c main_v3_0
    simp only [V2, Function.update_of_ne (StableHlo.devRef_ne_of_ne (by decide : main_v3_0 ≠ main_v3_1) : (Proc.devRef .tc main_v3_0 : DevRef τ sig) ≠ Proc.devRef .tc main_v3_1), Function.update_self, outsAll_z]
  | ⟨8, _⟩ => by
    show (dat0 (entry0 m) c).arrAt 8 cfg0.N = V2 m (outsAll m) c main_v3_1
    simp only [V2, Function.update_self, outsAll_n]

theorem rest0 (c : Dev nD) : ∀ b, b ∉ Finset.univ.image (Pipeline.arrRef spec0) → V2 m (outsAll m) c b = V1 m c b :=
  fun b hb => V2_of m (outsAll m) c b fun h => by
    rcases List.mem_cons.mp h with h | h
    · exact hb (Finset.mem_image.mpr ⟨7, Finset.mem_univ _, h.symm⟩)
    · exact hb (Finset.mem_image.mpr ⟨8, Finset.mem_univ _, (List.mem_singleton.mp h).symm⟩)

set_option backward.isDefEq.respectTransparency.types false in
/-- REGION 0 over the thread state: entered from every unscoped buffer at the contents after the first host stretch,
    left at those with its two output arrays at what its write-backs leave. Its arrays are split out of the unscoped
    buffers and put back at the exit contents; the generator register goes into the region's invariant and comes out;
    nothing is owed; the kernel has no semaphore of its own. -/
def reg0 : RegionSeg (pcfgs (F := F)) adm (pdats m) () defs₀ Variants.none noLevels levelZero 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ noLevels levelZero 0 fun _ _ => rfl
  pre c := iprop(StableHlo.held (c : Thread nD τ) (Pipeline.ucRefs τ sig) (V1 m c) ∗ alongside c)
  post c := iprop(StableHlo.held (c : Thread nD τ) (Pipeline.ucRefs τ sig) (V2 m (outsAll m) c) ∗ alongside c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (fun b => V2 m (outsAll m) c b) ((pdats m 0 c).arrAt · cfg0.N) (exit0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 as a segment

Two of its windows read one array, twice: the `z` rows block and the `z` columns block come from one buffer, and so do
the two blocks of the class indicator. Each such buffer, held whole at the full share at entry, is split into two
half shares, one per window, and joined again at the exit. -/

/-- The six distinct buffers behind region 1's eight windows, one by one. -/
theorem arrBufs1_eq (c : Dev nD) (W : (b : Ref sig .tc) → Buf (Elt F) ((c.tc : Thread nD τ).loc b)) :
    (Pipeline.arrBufs (Ix := Unit) (Name := ℕ) (U := UR sig nD τ) (Lvl := ℕ) spec1 c W : sProp 𝕄)
      = iprop((((c : Thread nD τ).loc main_v3_0) ↦{fullShare} W main_v3_0) ∗ (((c : Thread nD τ).loc main_v3_1) ↦{fullShare} W main_v3_1)
          ∗ (((c : Thread nD τ).loc main_v5) ↦{fullShare} W main_v5) ∗ (((c : Thread nD τ).loc main_v4) ↦{fullShare} W main_v4)
          ∗ (((c : Thread nD τ).loc main_v6_0) ↦{fullShare} W main_v6_0) ∗ (((c : Thread nD τ).loc main_v6_1) ↦{fullShare} W main_v6_1)) := by
  unfold Pipeline.arrBufs
  exact bigSep_eq_bigSepL_of_eq [main_v3_0, main_v3_1, main_v5, main_v4, main_v6_0, main_v6_1] (by decide) (by decide) _

/-- Each window's share of its array: a half where two windows read one buffer, the full share elsewhere. -/
theorem share1_0 (c : Dev nD) : (pdats m 1 c).share 0 = fullShare.left := by
  unfold Dat.share; rw [if_neg (by decide)]; exact q1_0 (entry1 m) c
theorem share1_1 (c : Dev nD) : (pdats m 1 c).share 1 = fullShare.right := by
  unfold Dat.share; rw [if_neg (by decide)]; exact q1_1 (entry1 m) c
theorem share1_2 (c : Dev nD) : (pdats m 1 c).share 2 = fullShare := by
  unfold Dat.share; rw [if_neg (by decide)]; exact q1_2 (entry1 m) c
theorem share1_3 (c : Dev nD) : (pdats m 1 c).share 3 = fullShare := by
  unfold Dat.share; rw [if_neg (by decide)]; exact q1_3 (entry1 m) c
theorem share1_4 (c : Dev nD) : (pdats m 1 c).share 4 = fullShare.left := by
  unfold Dat.share; rw [if_neg (by decide)]; exact q1_4 (entry1 m) c
theorem share1_5 (c : Dev nD) : (pdats m 1 c).share 5 = fullShare.right := by
  unfold Dat.share; rw [if_neg (by decide)]; exact q1_5 (entry1 m) c
theorem share1_6 (c : Dev nD) : (pdats m 1 c).share 6 = fullShare := by
  unfold Dat.share; rw [if_pos (by decide)]
theorem share1_7 (c : Dev nD) : (pdats m 1 c).share 7 = fullShare := by
  unfold Dat.share; rw [if_pos (by decide)]

/-- Region 1's arrays window by window: each window's array is a whole buffer, held at the window's share. -/
theorem arrays1_eq (c : Dev nD) (G : (w : Fin cfg1.W) → Buf (Elt F) ((cfg1.win w).arr.view.loc (c.tc : Thread nD τ))) :
    ((pdats m 1 c).arrays G : sProp 𝕄)
      = iprop((((c : Thread nD τ).loc main_v3_0) ↦{fullShare.left} G 0) ∗ (((c : Thread nD τ).loc main_v3_0) ↦{fullShare.right} G 1)
          ∗ (((c : Thread nD τ).loc main_v3_1) ↦{fullShare} G 2) ∗ (((c : Thread nD τ).loc main_v5) ↦{fullShare} G 3)
          ∗ (((c : Thread nD τ).loc main_v4) ↦{fullShare.left} G 4) ∗ (((c : Thread nD τ).loc main_v4) ↦{fullShare.right} G 5)
          ∗ (((c : Thread nD τ).loc main_v6_0) ↦{fullShare} G 6) ∗ (((c : Thread nD τ).loc main_v6_1) ↦{fullShare} G 7)) := by
  have h : ((pdats m 1 c).arrays G : sProp 𝕄)
      = bigSep Finset.univ fun w : Fin cfg1.W => ((((c : Thread nD τ).loc (Pipeline.arrRef spec1 w)) ↦{(pdats m 1 c).share w} G w : sProp 𝕄)) := by
    unfold Dat.arrays
    exact bigSep_congr fun w _ => by
      have hw : ((cfgs (1 : Fin 2)).win w).arr.IsWhole := arr_whole1 w
      rw [hw.set_eq_univ]; rfl
  rw [h, bigSep_W1]
  simp only [share1_0 m c, share1_1 m c, share1_2 m c, share1_3 m c, share1_4 m c, share1_5 m c, share1_6 m c, share1_7 m c]
  try rfl

/-- At entry each of region 1's arrays holds the entry contents of its buffer. -/
theorem entry1_arr (c : Dev nD) (w : Fin cfg1.W) : (pdats m 1 c).arrAt w 0 = entry1 m c (Pipeline.arrRef spec1 w) :=
  A_eq1 (entry1 m) c w

/-- At exit an input array still holds them. -/
theorem exit1_in (c : Dev nD) (w : Fin cfg1.W) (hin : (cfg1.win w).isOut = false) (t : ℕ) :
    (pdats m 1 c).arrAt w t = entry1 m c (Pipeline.arrRef spec1 w) :=
  ((dat1 (entry1 m) c).arrAt_in w hin t).trans (A_eq1 (entry1 m) c w)

/-- Outside region 1's two output arrays the contents after the region are those before it. -/
theorem rest1 (c : Dev nD) (b : Ref sig .tc) (hb : b ∉ ([main_v6_0, main_v6_1] : List (Ref sig .tc))) :
    V5 m (outsAll m) c b = entry1 m c b :=
  (V5_of m (outsAll m) c b hb).trans (congrFun (V4_all m c) _)

/-- ENTRY, the arrays' part: the six buffers at any contents `W` make region 1's arrays at window contents `G` that are
    those buffers' — a buffer read through two windows split into two half shares. -/
theorem split1 (c : Dev nD) (W : (b : Ref sig .tc) → Buf (Elt F) ((c.tc : Thread nD τ).loc b))
    (G : (w : Fin cfg1.W) → Buf (Elt F) ((cfg1.win w).arr.view.loc (c.tc : Thread nD τ)))
    (h0 : G 0 = W main_v3_0) (h1 : G 1 = W main_v3_0) (h2 : G 2 = W main_v3_1) (h3 : G 3 = W main_v5)
    (h4 : G 4 = W main_v4) (h5 : G 5 = W main_v4) (h6 : G 6 = W main_v6_0) (h7 : G 7 = W main_v6_1) :
    (Pipeline.arrBufs (Ix := Unit) (Name := ℕ) (U := UR sig nD τ) (Lvl := ℕ) spec1 c W : sProp 𝕄) ⊢ (pdats m 1 c).arrays G := by
  rw [arrBufs1_eq, arrays1_eq, h0, h1, h2, h3, h4, h5, h6, h7]
  iintro ⟨Hz, Hn, Hr, Hm, Hp6, Hp7⟩
  ihave Hz' := (pointsTo_share (PosShare.mem_left_op_right fullShare)).1 $$ Hz
  icases Hz' with ⟨Hz0, Hz1⟩
  ihave Hm' := (pointsTo_share (PosShare.mem_left_op_right fullShare)).1 $$ Hm
  icases Hm' with ⟨Hm0, Hm1⟩
  isplitl [Hz0]; · iexact Hz0
  isplitl [Hz1]; · iexact Hz1
  isplitl [Hn]; · iexact Hn
  isplitl [Hr]; · iexact Hr
  isplitl [Hm0]; · iexact Hm0
  isplitl [Hm1]; · iexact Hm1
  isplitl [Hp6]; · iexact Hp6
  iexact Hp7

/-- EXIT, the arrays' part: region 1's arrays at window contents `G` that are the six buffers' contents `W` make
    those buffers whole at the full share — the two halves of a shared buffer joined. -/
theorem join1 (c : Dev nD) (W : (b : Ref sig .tc) → Buf (Elt F) ((c.tc : Thread nD τ).loc b))
    (G : (w : Fin cfg1.W) → Buf (Elt F) ((cfg1.win w).arr.view.loc (c.tc : Thread nD τ)))
    (h0 : G 0 = W main_v3_0) (h1 : G 1 = W main_v3_0) (h2 : G 2 = W main_v3_1) (h3 : G 3 = W main_v5)
    (h4 : G 4 = W main_v4) (h5 : G 5 = W main_v4) (h6 : G 6 = W main_v6_0) (h7 : G 7 = W main_v6_1) :
    ((pdats m 1 c).arrays G : sProp 𝕄) ⊢ Pipeline.arrBufs (Ix := Unit) (Name := ℕ) (U := UR sig nD τ) (Lvl := ℕ) spec1 c W := by
  rw [arrBufs1_eq, arrays1_eq, h0, h1, h2, h3, h4, h5, h6, h7]
  iintro ⟨Hz0, Hz1, Hn, Hr, Hm0, Hm1, Hp6, Hp7⟩
  ihave Hz := (pointsTo_share (PosShare.mem_left_op_right fullShare)).2 $$ [Hz0 Hz1]
  · isplitl [Hz0] <;> iassumption
  ihave Hm := (pointsTo_share (PosShare.mem_left_op_right fullShare)).2 $$ [Hm0 Hm1]
  · isplitl [Hm0] <;> iassumption
  isplitl [Hz]; · iexact Hz
  isplitl [Hn]; · iexact Hn
  isplitl [Hr]; · iexact Hr
  isplitl [Hm]; · iexact Hm
  isplitl [Hp6]; · iexact Hp6
  iexact Hp7

/-- After region 1 its two output buffers hold what its write-backs leave. -/
theorem V5_posterior (c : Dev nD) : V5 m (outsAll m) c main_v6_0 = (dat1 (entry1 m) c).arrAt 6 cfg1.N := by
  simp only [V5, Function.update_of_ne (StableHlo.devRef_ne_of_ne (by decide : main_v6_0 ≠ main_v6_1) : (Proc.devRef .tc main_v6_0 : DevRef τ sig) ≠ Proc.devRef .tc main_v6_1), Function.update_self, outsAll_p]
theorem V5_rowLoss (c : Dev nD) : V5 m (outsAll m) c main_v6_1 = (dat1 (entry1 m) c).arrAt 7 cfg1.N := by
  simp only [V5, Function.update_self, outsAll_l]

/-- The thread state before region 1 is its six array buffers and the rest, at the entry contents. -/
theorem held_entry1 (c : Dev nD) : (StableHlo.held (c : Thread nD τ) (Pipeline.ucRefs τ sig) (V4 m (outsAll m) c) : sProp 𝕄)
    = iprop(Pipeline.arrBufs (Ix := Unit) (Name := ℕ) (U := UR sig nD τ) (Lvl := ℕ) spec1 c (entry1 m c) ∗ Pipeline.unscopedRest spec1 c (entry1 m c)) := by
  have h := Pipeline.unscopedBufs_split₀ (nD := nD) (τ := τ) (Val := Elt F) (Ix := Unit) (Name := ℕ) (U := UR sig nD τ) (Lvl := ℕ)
    cfgs (1 : Fin 2) (by decide) c (entry1 m c)
  rw [Pipeline.unscopedBufs_held] at h
  rw [V4_all m c]
  exact h

/-- The thread state after region 1 is its six array buffers at the exit contents and the rest as before the region. -/
theorem held_exit1 (c : Dev nD) : (StableHlo.held (c : Thread nD τ) (Pipeline.ucRefs τ sig) (V5 m (outsAll m) c) : sProp 𝕄)
    = iprop(Pipeline.arrBufs (Ix := Unit) (Name := ℕ) (U := UR sig nD τ) (Lvl := ℕ) spec1 c (fun b => V5 m (outsAll m) c b) ∗ Pipeline.unscopedRest spec1 c (entry1 m c)) := by
  have h := Pipeline.unscopedBufs_split₀ (nD := nD) (τ := τ) (Val := Elt F) (Ix := Unit) (Name := ℕ) (U := UR sig nD τ) (Lvl := ℕ)
    cfgs (1 : Fin 2) (by decide) c (fun b => V5 m (outsAll m) c b)
  rw [Pipeline.unscopedBufs_held] at h
  have hrest : (Pipeline.unscopedRest (Ix := Unit) (Name := ℕ) (U := UR sig nD τ) (Lvl := ℕ) spec1 c (fun b => V5 m (outsAll m) c b) : sProp 𝕄)
      = Pipeline.unscopedRest spec1 c (entry1 m c) := by
    unfold Pipeline.unscopedRest
    exact bigSep_congr fun b hb => by
      dsimp only
      rw [rest1 m c b fun h => (Finset.mem_sdiff.mp hb).2 (by
        rcases List.mem_cons.mp h with h | h
        · exact Finset.mem_image.mpr ⟨6, Finset.mem_univ _, h.symm⟩
        · exact Finset.mem_image.mpr ⟨7, Finset.mem_univ _, (List.mem_singleton.mp h).symm⟩)]
  rw [← hrest]
  exact h

set_option maxHeartbeats 1000000 in
set_option backward.isDefEq.respectTransparency.types false in
/-- REGION 1 over the thread state: entered from every unscoped buffer at the contents after the host stretches between the
    regions, left at those with its two output arrays at what its write-backs leave. -/
def reg1 : RegionSeg (pcfgs (F := F)) adm (pdats m) () defs₀ Variants.none noLevels levelZero 1 where
  win := winFacts₀1
  block_pos := block_pos1
  stage_whole := stage_whole1
  K := PEmpty
  osem k := k.elim
  ho := Pipeline.OwnSemFacts.none _
  hbody c := (body_obligation1 (entry1 m) c).loose
  hwaits := Pipeline.hwaits_of_owed_zero _ _ _ _ noLevels levelZero 1 fun _ _ => rfl
  pre c := iprop(StableHlo.held (c : Thread nD τ) (Pipeline.ucRefs τ sig) (V4 m (outsAll m) c) ∗ alongside c)
  post c := iprop(StableHlo.held (c : Thread nD τ) (Pipeline.ucRefs τ sig) (V5 m (outsAll m) c) ∗ alongside c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none, held_entry1 m c]
    have hs := split1 m c (entry1 m c) ((pdats m 1 c).arrAt · 0)
      (entry1_arr m c 0) (entry1_arr m c 1) (entry1_arr m c 2) (entry1_arr m c 3) (entry1_arr m c 4) (entry1_arr m c 5) (entry1_arr m c 6) (entry1_arr m c 7)
    iintro ⟨⟨⟨Hb, Hrest⟩, Hp, HO⟩, -, -⟩
    ihave Ha := hs $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (entry1 m) c)
    unfold Pipeline.ΦA
    iintro ⟨Hp, -, Hr⟩
    isplitl [Hr]; · iexact Hr
    iexact Hp
  hout c := by
    rw [Pipeline.ownSems0_none]
    refine (hout1 (entry1 m) c).trans ?_
    unfold Pipeline.ΦA
    iintro ⟨Hr, Hp⟩
    isplitl [Hp]; · iexact Hp
    isplitr; · iempintro
    iexact Hr
  hexit c := by
    rw [held_exit1 m c]
    have hj := join1 m c (fun b => V5 m (outsAll m) c b) ((pdats m 1 c).arrAt · cfg1.N)
      ((exit1_in m c 0 rfl _).trans (rest1 m c main_v3_0 (by decide)).symm)
      ((exit1_in m c 1 rfl _).trans (rest1 m c main_v3_0 (by decide)).symm)
      ((exit1_in m c 2 rfl _).trans (rest1 m c main_v3_1 (by decide)).symm)
      ((exit1_in m c 3 rfl _).trans (rest1 m c main_v5 (by decide)).symm)
      ((exit1_in m c 4 rfl _).trans (rest1 m c main_v4 (by decide)).symm)
      ((exit1_in m c 5 rfl _).trans (rest1 m c main_v4 (by decide)).symm)
      (V5_posterior m c).symm (V5_rowLoss m c).symm
    iintro ⟨Ha, HO, HY, Hrest⟩
    ihave Hb := hj $$ Ha
    imodintro
    isplitl [Hb Hrest]
    · isplitl [Hb]; · iexact Hb
      iexact Hrest
    isplitl [HY]; · iexact HY
    unfold Pipeline.Dat.owesAt Pipeline.owesWithin
    icases HO with ⟨%W, -, HO⟩; iexists W; iexact HO

/-! ## The run -/

set_option backward.isDefEq.respectTransparency.types false in
/-- THE RUN: from any memory with zero counters every weakly fair execution of @main terminates and every unscoped
    buffer ends at the last valuation, the launch contents carried through the host stretches and the two regions. -/
theorem whole_run : θ_run defs (onTc (τ := τ) (main (F := F))) ⟨m, fun _ => 0, ρ⟩ (fun r => ∀ c : Dev nD,
      ∀ b ∈ Pipeline.ucRefs τ sig, r.2.mem (((c : Thread nD τ)).1, b) = V6 m (outsAll m) c b) :=
  run_cond m emb₁ () Variants.none noLevels levelZero (fun _ _ => rfl) ρ (outsAll m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => alongside c)
    (hE0 := Pipeline.initEach noLevels levelZero fun c => by
      iintro ⟨⟨-, HO, -, Hp, -⟩, -⟩
      imodintro
      isplitl [Hp]; · iexists _; iexact Hp
      iexists ∅; iexact HO)
    (hE2 := fun c => by iintro ⟨-, H⟩; iexact H)
    (R0 := reg0 m) (hpre0 := fun _ => .rfl) (hpost0 := fun _ => .rfl)
    (R1 := reg1 m) (hpre1 := fun _ => .rfl) (hpost1 := fun _ => .rfl)

/-! ## The frame -/

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every weakly fair execution terminates and the eight argument arrays end as launched: no host stretch
    writes one and no region may change one, so the last valuation at an argument walks back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (V6_main_arg0 m (outsAll m) c),
      (h c _ (mem_uc main_arg1 (by decide))).trans (V6_main_arg1 m (outsAll m) c),
      (h c _ (mem_uc main_arg2 (by decide))).trans (V6_main_arg2 m (outsAll m) c),
      (h c _ (mem_uc main_arg3 (by decide))).trans (V6_main_arg3 m (outsAll m) c),
      (h c _ (mem_uc main_arg4 (by decide))).trans (V6_main_arg4 m (outsAll m) c),
      (h c _ (mem_uc main_arg5 (by decide))).trans (V6_main_arg5 m (outsAll m) c),
      (h c _ (mem_uc main_arg6 (by decide))).trans (V6_main_arg6 m (outsAll m) c),
      (h c _ (mem_uc main_arg7 (by decide))).trans (V6_main_arg7 m (outsAll m) c)⟩) (whole_run m ρ)

end Cert.Kernel.Hand

end
-- ==== Proof.KernelIdeal.RunCond.lean ====
/-
  The program's run from one segment record per kernel region, with its final memory read at EVERY
  unscoped buffer: given, per region, a record entered from the buffers' contents before it and left
  at the contents after it, every weakly fair execution of @main from memory `m` terminates and
  every unscoped buffer ends at the last valuation `V6` — the launch contents carried through each
  host stretch and, at the two regions, through what the regions leave (`outs`). The frame claim
  reads this at the arguments, the value claim at the three results.
-/
import proofs.«423389_j72705206387155_1_alg».proof.Proof.Gen.KernelIdeal.Regions

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- the launch theorem's implicit arguments are found by unifying its conclusion with this one, which takes unfolding
-- plain definitions in a metavariable's type
set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V4 m outs c) ∗ E 1 c) ⊢ R1.pre c)
    (hpost1 : ∀ c : Dev nD, R1.post c ⊢ iprop(StableHlo.held (c : Thread nD τ) (Pipeline.ucRefs τ sig) (V5 m outs c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = V6 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V6 m outs c))
    (hch := fun c => ⟨.rfl, hpre0 c, hpost0 c, .rfl, hpre1 c, hpost1 c, sep_mono .rfl (hE2 c)⟩)
    (hinit := ?_) (QY := fun c s => ∀ b ∈ Pipeline.ucRefs τ sig, s.mem (((c : Thread nD τ)).1, b) = V6 m outs c b)
    (hfin := fun c s' => ?_) (hQ := fun _ h => h)
  · -- the launch: the unscoped buffers are held at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V6 m outs c) s') $$ [Hh HSI]
    · isplitl [Hh] <;> iassumption
    icases Hr with ⟨%h, HSI⟩
    imodintro
    isplitr
    · ipureintro
      exact h
    · iexact HSI

end Cert.KernelIdeal.Hand

end
-- ==== Proof.KernelIdeal.MlpRegion.lean ====
import proofs.«423389_j72705206387155_1_alg».proof.Proof.Gen.KernelIdeal.Launch
import proofs.«423389_j72705206387155_1_alg».proof.Proof.Gen.KernelIdeal.Skeleton
import proofs.«423389_j72705206387155_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # The first pallas_call (the three-layer perceptron), at the buffer contents its region is entered with

The call walks a grid of 8 points. At point `t` it is handed rows `1024·t … 1024·t + 1023` of the
sample matrix, and the whole of the three weight matrices and three bias vectors; it leaves, for those
rows, the 10 output activations and the sum of their squares. This module states, at ANY contents `V`
of the core's buffers on entry, what every window's staging buffer holds before and after the body at
every point, and proves the body's separation-logic triple at a generic point. -/

-- deciding that one whole-block store tiles a 1024-row buffer recurses once per row
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the contents of the core's buffers when the region is entered: everything below is a function of it
variable (V : (c : Dev nD) → (b : Ref sig .tc) → Buf (Elt F) ((c : Thread nD τ).loc b))

/-! ## Blocks -/

/-- The block of window `w` at point `t`: the part of the window's array, as the region finds it, that the
    window's index map selects there. For the sample window that is a band of 1024 rows; for a weight or a
    bias it is the whole array at every point. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block at every point, whether the pipeline
    fetched it there or not (an unfetched window's block index has not moved since the point before, and the
    body left the block in place): for any proof data whose array is `V`'s and whose body keeps the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds the window's block at every point, whether the pipeline
    fetched it there or not (an unfetched window's block index has not moved since the point before, and the
    body left the block in place): for any proof data whose array is `V`'s and whose body keeps the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds the window's block at every point, whether the pipeline
    fetched it there or not (an unfetched window's block index has not moved since the point before, and the
    body left the block in place): for any proof data whose array is `V`'s and whose body keeps the block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds the window's block at every point, whether the pipeline
    fetched it there or not (an unfetched window's block index has not moved since the point before, and the
    body left the block in place): for any proof data whose array is `V`'s and whose body keeps the block. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds the window's block at every point, whether the pipeline
    fetched it there or not (an unfetched window's block index has not moved since the point before, and the
    body left the block in place): for any proof data whose array is `V`'s and whose body keeps the block. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds the window's block at every point, whether the pipeline
    fetched it there or not (an unfetched window's block index has not moved since the point before, and the
    body left the block in place): for any proof data whose array is `V`'s and whose body keeps the block. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds the window's block at every point, whether the pipeline
    fetched it there or not (an unfetched window's block index has not moved since the point before, and the
    body left the block in place): for any proof data whose array is `V`'s and whose body keeps the block. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body loads and stores through: each is a whole staging buffer, at offset zero -/

abbrev rX : Rect S1024x1024 := Rect.unit (s := S1024x1024) ![0, 0] S1024x1024.size inb_S1024x1024_S1024x1024_0_0
abbrev rW1 : Rect S1024x512 := Rect.unit (s := S1024x512) ![0, 0] S1024x512.size inb_S1024x512_S1024x512_0_0
abbrev rb1 : Rect S512 := Rect.unit (s := S512) ![0] S512.size inb_S512_S512_0
abbrev rW2 : Rect S512x256 := Rect.unit (s := S512x256) ![0, 0] S512x256.size inb_S512x256_S512x256_0_0
abbrev rb2 : Rect S256 := Rect.unit (s := S256) ![0] S256.size inb_S256_S256_0
abbrev rW3 : Rect S256x10 := Rect.unit (s := S256x10) ![0, 0] S256x10.size inb_S256x10_S256x10_0_0
abbrev rb3 : Rect S10 := Rect.unit (s := S10) ![0] S10.size inb_S10_S10_0
abbrev rZ : Rect S1024x10 := Rect.unit (s := S1024x10) ![0, 0] S1024x10.size inb_S1024x10_S1024x10_0_0
abbrev rN : Rect S1024x1 := Rect.unit (s := S1024x1) ![0, 0] S1024x1.size inb_S1024x1_S1024x1_0_0

/-! ## What the body leaves in the two output buffers -/

/-- The activations' buffer after the body, as a function of the seven input buffers' contents: the one store,
    through the whole buffer, of the three-layer network's output on what the loads read. -/
def out0_7 (x0 : Vec F S1024x1024 .f32) (x1 : Vec F S1024x512 .bf16) (x2 : Vec F S512 .f32) (x3 : Vec F S512x256 .bf16) (x4 : Vec F S256 .f32) (x5 : Vec F S256x10 .bf16) (x6 : Vec F S10 .f32) : Vec F S1024x10 .f32 :=
  View.canon [⟨rZ, k0_pay1 (View.ld x0 rX) (View.ld x1 rW1) (View.ld x2 rb1) (View.ld x3 rW2) (View.ld x4 rb2) (View.ld x5 rW3) (View.ld x6 rb3)⟩]

/-- The squared-norm buffer after the body: the one store, through the whole buffer, of the row sums of the squared
    activations. -/
def out0_8 (x0 : Vec F S1024x1024 .f32) (x1 : Vec F S1024x512 .bf16) (x2 : Vec F S512 .f32) (x3 : Vec F S512x256 .bf16) (x4 : Vec F S256 .f32) (x5 : Vec F S256x10 .bf16) (x6 : Vec F S10 .f32) : Vec F S1024x1 .f32 :=
  View.canon [⟨rN, k0_pay2 (View.ld x0 rX) (View.ld x1 rW1) (View.ld x2 rb1) (View.ld x3 rW2) (View.ld x4 rb2) (View.ld x5 rW3) (View.ld x6 rb3)⟩]

/-- One store through the whole buffer covers it. -/
theorem cover0_7 (p0 : Vec F S1024x10 .f32) (y : S1024x10.Idx) :
    ∃ pc ∈ ([⟨rZ, p0⟩] : List (View.Piece (Elt F) S1024x10 .f32)), y ∈ pc.1.set :=
  View.cover_of_tiled [⟨rZ, p0⟩] S1024x10.size (by rfl) y

theorem cover0_8 (p0 : Vec F S1024x1 .f32) (y : S1024x1.Idx) :
    ∃ pc ∈ ([⟨rN, p0⟩] : List (View.Piece (Elt F) S1024x1 .f32)), y ∈ pc.1.set :=
  View.cover_of_tiled [⟨rN, p0⟩] S1024x1.size (by rfl) y

/-- The offsets of every rectangle above are zero, on two axes and on one. -/
theorem zero_off2 : (![0, 0] : Fin 2 → Nat) = fun _ => 0 := funext fun a => by fin_cases a <;> rfl
theorem zero_off1 : (![0] : Fin 1 → Nat) = fun _ => 0 := funext fun a => by fin_cases a; rfl

/-- A load through a whole buffer reads the buffer and a single store through a whole buffer leaves its payload:
    the activations' buffer after the body is the network's output on the input buffers' contents, -/
theorem out0_7_eq (x0 : Vec F S1024x1024 .f32) (x1 : Vec F S1024x512 .bf16) (x2 : Vec F S512 .f32) (x3 : Vec F S512x256 .bf16) (x4 : Vec F S256 .f32) (x5 : Vec F S256x10 .bf16) (x6 : Vec F S10 .f32) :
    out0_7 x0 x1 x2 x3 x4 x5 x6 = k0_pay1 x0 x1 x2 x3 x4 x5 x6 := by
  unfold out0_7
  rw [View.canon_unit_zero zero_off2]
  simp only [View.ld_unit_zero (S := S1024x1024) zero_off2, View.ld_unit_zero (S := S1024x512) zero_off2,
    View.ld_unit_zero (S := S512) zero_off1, View.ld_unit_zero (S := S512x256) zero_off2,
    View.ld_unit_zero (S := S256) zero_off1, View.ld_unit_zero (S := S256x10) zero_off2,
    View.ld_unit_zero (S := S10) zero_off1]

/-- and the squared-norm buffer its row sums of squares. -/
theorem out0_8_eq (x0 : Vec F S1024x1024 .f32) (x1 : Vec F S1024x512 .bf16) (x2 : Vec F S512 .f32) (x3 : Vec F S512x256 .bf16) (x4 : Vec F S256 .f32) (x5 : Vec F S256x10 .bf16) (x6 : Vec F S10 .f32) :
    out0_8 x0 x1 x2 x3 x4 x5 x6 = k0_pay2 x0 x1 x2 x3 x4 x5 x6 := by
  unfold out0_8
  rw [View.canon_unit_zero zero_off2]
  simp only [View.ld_unit_zero (S := S1024x1024) zero_off2, View.ld_unit_zero (S := S1024x512) zero_off2,
    View.ld_unit_zero (S := S512) zero_off1, View.ld_unit_zero (S := S512x256) zero_off2,
    View.ld_unit_zero (S := S256) zero_off1, View.ld_unit_zero (S := S256x10) zero_off2,
    View.ld_unit_zero (S := S10) zero_off1]

/-! ## The body's triple -/

set_option maxHeartbeats 1000000 in
/-- The body, called at any grid point on nine whole staging buffers — the seven inputs' reading `x0 … x6`, the two
    outputs' holding anything — runs to any continuation that accepts the inputs' as they were, the activations'
    buffer at `out0_7` of them and the squared-norm buffer at `out0_8` of them. The body loads every input buffer
    whole, loads each output buffer once without using what it read, and stores each output buffer whole. -/
theorem sound_kernel0 (c : Dev nD) (E : Set ℕ) (i : grid0.Coords) (arg1 : Memref sig .tc .vmem S1024x1024 .f32) (harg1 : arg1.IsWhole) (arg2 : Memref sig .tc .vmem S1024x512 .bf16) (harg2 : arg2.IsWhole) (arg3 : Memref sig .tc .vmem S512 .f32) (harg3 : arg3.IsWhole) (arg4 : Memref sig .tc .vmem S512x256 .bf16) (harg4 : arg4.IsWhole) (arg5 : Memref sig .tc .vmem S256 .f32) (harg5 : arg5.IsWhole) (arg6 : Memref sig .tc .vmem S256x10 .bf16) (harg6 : arg6.IsWhole) (arg7 : Memref sig .tc .vmem S10 .f32) (harg7 : arg7.IsWhole) (arg8 : Memref sig .tc .vmem S1024x10 .f32) (harg8 : arg8.IsWhole) (arg9 : Memref sig .tc .vmem S1024x1 .f32) (harg9 : arg9.IsWhole)
    (x0 : Vec F S1024x1024 .f32) (x1 : Vec F S1024x512 .bf16) (x2 : Vec F S512 .f32) (x3 : Vec F S512x256 .bf16) (x4 : Vec F S256 .f32) (x5 : Vec F S256x10 .bf16) (x6 : Vec F S10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 x1 x2 x3 x4 x5 x6) ∗ owns (c : Thread nD τ) arg9 fullShare (out0_8 x0 x1 x2 x3 x4 x5 x6)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  iexists _; isplitr
  swap; · iexact H8
  ipureintro
  exact View.read_writes_eq_canon _ _ _ (cover0_8 _)

/-! ## The proof data of the pipeline -/

/-- The pipeline's proof data on core `c`: every windowed array as the region finds it; after the body at point
    `t` each input's staging buffer still at its block, the activations' at `out0_7` and the squared norms' at
    `out0_8` of the seven input blocks at `t`; the invariant that of a body which touches nothing but its
    windows' buffers; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the contents on entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]

/-- What the body finds in each input's current staging buffer: the window's block at the point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation at a generic point -/

/-- What the body is called with at point `t`: the invariant, the core's debts, and each window's current staging
    buffer at what it then holds; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

set_option maxHeartbeats 1000000 in
/-- The body at any point: the inputs' buffers hold their blocks, so the body's triple applies at those blocks;
    the invariant and the core's debts pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the pipeline's loop rule, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.KernelIdeal.DistRuns.lean ====
/-
  The second kernel's body on whole staging memrefs, case by case.

  The body runs at a point `(i, j)` of an 8 × 8 grid. Its first conditional holds when `j = 0`: it
  then clears the accumulator held in the scratch buffer. It always adds this tile's contribution
  to the accumulator. Its last conditional holds when `j = 7`: it then turns the finished
  accumulator into the two results and stores them. On this grid the two conditions exclude one
  another, so a point is in one of three cases: first column (A), an inner column (B), last
  column (C). For each case: which pieces the body's stores leave in the scratch buffer and in the
  two output buffers, with the proof that the body, given the five input blocks (and in case C the
  row block of the class indicator), runs to a state holding the inputs as they were and those
  pieces written.
-/
import proofs.«423389_j72705206387155_1_alg».proof.Proof.Gen.KernelIdeal.Launch
import proofs.«423389_j72705206387155_1_alg».proof.Proof.Gen.KernelIdeal.Skeleton
import proofs.«423389_j72705206387155_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, decided over the grid -/

/-- The first conditional: the column coordinate is `0`. -/
abbrev cond1_0 (i : grid1.Coords) : Prop := (Scalar.cmpi .ne (Scalar.extui (Scalar.cmpi .eq (BitVec.ofNat 32 (i 1).val) 0#32)) 0#32) = 1#1
/-- It holds exactly in the first column. -/
theorem hcond1_0 : ∀ t : Fin cfg1.N, cond1_0 (grid1.coords t) ↔ t.val % 8 = 0 :=
  (by decide +kernel : ∀ t : Fin grid1.N, cond1_0 (grid1.coords t) ↔ t.val % 8 = 0)
/-- The last conditional: the column coordinate is `7`. -/
abbrev cond1_1 (i : grid1.Coords) : Prop := k1_cond2 i = 1#1
/-- It holds exactly in the last column. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Case A: the first column — clear the accumulator, then add the tile -/

set_option maxHeartbeats 1000000 in
noncomputable def kernelRun1_A (c : Dev nD) (i : grid1.Coords) (arg2 : Memref sig .tc .vmem S1024x10 .f32) (harg2 : arg2.IsWhole) (arg3 : Memref sig .tc .vmem S1024x10 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x10 .f32) (harg6 : arg6.IsWhole) (arg7 : Memref sig .tc .vmem S1024x10 .f32) (harg7 : arg7.IsWhole) (arg8 : Memref sig .tc .vmem S1024x10 .f32) (harg8 : arg8.IsWhole) (arg9 : Memref sig .tc .vmem S1024x1 .f32) (harg9 : arg9.IsWhole) (arg10 : Memref sig .tc .vmem S1024x10 .f32) (harg10 : arg10.IsWhole) (hc0 : cond1_0 i) (hc1 : ¬cond1_1 i)
    (x0 x1 : Vec F S1024x10 .f32) (x2 : Vec F S1024x1 .f32) (x3 : Vec F S1x1024 .f32) (x4 : Vec F S1024x10 .f32) :
    { Ls : List (View.Piece (Elt F) S1024x10 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ (∃ d, owns (c : Thread nD τ) arg10 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                ∗ (∃ f, arg10.view.loc (c : Thread nD τ) ↦[arg10.view.set]{fullShare} arg10.view.writes (Elt F) f Ls)) -∗ K ⟨⟩))
          ⊢ wp frame (wpE (defs₀ (F := F)) Variants.none c none) E (cc1__dist_kernel i arg2 harg2 arg3 harg3 arg4 harg4 arg5 harg5 arg6 harg6 arg7 harg7 arg8 harg8 arg9 harg9 arg10 harg10) K } := by
  refine ⟨?_, fun E K => ?run⟩
  case run =>
    simp only [cc1__dist_kernel_eq_skeleton]; unfold cc1__dist_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, Hs⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact Hs

/-! ## Case B: an inner column — add the tile -/

set_option maxHeartbeats 1000000 in
noncomputable def kernelRun1_B (c : Dev nD) (i : grid1.Coords) (arg2 : Memref sig .tc .vmem S1024x10 .f32) (harg2 : arg2.IsWhole) (arg3 : Memref sig .tc .vmem S1024x10 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x10 .f32) (harg6 : arg6.IsWhole) (arg7 : Memref sig .tc .vmem S1024x10 .f32) (harg7 : arg7.IsWhole) (arg8 : Memref sig .tc .vmem S1024x10 .f32) (harg8 : arg8.IsWhole) (arg9 : Memref sig .tc .vmem S1024x1 .f32) (harg9 : arg9.IsWhole) (arg10 : Memref sig .tc .vmem S1024x10 .f32) (harg10 : arg10.IsWhole) (hc0 : ¬cond1_0 i) (hc1 : ¬cond1_1 i)
    (x0 x1 : Vec F S1024x10 .f32) (x2 : Vec F S1024x1 .f32) (x3 : Vec F S1x1024 .f32) (x4 : Vec F S1024x10 .f32) (xs : Vec F S1024x10 .f32) :
    { Ls : List (View.Piece (Elt F) S1024x10 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg10 fullShare xs
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                ∗ (∃ f, arg10.view.loc (c : Thread nD τ) ↦[arg10.view.set]{fullShare} arg10.view.writes (Elt F) f Ls)) -∗ K ⟨⟩))
          ⊢ wp frame (wpE (defs₀ (F := F)) Variants.none c none) E (cc1__dist_kernel i arg2 harg2 arg3 harg3 arg4 harg4 arg5 harg5 arg6 harg6 arg7 harg7 arg8 harg8 arg9 harg9 arg10 harg10) K } := by
  refine ⟨?_, fun E K => ?run⟩
  case run =>
    simp only [cc1__dist_kernel_eq_skeleton]; unfold cc1__dist_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, Hs⟩, Hk⟩
    obtain rfl := harg2.eq_unread hf0; obtain rfl := harg3.eq_unread hf1; obtain rfl := harg4.eq_unread hf2
    obtain rfl := harg5.eq_unread hf3; obtain rfl := harg6.eq_unread hf4; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact Hs

/-! ## Case C: the last column — add the tile, then store the two results -/

set_option maxHeartbeats 1000000 in
noncomputable def kernelRun1_C (c : Dev nD) (i : grid1.Coords) (arg2 : Memref sig .tc .vmem S1024x10 .f32) (harg2 : arg2.IsWhole) (arg3 : Memref sig .tc .vmem S1024x10 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x10 .f32) (harg6 : arg6.IsWhole) (arg7 : Memref sig .tc .vmem S1024x10 .f32) (harg7 : arg7.IsWhole) (arg8 : Memref sig .tc .vmem S1024x10 .f32) (harg8 : arg8.IsWhole) (arg9 : Memref sig .tc .vmem S1024x1 .f32) (harg9 : arg9.IsWhole) (arg10 : Memref sig .tc .vmem S1024x10 .f32) (harg10 : arg10.IsWhole) (hc0 : ¬cond1_0 i) (hc1 : cond1_1 i)
    (x0 x1 : Vec F S1024x10 .f32) (x2 : Vec F S1024x1 .f32) (x3 : Vec F S1x1024 .f32) (x4 : Vec F S1024x10 .f32) (x5 : Vec F S1024x10 .f32) (xs : Vec F S1024x10 .f32) :
    { L : List (View.Piece (Elt F) S1024x10 .f32) × List (View.Piece (Elt F) S1024x10 .f32) × List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5 ∗ owns (c : Thread nD τ) arg10 fullShare xs
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
                ∗ (∃ f, arg10.view.loc (c : Thread nD τ) ↦[arg10.view.set]{fullShare} arg10.view.writes (Elt F) f L.1)
                ∗ (∃ f, arg8.view.loc (c : Thread nD τ) ↦[arg8.view.set]{fullShare} arg8.view.writes (Elt F) f L.2.1)
                ∗ (∃ f, arg9.view.loc (c : Thread nD τ) ↦[arg9.view.set]{fullShare} arg9.view.writes (Elt F) f L.2.2)) -∗ K ⟨⟩))
          ⊢ wp frame (wpE (defs₀ (F := F)) Variants.none c none) E (cc1__dist_kernel i arg2 harg2 arg3 harg3 arg4 harg4 arg5 harg5 arg6 harg6 arg7 harg7 arg8 harg8 arg9 harg9 arg10 harg10) K } := by
  refine ⟨⟨?_, ?_, ?_⟩, fun E K => ?run⟩
  case run =>
    simp only [cc1__dist_kernel_eq_skeleton]; unfold cc1__dist_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, Hs⟩, ⟨%d6, %f6, -, H6⟩, ⟨%d7, %f7, -, H7⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [Hs]; · iexists _; iexact Hs
    isplitl [H6]; · iexists _; iexact H6
    iexists _; iexact H7

end Cert.KernelIdeal.Hand

end
-- ==== Proof.KernelIdeal.DistRegion.lean ====
import proofs.«423389_j72705206387155_1_alg».proof.Proof.KernelIdeal.DistRuns
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # The second pallas_call, at the buffer contents its region is entered with

The call walks an 8 × 8 grid row by row; point `t` is tile `(i, j) = (t / 8, t % 8)`. For a fixed `i` it sweeps the
eight `j`, adding each tile's contribution (a 1024 × 1024 matrix built from the tile's row and column blocks, times
the column block of window 4) to a 1024 × 10 accumulator kept in a scratch buffer: the accumulator is cleared at
`j = 0` and, at `j = 7`, the two results' blocks (windows 6 and 7) are computed from it and stored. So what the
scratch holds after a point is a recurrence along the row of tiles, and the two results' buffers are written in the
last column only. This module states, at ANY contents `V` of the core's buffers on entry, that recurrence, what each
window's staging buffer holds before and after the body at every point, and proves the body's triple at a generic
point case by case. -/

-- deciding that whole-block stores tile a 1024-row buffer recurses once per row
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which windows are idle where -/

/-- The six inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl

/-- Off the last column the configuration calls the two results' windows idle (the body stores nothing into them
    there), and the pipeline does not write their blocks back; in the last column they are live. -/
theorem idleAt1_6 (t : Fin cfg1.N) (h : ¬t.val % 8 = 7) : cfg1.idle 6 (grid1.coords t) = true := by
  have hc : ¬k1_cond2 (grid1.coords t) = 1#1 := fun hc => h ((hcond1_1 t).mp hc)
  show (!(k1_cond2 (grid1.coords t) == 1#1)) = true
  simp [hc]
theorem noFlush1_6 (t : Fin cfg1.N) (h : ¬t.val % 8 = 7) : (cfg1.win 6).flush t = false :=
  Bool.eq_false_iff.mpr fun hf => h ((flush1_6 t).mp hf)
theorem liveAt1_6 (t : Fin cfg1.N) (h : t.val % 8 = 7) : cfg1.idle 6 (grid1.coords t) = false := by
  have hc : k1_cond2 (grid1.coords t) = 1#1 := (hcond1_1 t).mpr h
  show (!(k1_cond2 (grid1.coords t) == 1#1)) = false
  simp [hc]
theorem idleAt1_7 (t : Fin cfg1.N) (h : ¬t.val % 8 = 7) : cfg1.idle 7 (grid1.coords t) = true := by
  have hc : ¬k1_cond2 (grid1.coords t) = 1#1 := fun hc => h ((hcond1_1 t).mp hc)
  show (!(k1_cond2 (grid1.coords t) == 1#1)) = true
  simp [hc]
theorem noFlush1_7 (t : Fin cfg1.N) (h : ¬t.val % 8 = 7) : (cfg1.win 7).flush t = false :=
  Bool.eq_false_iff.mpr fun hf => h ((flush1_7 t).mp hf)
theorem liveAt1_7 (t : Fin cfg1.N) (h : t.val % 8 = 7) : cfg1.idle 7 (grid1.coords t) = false := by
  have hc : k1_cond2 (grid1.coords t) = 1#1 := (hcond1_1 t).mpr h
  show (!(k1_cond2 (grid1.coords t) == 1#1)) = false
  simp [hc]

/-! ## The memrefs the body is called with -/

/-- Each window's current staging memref at point `t`, as the pipeline passes it, and its wholeness. -/
abbrev ms1_0 (t : Fin cfg1.N) : Memref sig .tc .vmem S1024x10 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x10 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x10 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x10 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x10 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x1 .f32 := win1_7.stage (cfg1.slots t 7)
abbrev hs1_7 (t : Fin cfg1.N) : (ms1_7 t).IsWhole := hstage1_7 ((cfg1.slots t 7).cast nbuf1_7)
/-- The accumulator: a whole scoped buffer of the kernel's own, passed beside the windows. -/
abbrev scM1 : Memref sig .tc .vmem S1024x10 .f32 := Memref.whole cc1_scratch0
/-- The views through which the accumulator's and the two results' contents are stated (which buffer of a window is
    chosen does not matter: a covering list of stores reads the same through any view of the shape). -/
abbrev VS1 : View sig .tc .vmem S1024x10 .f32 := scM1.view
abbrev VO1_6 : View sig .tc .vmem S1024x10 .f32 := (Memref.whole cc1_stg6_0 : Memref sig .tc .vmem S1024x10 .f32).view
abbrev VO1_7 : View sig .tc .vmem S1024x1 .f32 := (Memref.whole cc1_stg7_0 : Memref sig .tc .vmem S1024x1 .f32).view

/-! ## The invariant a region of this kind is handed, with the accumulator split off -/

/-- The core's scoped buffers that are neither a staging buffer of this call nor its accumulator — the first call's
    twelve staging buffers — each at some contents, and the generator register at some state: what the body never
    touches. -/
def restPhi1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg7_1), ((c : Thread nD τ).loc cc0_stg7_1) ↦{fullShare} f)
    ∗ (∃ f : Buf (Elt F) ((c : Thread nD τ).loc cc0_stg8_0), ((c : Thread nD τ).loc cc0_stg8_0) ↦{fullShare} f)
    ∗ (∃ f : Buf (Elt F) ((c : Thread nD τ).loc cc0_stg8_1), ((c : Thread nD τ).loc cc0_stg8_1) ↦{fullShare} f)
    ∗ (∃ r, prngReg c r))

/-- What the launch hands the region gives the accumulator owned at some contents beside that rest, -/
theorem PhiA1_in (c : Dev nD) :
    (Pipeline.ΦA spec1 c : sProp 𝕄) ⊢ iprop((∃ d, owns (c : Thread nD τ) scM1 fullShare d) ∗ restPhi1 c) := by
  unfold Pipeline.ΦA restPhi1; rw [scopedRest1_eq]; simp only [scM1, owns_whole]
  iintro ⟨⟨B0, B1, B2, B3, B4, B5, B6, B7, B8, B9, B10, B11, S⟩, G⟩
  isplitl [S]; · iexact S
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  iexact G

/-- and is given back by them: -/
theorem PhiA1_out (c : Dev nD) :
    iprop((∃ d, owns (c : Thread nD τ) scM1 fullShare d) ∗ restPhi1 c) ⊢ (Pipeline.ΦA spec1 c : sProp 𝕄) := by
  unfold Pipeline.ΦA restPhi1; rw [scopedRest1_eq]; simp only [scM1, owns_whole]
  iintro ⟨S, B0, B1, B2, B3, B4, B5, B6, B7, B8, B9, B10, B11, G⟩
  isplitr [G]
  swap; · iexact G
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  iexact S

/-- the two are one proposition. -/
theorem PhiA1_eq (c : Dev nD) :
    (Pipeline.ΦA spec1 c : sProp 𝕄) = iprop((∃ d, owns (c : Thread nD τ) scM1 fullShare d) ∗ restPhi1 c) :=
  BI.equiv_iff.mp ⟨PhiA1_in c, PhiA1_out c⟩

/-! ## What each case leaves in the accumulator and in the two results' buffers -/

/-- First column: the stores into the accumulator (the clearing store, then the store of the first tile's sum) tile it. -/
theorem scover1_A (c : Dev nD) (i : grid1.Coords) (arg2 : Memref sig .tc .vmem S1024x10 .f32) (harg2 : arg2.IsWhole) (arg3 : Memref sig .tc .vmem S1024x10 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x10 .f32) (harg6 : arg6.IsWhole) (arg7 : Memref sig .tc .vmem S1024x10 .f32) (harg7 : arg7.IsWhole) (arg8 : Memref sig .tc .vmem S1024x10 .f32) (harg8 : arg8.IsWhole) (arg9 : Memref sig .tc .vmem S1024x1 .f32) (harg9 : arg9.IsWhole) (arg10 : Memref sig .tc .vmem S1024x10 .f32) (harg10 : arg10.IsWhole) (hc0 : cond1_0 i) (hc1 : ¬cond1_1 i)
    (x0 x1 : Vec F S1024x10 .f32) (x2 : Vec F S1024x1 .f32) (x3 : Vec F S1x1024 .f32) (x4 : Vec F S1024x10 .f32) (y : S1024x10.Idx) :
    ∃ pc ∈ (kernelRun1_A c i arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).1 S1024x10.size (by sl_kernel_rfl) y

/-- What the first column leaves in the accumulator: its stores read back. -/
def sout1_A (c : Dev nD) (i : grid1.Coords) (arg2 : Memref sig .tc .vmem S1024x10 .f32) (harg2 : arg2.IsWhole) (arg3 : Memref sig .tc .vmem S1024x10 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x10 .f32) (harg6 : arg6.IsWhole) (arg7 : Memref sig .tc .vmem S1024x10 .f32) (harg7 : arg7.IsWhole) (arg8 : Memref sig .tc .vmem S1024x10 .f32) (harg8 : arg8.IsWhole) (arg9 : Memref sig .tc .vmem S1024x1 .f32) (harg9 : arg9.IsWhole) (arg10 : Memref sig .tc .vmem S1024x10 .f32) (harg10 : arg10.IsWhole) (hc0 : cond1_0 i) (hc1 : ¬cond1_1 i)
    (x0 x1 : Vec F S1024x10 .f32) (x2 : Vec F S1024x1 .f32) (x3 : Vec F S1x1024 .f32) (x4 : Vec F S1024x10 .f32) : Vec F S1024x10 .f32 :=
  VS1.read (Elt F) (VS1.writes (Elt F) VS1.junk (kernelRun1_A c i arg2 harg2 arg3 harg3 arg4 harg4 arg5 harg5 arg6 harg6 arg7 harg7 arg8 harg8 arg9 harg9 arg10 harg10 hc0 hc1 x0 x1 x2 x3 x4).1)

/-- An inner column: the one store into the accumulator tiles it. -/
theorem scover1_B (c : Dev nD) (i : grid1.Coords) (arg2 : Memref sig .tc .vmem S1024x10 .f32) (harg2 : arg2.IsWhole) (arg3 : Memref sig .tc .vmem S1024x10 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x10 .f32) (harg6 : arg6.IsWhole) (arg7 : Memref sig .tc .vmem S1024x10 .f32) (harg7 : arg7.IsWhole) (arg8 : Memref sig .tc .vmem S1024x10 .f32) (harg8 : arg8.IsWhole) (arg9 : Memref sig .tc .vmem S1024x1 .f32) (harg9 : arg9.IsWhole) (arg10 : Memref sig .tc .vmem S1024x10 .f32) (harg10 : arg10.IsWhole) (hc0 : ¬cond1_0 i) (hc1 : ¬cond1_1 i)
    (x0 x1 : Vec F S1024x10 .f32) (x2 : Vec F S1024x1 .f32) (x3 : Vec F S1x1024 .f32) (x4 : Vec F S1024x10 .f32) (xs : Vec F S1024x10 .f32) (y : S1024x10.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs).1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs).1 S1024x10.size (by sl_kernel_rfl) y

/-- What an inner column leaves in the accumulator, from what it found there (`xs`). -/
def sout1_B (c : Dev nD) (i : grid1.Coords) (arg2 : Memref sig .tc .vmem S1024x10 .f32) (harg2 : arg2.IsWhole) (arg3 : Memref sig .tc .vmem S1024x10 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x10 .f32) (harg6 : arg6.IsWhole) (arg7 : Memref sig .tc .vmem S1024x10 .f32) (harg7 : arg7.IsWhole) (arg8 : Memref sig .tc .vmem S1024x10 .f32) (harg8 : arg8.IsWhole) (arg9 : Memref sig .tc .vmem S1024x1 .f32) (harg9 : arg9.IsWhole) (arg10 : Memref sig .tc .vmem S1024x10 .f32) (harg10 : arg10.IsWhole) (hc0 : ¬cond1_0 i) (hc1 : ¬cond1_1 i)
    (x0 x1 : Vec F S1024x10 .f32) (x2 : Vec F S1024x1 .f32) (x3 : Vec F S1x1024 .f32) (x4 : Vec F S1024x10 .f32) (xs : Vec F S1024x10 .f32) : Vec F S1024x10 .f32 :=
  VS1.read (Elt F) (VS1.writes (Elt F) VS1.junk (kernelRun1_B c i arg2 harg2 arg3 harg3 arg4 harg4 arg5 harg5 arg6 harg6 arg7 harg7 arg8 harg8 arg9 harg9 arg10 harg10 hc0 hc1 x0 x1 x2 x3 x4 xs).1)

/-- The last column: its store into the accumulator, and its one store into each result's buffer, tile them. -/
theorem scover1_C (c : Dev nD) (i : grid1.Coords) (arg2 : Memref sig .tc .vmem S1024x10 .f32) (harg2 : arg2.IsWhole) (arg3 : Memref sig .tc .vmem S1024x10 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x10 .f32) (harg6 : arg6.IsWhole) (arg7 : Memref sig .tc .vmem S1024x10 .f32) (harg7 : arg7.IsWhole) (arg8 : Memref sig .tc .vmem S1024x10 .f32) (harg8 : arg8.IsWhole) (arg9 : Memref sig .tc .vmem S1024x1 .f32) (harg9 : arg9.IsWhole) (arg10 : Memref sig .tc .vmem S1024x10 .f32) (harg10 : arg10.IsWhole) (hc0 : ¬cond1_0 i) (hc1 : cond1_1 i)
    (x0 x1 : Vec F S1024x10 .f32) (x2 : Vec F S1024x1 .f32) (x3 : Vec F S1x1024 .f32) (x4 : Vec F S1024x10 .f32) (x5 : Vec F S1024x10 .f32) (xs : Vec F S1024x10 .f32) (y : S1024x10.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 xs).1.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 xs).1.1 S1024x10.size (by sl_kernel_rfl) y
theorem cover1_C_6 (c : Dev nD) (i : grid1.Coords) (arg2 : Memref sig .tc .vmem S1024x10 .f32) (harg2 : arg2.IsWhole) (arg3 : Memref sig .tc .vmem S1024x10 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x10 .f32) (harg6 : arg6.IsWhole) (arg7 : Memref sig .tc .vmem S1024x10 .f32) (harg7 : arg7.IsWhole) (arg8 : Memref sig .tc .vmem S1024x10 .f32) (harg8 : arg8.IsWhole) (arg9 : Memref sig .tc .vmem S1024x1 .f32) (harg9 : arg9.IsWhole) (arg10 : Memref sig .tc .vmem S1024x10 .f32) (harg10 : arg10.IsWhole) (hc0 : ¬cond1_0 i) (hc1 : cond1_1 i)
    (x0 x1 : Vec F S1024x10 .f32) (x2 : Vec F S1024x1 .f32) (x3 : Vec F S1x1024 .f32) (x4 : Vec F S1024x10 .f32) (x5 : Vec F S1024x10 .f32) (xs : Vec F S1024x10 .f32) (y : S1024x10.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 xs).1.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 xs).1.2.1 S1024x10.size (by sl_kernel_rfl) y
theorem cover1_C_7 (c : Dev nD) (i : grid1.Coords) (arg2 : Memref sig .tc .vmem S1024x10 .f32) (harg2 : arg2.IsWhole) (arg3 : Memref sig .tc .vmem S1024x10 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x10 .f32) (harg6 : arg6.IsWhole) (arg7 : Memref sig .tc .vmem S1024x10 .f32) (harg7 : arg7.IsWhole) (arg8 : Memref sig .tc .vmem S1024x10 .f32) (harg8 : arg8.IsWhole) (arg9 : Memref sig .tc .vmem S1024x1 .f32) (harg9 : arg9.IsWhole) (arg10 : Memref sig .tc .vmem S1024x10 .f32) (harg10 : arg10.IsWhole) (hc0 : ¬cond1_0 i) (hc1 : cond1_1 i)
    (x0 x1 : Vec F S1024x10 .f32) (x2 : Vec F S1024x1 .f32) (x3 : Vec F S1x1024 .f32) (x4 : Vec F S1024x10 .f32) (x5 : Vec F S1024x10 .f32) (xs : Vec F S1024x10 .f32) (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 xs).1.2.2, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 xs).1.2.2 S1024x1.size (by sl_kernel_rfl) y

/-- What the last column leaves in the accumulator, in window 6's buffer and in window 7's buffer. -/
def sout1_C (c : Dev nD) (i : grid1.Coords) (arg2 : Memref sig .tc .vmem S1024x10 .f32) (harg2 : arg2.IsWhole) (arg3 : Memref sig .tc .vmem S1024x10 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x10 .f32) (harg6 : arg6.IsWhole) (arg7 : Memref sig .tc .vmem S1024x10 .f32) (harg7 : arg7.IsWhole) (arg8 : Memref sig .tc .vmem S1024x10 .f32) (harg8 : arg8.IsWhole) (arg9 : Memref sig .tc .vmem S1024x1 .f32) (harg9 : arg9.IsWhole) (arg10 : Memref sig .tc .vmem S1024x10 .f32) (harg10 : arg10.IsWhole) (hc0 : ¬cond1_0 i) (hc1 : cond1_1 i)
    (x0 x1 : Vec F S1024x10 .f32) (x2 : Vec F S1024x1 .f32) (x3 : Vec F S1x1024 .f32) (x4 : Vec F S1024x10 .f32) (x5 : Vec F S1024x10 .f32) (xs : Vec F S1024x10 .f32) : Vec F S1024x10 .f32 :=
  VS1.read (Elt F) (VS1.writes (Elt F) VS1.junk (kernelRun1_C c i arg2 harg2 arg3 harg3 arg4 harg4 arg5 harg5 arg6 harg6 arg7 harg7 arg8 harg8 arg9 harg9 arg10 harg10 hc0 hc1 x0 x1 x2 x3 x4 x5 xs).1.1)
def out1_C_6 (c : Dev nD) (i : grid1.Coords) (arg2 : Memref sig .tc .vmem S1024x10 .f32) (harg2 : arg2.IsWhole) (arg3 : Memref sig .tc .vmem S1024x10 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x10 .f32) (harg6 : arg6.IsWhole) (arg7 : Memref sig .tc .vmem S1024x10 .f32) (harg7 : arg7.IsWhole) (arg8 : Memref sig .tc .vmem S1024x10 .f32) (harg8 : arg8.IsWhole) (arg9 : Memref sig .tc .vmem S1024x1 .f32) (harg9 : arg9.IsWhole) (arg10 : Memref sig .tc .vmem S1024x10 .f32) (harg10 : arg10.IsWhole) (hc0 : ¬cond1_0 i) (hc1 : cond1_1 i)
    (x0 x1 : Vec F S1024x10 .f32) (x2 : Vec F S1024x1 .f32) (x3 : Vec F S1x1024 .f32) (x4 : Vec F S1024x10 .f32) (x5 : Vec F S1024x10 .f32) (xs : Vec F S1024x10 .f32) : Vec F S1024x10 .f32 :=
  VO1_6.read (Elt F) (VO1_6.writes (Elt F) VO1_6.junk (kernelRun1_C c i arg2 harg2 arg3 harg3 arg4 harg4 arg5 harg5 arg6 harg6 arg7 harg7 arg8 harg8 arg9 harg9 arg10 harg10 hc0 hc1 x0 x1 x2 x3 x4 x5 xs).1.2.1)
def out1_C_7 (c : Dev nD) (i : grid1.Coords) (arg2 : Memref sig .tc .vmem S1024x10 .f32) (harg2 : arg2.IsWhole) (arg3 : Memref sig .tc .vmem S1024x10 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x10 .f32) (harg6 : arg6.IsWhole) (arg7 : Memref sig .tc .vmem S1024x10 .f32) (harg7 : arg7.IsWhole) (arg8 : Memref sig .tc .vmem S1024x10 .f32) (harg8 : arg8.IsWhole) (arg9 : Memref sig .tc .vmem S1024x1 .f32) (harg9 : arg9.IsWhole) (arg10 : Memref sig .tc .vmem S1024x10 .f32) (harg10 : arg10.IsWhole) (hc0 : ¬cond1_0 i) (hc1 : cond1_1 i)
    (x0 x1 : Vec F S1024x10 .f32) (x2 : Vec F S1024x1 .f32) (x3 : Vec F S1x1024 .f32) (x4 : Vec F S1024x10 .f32) (x5 : Vec F S1024x10 .f32) (xs : Vec F S1024x10 .f32) : Vec F S1024x1 .f32 :=
  VO1_7.read (Elt F) (VO1_7.writes (Elt F) VO1_7.junk (kernelRun1_C c i arg2 harg2 arg3 harg3 arg4 harg4 arg5 harg5 arg6 harg6 arg7 harg7 arg8 harg8 arg9 harg9 arg10 harg10 hc0 hc1 x0 x1 x2 x3 x4 x5 xs).1.2.2)

section Region
-- the contents of the core's buffers when the region is entered: everything below is a function of it
variable (V : (c : Dev nD) → (b : Ref sig .tc) → Buf (Elt F) ((c : Thread nD τ).loc b))

/-! ## Blocks -/

/-- The block of window `w` at point `t`: the part of the window's array, as the region finds it, that the window's
    index map selects at tile `(i, j)` — a row band `i` for windows 0, 2, 5, 6, 7, a column band `j` for 1, 3, 4. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block at every point, fetched there or not (an
    unfetched window's block index has not moved since the point before, and the body left the block in place). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block at every point, fetched there or not (an
    unfetched window's block index has not moved since the point before, and the body left the block in place). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block at every point, fetched there or not (an
    unfetched window's block index has not moved since the point before, and the body left the block in place). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds the window's block at every point, fetched there or not (an
    unfetched window's block index has not moved since the point before, and the body left the block in place). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds the window's block at every point, fetched there or not (an
    unfetched window's block index has not moved since the point before, and the body left the block in place). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds the window's block at every point, fetched there or not (an
    unfetched window's block index has not moved since the point before, and the body left the block in place). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator, point by point -/

/-- One step of the recurrence: what the accumulator holds after the body at point `t`, from what it held before
    (`prev`, not consulted in the first column). -/
def accStep1 (c : Dev nD) (t : Fin cfg1.N) (prev : Vec F S1024x10 .f32) : Vec F S1024x10 .f32 :=
  if h0 : t.val % 8 = 0 then
    sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((hcond1_0 t).mpr h0) (fun h => (by omega : ¬t.val % 8 = 7) ((hcond1_1 t).mp h)) (iblk1 V c 0 t) (iblk1 V c 1 t) (iblk1 V c 2 t) (iblk1 V c 3 t) (iblk1 V c 4 t)
  else if h7 : t.val % 8 = 7 then
    sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h7) (iblk1 V c 0 t) (iblk1 V c 1 t) (iblk1 V c 2 t) (iblk1 V c 3 t) (iblk1 V c 4 t) (iblk1 V c 5 t) prev
  else
    sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) (fun h => h7 ((hcond1_1 t).mp h)) (iblk1 V c 0 t) (iblk1 V c 1 t) (iblk1 V c 2 t) (iblk1 V c 3 t) (iblk1 V c 4 t) prev

/-- THE RECURRENCE ALONG A ROW OF TILES. What the accumulator holds after the body at position `n`: the step at `n`
    over what it held after `n - 1`. -/
def accAt1 (c : Dev nD) : (n : ℕ) → n < cfg1.N → Vec F S1024x10 .f32
  | 0, hn => accStep1 V c ⟨0, hn⟩ (VS1.read (Elt F) VS1.junk)
  | n + 1, hn => accStep1 V c ⟨n + 1, hn⟩ (accAt1 c n (Nat.lt_of_succ_lt hn))

theorem accAt1_zero (c : Dev nD) (hn : 0 < cfg1.N) :
    accAt1 V c 0 hn = accStep1 V c ⟨0, hn⟩ (VS1.read (Elt F) VS1.junk) := rfl
theorem accAt1_succ (c : Dev nD) (n : ℕ) (hn : n + 1 < cfg1.N) :
    accAt1 V c (n + 1) hn = accStep1 V c ⟨n + 1, hn⟩ (accAt1 V c n (Nat.lt_of_succ_lt hn)) := rfl

/-- Off the first point the recurrence steps from the point before. -/
theorem accAt1_pos (c : Dev nD) (t : Fin cfg1.N) (hz : t.val ≠ 0) :
    accAt1 V c t.val t.isLt = accStep1 V c t (accAt1 V c (t.val - 1) (Nat.lt_of_le_of_lt (Nat.sub_le _ _) t.isLt)) := by
  obtain ⟨n, hn⟩ := t
  cases n with
  | zero => exact absurd rfl hz
  | succ n => rfl

/-- At a point of the first column: that case's contents. -/
theorem accAt1_A (c : Dev nD) (t : Fin cfg1.N) (h0 : t.val % 8 = 0) :
    accAt1 V c t.val t.isLt = sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((hcond1_0 t).mpr h0) (fun h => (by omega : ¬t.val % 8 = 7) ((hcond1_1 t).mp h)) (iblk1 V c 0 t) (iblk1 V c 1 t) (iblk1 V c 2 t) (iblk1 V c 3 t) (iblk1 V c 4 t) := by
  obtain ⟨n, hn⟩ := t
  cases n with
  | zero => exact (accAt1_zero V c hn).trans (by unfold accStep1; exact dif_pos h0)
  | succ n => exact (accAt1_succ V c n hn).trans (by unfold accStep1; exact dif_pos h0)

/-- At a point of an inner column: that case's contents, over what the point before left. -/
theorem accAt1_B (c : Dev nD) (t : Fin cfg1.N) (h0 : ¬t.val % 8 = 0) (h7 : ¬t.val % 8 = 7) :
    accAt1 V c t.val t.isLt = sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) (fun h => h7 ((hcond1_1 t).mp h)) (iblk1 V c 0 t) (iblk1 V c 1 t) (iblk1 V c 2 t) (iblk1 V c 3 t) (iblk1 V c 4 t) (accAt1 V c (t.val - 1) (Nat.lt_of_le_of_lt (Nat.sub_le _ _) t.isLt)) := by
  rw [accAt1_pos V c t (fun hz => h0 (by rw [hz]))]
  unfold accStep1
  exact (dif_neg h0).trans (dif_neg h7)

/-- At a point of the last column: that case's contents, over what the point before left. -/
theorem accAt1_C (c : Dev nD) (t : Fin cfg1.N) (h0 : ¬t.val % 8 = 0) (h7 : t.val % 8 = 7) :
    accAt1 V c t.val t.isLt = sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h7) (iblk1 V c 0 t) (iblk1 V c 1 t) (iblk1 V c 2 t) (iblk1 V c 3 t) (iblk1 V c 4 t) (iblk1 V c 5 t) (accAt1 V c (t.val - 1) (Nat.lt_of_le_of_lt (Nat.sub_le _ _) t.isLt)) := by
  rw [accAt1_pos V c t (fun hz => h0 (by rw [hz]))]
  unfold accStep1
  exact (dif_neg h0).trans (dif_pos h7)

/-- Window 6's buffer after the body at point `t`: in the last column what that case stores, from the accumulator
    as the point before left it; elsewhere the body stores nothing there and nothing consults this value. -/
def out6At1 (c : Dev nD) (t : Fin cfg1.N) : Vec F S1024x10 .f32 :=
  if h7 : t.val % 8 = 7 then
    out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => (by omega : ¬t.val % 8 = 0) ((hcond1_0 t).mp h)) ((hcond1_1 t).mpr h7) (iblk1 V c 0 t) (iblk1 V c 1 t) (iblk1 V c 2 t) (iblk1 V c 3 t) (iblk1 V c 4 t) (iblk1 V c 5 t) (accAt1 V c (t.val - 1) (Nat.lt_of_le_of_lt (Nat.sub_le _ _) t.isLt))
  else VO1_6.read (Elt F) VO1_6.junk

/-- Window 7's buffer after the body at point `t`, likewise. -/
def out7At1 (c : Dev nD) (t : Fin cfg1.N) : Vec F S1024x1 .f32 :=
  if h7 : t.val % 8 = 7 then
    out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => (by omega : ¬t.val % 8 = 0) ((hcond1_0 t).mp h)) ((hcond1_1 t).mpr h7) (iblk1 V c 0 t) (iblk1 V c 1 t) (iblk1 V c 2 t) (iblk1 V c 3 t) (iblk1 V c 4 t) (iblk1 V c 5 t) (accAt1 V c (t.val - 1) (Nat.lt_of_le_of_lt (Nat.sub_le _ _) t.isLt))
  else VO1_7.read (Elt F) VO1_7.junk

theorem out6At1_C (c : Dev nD) (t : Fin cfg1.N) (h0 : ¬t.val % 8 = 0) (h7 : t.val % 8 = 7) :
    out6At1 V c t = out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h7) (iblk1 V c 0 t) (iblk1 V c 1 t) (iblk1 V c 2 t) (iblk1 V c 3 t) (iblk1 V c 4 t) (iblk1 V c 5 t) (accAt1 V c (t.val - 1) (Nat.lt_of_le_of_lt (Nat.sub_le _ _) t.isLt)) := by
  unfold out6At1; exact dif_pos h7
theorem out7At1_C (c : Dev nD) (t : Fin cfg1.N) (h0 : ¬t.val % 8 = 0) (h7 : t.val % 8 = 7) :
    out7At1 V c t = out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h7) (iblk1 V c 0 t) (iblk1 V c 1 t) (iblk1 V c 2 t) (iblk1 V c 3 t) (iblk1 V c 4 t) (iblk1 V c 5 t) (accAt1 V c (t.val - 1) (Nat.lt_of_le_of_lt (Nat.sub_le _ _) t.isLt)) := by
  unfold out7At1; exact dif_pos h7

/-! ## The invariant with the accumulator carried -/

/-- The region's invariant before position `n`: before the first point what the launch hands over (the accumulator at
    anything); afterwards the accumulator owned at what the point before left in it, beside the untouched rest. -/
def PhiS1 (c : Dev nD) : (n : ℕ) → n ≤ cfg1.N → sProp 𝕄
  | 0, _ => Pipeline.ΦA spec1 c
  | n + 1, hn => iprop(owns (c : Thread nD τ) scM1 fullShare (accAt1 V c n hn) ∗ restPhi1 c)

theorem PhiS1_zero (c : Dev nD) (n : ℕ) (h : n ≤ cfg1.N) (hz : n = 0) : PhiS1 V c n h = Pipeline.ΦA spec1 c := by
  subst hz; rfl

/-- After point `n`: the accumulator at that point's contents. -/
theorem PhiS1_succ (c : Dev nD) (n : ℕ) (hn : n < cfg1.N) :
    PhiS1 V c (n + 1) hn = iprop(owns (c : Thread nD τ) scM1 fullShare (accAt1 V c n hn) ∗ restPhi1 c) := rfl

/-- Before a point that is not the first: the accumulator at what the point before left. -/
theorem PhiS1_pos (c : Dev nD) (n : ℕ) (h : n ≤ cfg1.N) (hz : n ≠ 0) :
    PhiS1 V c n h = iprop(owns (c : Thread nD τ) scM1 fullShare (accAt1 V c (n - 1) (by omega)) ∗ restPhi1 c) := by
  cases n with
  | zero => exact absurd rfl hz
  | succ n => rfl

/-! ## The proof data of the pipeline -/

/-- The pipeline's proof data on core `c`: every windowed array as the region finds it; after the body at point `t`
    each input's staging buffer still at its block, window 6's at `out6At1` and window 7's at `out7At1`; the invariant
    the accumulator's recurrence; an array two windows stage is held half and half by them, the others whole; nothing
    owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out6At1 V c t
    | ⟨7, _⟩ => out7At1 V c t
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare.left
    | ⟨5, _⟩ => fullShare.right
    | ⟨6, _⟩ => fullShare
    | ⟨7, _⟩ => fullShare
  owed _ := 0

/-- The proof data's arrays are the contents on entry. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out6At1 V c t := by dsimp only [dat1]
theorem after1_7 (c : Dev nD) (t : Fin cfg1.N) : (dat1 V c).after 7 t = out7At1 V c t := by dsimp only [dat1]

/-- What the body finds in each input's current staging buffer: the window's block at the point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- The shares the pipeline holds of the windows' arrays. -/
theorem q1_0 (c : Dev nD) : (dat1 V c).q 0 = fullShare.left := by dsimp only [dat1]
theorem q1_1 (c : Dev nD) : (dat1 V c).q 1 = fullShare.right := by dsimp only [dat1]
theorem q1_2 (c : Dev nD) : (dat1 V c).q 2 = fullShare := by dsimp only [dat1]
theorem q1_3 (c : Dev nD) : (dat1 V c).q 3 = fullShare := by dsimp only [dat1]
theorem q1_4 (c : Dev nD) : (dat1 V c).q 4 = fullShare.left := by dsimp only [dat1]
theorem q1_5 (c : Dev nD) : (dat1 V c).q 5 = fullShare.right := by dsimp only [dat1]
theorem q1_6 (c : Dev nD) : (dat1 V c).q 6 = fullShare := by dsimp only [dat1]
theorem q1_7 (c : Dev nD) : (dat1 V c).q 7 = fullShare := by dsimp only [dat1]

/-! ## The body obligation at a generic point -/

/-- What the body is called with at point `t`: the invariant, the core's debts, and each window's current staging
    buffer at what it then holds; -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it hands back: a window live at the point at what the body leaves, an idle one as it was found. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point. The inputs' buffers hold their blocks; the point's column says which of the three cases
    runs; the invariant hands the body the accumulator at what the point before left (at anything at the first point)
    and takes it back at this point's contents; off the last column the two results' buffers and window 5's are not
    touched and pass through; in the last column the results' buffers are handed over at anything and taken back at
    what the case stores. The untouched rest and the core's debts pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  rw [show (dat1 V c).leavesExact 4 t = owns (c : Thread nD τ) (ms1_4 t) fullShare ((dat1 V c).after 4 t) from by
      unfold Dat.leavesExact; rw [liveAt1_4 t], after1_4]
  rw [show (dat1 V c).leavesExact 5 t = owns (c : Thread nD τ) (ms1_5 t) fullShare ((dat1 V c).after 5 t) from by
      unfold Dat.leavesExact; rw [liveAt1_5 t], after1_5]
  by_cases h0 : t.val % 8 = 0
  · -- first column
    rw [Dat.leavesExact_idle (dat1 V c) 6 t (idleAt1_6 t (by omega)) (noFlush1_6 t (by omega)),
      Dat.leavesExact_idle (dat1 V c) 7 t (idleAt1_7 t (by omega)) (noFlush1_7 t (by omega))]
    rw [accAt1_A V c t h0]
    unfold sout1_A; (try dsimp only)
    by_cases hz : t.val = 0
    · rw [PhiS1_castSucc V c t, PhiS1_zero V c _ _ hz, PhiA1_eq]
      iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ ((hcond1_0 t).mpr h0) (fun h => (by omega : ¬t.val % 8 = 7) ((hcond1_1 t).mp h)) (iblk1 V c 0 t) (iblk1 V c 1 t) (iblk1 V c 2 t) (iblk1 V c 3 t) (iblk1 V c 4 t)).2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR]
      · isplitl [HS]
        · unfold owns; iexists _; isplitr
          swap; · iexact HS
          ipureintro; exact View.read_writes_of_cover _ _ _ _ _ (scover1_A c _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [PhiS1_castSucc V c t, PhiS1_pos V c _ _ hz]
      iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ ((hcond1_0 t).mpr h0) (fun h => (by omega : ¬t.val % 8 = 7) ((hcond1_1 t).mp h)) (iblk1 V c 0 t) (iblk1 V c 1 t) (iblk1 V c 2 t) (iblk1 V c 3 t) (iblk1 V c 4 t)).2 Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS HR]
      · isplitl [HS]
        · unfold owns; iexists _; isplitr
          swap; · iexact HS
          ipureintro; exact View.read_writes_of_cover _ _ _ _ _ (scover1_A c _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have hz : t.val ≠ 0 := fun hz => h0 (by rw [hz])
    by_cases h7 : t.val % 8 = 7
    · -- last column
      rw [show (dat1 V c).leavesExact 6 t = owns (c : Thread nD τ) (ms1_6 t) fullShare ((dat1 V c).after 6 t) from by
        unfold Dat.leavesExact; rw [liveAt1_6 t h7], after1_6]
      rw [show (dat1 V c).leavesExact 7 t = owns (c : Thread nD τ) (ms1_7 t) fullShare ((dat1 V c).after 7 t) from by
        unfold Dat.leavesExact; rw [liveAt1_7 t h7], after1_7]
      rw [accAt1_C V c t h0 h7, out6At1_C V c t h0 h7, out7At1_C V c t h0 h7]
      unfold sout1_C out1_C_6 out1_C_7; (try dsimp only)
      rw [PhiS1_castSucc V c t, PhiS1_pos V c _ _ hz]
      iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) _ _ _ _ _ _ _ _ _ _ _ _ _ _ _ _ _ _ (fun h => h0 ((hcond1_0 t).mp h)) ((hcond1_1 t).mpr h7) (iblk1 V c 0 t) (iblk1 V c 1 t) (iblk1 V c 2 t) (iblk1 V c 3 t) (iblk1 V c 4 t) (iblk1 V c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      isplitl [H6]; · iexists _; iexact H6
      isplitl [H7]; · iexists _; iexact H7
      iintro ⟨H0, H1, H2, H3, H4, H5, ⟨%es, HS⟩, ⟨%e6, H6⟩, ⟨%e7, H7⟩⟩
      isplitl [HS HR]
      · isplitl [HS]
        · unfold owns; iexists _; isplitr
          swap; · iexact HS
          ipureintro; exact View.read_writes_of_cover _ _ _ _ _ (scover1_C c _ _ _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_C_6 c _ _ _ _ _ _ _ _ _ _ _ _ _ _ _ _ _ _ _ _ _ _ _ _ _ _ _ _)
      unfold owns; iexists _; isplitr
      swap; · iexact H7
      ipureintro; exact View.read_writes_of_cover _ _ _ _ _ (cover1_C_7 c _ _ _ _ _ _ _ _ _ _ _ _ _ _ _ _ _ _ _ _ _ _ _ _ _ _ _ _)
    · -- an inner column
      rw [Dat.leavesExact_idle (dat1 V c) 6 t (idleAt1_6 t h7) (noFlush1_6 t h7),
        Dat.leavesExact_idle (dat1 V c) 7 t (idleAt1_7 t h7) (noFlush1_7 t h7)]
      rw [accAt1_B V c t h0 h7]
      unfold sout1_B; (try dsimp only)
      rw [PhiS1_castSucc V c t, PhiS1_pos V c _ _ hz]
      iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ _ _ (fun h => h0 ((hcond1_0 t).mp h)) (fun h => h7 ((hcond1_1 t).mp h)) (iblk1 V c 0 t) (iblk1 V c 1 t) (iblk1 V c 2 t) (iblk1 V c 3 t) (iblk1 V c 4 t) _).2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR]
      · isplitl [HS]
        · unfold owns; iexists _; isplitr
          swap; · iexact HS
          ipureintro; exact View.read_writes_of_cover _ _ _ _ _ (scover1_B c _ _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The body obligation of the pipeline's loop rule, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the accumulator's contents
    are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HS, HR⟩
  isplitl [HS]
  · iexists _; iexact HS
  iexact HR

/-- The same after the last point. -/
theorem hout1 (c : Dev nD) : (dat1 V c).Φ (Fin.last cfg1.N) ⊢ Pipeline.ΦA spec1 c :=
  Phi1_out V c _ (by rw [Fin.val_last]; have : cfg1.N = 64 := N_1; omega)

/-! ## The cases' contents as the body's arithmetic

Every load in the body reads a whole staging buffer and every store writes one whole, so what a case leaves is the
stored payload itself, with each loaded value the buffer's contents. -/

/-- Every rectangle the body loads or stores through sits at offset zero. -/
theorem offs_zero2 : (![0, 0] : Fin 2 → Nat) = fun _ => 0 := funext fun a => by fin_cases a <;> rfl

/-- First column: the accumulator is cleared (`k1_pay4`, the zero matrix) and the tile's term is added to that. -/
theorem sout1_A_eq (c : Dev nD) (i : grid1.Coords) (arg2 : Memref sig .tc .vmem S1024x10 .f32) (harg2 : arg2.IsWhole) (arg3 : Memref sig .tc .vmem S1024x10 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x10 .f32) (harg6 : arg6.IsWhole) (arg7 : Memref sig .tc .vmem S1024x10 .f32) (harg7 : arg7.IsWhole) (arg8 : Memref sig .tc .vmem S1024x10 .f32) (harg8 : arg8.IsWhole) (arg9 : Memref sig .tc .vmem S1024x1 .f32) (harg9 : arg9.IsWhole) (arg10 : Memref sig .tc .vmem S1024x10 .f32) (harg10 : arg10.IsWhole) (hc0 : cond1_0 i) (hc1 : ¬cond1_1 i)
    (x0 x1 : Vec F S1024x10 .f32) (x2 : Vec F S1024x1 .f32) (x3 : Vec F S1x1024 .f32) (x4 : Vec F S1024x10 .f32) :
    sout1_A c i arg2 harg2 arg3 harg3 arg4 harg4 arg5 harg5 arg6 harg6 arg7 harg7 arg8 harg8 arg9 harg9 arg10 harg10 hc0 hc1 x0 x1 x2 x3 x4 = k1_pay1 (k1_pay5 i x0 x1 x2 x3) (k1_pay4 (F := F)) x4 := by
  unfold sout1_A
  rw [View.read_writes_eq_canon _ _ _ (scover1_A c i arg2 harg2 arg3 harg3 arg4 harg4 arg5 harg5 arg6 harg6 arg7 harg7 arg8 harg8 arg9 harg9 arg10 harg10 hc0 hc1 x0 x1 x2 x3 x4)]
  unfold kernelRun1_A
  dsimp only
  sl_unfold_words
  (try dsimp only)
  rw [View.canon_cons_unit_zero (S := S1024x10) offs_zero2]
  simp only [View.readAt_eq_ld, harg2.read_unread, harg3.read_unread, harg4.read_unread, harg5.read_unread, harg6.read_unread,
    View.ld_unit_zero (S := S1024x10) offs_zero2, View.ld_unit_zero (S := S1024x1) offs_zero2, View.ld_unit_zero (S := S1x1024) offs_zero2,
    View.readCov_unit_zero (S := S1024x10) _ offs_zero2]

/-- An inner column: the tile's term is added to what the accumulator held. -/
theorem sout1_B_eq (c : Dev nD) (i : grid1.Coords) (arg2 : Memref sig .tc .vmem S1024x10 .f32) (harg2 : arg2.IsWhole) (arg3 : Memref sig .tc .vmem S1024x10 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x10 .f32) (harg6 : arg6.IsWhole) (arg7 : Memref sig .tc .vmem S1024x10 .f32) (harg7 : arg7.IsWhole) (arg8 : Memref sig .tc .vmem S1024x10 .f32) (harg8 : arg8.IsWhole) (arg9 : Memref sig .tc .vmem S1024x1 .f32) (harg9 : arg9.IsWhole) (arg10 : Memref sig .tc .vmem S1024x10 .f32) (harg10 : arg10.IsWhole) (hc0 : ¬cond1_0 i) (hc1 : ¬cond1_1 i)
    (x0 x1 : Vec F S1024x10 .f32) (x2 : Vec F S1024x1 .f32) (x3 : Vec F S1x1024 .f32) (x4 : Vec F S1024x10 .f32) (xs : Vec F S1024x10 .f32) :
    sout1_B c i arg2 harg2 arg3 harg3 arg4 harg4 arg5 harg5 arg6 harg6 arg7 harg7 arg8 harg8 arg9 harg9 arg10 harg10 hc0 hc1 x0 x1 x2 x3 x4 xs = k1_pay1 (k1_pay5 i x0 x1 x2 x3) xs x4 := by
  unfold sout1_B
  rw [View.read_writes_eq_canon _ _ _ (scover1_B c i arg2 harg2 arg3 harg3 arg4 harg4 arg5 harg5 arg6 harg6 arg7 harg7 arg8 harg8 arg9 harg9 arg10 harg10 hc0 hc1 x0 x1 x2 x3 x4 xs)]
  unfold kernelRun1_B
  dsimp only
  sl_unfold_words
  (try dsimp only)
  rw [View.canon_unit_zero (S := S1024x10) offs_zero2]
  simp only [View.readAt_eq_ld, harg2.read_unread, harg3.read_unread, harg4.read_unread, harg5.read_unread, harg6.read_unread, harg10.read_unread,
    View.ld_unit_zero (S := S1024x10) offs_zero2, View.ld_unit_zero (S := S1024x1) offs_zero2, View.ld_unit_zero (S := S1x1024) offs_zero2,
    View.readCov_unit_zero (S := S1024x10) _ offs_zero2]

/-- The last column: the same for the accumulator; window 6's block is `k1_pay2` of the finished accumulator and
    window 7's is `k1_pay3` of it and of window 5's block. -/
theorem sout1_C_eq (c : Dev nD) (i : grid1.Coords) (arg2 : Memref sig .tc .vmem S1024x10 .f32) (harg2 : arg2.IsWhole) (arg3 : Memref sig .tc .vmem S1024x10 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x10 .f32) (harg6 : arg6.IsWhole) (arg7 : Memref sig .tc .vmem S1024x10 .f32) (harg7 : arg7.IsWhole) (arg8 : Memref sig .tc .vmem S1024x10 .f32) (harg8 : arg8.IsWhole) (arg9 : Memref sig .tc .vmem S1024x1 .f32) (harg9 : arg9.IsWhole) (arg10 : Memref sig .tc .vmem S1024x10 .f32) (harg10 : arg10.IsWhole) (hc0 : ¬cond1_0 i) (hc1 : cond1_1 i)
    (x0 x1 : Vec F S1024x10 .f32) (x2 : Vec F S1024x1 .f32) (x3 : Vec F S1x1024 .f32) (x4 : Vec F S1024x10 .f32) (x5 xs : Vec F S1024x10 .f32) :
    sout1_C c i arg2 harg2 arg3 harg3 arg4 harg4 arg5 harg5 arg6 harg6 arg7 harg7 arg8 harg8 arg9 harg9 arg10 harg10 hc0 hc1 x0 x1 x2 x3 x4 x5 xs = k1_pay1 (k1_pay5 i x0 x1 x2 x3) xs x4 := by
  unfold sout1_C
  rw [View.read_writes_eq_canon _ _ _ (scover1_C c i arg2 harg2 arg3 harg3 arg4 harg4 arg5 harg5 arg6 harg6 arg7 harg7 arg8 harg8 arg9 harg9 arg10 harg10 hc0 hc1 x0 x1 x2 x3 x4 x5 xs)]
  unfold kernelRun1_C
  dsimp only
  sl_unfold_words
  (try dsimp only)
  rw [View.canon_unit_zero (S := S1024x10) offs_zero2]
  simp only [View.readAt_eq_ld, harg2.read_unread, harg3.read_unread, harg4.read_unread, harg5.read_unread, harg6.read_unread, harg7.read_unread, harg10.read_unread,
    View.ld_unit_zero (S := S1024x10) offs_zero2, View.ld_unit_zero (S := S1024x1) offs_zero2, View.ld_unit_zero (S := S1x1024) offs_zero2,
    View.readCov_unit_zero (S := S1024x10) _ offs_zero2]

theorem out1_C_6_eq (c : Dev nD) (i : grid1.Coords) (arg2 : Memref sig .tc .vmem S1024x10 .f32) (harg2 : arg2.IsWhole) (arg3 : Memref sig .tc .vmem S1024x10 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x10 .f32) (harg6 : arg6.IsWhole) (arg7 : Memref sig .tc .vmem S1024x10 .f32) (harg7 : arg7.IsWhole) (arg8 : Memref sig .tc .vmem S1024x10 .f32) (harg8 : arg8.IsWhole) (arg9 : Memref sig .tc .vmem S1024x1 .f32) (harg9 : arg9.IsWhole) (arg10 : Memref sig .tc .vmem S1024x10 .f32) (harg10 : arg10.IsWhole) (hc0 : ¬cond1_0 i) (hc1 : cond1_1 i)
    (x0 x1 : Vec F S1024x10 .f32) (x2 : Vec F S1024x1 .f32) (x3 : Vec F S1x1024 .f32) (x4 : Vec F S1024x10 .f32) (x5 xs : Vec F S1024x10 .f32) :
    out1_C_6 c i arg2 harg2 arg3 harg3 arg4 harg4 arg5 harg5 arg6 harg6 arg7 harg7 arg8 harg8 arg9 harg9 arg10 harg10 hc0 hc1 x0 x1 x2 x3 x4 x5 xs = k1_pay2 (k1_pay1 (k1_pay5 i x0 x1 x2 x3) xs x4) := by
  unfold out1_C_6
  rw [View.read_writes_eq_canon _ _ _ (cover1_C_6 c i arg2 harg2 arg3 harg3 arg4 harg4 arg5 harg5 arg6 harg6 arg7 harg7 arg8 harg8 arg9 harg9 arg10 harg10 hc0 hc1 x0 x1 x2 x3 x4 x5 xs)]
  unfold kernelRun1_C
  dsimp only
  sl_unfold_words
  (try dsimp only)
  rw [View.canon_unit_zero (S := S1024x10) offs_zero2]
  simp only [View.readAt_eq_ld, harg2.read_unread, harg3.read_unread, harg4.read_unread, harg5.read_unread, harg6.read_unread, harg7.read_unread, harg10.read_unread,
    View.ld_unit_zero (S := S1024x10) offs_zero2, View.ld_unit_zero (S := S1024x1) offs_zero2, View.ld_unit_zero (S := S1x1024) offs_zero2,
    View.readCov_unit_zero (S := S1024x10) _ offs_zero2]

theorem out1_C_7_eq (c : Dev nD) (i : grid1.Coords) (arg2 : Memref sig .tc .vmem S1024x10 .f32) (harg2 : arg2.IsWhole) (arg3 : Memref sig .tc .vmem S1024x10 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x10 .f32) (harg6 : arg6.IsWhole) (arg7 : Memref sig .tc .vmem S1024x10 .f32) (harg7 : arg7.IsWhole) (arg8 : Memref sig .tc .vmem S1024x10 .f32) (harg8 : arg8.IsWhole) (arg9 : Memref sig .tc .vmem S1024x1 .f32) (harg9 : arg9.IsWhole) (arg10 : Memref sig .tc .vmem S1024x10 .f32) (harg10 : arg10.IsWhole) (hc0 : ¬cond1_0 i) (hc1 : cond1_1 i)
    (x0 x1 : Vec F S1024x10 .f32) (x2 : Vec F S1024x1 .f32) (x3 : Vec F S1x1024 .f32) (x4 : Vec F S1024x10 .f32) (x5 xs : Vec F S1024x10 .f32) :
    out1_C_7 c i arg2 harg2 arg3 harg3 arg4 harg4 arg5 harg5 arg6 harg6 arg7 harg7 arg8 harg8 arg9 harg9 arg10 harg10 hc0 hc1 x0 x1 x2 x3 x4 x5 xs = k1_pay3 (k1_pay1 (k1_pay5 i x0 x1 x2 x3) xs x4) x5 := by
  unfold out1_C_7
  rw [View.read_writes_eq_canon _ _ _ (cover1_C_7 c i arg2 harg2 arg3 harg3 arg4 harg4 arg5 harg5 arg6 harg6 arg7 harg7 arg8 harg8 arg9 harg9 arg10 harg10 hc0 hc1 x0 x1 x2 x3 x4 x5 xs)]
  unfold kernelRun1_C
  dsimp only
  sl_unfold_words
  (try dsimp only)
  rw [View.canon_unit_zero (S := S1024x1) offs_zero2]
  simp only [View.readAt_eq_ld, harg2.read_unread, harg3.read_unread, harg4.read_unread, harg5.read_unread, harg6.read_unread, harg7.read_unread, harg10.read_unread,
    View.ld_unit_zero (S := S1024x10) offs_zero2, View.ld_unit_zero (S := S1024x1) offs_zero2, View.ld_unit_zero (S := S1x1024) offs_zero2,
    View.readCov_unit_zero (S := S1024x10) _ offs_zero2]

/-! ## The recurrence and the two results, in the body's arithmetic -/

/-- In the first column the accumulator restarts: the tile's term added to the zero matrix. -/
theorem accAt1_A_eq (c : Dev nD) (t : Fin cfg1.N) (h0 : t.val % 8 = 0) :
    accAt1 V c t.val t.isLt = k1_pay1 (k1_pay5 (grid1.coords t) (iblk1 V c 0 t) (iblk1 V c 1 t) (iblk1 V c 2 t) (iblk1 V c 3 t)) (k1_pay4 (F := F)) (iblk1 V c 4 t) :=
  (accAt1_A V c t h0).trans
    (sout1_A_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((hcond1_0 t).mpr h0) (fun h => (by omega : ¬t.val % 8 = 7) ((hcond1_1 t).mp h)) (iblk1 V c 0 t) (iblk1 V c 1 t) (iblk1 V c 2 t) (iblk1 V c 3 t) (iblk1 V c 4 t))

/-- In every other column the tile's term is added to what the point before left. -/
theorem accAt1_BC_eq (c : Dev nD) (t : Fin cfg1.N) (h0 : ¬t.val % 8 = 0) :
    accAt1 V c t.val t.isLt = k1_pay1 (k1_pay5 (grid1.coords t) (iblk1 V c 0 t) (iblk1 V c 1 t) (iblk1 V c 2 t) (iblk1 V c 3 t)) (accAt1 V c (t.val - 1) (Nat.lt_of_le_of_lt (Nat.sub_le _ _) t.isLt)) (iblk1 V c 4 t) := by
  by_cases h7 : t.val % 8 = 7
  · exact (accAt1_C V c t h0 h7).trans
      (sout1_C_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h7) (iblk1 V c 0 t) (iblk1 V c 1 t) (iblk1 V c 2 t) (iblk1 V c 3 t) (iblk1 V c 4 t) (iblk1 V c 5 t) (accAt1 V c (t.val - 1) (Nat.lt_of_le_of_lt (Nat.sub_le _ _) t.isLt)))
  · exact (accAt1_B V c t h0 h7).trans
      (sout1_B_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) (fun h => h7 ((hcond1_1 t).mp h)) (iblk1 V c 0 t) (iblk1 V c 1 t) (iblk1 V c 2 t) (iblk1 V c 3 t) (iblk1 V c 4 t) (accAt1 V c (t.val - 1) (Nat.lt_of_le_of_lt (Nat.sub_le _ _) t.isLt)))

/-- In the last column window 6's block is `k1_pay2` of the accumulator as this point leaves it, -/
theorem out6At1_eq (c : Dev nD) (t : Fin cfg1.N) (h7 : t.val % 8 = 7) :
    out6At1 V c t = k1_pay2 (accAt1 V c t.val t.isLt) := by
  have h0 : ¬t.val % 8 = 0 := by omega
  rw [accAt1_BC_eq V c t h0]
  exact (out6At1_C V c t h0 h7).trans
    (out1_C_6_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h7) (iblk1 V c 0 t) (iblk1 V c 1 t) (iblk1 V c 2 t) (iblk1 V c 3 t) (iblk1 V c 4 t) (iblk1 V c 5 t) (accAt1 V c (t.val - 1) (Nat.lt_of_le_of_lt (Nat.sub_le _ _) t.isLt)))

/-- and window 7's is `k1_pay3` of it and of window 5's block. -/
theorem out7At1_eq (c : Dev nD) (t : Fin cfg1.N) (h7 : t.val % 8 = 7) :
    out7At1 V c t = k1_pay3 (accAt1 V c t.val t.isLt) (iblk1 V c 5 t) := by
  have h0 : ¬t.val % 8 = 0 := by omega
  rw [accAt1_BC_eq V c t h0]
  exact (out7At1_C V c t h0 h7).trans
    (out1_C_7_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h7) (iblk1 V c 0 t) (iblk1 V c 1 t) (iblk1 V c 2 t) (iblk1 V c 3 t) (iblk1 V c 4 t) (iblk1 V c 5 t) (accAt1 V c (t.val - 1) (Nat.lt_of_le_of_lt (Nat.sub_le _ _) t.isLt)))

end Region

end Cert.KernelIdeal.Hand

end
-- ==== Proof.KernelIdeal.WholeRun.lean ====
/-
  The whole program as a run: @main is a host stretch, the first kernel region, two host stretches, the
  second kernel region and a host tail. Each region is a segment record over the thread state "every
  unscoped buffer at the contents this point of @main has reached, the generator register at some
  state, nothing owed": region 0 with distinct arrays, region 1 with two of its buffers each read
  through two windows. The launch over those records gives the final memory at every unscoped
  buffer; read at the arguments it is the frame.
-/
import proofs.«423389_j72705206387155_1_alg».proof.Proof.KernelIdeal.RunCond
import proofs.«423389_j72705206387155_1_alg».proof.Proof.KernelIdeal.MlpRegion
import proofs.«423389_j72705206387155_1_alg».proof.Proof.KernelIdeal.DistRegion
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two regions are entered from, and what they leave -/

/-- Region 0 is entered from the launch contents carried through the first host stretch. -/
abbrev entry0 : (c : Dev nD) → (b : Ref sig .tc) → Buf (Elt F) ((c : Thread nD τ).loc b) := fun c b => V1 m c b

/-- The launch contents at a reference, per core: the value at the references no region changes. -/
abbrev launchAt : (r : Ref sig .tc) → (c : Dev nD) → Buf (Elt F) ((c : Thread nD τ).loc r) := fun r c => m ((c : Thread nD τ).loc r)

/-- What region 0 leaves: its two output arrays after all eight write-backs. -/
def outs0 : Outs (F := F) := fun _ =>
  Function.update (β := fun r : Ref sig .tc => (c : Dev nD) → Buf (Elt F) ((c : Thread nD τ).loc r))
    (Function.update (β := fun r : Ref sig .tc => (c : Dev nD) → Buf (Elt F) ((c : Thread nD τ).loc r)) (launchAt m) main_v3_0
      (fun c => (dat0 (entry0 m) c).arrAt 7 cfg0.N))
    main_v3_1 (fun c => (dat0 (entry0 m) c).arrAt 8 cfg0.N)

theorem outs0_z (J : ℕ) (c : Dev nD) : outs0 m J main_v3_0 c = (dat0 (entry0 m) c).arrAt 7 cfg0.N := by
  dsimp only [outs0]; rw [Function.update_of_ne (by decide : main_v3_0 ≠ main_v3_1), Function.update_self]
theorem outs0_n (J : ℕ) (c : Dev nD) : outs0 m J main_v3_1 c = (dat0 (entry0 m) c).arrAt 8 cfg0.N := by
  dsimp only [outs0]; rw [Function.update_self]

/-- Region 1 is entered from those contents carried through the two host stretches between the regions. -/
abbrev entry1 : (c : Dev nD) → (b : Ref sig .tc) → Buf (Elt F) ((c : Thread nD τ).loc b) := fun c b => V4 m (outs0 m) c b

/-- What both regions leave: region 0's two arrays, and region 1's two output arrays after its write-backs. -/
def outsAll : Outs (F := F) := fun _ =>
  Function.update (β := fun r : Ref sig .tc => (c : Dev nD) → Buf (Elt F) ((c : Thread nD τ).loc r))
    (Function.update (β := fun r : Ref sig .tc => (c : Dev nD) → Buf (Elt F) ((c : Thread nD τ).loc r))
      (Function.update (β := fun r : Ref sig .tc => (c : Dev nD) → Buf (Elt F) ((c : Thread nD τ).loc r))
        (Function.update (β := fun r : Ref sig .tc => (c : Dev nD) → Buf (Elt F) ((c : Thread nD τ).loc r)) (launchAt m) main_v3_0
          (fun c => (dat0 (entry0 m) c).arrAt 7 cfg0.N))
        main_v3_1 (fun c => (dat0 (entry0 m) c).arrAt 8 cfg0.N))
      main_v6_0 (fun c => (dat1 (entry1 m) c).arrAt 6 cfg1.N))
    main_v6_1 (fun c => (dat1 (entry1 m) c).arrAt 7 cfg1.N)

theorem outsAll_z (J : ℕ) (c : Dev nD) : outsAll m J main_v3_0 c = (dat0 (entry0 m) c).arrAt 7 cfg0.N := by
  dsimp only [outsAll]
  rw [Function.update_of_ne (by decide : main_v3_0 ≠ main_v6_1), Function.update_of_ne (by decide : main_v3_0 ≠ main_v6_0),
    Function.update_of_ne (by decide : main_v3_0 ≠ main_v3_1), Function.update_self]
theorem outsAll_n (J : ℕ) (c : Dev nD) : outsAll m J main_v3_1 c = (dat0 (entry0 m) c).arrAt 8 cfg0.N := by
  dsimp only [outsAll]
  rw [Function.update_of_ne (by decide : main_v3_1 ≠ main_v6_1), Function.update_of_ne (by decide : main_v3_1 ≠ main_v6_0), Function.update_self]
theorem outsAll_p (J : ℕ) (c : Dev nD) : outsAll m J main_v6_0 c = (dat1 (entry1 m) c).arrAt 6 cfg1.N := by
  dsimp only [outsAll]
  rw [Function.update_of_ne (by decide : main_v6_0 ≠ main_v6_1), Function.update_self]
theorem outsAll_l (J : ℕ) (c : Dev nD) : outsAll m J main_v6_1 c = (dat1 (entry1 m) c).arrAt 7 cfg1.N := by
  dsimp only [outsAll]; rw [Function.update_self]

/-- Up to region 1 only region 0's outputs are read: the two families give the same contents there. -/
theorem V2_all (c : Dev nD) : V2 m (outsAll m) c = V2 m (outs0 m) c := by
  simp only [V2, outsAll_z, outsAll_n, outs0_z, outs0_n]
theorem V4_all (c : Dev nD) : V4 m (outsAll m) c = V4 m (outs0 m) c := by
  show StableHlo.after hostOps1_1 (StableHlo.after hostOps1 (V2 m (outsAll m) c)) = StableHlo.after hostOps1_1 (StableHlo.after hostOps1 (V2 m (outs0 m) c))
  rw [V2_all]

/-! ## The proof data family and what rides along -/

/-- Each pipeline's proof data at its region's entry contents: a literal match, so that the configuration at a numeral
    reduces to the printed one. -/
def pdats : (p : Fin 2) → (c : Dev nD) → Dat τ (Elt F) Unit ℕ (UR sig nD τ) ℕ (cfgs p) c
  | ⟨0, _⟩ => fun c => dat0 (entry0 m) c
  | ⟨1, _⟩ => fun c => dat1 (entry1 m) c

/-- No core owes another anything: no level is assigned. -/
abbrev noLevels : GSem nD τ sig → Finset Unit := fun _ => ∅
abbrev levelZero : GSem nD τ sig → Unit → ℕ := fun _ _ => 0
/-- What rides beside the buffers through every item: the generator register at some state, and nothing owed. -/
abbrev alongside (c : Dev nD) : sProp 𝕄 := iprop((∃ r, prngReg c r) ∗ ∃ W, owes (c : Thread nD τ) (0 : CellTallies nD τ sig Unit) W)

/-! ## Region 0 as a segment -/

/-- After region 0 each of its arrays holds what the pipeline leaves: an input its entry contents, an output its
    write-backs folded. -/
theorem exit0_in (c : Dev nD) (w : Fin cfg0.W) (hin : (cfg0.win w).isOut = false)
    (hne : Pipeline.arrRef spec0 w ∉ ([main_v3_0, main_v3_1] : List (Ref sig .tc))) :
    (pdats m 0 c).arrAt w cfg0.N = V2 m (outsAll m) c (Pipeline.arrRef spec0 w) :=
  ((dat0 (entry0 m) c).arrAt_in w hin _).trans ((A_eq0 (entry0 m) c w).trans (V2_of m (outsAll m) c _ hne).symm)

theorem exit0 (c : Dev nD) (w : Fin cfg0.W) : (pdats m 0 c).arrAt w cfg0.N = V2 m (outsAll m) c (Pipeline.arrRef spec0 w) :=
  match w with
  | ⟨0, _⟩ => exit0_in m c 0 rfl (by decide)
  | ⟨1, _⟩ => exit0_in m c 1 rfl (by decide)
  | ⟨2, _⟩ => exit0_in m c 2 rfl (by decide)
  | ⟨3, _⟩ => exit0_in m c 3 rfl (by decide)
  | ⟨4, _⟩ => exit0_in m c 4 rfl (by decide)
  | ⟨5, _⟩ => exit0_in m c 5 rfl (by decide)
  | ⟨6, _⟩ => exit0_in m c 6 rfl (by decide)
  | ⟨7, _⟩ => by
    show (dat0 (entry0 m) c).arrAt 7 cfg0.N = V2 m (outsAll m) c main_v3_0
    simp only [V2, Function.update_of_ne (StableHlo.devRef_ne_of_ne (by decide : main_v3_0 ≠ main_v3_1) : (Proc.devRef .tc main_v3_0 : DevRef τ sig) ≠ Proc.devRef .tc main_v3_1), Function.update_self, outsAll_z]
  | ⟨8, _⟩ => by
    show (dat0 (entry0 m) c).arrAt 8 cfg0.N = V2 m (outsAll m) c main_v3_1
    simp only [V2, Function.update_self, outsAll_n]

theorem rest0 (c : Dev nD) : ∀ b, b ∉ Finset.univ.image (Pipeline.arrRef spec0) → V2 m (outsAll m) c b = V1 m c b :=
  fun b hb => V2_of m (outsAll m) c b fun h => by
    rcases List.mem_cons.mp h with h | h
    · exact hb (Finset.mem_image.mpr ⟨7, Finset.mem_univ _, h.symm⟩)
    · exact hb (Finset.mem_image.mpr ⟨8, Finset.mem_univ _, (List.mem_singleton.mp h).symm⟩)

set_option backward.isDefEq.respectTransparency.types false in
/-- REGION 0 over the thread state: entered from every unscoped buffer at the contents after the first host stretch,
    left at those with its two output arrays at what its write-backs leave. Its arrays are split out of the unscoped
    buffers and put back at the exit contents; the generator register goes into the region's invariant and comes out;
    nothing is owed; the kernel has no semaphore of its own. -/
def reg0 : RegionSeg (pcfgs (F := F)) adm (pdats m) () defs₀ Variants.none noLevels levelZero 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ noLevels levelZero 0 fun _ _ => rfl
  pre c := iprop(StableHlo.held (c : Thread nD τ) (Pipeline.ucRefs τ sig) (V1 m c) ∗ alongside c)
  post c := iprop(StableHlo.held (c : Thread nD τ) (Pipeline.ucRefs τ sig) (V2 m (outsAll m) c) ∗ alongside c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (fun b => V2 m (outsAll m) c b) ((pdats m 0 c).arrAt · cfg0.N) (exit0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 as a segment

Two of its windows read one array, twice: the `z` rows block and the `z` columns block come from one buffer, and so do
the two blocks of the class indicator. Each such buffer, held whole at the full share at entry, is split into two
half shares, one per window, and joined again at the exit. -/

/-- The six distinct buffers behind region 1's eight windows, one by one. -/
theorem arrBufs1_eq (c : Dev nD) (W : (b : Ref sig .tc) → Buf (Elt F) ((c.tc : Thread nD τ).loc b)) :
    (Pipeline.arrBufs (Ix := Unit) (Name := ℕ) (U := UR sig nD τ) (Lvl := ℕ) spec1 c W : sProp 𝕄)
      = iprop((((c : Thread nD τ).loc main_v3_0) ↦{fullShare} W main_v3_0) ∗ (((c : Thread nD τ).loc main_v3_1) ↦{fullShare} W main_v3_1)
          ∗ (((c : Thread nD τ).loc main_v5) ↦{fullShare} W main_v5) ∗ (((c : Thread nD τ).loc main_v4) ↦{fullShare} W main_v4)
          ∗ (((c : Thread nD τ).loc main_v6_0) ↦{fullShare} W main_v6_0) ∗ (((c : Thread nD τ).loc main_v6_1) ↦{fullShare} W main_v6_1)) := by
  unfold Pipeline.arrBufs
  exact bigSep_eq_bigSepL_of_eq [main_v3_0, main_v3_1, main_v5, main_v4, main_v6_0, main_v6_1] (by decide) (by decide) _

/-- Each window's share of its array: a half where two windows read one buffer, the full share elsewhere. -/
theorem share1_0 (c : Dev nD) : (pdats m 1 c).share 0 = fullShare.left := by
  unfold Dat.share; rw [if_neg (by decide)]; exact q1_0 (entry1 m) c
theorem share1_1 (c : Dev nD) : (pdats m 1 c).share 1 = fullShare.right := by
  unfold Dat.share; rw [if_neg (by decide)]; exact q1_1 (entry1 m) c
theorem share1_2 (c : Dev nD) : (pdats m 1 c).share 2 = fullShare := by
  unfold Dat.share; rw [if_neg (by decide)]; exact q1_2 (entry1 m) c
theorem share1_3 (c : Dev nD) : (pdats m 1 c).share 3 = fullShare := by
  unfold Dat.share; rw [if_neg (by decide)]; exact q1_3 (entry1 m) c
theorem share1_4 (c : Dev nD) : (pdats m 1 c).share 4 = fullShare.left := by
  unfold Dat.share; rw [if_neg (by decide)]; exact q1_4 (entry1 m) c
theorem share1_5 (c : Dev nD) : (pdats m 1 c).share 5 = fullShare.right := by
  unfold Dat.share; rw [if_neg (by decide)]; exact q1_5 (entry1 m) c
theorem share1_6 (c : Dev nD) : (pdats m 1 c).share 6 = fullShare := by
  unfold Dat.share; rw [if_pos (by decide)]
theorem share1_7 (c : Dev nD) : (pdats m 1 c).share 7 = fullShare := by
  unfold Dat.share; rw [if_pos (by decide)]

/-- Region 1's arrays window by window: each window's array is a whole buffer, held at the window's share. -/
theorem arrays1_eq (c : Dev nD) (G : (w : Fin cfg1.W) → Buf (Elt F) ((cfg1.win w).arr.view.loc (c.tc : Thread nD τ))) :
    ((pdats m 1 c).arrays G : sProp 𝕄)
      = iprop((((c : Thread nD τ).loc main_v3_0) ↦{fullShare.left} G 0) ∗ (((c : Thread nD τ).loc main_v3_0) ↦{fullShare.right} G 1)
          ∗ (((c : Thread nD τ).loc main_v3_1) ↦{fullShare} G 2) ∗ (((c : Thread nD τ).loc main_v5) ↦{fullShare} G 3)
          ∗ (((c : Thread nD τ).loc main_v4) ↦{fullShare.left} G 4) ∗ (((c : Thread nD τ).loc main_v4) ↦{fullShare.right} G 5)
          ∗ (((c : Thread nD τ).loc main_v6_0) ↦{fullShare} G 6) ∗ (((c : Thread nD τ).loc main_v6_1) ↦{fullShare} G 7)) := by
  have h : ((pdats m 1 c).arrays G : sProp 𝕄)
      = bigSep Finset.univ fun w : Fin cfg1.W => ((((c : Thread nD τ).loc (Pipeline.arrRef spec1 w)) ↦{(pdats m 1 c).share w} G w : sProp 𝕄)) := by
    unfold Dat.arrays
    exact bigSep_congr fun w _ => by
      have hw : ((cfgs (1 : Fin 2)).win w).arr.IsWhole := arr_whole1 w
      rw [hw.set_eq_univ]; rfl
  rw [h, bigSep_W1]
  simp only [share1_0 m c, share1_1 m c, share1_2 m c, share1_3 m c, share1_4 m c, share1_5 m c, share1_6 m c, share1_7 m c]
  try rfl

/-- At entry each of region 1's arrays holds the entry contents of its buffer. -/
theorem entry1_arr (c : Dev nD) (w : Fin cfg1.W) : (pdats m 1 c).arrAt w 0 = entry1 m c (Pipeline.arrRef spec1 w) :=
  A_eq1 (entry1 m) c w

/-- At exit an input array still holds them. -/
theorem exit1_in (c : Dev nD) (w : Fin cfg1.W) (hin : (cfg1.win w).isOut = false) (t : ℕ) :
    (pdats m 1 c).arrAt w t = entry1 m c (Pipeline.arrRef spec1 w) :=
  ((dat1 (entry1 m) c).arrAt_in w hin t).trans (A_eq1 (entry1 m) c w)

/-- Outside region 1's two output arrays the contents after the region are those before it. -/
theorem rest1 (c : Dev nD) (b : Ref sig .tc) (hb : b ∉ ([main_v6_0, main_v6_1] : List (Ref sig .tc))) :
    V5 m (outsAll m) c b = entry1 m c b :=
  (V5_of m (outsAll m) c b hb).trans (congrFun (V4_all m c) _)

/-- ENTRY, the arrays' part: the six buffers at any contents `W` make region 1's arrays at window contents `G` that are
    those buffers' — a buffer read through two windows split into two half shares. -/
theorem split1 (c : Dev nD) (W : (b : Ref sig .tc) → Buf (Elt F) ((c.tc : Thread nD τ).loc b))
    (G : (w : Fin cfg1.W) → Buf (Elt F) ((cfg1.win w).arr.view.loc (c.tc : Thread nD τ)))
    (h0 : G 0 = W main_v3_0) (h1 : G 1 = W main_v3_0) (h2 : G 2 = W main_v3_1) (h3 : G 3 = W main_v5)
    (h4 : G 4 = W main_v4) (h5 : G 5 = W main_v4) (h6 : G 6 = W main_v6_0) (h7 : G 7 = W main_v6_1) :
    (Pipeline.arrBufs (Ix := Unit) (Name := ℕ) (U := UR sig nD τ) (Lvl := ℕ) spec1 c W : sProp 𝕄) ⊢ (pdats m 1 c).arrays G := by
  rw [arrBufs1_eq, arrays1_eq, h0, h1, h2, h3, h4, h5, h6, h7]
  iintro ⟨Hz, Hn, Hr, Hm, Hp6, Hp7⟩
  ihave Hz' := (pointsTo_share (PosShare.mem_left_op_right fullShare)).1 $$ Hz
  icases Hz' with ⟨Hz0, Hz1⟩
  ihave Hm' := (pointsTo_share (PosShare.mem_left_op_right fullShare)).1 $$ Hm
  icases Hm' with ⟨Hm0, Hm1⟩
  isplitl [Hz0]; · iexact Hz0
  isplitl [Hz1]; · iexact Hz1
  isplitl [Hn]; · iexact Hn
  isplitl [Hr]; · iexact Hr
  isplitl [Hm0]; · iexact Hm0
  isplitl [Hm1]; · iexact Hm1
  isplitl [Hp6]; · iexact Hp6
  iexact Hp7

/-- EXIT, the arrays' part: region 1's arrays at window contents `G` that are the six buffers' contents `W` make
    those buffers whole at the full share — the two halves of a shared buffer joined. -/
theorem join1 (c : Dev nD) (W : (b : Ref sig .tc) → Buf (Elt F) ((c.tc : Thread nD τ).loc b))
    (G : (w : Fin cfg1.W) → Buf (Elt F) ((cfg1.win w).arr.view.loc (c.tc : Thread nD τ)))
    (h0 : G 0 = W main_v3_0) (h1 : G 1 = W main_v3_0) (h2 : G 2 = W main_v3_1) (h3 : G 3 = W main_v5)
    (h4 : G 4 = W main_v4) (h5 : G 5 = W main_v4) (h6 : G 6 = W main_v6_0) (h7 : G 7 = W main_v6_1) :
    ((pdats m 1 c).arrays G : sProp 𝕄) ⊢ Pipeline.arrBufs (Ix := Unit) (Name := ℕ) (U := UR sig nD τ) (Lvl := ℕ) spec1 c W := by
  rw [arrBufs1_eq, arrays1_eq, h0, h1, h2, h3, h4, h5, h6, h7]
  iintro ⟨Hz0, Hz1, Hn, Hr, Hm0, Hm1, Hp6, Hp7⟩
  ihave Hz := (pointsTo_share (PosShare.mem_left_op_right fullShare)).2 $$ [Hz0 Hz1]
  · isplitl [Hz0] <;> iassumption
  ihave Hm := (pointsTo_share (PosShare.mem_left_op_right fullShare)).2 $$ [Hm0 Hm1]
  · isplitl [Hm0] <;> iassumption
  isplitl [Hz]; · iexact Hz
  isplitl [Hn]; · iexact Hn
  isplitl [Hr]; · iexact Hr
  isplitl [Hm]; · iexact Hm
  isplitl [Hp6]; · iexact Hp6
  iexact Hp7

/-- After region 1 its two output buffers hold what its write-backs leave. -/
theorem V5_posterior (c : Dev nD) : V5 m (outsAll m) c main_v6_0 = (dat1 (entry1 m) c).arrAt 6 cfg1.N := by
  simp only [V5, Function.update_of_ne (StableHlo.devRef_ne_of_ne (by decide : main_v6_0 ≠ main_v6_1) : (Proc.devRef .tc main_v6_0 : DevRef τ sig) ≠ Proc.devRef .tc main_v6_1), Function.update_self, outsAll_p]
theorem V5_rowLoss (c : Dev nD) : V5 m (outsAll m) c main_v6_1 = (dat1 (entry1 m) c).arrAt 7 cfg1.N := by
  simp only [V5, Function.update_self, outsAll_l]

/-- The thread state before region 1 is its six array buffers and the rest, at the entry contents. -/
theorem held_entry1 (c : Dev nD) : (StableHlo.held (c : Thread nD τ) (Pipeline.ucRefs τ sig) (V4 m (outsAll m) c) : sProp 𝕄)
    = iprop(Pipeline.arrBufs (Ix := Unit) (Name := ℕ) (U := UR sig nD τ) (Lvl := ℕ) spec1 c (entry1 m c) ∗ Pipeline.unscopedRest spec1 c (entry1 m c)) := by
  have h := Pipeline.unscopedBufs_split₀ (nD := nD) (τ := τ) (Val := Elt F) (Ix := Unit) (Name := ℕ) (U := UR sig nD τ) (Lvl := ℕ)
    cfgs (1 : Fin 2) (by decide) c (entry1 m c)
  rw [Pipeline.unscopedBufs_held] at h
  rw [V4_all m c]
  exact h

/-- The thread state after region 1 is its six array buffers at the exit contents and the rest as before the region. -/
theorem held_exit1 (c : Dev nD) : (StableHlo.held (c : Thread nD τ) (Pipeline.ucRefs τ sig) (V5 m (outsAll m) c) : sProp 𝕄)
    = iprop(Pipeline.arrBufs (Ix := Unit) (Name := ℕ) (U := UR sig nD τ) (Lvl := ℕ) spec1 c (fun b => V5 m (outsAll m) c b) ∗ Pipeline.unscopedRest spec1 c (entry1 m c)) := by
  have h := Pipeline.unscopedBufs_split₀ (nD := nD) (τ := τ) (Val := Elt F) (Ix := Unit) (Name := ℕ) (U := UR sig nD τ) (Lvl := ℕ)
    cfgs (1 : Fin 2) (by decide) c (fun b => V5 m (outsAll m) c b)
  rw [Pipeline.unscopedBufs_held] at h
  have hrest : (Pipeline.unscopedRest (Ix := Unit) (Name := ℕ) (U := UR sig nD τ) (Lvl := ℕ) spec1 c (fun b => V5 m (outsAll m) c b) : sProp 𝕄)
      = Pipeline.unscopedRest spec1 c (entry1 m c) := by
    unfold Pipeline.unscopedRest
    exact bigSep_congr fun b hb => by
      dsimp only
      rw [rest1 m c b fun h => (Finset.mem_sdiff.mp hb).2 (by
        rcases List.mem_cons.mp h with h | h
        · exact Finset.mem_image.mpr ⟨6, Finset.mem_univ _, h.symm⟩
        · exact Finset.mem_image.mpr ⟨7, Finset.mem_univ _, (List.mem_singleton.mp h).symm⟩)]
  rw [← hrest]
  exact h

set_option maxHeartbeats 1000000 in
set_option backward.isDefEq.respectTransparency.types false in
/-- REGION 1 over the thread state: entered from every unscoped buffer at the contents after the host stretches between the
    regions, left at those with its two output arrays at what its write-backs leave. -/
def reg1 : RegionSeg (pcfgs (F := F)) adm (pdats m) () defs₀ Variants.none noLevels levelZero 1 where
  win := winFacts₀1
  block_pos := block_pos1
  stage_whole := stage_whole1
  K := PEmpty
  osem k := k.elim
  ho := Pipeline.OwnSemFacts.none _
  hbody c := (body_obligation1 (entry1 m) c).loose
  hwaits := Pipeline.hwaits_of_owed_zero _ _ _ _ noLevels levelZero 1 fun _ _ => rfl
  pre c := iprop(StableHlo.held (c : Thread nD τ) (Pipeline.ucRefs τ sig) (V4 m (outsAll m) c) ∗ alongside c)
  post c := iprop(StableHlo.held (c : Thread nD τ) (Pipeline.ucRefs τ sig) (V5 m (outsAll m) c) ∗ alongside c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none, held_entry1 m c]
    have hs := split1 m c (entry1 m c) ((pdats m 1 c).arrAt · 0)
      (entry1_arr m c 0) (entry1_arr m c 1) (entry1_arr m c 2) (entry1_arr m c 3) (entry1_arr m c 4) (entry1_arr m c 5) (entry1_arr m c 6) (entry1_arr m c 7)
    iintro ⟨⟨⟨Hb, Hrest⟩, Hp, HO⟩, -, -⟩
    ihave Ha := hs $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (entry1 m) c)
    unfold Pipeline.ΦA
    iintro ⟨Hp, -, Hr⟩
    isplitl [Hr]; · iexact Hr
    iexact Hp
  hout c := by
    rw [Pipeline.ownSems0_none]
    refine (hout1 (entry1 m) c).trans ?_
    unfold Pipeline.ΦA
    iintro ⟨Hr, Hp⟩
    isplitl [Hp]; · iexact Hp
    isplitr; · iempintro
    iexact Hr
  hexit c := by
    rw [held_exit1 m c]
    have hj := join1 m c (fun b => V5 m (outsAll m) c b) ((pdats m 1 c).arrAt · cfg1.N)
      ((exit1_in m c 0 rfl _).trans (rest1 m c main_v3_0 (by decide)).symm)
      ((exit1_in m c 1 rfl _).trans (rest1 m c main_v3_0 (by decide)).symm)
      ((exit1_in m c 2 rfl _).trans (rest1 m c main_v3_1 (by decide)).symm)
      ((exit1_in m c 3 rfl _).trans (rest1 m c main_v5 (by decide)).symm)
      ((exit1_in m c 4 rfl _).trans (rest1 m c main_v4 (by decide)).symm)
      ((exit1_in m c 5 rfl _).trans (rest1 m c main_v4 (by decide)).symm)
      (V5_posterior m c).symm (V5_rowLoss m c).symm
    iintro ⟨Ha, HO, HY, Hrest⟩
    ihave Hb := hj $$ Ha
    imodintro
    isplitl [Hb Hrest]
    · isplitl [Hb]; · iexact Hb
      iexact Hrest
    isplitl [HY]; · iexact HY
    unfold Pipeline.Dat.owesAt Pipeline.owesWithin
    icases HO with ⟨%W, -, HO⟩; iexists W; iexact HO

/-! ## The run -/

set_option backward.isDefEq.respectTransparency.types false in
/-- THE RUN: from any memory with zero counters every weakly fair execution of @main terminates and every unscoped
    buffer ends at the last valuation, the launch contents carried through the host stretches and the two regions. -/
theorem whole_run : θ_run defs (onTc (τ := τ) (main (F := F))) ⟨m, fun _ => 0, ρ⟩ (fun r => ∀ c : Dev nD,
      ∀ b ∈ Pipeline.ucRefs τ sig, r.2.mem (((c : Thread nD τ)).1, b) = V6 m (outsAll m) c b) :=
  run_cond m emb₁ () Variants.none noLevels levelZero (fun _ _ => rfl) ρ (outsAll m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => alongside c)
    (hE0 := Pipeline.initEach noLevels levelZero fun c => by
      iintro ⟨⟨-, HO, -, Hp, -⟩, -⟩
      imodintro
      isplitl [Hp]; · iexists _; iexact Hp
      iexists ∅; iexact HO)
    (hE2 := fun c => by iintro ⟨-, H⟩; iexact H)
    (R0 := reg0 m) (hpre0 := fun _ => .rfl) (hpost0 := fun _ => .rfl)
    (R1 := reg1 m) (hpre1 := fun _ => .rfl) (hpost1 := fun _ => .rfl)

/-! ## The frame -/

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every weakly fair execution terminates and the eight argument arrays end as launched: no host stretch
    writes one and no region may change one, so the last valuation at an argument walks back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (V6_main_arg0 m (outsAll m) c),
      (h c _ (mem_uc main_arg1 (by decide))).trans (V6_main_arg1 m (outsAll m) c),
      (h c _ (mem_uc main_arg2 (by decide))).trans (V6_main_arg2 m (outsAll m) c),
      (h c _ (mem_uc main_arg3 (by decide))).trans (V6_main_arg3 m (outsAll m) c),
      (h c _ (mem_uc main_arg4 (by decide))).trans (V6_main_arg4 m (outsAll m) c),
      (h c _ (mem_uc main_arg5 (by decide))).trans (V6_main_arg5 m (outsAll m) c),
      (h c _ (mem_uc main_arg6 (by decide))).trans (V6_main_arg6 m (outsAll m) c),
      (h c _ (mem_uc main_arg7 (by decide))).trans (V6_main_arg7 m (outsAll m) c)⟩) (whole_run m ρ)

end Cert.KernelIdeal.Hand

end
-- ==== Proof.Spec.lean ====
/-
  The mathematics both programs compute, as ONE function of the argument arrays, index by index, on
  the extended reals.

  A three-layer perceptron sends each of the 8192 rows of `x` to a 10-vector `z n`:
    `h₁ = max (x·W₁ + b₁) 0`,  `h₂ = h₁·W₂ + b₂`,  `z = h₂·W₃ + b₃`.
  With `‖z n‖² = ∑ c, z n c · z n c`, the squared distance of two rows is
    `d i j = (‖z i‖² + ‖z j‖²) − 2 · ⟨z i, z j⟩`
  and their Gaussian affinity `κ i j = exp (−½ · d i j)` off the diagonal, `0` on it. A label
  `y j` marks row `j` as of class `c` when the word `y j` is the numeral `c`; the weight class `c`
  gets at row `i` is `a i c = ∑ j, κ i j · [y j = c]`, smoothed to `a i c + ε`, and the class
  posterior is the logarithm of its share of the row's total,
    `ℓ i c = log ((a i c + ε) / ∑ c', (a i c' + ε))`.
  The loss is minus the sum over the rows of the posterior at the row's own class, and the mean loss
  that divided by the number of rows.

  The float literals stay the words the programs carry: the same word on both sides is never
  evaluated.
-/
import Idealize.ShloMosaic.PureOps.Ideal

noncomputable section

namespace ClassPosterior

open Idealize.ShloMosaic

/-- The literals: `2`, `−½`, the smoothing `ε = f32(1e-6)`, the number of rows `8192`. -/
abbrev two : EReal := Ideal.ofBits .f32 0x40000000#32
abbrev negHalf : EReal := Ideal.ofBits .f32 0xBF000000#32
abbrev eps : EReal := Ideal.ofBits .f32 0x358637BD#32
abbrev rows : EReal := Ideal.ofBits .f32 0x46000000#32

section Layers

variable (x : Fin 8192 → Fin 1024 → EReal) (w1 : Fin 1024 → Fin 512 → EReal) (b1 : Fin 512 → EReal)
  (w2 : Fin 512 → Fin 256 → EReal) (b2 : Fin 256 → EReal) (w3 : Fin 256 → Fin 10 → EReal) (b3 : Fin 10 → EReal)

/-- The first layer, rectified. -/
def hidden1 (n : Fin 8192) (k : Fin 512) : EReal := max ((∑ p : Fin 1024, x n p * w1 p k) + b1 k) 0
/-- The second layer. -/
def hidden2 (n : Fin 8192) (l : Fin 256) : EReal := (∑ k : Fin 512, hidden1 x w1 b1 n k * w2 k l) + b2 l
/-- The representation `z`. -/
def repr (n : Fin 8192) (c : Fin 10) : EReal := (∑ l : Fin 256, hidden2 x w1 b1 w2 b2 n l * w3 l c) + b3 c

end Layers

section Posterior

variable (z : Fin 8192 → Fin 10 → EReal) (y : Fin 8192 → BitVec 32)

/-- `‖z n‖²`. -/
def sqNorm (n : Fin 8192) : EReal := ∑ c : Fin 10, z n c * z n c
/-- `⟨z i, z j⟩`. -/
def inner (i j : Fin 8192) : EReal := ∑ c : Fin 10, z i c * z j c
/-- The squared distance of rows `i` and `j`. -/
def sqDist (i j : Fin 8192) : EReal := (sqNorm z i + sqNorm z j) - two * inner z i j
/-- The Gaussian affinity, with no self-affinity. -/
def affinity (i j : Fin 8192) : EReal := if i = j then 0 else Ideal.exp (negHalf * sqDist z i j)
/-- Row `j` is of class `c`: its label word is the numeral `c`. -/
def isClass (j : Fin 8192) (c : Fin 10) : EReal := if y j = BitVec.ofNat 32 c.val then 1 else 0
/-- The affinity class `c` gathers at row `i`. -/
def classWeight (i : Fin 8192) (c : Fin 10) : EReal := ∑ j : Fin 8192, affinity z i j * isClass y j c
/-- … smoothed. -/
def smoothed (i : Fin 8192) (c : Fin 10) : EReal := classWeight z y i c + eps
/-- The row's total. -/
def rowTotal (i : Fin 8192) : EReal := ∑ c : Fin 10, smoothed z y i c
/-- THE CLASS POSTERIOR (the first result), in logarithm. -/
def logPosterior (i : Fin 8192) (c : Fin 10) : EReal := Ideal.log (Ideal.div (smoothed z y i c) (rowTotal z y i))
/-- The class a label in range names. -/
def classOf (n : Fin 8192) : Fin 10 := ⟨(y n).toNat % 10, Nat.mod_lt _ (by decide)⟩
/-- THE LOSS (the third result): minus the sum of each row's posterior at its own class. -/
def loss : EReal := -(∑ n : Fin 8192, logPosterior z y n (classOf y n))
/-- THE MEAN LOSS (the second result). -/
def meanLoss : EReal := Ideal.div (loss z y) rows

end Posterior

end ClassPosterior

end
-- ==== Proof.SpecArrays.lean ====
/-
  The specification of `Spec.lean` read at the programs' argument ARRAYS: an array of shape
  `[a, b]` is the function `(p, q) ↦ v (ix2 p q)` of its coordinates, a vector `[a]` the function
  `p ↦ v (ix1 p)`, and the three results are arrays again — the posterior a `[8192, 10]` array, the
  two losses scalars.
-/
import proofs.«423389_j72705206387155_1_alg».proof.Proof.Spec
import Idealize.ShloMosaic.Lib.ValueIdx

noncomputable section

namespace ClassPosterior

open Idealize.ShloMosaic Idealize.ShloMosaic.ValueIdx

/-- A rank-2 array as a function of its two coordinates. -/
def rows2 {α : Type} {a b : Nat} (v : (⟨2, ![a, b]⟩ : Shape).Idx → α) : Fin a → Fin b → α := fun p q => v (ix2 p q)
/-- A vector as a function of its coordinate. -/
def rows1 {α : Type} {a : Nat} (v : (⟨1, ![a]⟩ : Shape).Idx → α) : Fin a → α := fun p => v (ix1 p)

section

variable (x : (⟨2, ![8192, 1024]⟩ : Shape).Idx → EReal) (y : (⟨1, ![8192]⟩ : Shape).Idx → BitVec 32)
  (w1 : (⟨2, ![1024, 512]⟩ : Shape).Idx → EReal) (b1 : (⟨1, ![512]⟩ : Shape).Idx → EReal)
  (w2 : (⟨2, ![512, 256]⟩ : Shape).Idx → EReal) (b2 : (⟨1, ![256]⟩ : Shape).Idx → EReal)
  (w3 : (⟨2, ![256, 10]⟩ : Shape).Idx → EReal) (b3 : (⟨1, ![10]⟩ : Shape).Idx → EReal)

/-- The representation `z` of the argument arrays. -/
def reprOf : Fin 8192 → Fin 10 → EReal :=
  repr (rows2 x) (rows2 w1) (rows1 b1) (rows2 w2) (rows1 b2) (rows2 w3) (rows1 b3)

/-- THE FIRST RESULT: the class posterior, in logarithm, as a `[8192, 10]` array. -/
def posteriorArr : (⟨2, ![8192, 10]⟩ : Shape).Idx → EReal :=
  fun i => logPosterior (reprOf x w1 b1 w2 b2 w3 b3) (rows1 y) (i 0) (i 1)
/-- THE THIRD RESULT: the loss, a scalar. -/
def lossArr : (⟨0, ![]⟩ : Shape).Idx → EReal := fun _ => loss (reprOf x w1 b1 w2 b2 w3 b3) (rows1 y)
/-- THE SECOND RESULT: the mean loss, a scalar. -/
def meanLossArr : (⟨0, ![]⟩ : Shape).Idx → EReal := fun _ => meanLoss (reprOf x w1 b1 w2 b2 w3 b3) (rows1 y)

/-- Every label names a class: read signed, it lies in `[0, 10)`. -/
def LabelsInRange : Prop := ∀ n : Fin 8192, 0 ≤ (y (ix1 n)).toInt ∧ (y (ix1 n)).toInt < 10

end

/-- Every entry of an array is a real number. -/
def AllReal {ι : Type} (v : ι → EReal) : Prop := ∀ i, ∃ r : ℝ, v i = (r : EReal)

end ClassPosterior

end
-- ==== Proof.SpecReal.lean ====
/-
  Real arguments give real results. On the extended reals the field laws fail at the infinities
  (`⊤ + ⊥`, `0 · ⊤`), so every algebraic step on the specification's terms first needs to know that
  the terms are real numbers. This file shows it once, along the specification's own chain:

    a finite sum of products of reals plus a real is a real, and so is its maximum with zero;
    so the representation `z` is real, and with it `‖z‖²`, `⟨z i, z j⟩` and the squared distance;
    the affinity is a NONNEGATIVE real (zero on the diagonal, an exponential of a real off it);
    the class indicator is zero or one, so the class weight is a nonnegative real;
    the smoothing constant is a POSITIVE real, so the smoothed weight and the row's total are
    positive reals, their quotient is a positive real, and its logarithm is a real.

  Two identities of sums over reals are proved alongside: negation distributes over a finite sum
  of reals, and the sum of `p c · [y n = c]` over the ten classes is `p` at the class of `y n`.
-/
import proofs.«423389_j72705206387155_1_alg».proof.Proof.Spec
import Mathlib.Data.EReal.Inv
import Mathlib.Algebra.Order.BigOperators.Group.Finset
import Mathlib.Analysis.SpecialFunctions.Exp
import Mathlib.Analysis.SpecialFunctions.Log.Basic

noncomputable section

namespace ClassPosterior

open Idealize.ShloMosaic

/-! ### Reals inside the extended reals: closure under the field operations and finite sums -/

theorem real_add {a b : EReal} (ha : ∃ r : ℝ, a = r) (hb : ∃ r : ℝ, b = r) : ∃ r : ℝ, a + b = r := by
  obtain ⟨r, rfl⟩ := ha; obtain ⟨s, rfl⟩ := hb; exact ⟨r + s, (EReal.coe_add r s).symm⟩

theorem real_mul {a b : EReal} (ha : ∃ r : ℝ, a = r) (hb : ∃ r : ℝ, b = r) : ∃ r : ℝ, a * b = r := by
  obtain ⟨r, rfl⟩ := ha; obtain ⟨s, rfl⟩ := hb; exact ⟨r * s, (EReal.coe_mul r s).symm⟩

theorem real_sub {a b : EReal} (ha : ∃ r : ℝ, a = r) (hb : ∃ r : ℝ, b = r) : ∃ r : ℝ, a - b = r := by
  obtain ⟨r, rfl⟩ := ha; obtain ⟨s, rfl⟩ := hb; exact ⟨r - s, (EReal.coe_sub r s).symm⟩

/-- The inclusion of the reals commutes with finite sums. -/
theorem coe_sum {ι : Type} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

theorem real_sum {ι : Type} (s : Finset ι) (a : ι → EReal) (h : ∀ i, ∃ r : ℝ, a i = r) : ∃ r : ℝ, ∑ i ∈ s, a i = r := by
  choose f hf using h
  exact ⟨∑ i ∈ s, f i, by rw [coe_sum]; exact Finset.sum_congr rfl (fun i _ => hf i)⟩

theorem nonneg_sum {ι : Type} (s : Finset ι) (a : ι → EReal) (h : ∀ i, ∃ r : ℝ, 0 ≤ r ∧ a i = r) :
    ∃ r : ℝ, 0 ≤ r ∧ ∑ i ∈ s, a i = r := by
  choose f hf0 hf using h
  exact ⟨∑ i ∈ s, f i, Finset.sum_nonneg (fun i _ => hf0 i), by rw [coe_sum]; exact Finset.sum_congr rfl (fun i _ => hf i)⟩

theorem pos_sum {ι : Type} (s : Finset ι) (hs : s.Nonempty) (a : ι → EReal) (h : ∀ i, ∃ r : ℝ, 0 < r ∧ a i = r) :
    ∃ r : ℝ, 0 < r ∧ ∑ i ∈ s, a i = r := by
  choose f hf0 hf using h
  exact ⟨∑ i ∈ s, f i, Finset.sum_pos (fun i _ => hf0 i) hs, by rw [coe_sum]; exact Finset.sum_congr rfl (fun i _ => hf i)⟩

theorem real_max_zero {a : EReal} (ha : ∃ r : ℝ, a = r) : ∃ r : ℝ, max a 0 = r := by
  obtain ⟨r, rfl⟩ := ha
  rcases le_total (r : EReal) 0 with h | h
  · exact ⟨0, by rw [max_eq_right h]; rfl⟩
  · exact ⟨r, max_eq_left h⟩

/-- On the reals, negation distributes over a finite sum (on the extended reals it need not: `⊤ + ⊥`). -/
theorem neg_sum_real {ι : Type} (s : Finset ι) (a : ι → EReal) (h : ∀ i, ∃ r : ℝ, a i = r) :
    (∑ i ∈ s, (0 - a i)) = -(∑ i ∈ s, a i) := by
  choose f hf using h
  obtain rfl : a = fun i => (f i : EReal) := funext hf
  simp only [zero_sub, ← EReal.coe_neg, ← coe_sum, Finset.sum_neg_distrib]

/-! ### The literals -/

/-- A word whose exponent field is not all ones denotes a real. -/
theorem ieee_real (e m : Nat) {w : Nat} (b : BitVec w) (h : (b.extractLsb' m e).toNat ≠ 2 ^ e - 1) :
    ∃ r : ℝ, Ideal.ieee e m b = r := by
  unfold Ideal.ieee
  simp only []
  rw [if_neg h]
  split_ifs <;> exact ⟨_, rfl⟩

/-- A word with a clear sign bit and an exponent field neither all zeros nor all ones denotes a positive real. -/
theorem ieee_pos (e m : Nat) {w : Nat} (b : BitVec w) (hs : (b.extractLsb' (e + m) 1 == 1#1) = false)
    (h : (b.extractLsb' m e).toNat ≠ 2 ^ e - 1) (h0 : (b.extractLsb' m e).toNat ≠ 0) :
    ∃ r : ℝ, 0 < r ∧ Ideal.ieee e m b = r := by
  unfold Ideal.ieee
  simp only []
  rw [if_neg h, if_neg h0, hs]
  simp only [Bool.false_eq_true, if_false]
  exact ⟨_, by positivity, rfl⟩

theorem two_real : ∃ r : ℝ, two = r :=
  show ∃ r : ℝ, Ideal.ieee 8 23 (0x40000000#32) = r from ieee_real 8 23 _ (by decide)
theorem negHalf_real : ∃ r : ℝ, negHalf = r :=
  show ∃ r : ℝ, Ideal.ieee 8 23 (0xBF000000#32) = r from ieee_real 8 23 _ (by decide)
theorem eps_pos : ∃ r : ℝ, 0 < r ∧ eps = r :=
  show ∃ r : ℝ, 0 < r ∧ Ideal.ieee 8 23 (0x358637BD#32) = r from ieee_pos 8 23 _ (by decide) (by decide) (by decide)

/-! ### The label words -/

theorem toNat_lt_ten (w : BitVec 32) (h : 0 ≤ w.toInt ∧ w.toInt < 10) : w.toNat < 10 := by
  have h1 := BitVec.toInt_eq_toNat_cond w
  have hlt := w.isLt
  split_ifs at h1 <;> omega

/-- Summing against the class indicator of a row picks the entry at the row's class. -/
theorem sum_mul_isClass (y : Fin 8192 → BitVec 32) (p : Fin 10 → EReal) (n : Fin 8192)
    (hn : 0 ≤ (y n).toInt ∧ (y n).toInt < 10) : (∑ c : Fin 10, p c * isClass y n c) = p (classOf y n) := by
  have hlt := toNat_lt_ten (y n) hn
  rw [Finset.sum_eq_single (classOf y n)]
  · have he : y n = BitVec.ofNat 32 (classOf y n).val := by
      apply BitVec.eq_of_toNat_eq
      show (y n).toNat = (BitVec.ofNat 32 ((y n).toNat % 10)).toNat
      rw [BitVec.toNat_ofNat]
      omega
    rw [isClass, if_pos he, mul_one]
  · intro c _ hc
    have hne : y n ≠ BitVec.ofNat 32 c.val := by
      intro he
      apply hc
      apply Fin.ext
      show c.val = (y n).toNat % 10
      rw [he, BitVec.toNat_ofNat]
      have := c.isLt
      omega
    rw [isClass, if_neg hne, mul_zero]
  · intro h; exact absurd (Finset.mem_univ _) h

/-! ### The chain: real arguments give a real posterior -/

section Layers

variable (x : Fin 8192 → Fin 1024 → EReal) (w1 : Fin 1024 → Fin 512 → EReal) (b1 : Fin 512 → EReal)
  (w2 : Fin 512 → Fin 256 → EReal) (b2 : Fin 256 → EReal) (w3 : Fin 256 → Fin 10 → EReal) (b3 : Fin 10 → EReal)

theorem hidden1_real (hx : ∀ n p, ∃ r : ℝ, x n p = r) (hw1 : ∀ p k, ∃ r : ℝ, w1 p k = r) (hb1 : ∀ k, ∃ r : ℝ, b1 k = r)
    (n : Fin 8192) (k : Fin 512) : ∃ r : ℝ, hidden1 x w1 b1 n k = r :=
  real_max_zero (real_add (real_sum _ _ (fun p => real_mul (hx n p) (hw1 p k))) (hb1 k))

theorem hidden2_real (hx : ∀ n p, ∃ r : ℝ, x n p = r) (hw1 : ∀ p k, ∃ r : ℝ, w1 p k = r) (hb1 : ∀ k, ∃ r : ℝ, b1 k = r)
    (hw2 : ∀ k l, ∃ r : ℝ, w2 k l = r) (hb2 : ∀ l, ∃ r : ℝ, b2 l = r)
    (n : Fin 8192) (l : Fin 256) : ∃ r : ℝ, hidden2 x w1 b1 w2 b2 n l = r :=
  real_add (real_sum _ _ (fun k => real_mul (hidden1_real x w1 b1 hx hw1 hb1 n k) (hw2 k l))) (hb2 l)

theorem repr_real (hx : ∀ n p, ∃ r : ℝ, x n p = r) (hw1 : ∀ p k, ∃ r : ℝ, w1 p k = r) (hb1 : ∀ k, ∃ r : ℝ, b1 k = r)
    (hw2 : ∀ k l, ∃ r : ℝ, w2 k l = r) (hb2 : ∀ l, ∃ r : ℝ, b2 l = r)
    (hw3 : ∀ l c, ∃ r : ℝ, w3 l c = r) (hb3 : ∀ c, ∃ r : ℝ, b3 c = r)
    (n : Fin 8192) (c : Fin 10) : ∃ r : ℝ, repr x w1 b1 w2 b2 w3 b3 n c = r :=
  real_add (real_sum _ _ (fun l => real_mul (hidden2_real x w1 b1 w2 b2 hx hw1 hb1 hw2 hb2 n l) (hw3 l c))) (hb3 c)

end Layers

section Posterior

variable (z : Fin 8192 → Fin 10 → EReal) (y : Fin 8192 → BitVec 32) (hz : ∀ n c, ∃ r : ℝ, z n c = r)
include hz

theorem sqNorm_real (n : Fin 8192) : ∃ r : ℝ, sqNorm z n = r :=
  real_sum _ _ (fun c => real_mul (hz n c) (hz n c))

theorem inner_real (i j : Fin 8192) : ∃ r : ℝ, inner z i j = r :=
  real_sum _ _ (fun c => real_mul (hz i c) (hz j c))

theorem sqDist_real (i j : Fin 8192) : ∃ r : ℝ, sqDist z i j = r :=
  real_sub (real_add (sqNorm_real z hz i) (sqNorm_real z hz j)) (real_mul two_real (inner_real z hz i j))

/-- The affinity is a nonnegative real: zero on the diagonal, an exponential of a real off it. -/
theorem affinity_nonneg (i j : Fin 8192) : ∃ r : ℝ, 0 ≤ r ∧ affinity z i j = r := by
  by_cases h : i = j
  · exact ⟨0, le_rfl, by rw [affinity, if_pos h]; rfl⟩
  · obtain ⟨r, hr⟩ := real_mul negHalf_real (sqDist_real z hz i j)
    exact ⟨Real.exp r, (Real.exp_pos r).le, by rw [affinity, if_neg h, hr]; rfl⟩

omit hz in
theorem isClass_nonneg (j : Fin 8192) (c : Fin 10) : ∃ r : ℝ, 0 ≤ r ∧ isClass y j c = r := by
  by_cases h : y j = BitVec.ofNat 32 c.val
  · exact ⟨1, zero_le_one, by rw [isClass, if_pos h]; rfl⟩
  · exact ⟨0, le_rfl, by rw [isClass, if_neg h]; rfl⟩

theorem classWeight_nonneg (i : Fin 8192) (c : Fin 10) : ∃ r : ℝ, 0 ≤ r ∧ classWeight z y i c = r := by
  refine nonneg_sum _ _ (fun j => ?_)
  obtain ⟨r, hr0, hr⟩ := affinity_nonneg z hz i j
  obtain ⟨s, hs0, hs⟩ := isClass_nonneg y j c
  exact ⟨r * s, mul_nonneg hr0 hs0, by rw [hr, hs]; exact (EReal.coe_mul r s).symm⟩

theorem smoothed_pos (i : Fin 8192) (c : Fin 10) : ∃ r : ℝ, 0 < r ∧ smoothed z y i c = r := by
  obtain ⟨r, hr0, hr⟩ := classWeight_nonneg z y hz i c
  obtain ⟨s, hs0, hs⟩ := eps_pos
  exact ⟨r + s, add_pos_of_nonneg_of_pos hr0 hs0, by rw [smoothed, hr, hs]; exact (EReal.coe_add r s).symm⟩

theorem rowTotal_pos (i : Fin 8192) : ∃ r : ℝ, 0 < r ∧ rowTotal z y i = r :=
  pos_sum _ Finset.univ_nonempty _ (fun c => smoothed_pos z y hz i c)

theorem logPosterior_real' (i : Fin 8192) (c : Fin 10) : ∃ r : ℝ, logPosterior z y i c = r := by
  obtain ⟨a, ha0, ha⟩ := smoothed_pos z y hz i c
  obtain ⟨b, hb0, hb⟩ := rowTotal_pos z y hz i
  have hq : 0 < a * (1 / b) := mul_pos ha0 (one_div_pos.mpr hb0)
  refine ⟨Real.log (a * (1 / b)), ?_⟩
  rw [logPosterior, ha, hb, Ideal.div_coe (ne_of_gt hb0), ← EReal.coe_mul, Ideal.log_coe, if_neg (not_le.mpr hq)]

end Posterior

/-- Real arguments give a real posterior, entry by entry. -/
theorem logPosterior_real (x : Fin 8192 → Fin 1024 → EReal) (w1 : Fin 1024 → Fin 512 → EReal) (b1 : Fin 512 → EReal)
    (w2 : Fin 512 → Fin 256 → EReal) (b2 : Fin 256 → EReal) (w3 : Fin 256 → Fin 10 → EReal) (b3 : Fin 10 → EReal)
    (y : Fin 8192 → BitVec 32)
    (hx : ∀ n p, ∃ r : ℝ, x n p = r) (hw1 : ∀ p k, ∃ r : ℝ, w1 p k = r) (hb1 : ∀ k, ∃ r : ℝ, b1 k = r)
    (hw2 : ∀ k l, ∃ r : ℝ, w2 k l = r) (hb2 : ∀ l, ∃ r : ℝ, b2 l = r)
    (hw3 : ∀ l c, ∃ r : ℝ, w3 l c = r) (hb3 : ∀ c, ∃ r : ℝ, b3 c = r) :
    ∀ n c, ∃ r : ℝ, logPosterior (repr x w1 b1 w2 b2 w3 b3) y n c = (r : EReal) :=
  logPosterior_real' _ y (repr_real x w1 b1 w2 b2 w3 b3 hx hw1 hb1 hw2 hb2 hw3 hb3)

end ClassPosterior

end
-- ==== Proof.KernelIdeal.TailValue.lean ====
/-
  The host tail of the kernel program, as a function of the two columns it reads.

  From the per-row loss column `nll : [8192, 1]` and the squared-norm column `nrm : [8192, 1]` the tail
  computes
    total = (0 + ∑ nll) + 0 · ((0 + ∑ nrm) / 81920),    mean = total / 8192,
  each sum a host reduction over both axes from the zero word. On the extended reals `0 · a = 0` for
  EVERY `a` (an infinity included), so the second summand vanishes whatever the norms are, and
  `total = ∑ nll`. A `[8192, 1]` column's sum over both axes is the sum over its rows. When each row's
  entry is `0 − a n` for a real `a n`, negation comes out of the sum: `total = −∑ a n`.
-/
import proofs.«423389_j72705206387155_1_alg».proof.KernelIdeal
import proofs.«423389_j72705206387155_1_alg».proof.Proof.SpecReal
import Idealize.ShloMosaic.Lib.ValueIdx
import Idealize.ShloMosaic.PureOps.Ideal.Laws
import Idealize.ShloMosaic.Lib.ValueLayout

noncomputable section

namespace Cert.KernelIdeal.TailValue

open Cert.KernelIdeal Idealize.ShloMosaic Idealize.ShloMosaic.ValueIdx ClassPosterior

variable [Facts]
open Facts₀ Facts

/-- The total: the loss column's sum plus zero times the scaled norm column's sum. -/
def tailTotal (nll nrm : FVec Ideal S8192x1 .f32) : FVec Ideal S_ .f32 :=
  addf (Host.reduceAdd nll (constant (F := Ideal) S_ .f32 0x00000000#32) reducesTo_S8192x1_S_d0_1 h_S_)
    (mulf (constant (F := Ideal) S_ .f32 0x00000000#32)
      (Host.divf (Host.reduceAdd nrm (constant (F := Ideal) S_ .f32 0x00000000#32) reducesTo_S8192x1_S_d0_1 h_S_)
        (constant (F := Ideal) S_ .f32 0x47A00000#32)))

/-- The mean: the total over the number of rows. -/
def tailMean (nll nrm : FVec Ideal S8192x1 .f32) : FVec Ideal S_ .f32 :=
  Host.divf (tailTotal nll nrm) (constant (F := Ideal) S_ .f32 0x46000000#32)

/-- A `[8192, 1]` column's sum over all its indices is the sum over its rows. -/
theorem sum_col (v : FVec Ideal S8192x1 .f32) : (∑ i : S8192x1.Idx, v i) = ∑ n : Fin 8192, v (ix2 n 0) := by
  rw [sum_idx2]
  exact Finset.sum_congr rfl (fun n _ => Fin.sum_univ_one fun b => v (ix2 n b))

/-- The host's sum of a column over both axes, from the zero word, is the sum over the rows. -/
theorem reduceAdd_col (v : FVec Ideal S8192x1 .f32) (j : S_.Idx) :
    Host.reduceAdd v (constant (F := Ideal) S_ .f32 0x00000000#32) reducesTo_S8192x1_S_d0_1 h_S_ j
      = ∑ n : Fin 8192, v (ix2 n 0) := by
  show Ideal.hostReduceAdd reducesTo_S8192x1_S_d0_1 v (Ideal.ofBits .f32 0x00000000#32) j = _
  rw [Ideal.hostReduceAdd_total _ (fun b => b.elim0), Ideal.ofBits_zero_f32, zero_add, sum_col]

/-- The total is the loss column's sum: the second summand is zero times something. -/
theorem tailTotal_apply (nll nrm : FVec Ideal S8192x1 .f32) (j : S_.Idx) :
    tailTotal nll nrm j = ∑ n : Fin 8192, nll (ix2 n 0) := by
  show Host.reduceAdd nll (constant (F := Ideal) S_ .f32 0x00000000#32) reducesTo_S8192x1_S_d0_1 h_S_ j
      + Ideal.ofBits .f32 0x00000000#32 * _ = _
  rw [Ideal.ofBits_zero_f32, zero_mul, add_zero, reduceAdd_col]

/-- THE TOTAL: minus the sum of the rows' real terms. -/
theorem tailTotal_eq (nll nrm : FVec Ideal S8192x1 .f32) (a : Fin 8192 → EReal) (ha : ∀ n, ∃ r : ℝ, a n = r)
    (hnll : ∀ n : Fin 8192, nll (ix2 n 0) = 0 - a n) : tailTotal nll nrm = fun _ => -(∑ n : Fin 8192, a n) := by
  funext j
  rw [tailTotal_apply, ← neg_sum_real Finset.univ a ha]
  exact Finset.sum_congr rfl (fun n _ => hnll n)

/-- THE MEAN: that over the number of rows. -/
theorem tailMean_eq (nll nrm : FVec Ideal S8192x1 .f32) (a : Fin 8192 → EReal) (ha : ∀ n, ∃ r : ℝ, a n = r)
    (hnll : ∀ n : Fin 8192, nll (ix2 n 0) = 0 - a n) :
    tailMean nll nrm = fun _ => Ideal.div (-(∑ n : Fin 8192, a n)) rows := by
  funext j
  show Ideal.div (tailTotal nll nrm j) (Ideal.ofBits .f32 0x46000000#32) = _
  rw [tailTotal_eq nll nrm a ha hnll]

end Cert.KernelIdeal.TailValue

end
-- ==== Proof.KernelIdeal.HostValues.lean ====
/-
  What the host operations around the two kernels leave in the buffers the kernels and the results read.

  Before the first kernel the three weight matrices change float format, which on the extended reals is the identity.
  Between the kernels the labels become a 0/1 mask `[8192, 10]` (entry `(j, k)` is 1 when the word `y j` is the numeral
  `k`) and the column of squared norms `[8192, 1]` is laid out again as a row `[1, 8192]`. After the second kernel the
  two losses are pure terms of the per-row losses and the squared norms.
-/
import proofs.«423389_j72705206387155_1_alg».proof.Proof.Gen.KernelIdeal.Regions
import proofs.«423389_j72705206387155_1_alg».proof.Proof.SpecArrays
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import proofs.«423389_j72705206387155_1_alg».proof.Proof.KernelIdeal.TailValue

noncomputable section

namespace Cert.KernelIdeal.HostValues

open Cert.KernelIdeal Cert.KernelIdeal.Gen Idealize.ShloMosaic Idealize.ShloMosaic.TcCoe Idealize.ShloMosaic.ValueIdx ClassPosterior

variable (m : (ℓ : Loc nD τ sig) → Buf (Elt Ideal) ℓ) (outs : Outs (F := Ideal)) (c : Dev nD)

/-! ## The first kernel's operands: the arguments themselves -/

/-- The input rows reach the first kernel as launched. -/
theorem V1_x : V1 m c main_arg0 = m ((c.tc : Thread nD τ).loc main_arg0) :=
  (V1_of m c main_arg0 (by decide)).trans rfl
/-- The first weight matrix in the narrower float format is the first weight matrix. -/
theorem V1_w1 : (V1 m c main_v0 : S1024x512.Idx → EReal) = m ((c.tc : Thread nD τ).loc main_arg2) := by
  dsimp only [V1]; after_results; rfl
/-- The first bias reaches the first kernel as launched. -/
theorem V1_b1 : V1 m c main_arg3 = m ((c.tc : Thread nD τ).loc main_arg3) :=
  (V1_of m c main_arg3 (by decide)).trans rfl
/-- The second weight matrix in the narrower float format is the second weight matrix. -/
theorem V1_w2 : (V1 m c main_v1 : S512x256.Idx → EReal) = m ((c.tc : Thread nD τ).loc main_arg4) := by
  dsimp only [V1]; after_results; rfl
/-- The second bias reaches the first kernel as launched. -/
theorem V1_b2 : V1 m c main_arg5 = m ((c.tc : Thread nD τ).loc main_arg5) :=
  (V1_of m c main_arg5 (by decide)).trans rfl
/-- The third weight matrix in the narrower float format is the third weight matrix. -/
theorem V1_w3 : (V1 m c main_v2 : S256x10.Idx → EReal) = m ((c.tc : Thread nD τ).loc main_arg6) := by
  dsimp only [V1]; after_results; rfl
/-- The third bias reaches the first kernel as launched. -/
theorem V1_b3 : V1 m c main_arg7 = m ((c.tc : Thread nD τ).loc main_arg7) :=
  (V1_of m c main_arg7 (by decide)).trans rfl

/-! ## The second kernel's operands -/

/-- What the first kernel left as `z`, after it. -/
theorem V2_z : V2 m outs c main_v3_0 = outs 2 main_v3_0 c := by
  dsimp only [V2]
  rw [Function.update_of_ne (StableHlo.devRef_ne_of_ne (by decide)), Function.update_self]
/-- What the first kernel left as the squared norms, after it. -/
theorem V2_nrm : V2 m outs c main_v3_1 = outs 2 main_v3_1 c := by
  dsimp only [V2]
  rw [Function.update_self]

/-- `z` reaches the second kernel as the first left it. -/
theorem V4_z : V4 m outs c main_v3_0 = outs 2 main_v3_0 c :=
  (V4_of m outs c main_v3_0 (by decide)).trans <| (V3_of m outs c main_v3_0 (by decide)).trans (V2_z m outs c)
/-- The column of squared norms reaches the second kernel as the first left it. -/
theorem V4_nrm : V4 m outs c main_v3_1 = outs 2 main_v3_1 c :=
  (V4_of m outs c main_v3_1 (by decide)).trans <| (V3_of m outs c main_v3_1 (by decide)).trans (V2_nrm m outs c)

/-- A column `[a, 1]` laid out again as a row `[1, a]` reads at `(u, q)` the column's entry `(q, u')`, whatever the unit
    coordinates. -/
theorem columnAsRow_apply {α : Type} {a : ℕ} (x : (⟨2, ![a, 1]⟩ : Shape).Idx → α)
    (h : (⟨2, ![a, 1]⟩ : Shape).ShapeCasts ⟨2, ![1, a]⟩) (u u' : Fin 1) (q : Fin a) :
    shapeCast ⟨2, ![1, a]⟩ x h (ix2 u q) = x (ix2 q u') :=
  shapeCast_apply x h _ _ (by
    have hu : u.val = 0 := by omega
    have hu' : u'.val = 0 := by omega
    rw [Shape.rowMajor_val_two, Shape.rowMajor_val_two]
    show q.val * 1 + u'.val = u.val * a + q.val
    rw [hu, hu', Nat.zero_mul, Nat.zero_add, Nat.mul_one, Nat.add_zero])

/-- The row of squared norms the second kernel reads is the column the first kernel left, entry by entry. -/
theorem V4_nrmRow (q : Fin 8192) : V4 m outs c main_v5 (ix2 0 q) = outs 2 main_v3_1 c (ix2 q 0) := by
  have e : (V4 m outs c main_v5 : S1x8192.Idx → EReal)
      = shapeCast S1x8192 (V3 m outs c main_v3_1 : S8192x1.Idx → EReal) shapeCasts_S8192x1_S1x8192 := by
    dsimp only [V4]; after_results; rfl
  rw [e, columnAsRow_apply _ _ 0 0 q, V3_of m outs c main_v3_1 (by decide), V2_nrm]

/-! ## The mask of the labels -/

/-- A vector stood up as a column reads at `(p, u)` its entry `p`. -/
theorem asColumn_apply {α : Type} {n : ℕ} (v : (⟨1, ![n]⟩ : Shape).Idx → α)
    (h : (⟨1, ![n]⟩ : Shape).BroadcastsInDim ⟨2, ![n, 1]⟩ ![0]) (p : Fin n) (u : Fin 1) :
    broadcastInDim ⟨2, ![n, 1]⟩ ![0] h v (ix2 p u) = v (ix1 p) :=
  broadcastInDim_apply _ h v _ _ fun a => by
    match a with
    | ⟨0, _⟩ =>
      show p.val = if n = 1 then 0 else p.val
      split
      · have := p.isLt; omega
      · rfl

/-- A column repeated over `m` columns reads at `(p, q)` the column's entry `p`. -/
theorem overColumns_apply {α : Type} {n m : ℕ} (v : (⟨2, ![n, 1]⟩ : Shape).Idx → α)
    (h : (⟨2, ![n, 1]⟩ : Shape).BroadcastsInDim ⟨2, ![n, m]⟩ ![0, 1]) (p : Fin n) (q : Fin m) :
    broadcastInDim ⟨2, ![n, m]⟩ ![0, 1] h v (ix2 p q) = v (ix2 p 0) :=
  broadcastInDim_apply _ h v _ _ fun a => by
    match a with
    | ⟨0, _⟩ =>
      show p.val = if n = 1 then 0 else p.val
      split
      · have := p.isLt; omega
      · rfl
    | ⟨1, _⟩ =>
      show 0 = if 1 = 1 then 0 else q.val
      rfl

/-- A row repeated over `n` rows reads at `(p, q)` the row's entry `q`. -/
theorem overRows_apply {α : Type} {n m : ℕ} (v : (⟨2, ![1, m]⟩ : Shape).Idx → α)
    (h : (⟨2, ![1, m]⟩ : Shape).BroadcastsInDim ⟨2, ![n, m]⟩ ![0, 1]) (p : Fin n) (q : Fin m) :
    broadcastInDim ⟨2, ![n, m]⟩ ![0, 1] h v (ix2 p q) = v (ix2 0 q) :=
  broadcastInDim_apply _ h v _ _ fun a => by
    match a with
    | ⟨0, _⟩ =>
      show 0 = if 1 = 1 then 0 else p.val
      rfl
    | ⟨1, _⟩ =>
      show q.val = if m = 1 then 0 else q.val
      split
      · have := q.isLt; omega
      · rfl

/-- The bit of a word equality, read as a number: 1 when the two words are equal, else 0. -/
theorem eqBit_toEReal (a b : BitVec 32) :
    (((IntOp.cmpi .eq a b).toNat : ℝ) : EReal) = if a = b then 1 else 0 := by
  by_cases h : a = b
  · subst h; simp [IntOp.cmpi]
  · simp [IntOp.cmpi, h]

/-- The labels against the column numbers `0 … 9`, compared word by word and read as numbers: at `(j, k)` it is 1 when
    the label of row `j` is the numeral `k`, else 0. -/
theorem mask_apply (y : S8192.Idx → BitVec 32) (h1 : S8192.BroadcastsInDim S8192x1 ![0])
    (h2 : S8192x1.BroadcastsInDim S8192x10 ![0, 1]) (h3 : S1x10.BroadcastsInDim S8192x10 ![0, 1]) (j : Fin 8192) (k : Fin 10) :
    uitofp (F := Ideal) .f32 (cmpi .eq (broadcastInDim S8192x10 ![0, 1] h2 (broadcastInDim S8192x1 ![0] h1 y))
        (broadcastInDim S8192x10 ![0, 1] h3 (iotaInDim S1x10 32 1))) (ix2 j k)
      = isClass (rows1 y) j k := by
  show (((IntOp.cmpi .eq _ _).toNat : ℝ) : EReal) = _
  rw [overColumns_apply, asColumn_apply, overRows_apply, eqBit_toEReal]
  rfl

/-- The labels reach the second host stretch as launched. -/
theorem V2_y : V2 m outs c main_arg1 = m ((c.tc : Thread nD τ).loc main_arg1) :=
  (V2_of m outs c main_arg1 (by decide)).trans <| (V1_of m c main_arg1 (by decide)).trans rfl

/-- The mask the second kernel reads: entry `(j, k)` says whether row `j` is of class `k`. -/
theorem V4_mask (j : Fin 8192) (k : Fin 10) :
    V4 m outs c main_v4 (ix2 j k) = isClass (rows1 (m ((c.tc : Thread nD τ).loc main_arg1))) j k := by
  have e : (V3 m outs c main_v4 : S8192x10.Idx → EReal)
      = uitofp (F := Ideal) .f32 (cmpi .eq
          (broadcastInDim S8192x10 ![0, 1] bcast_S8192x1_S8192x10_0_1
            (broadcastInDim S8192x1 ![0] bcast_S8192_S8192x1_0 (V2 m outs c main_arg1 : S8192.Idx → BitVec 32)))
          (broadcastInDim S8192x10 ![0, 1] bcast_S1x10_S8192x10_0_1 (iotaInDim S1x10 32 1))) := by
    dsimp only [V3]; after_results; rfl
  rw [V4_of m outs c main_v4 (by decide), e, mask_apply, V2_y]

/-! ## The results -/

/-- What the second kernel left as the per-row losses, after it. -/
theorem V5_nll : V5 m outs c main_v6_1 = outs 5 main_v6_1 c := by
  dsimp only [V5]
  rw [Function.update_self]
/-- The squared norms are still the first kernel's after the second. -/
theorem V5_nrm : V5 m outs c main_v3_1 = outs 2 main_v3_1 c :=
  (V5_of m outs c main_v3_1 (by decide)).trans (V4_nrm m outs c)

/-- The posterior is what the second kernel left. -/
theorem V6_probs : V6 m outs c main_v6_0 = outs 5 main_v6_0 c := by
  refine (V6_of m outs c main_v6_0 (by decide)).trans ?_
  dsimp only [V5]
  rw [Function.update_of_ne (StableHlo.devRef_ne_of_ne (by decide)), Function.update_self]

/-- THE LOSS: the host tail's term of the per-row losses and the squared norms. -/
theorem V6_total : V6 m outs c main_v11 = TailValue.tailTotal (outs 5 main_v6_1 c) (outs 2 main_v3_1 c) := by
  have e : (V6 m outs c main_v11 : S_.Idx → EReal)
      = TailValue.tailTotal (V5 m outs c main_v6_1) (V5 m outs c main_v3_1) := by
    dsimp only [V6]; after_results; rfl
  rw [e, V5_nll, V5_nrm]

/-- THE MEAN LOSS: the loss divided by the number of rows, as the host tail writes it. -/
theorem V6_mean : V6 m outs c main_v12 = TailValue.tailMean (outs 5 main_v6_1 c) (outs 2 main_v3_1 c) := by
  have e : (V6 m outs c main_v12 : S_.Idx → EReal)
      = TailValue.tailMean (V5 m outs c main_v6_1) (V5 m outs c main_v3_1) := by
    dsimp only [V6]; after_results; rfl
  rw [e, V5_nll, V5_nrm]

end Cert.KernelIdeal.HostValues

end
-- ==== Proof.MlpPayload.lean ====
/-
  The first kernel's two stored values read at an index.

  One block of 1024 rows of `x` goes through three dense layers,
    `h₁ = max (x·W₁ + b₁) 0`,  `h₂ = h₁·W₂ + b₂`,  `z = h₂·W₃ + b₃`,
  and the kernel stores `z` and, per row, `‖z r‖² = ∑ c, z r c · z r c`. On the extended reals a matrix product
  accumulated from zero is the plain sum over the shared coordinate, a change of float format is the identity, a bias
  vector repeated over the rows reads its entry at the column, and a sum along the columns is the sum over the column
  coordinate. So each stored value, at an index given by its coordinates, is the nested sum written in `pay_repr` and
  `pay_sqNorm`.
-/
import proofs.«423389_j72705206387155_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.MlpPayload

open Cert.KernelIdeal Cert.KernelIdeal.Gen Idealize.ShloMosaic Idealize.ShloMosaic.ValueIdx

/-! ## The layout steps -/

/-- A bias vector of length `n`, seen as one row and repeated over `m` rows, reads at `(r, c)` its entry `c`. -/
theorem biasRows_apply {α : Type} {m n : ℕ} (b : (⟨1, ![n]⟩ : Shape).Idx → α)
    (h1 : (⟨1, ![n]⟩ : Shape).ShapeCasts ⟨2, ![1, n]⟩) (h2 : (⟨2, ![1, n]⟩ : Shape).Broadcasts ⟨2, ![m, n]⟩)
    (r : Fin m) (c : Fin n) :
    broadcastTo ⟨2, ![m, n]⟩ (shapeCast ⟨2, ![1, n]⟩ b h1) h2 (ix2 r c) = b (ix1 c) := by
  rw [broadcastTo_1b_ab_apply, shapeCast_a_1a_apply]

/-- A vector of length `a` seen as a column `[a, 1]` reads at `(i, u)` its entry `i`, whatever the unit coordinate `u`. -/
theorem column_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The three matrix products -/

/-! ### First layer: `[1024, 1024] · [1024, 512]` -/

/-- The left operand's row is the output's row. -/
theorem lhs1_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
/-- The left operand's column is the contracted coordinate. -/
theorem lhs1_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
/-- The right operand's row is the contracted coordinate. -/
theorem rhs1_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
/-- The right operand's column is the output's column. -/
theorem rhs1_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The product of a `1024 × 1024` matrix with a `1024 × 512` one, accumulated from zero, has at `(r, h)` the sum over the
    shared coordinate `p` of `a r p * b p h`. -/
theorem dot1_apply (a : FVec Ideal S1024x1024 .bf16) (b : FVec Ideal S1024x512 .bf16) (r : Fin 1024) (h : Fin 512) :
    matmul dot_S1024x1024_S1024x512_S1024x512_1_0_0_1_n_n none a b (constant (F := Ideal) S1024x512 .f32 0x00000000#32) (ix2 r h)
      = ∑ p : Fin 1024, a (ix2 r p) * b (ix2 p h) := by
  simp only [matmul]
  rw [Ideal.matmul_constant_zero_apply, ← Equiv.sum_comp (contrEquiv1 dot_S1024x1024_S1024x512_S1024x512_1_0_0_1_n_n 1024 rfl rfl).symm]
  refine Finset.sum_congr rfl fun p _ => ?_
  have hp := contrEquiv1_symm_val dot_S1024x1024_S1024x512_S1024x512_1_0_0_1_n_n 1024 rfl rfl p
  have el : dot_S1024x1024_S1024x512_S1024x512_1_0_0_1_n_n.lhsIdx (ix2 r h) ((contrEquiv1 dot_S1024x1024_S1024x512_S1024x512_1_0_0_1_n_n 1024 rfl rfl).symm p) = ix2 r p := funext fun ax => Fin.ext (by
    match ax with
    | ⟨0, _⟩ => exact lhs1_0 _ _
    | ⟨1, _⟩ => exact (lhs1_1 _ _).trans hp)
  have er : dot_S1024x1024_S1024x512_S1024x512_1_0_0_1_n_n.rhsIdx (ix2 r h) ((contrEquiv1 dot_S1024x1024_S1024x512_S1024x512_1_0_0_1_n_n 1024 rfl rfl).symm p) = ix2 p h := funext fun ax => Fin.ext (by
    match ax with
    | ⟨0, _⟩ => exact (rhs1_0 _ _).trans hp
    | ⟨1, _⟩ => exact rhs1_1 _ _)
  rw [el, er]

/-! ### Second layer: `[1024, 512] · [512, 256]` -/

/-- The left operand's row is the output's row. -/
theorem lhs2_0 (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
/-- The left operand's column is the contracted coordinate. -/
theorem lhs2_1 (i : S1024x256.Idx) (q : dot_S1024x512_S512x256_S1024x256_1_0_0_1_n_n.contr.Idx) :
    (dot_S1024x512_S512x256_S1024x256_1_0_0_1_n_n.lhsIdx i q 1).val = (q ⟨0, by decide⟩).val :=
  dot_S1024x512_S512x256_S1024x256_1_0_0_1_n_n.lhsIdx_val_of_single rfl i q
/-- The right operand's row is the contracted coordinate. -/
theorem rhs2_0 (i : S1024x256.Idx) (q : dot_S1024x512_S512x256_S1024x256_1_0_0_1_n_n.contr.Idx) :
    (dot_S1024x512_S512x256_S1024x256_1_0_0_1_n_n.rhsIdx i q 0).val = (q ⟨0, by decide⟩).val :=
  dot_S1024x512_S512x256_S1024x256_1_0_0_1_n_n.rhsIdx_val_of_single rfl i q
/-- The right operand's column is the output's column. -/
theorem rhs2_1 (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

/-- The product of a `1024 × 512` matrix with a `512 × 256` one, accumulated from zero, has at `(r, h)` the sum over the
    shared coordinate `p` of `a r p * b p h`. -/
theorem dot2_apply (a : FVec Ideal S1024x512 .bf16) (b : FVec Ideal S512x256 .bf16) (r : Fin 1024) (h : Fin 256) :
    matmul dot_S1024x512_S512x256_S1024x256_1_0_0_1_n_n none a b (constant (F := Ideal) S1024x256 .f32 0x00000000#32) (ix2 r h)
      = ∑ p : Fin 512, a (ix2 r p) * b (ix2 p h) := by
  simp only [matmul]
  rw [Ideal.matmul_constant_zero_apply, ← Equiv.sum_comp (contrEquiv1 dot_S1024x512_S512x256_S1024x256_1_0_0_1_n_n 512 rfl rfl).symm]
  refine Finset.sum_congr rfl fun p _ => ?_
  have hp := contrEquiv1_symm_val dot_S1024x512_S512x256_S1024x256_1_0_0_1_n_n 512 rfl rfl p
  have el : dot_S1024x512_S512x256_S1024x256_1_0_0_1_n_n.lhsIdx (ix2 r h) ((contrEquiv1 dot_S1024x512_S512x256_S1024x256_1_0_0_1_n_n 512 rfl rfl).symm p) = ix2 r p := funext fun ax => Fin.ext (by
    match ax with
    | ⟨0, _⟩ => exact lhs2_0 _ _
    | ⟨1, _⟩ => exact (lhs2_1 _ _).trans hp)
  have er : dot_S1024x512_S512x256_S1024x256_1_0_0_1_n_n.rhsIdx (ix2 r h) ((contrEquiv1 dot_S1024x512_S512x256_S1024x256_1_0_0_1_n_n 512 rfl rfl).symm p) = ix2 p h := funext fun ax => Fin.ext (by
    match ax with
    | ⟨0, _⟩ => exact (rhs2_0 _ _).trans hp
    | ⟨1, _⟩ => exact rhs2_1 _ _)
  rw [el, er]

/-! ### Third layer: `[1024, 256] · [256, 10]` -/

/-- The left operand's row is the output's row. -/
theorem lhs3_0 (i : S1024x10.Idx) (q : dot_S1024x256_S256x10_S1024x10_1_0_0_1_n_n.contr.Idx) :
    (dot_S1024x256_S256x10_S1024x10_1_0_0_1_n_n.lhsIdx i q 0).val = (i 0).val := by
  unfold DotDims.lhsIdx
  rw [dif_neg (show ¬(0 : Fin S1024x256.rank) ∈ dot_S1024x256_S256x10_S1024x10_1_0_0_1_n_n.lhsBatch by decide), dif_pos (show (0 : Fin S1024x256.rank) ∈ dot_S1024x256_S256x10_S1024x10_1_0_0_1_n_n.lhsNonContracting by decide)]
  rfl
/-- The left operand's column is the contracted coordinate. -/
theorem lhs3_1 (i : S1024x10.Idx) (q : dot_S1024x256_S256x10_S1024x10_1_0_0_1_n_n.contr.Idx) :
    (dot_S1024x256_S256x10_S1024x10_1_0_0_1_n_n.lhsIdx i q 1).val = (q ⟨0, by decide⟩).val :=
  dot_S1024x256_S256x10_S1024x10_1_0_0_1_n_n.lhsIdx_val_of_single rfl i q
/-- The right operand's row is the contracted coordinate. -/
theorem rhs3_0 (i : S1024x10.Idx) (q : dot_S1024x256_S256x10_S1024x10_1_0_0_1_n_n.contr.Idx) :
    (dot_S1024x256_S256x10_S1024x10_1_0_0_1_n_n.rhsIdx i q 0).val = (q ⟨0, by decide⟩).val :=
  dot_S1024x256_S256x10_S1024x10_1_0_0_1_n_n.rhsIdx_val_of_single rfl i q
/-- The right operand's column is the output's column. -/
theorem rhs3_1 (i : S1024x10.Idx) (q : dot_S1024x256_S256x10_S1024x10_1_0_0_1_n_n.contr.Idx) :
    (dot_S1024x256_S256x10_S1024x10_1_0_0_1_n_n.rhsIdx i q 1).val = (i 1).val := by
  unfold DotDims.rhsIdx
  rw [dif_neg (show ¬(1 : Fin S256x10.rank) ∈ dot_S1024x256_S256x10_S1024x10_1_0_0_1_n_n.rhsBatch by decide), dif_pos (show (1 : Fin S256x10.rank) ∈ dot_S1024x256_S256x10_S1024x10_1_0_0_1_n_n.rhsNonContracting by decide)]
  rfl

/-- The product of a `1024 × 256` matrix with a `256 × 10` one, accumulated from zero, has at `(r, h)` the sum over the
    shared coordinate `p` of `a r p * b p h`. -/
theorem dot3_apply (a : FVec Ideal S1024x256 .bf16) (b : FVec Ideal S256x10 .bf16) (r : Fin 1024) (h : Fin 10) :
    matmul dot_S1024x256_S256x10_S1024x10_1_0_0_1_n_n none a b (constant (F := Ideal) S1024x10 .f32 0x00000000#32) (ix2 r h)
      = ∑ p : Fin 256, a (ix2 r p) * b (ix2 p h) := by
  simp only [matmul]
  rw [Ideal.matmul_constant_zero_apply, ← Equiv.sum_comp (contrEquiv1 dot_S1024x256_S256x10_S1024x10_1_0_0_1_n_n 256 rfl rfl).symm]
  refine Finset.sum_congr rfl fun p _ => ?_
  have hp := contrEquiv1_symm_val dot_S1024x256_S256x10_S1024x10_1_0_0_1_n_n 256 rfl rfl p
  have el : dot_S1024x256_S256x10_S1024x10_1_0_0_1_n_n.lhsIdx (ix2 r h) ((contrEquiv1 dot_S1024x256_S256x10_S1024x10_1_0_0_1_n_n 256 rfl rfl).symm p) = ix2 r p := funext fun ax => Fin.ext (by
    match ax with
    | ⟨0, _⟩ => exact lhs3_0 _ _
    | ⟨1, _⟩ => exact (lhs3_1 _ _).trans hp)
  have er : dot_S1024x256_S256x10_S1024x10_1_0_0_1_n_n.rhsIdx (ix2 r h) ((contrEquiv1 dot_S1024x256_S256x10_S1024x10_1_0_0_1_n_n 256 rfl rfl).symm p) = ix2 p h := funext fun ax => Fin.ext (by
    match ax with
    | ⟨0, _⟩ => exact (rhs3_0 _ _).trans hp
    | ⟨1, _⟩ => exact rhs3_1 _ _)
  rw [el, er]

/-! ## The three layers, each read at `(r, h)`

A layer is a matrix product accumulated from zero plus a bias vector repeated over the rows; its left operand arrives
through a change of float format, which is the identity here, and its weight through a cast to its own shape. -/

/-- The first layer before the rectifier: at `(r, k)` it is `∑ p, x r p * w p k + b k`. -/
theorem affine1_apply (x : FVec Ideal S1024x1024 .f32) (w : FVec Ideal S1024x512 .bf16) (b : FVec Ideal S512 .f32)
    (ht : FTy.bits .bf16 < FTy.bits .f32) (hw : S1024x512.ShapeCasts S1024x512) (h1 : S512.ShapeCasts S1x512)
    (h2 : S1x512.Broadcasts S1024x512) (r : Fin 1024) (k : Fin 512) :
    addf (matmul dot_S1024x1024_S1024x512_S1024x512_1_0_0_1_n_n none (truncf .bf16 x ht) (shapeCast S1024x512 w hw)
        (constant (F := Ideal) S1024x512 .f32 0x00000000#32))
      (broadcastTo S1024x512 (shapeCast S1x512 b h1) h2) (ix2 r k)
      = (∑ p : Fin 1024, x (ix2 r p) * w (ix2 p k)) + b (ix1 k) := by
  rw [addf_apply, dot1_apply, biasRows_apply, shapeCast_self]
  rfl

/-- The first layer, rectified: `max (∑ p, x r p * w p k + b k) 0`. -/
theorem hidden1_apply (x : FVec Ideal S1024x1024 .f32) (w : FVec Ideal S1024x512 .bf16) (b : FVec Ideal S512 .f32)
    (ht : FTy.bits .bf16 < FTy.bits .f32) (hw : S1024x512.ShapeCasts S1024x512) (h1 : S512.ShapeCasts S1x512)
    (h2 : S1x512.Broadcasts S1024x512) (r : Fin 1024) (k : Fin 512) :
    maximumf (addf (matmul dot_S1024x1024_S1024x512_S1024x512_1_0_0_1_n_n none (truncf .bf16 x ht) (shapeCast S1024x512 w hw)
          (constant (F := Ideal) S1024x512 .f32 0x00000000#32))
        (broadcastTo S1024x512 (shapeCast S1x512 b h1) h2))
      (broadcast S1024x512 (Scalar.ofBits (F := Ideal) .f32 0x00000000#32)) (ix2 r k)
      = max ((∑ p : Fin 1024, x (ix2 r p) * w (ix2 p k)) + b (ix1 k)) 0 := by
  rw [maximumf_apply, affine1_apply, broadcast_apply]
  show max _ (Ideal.ofBits .f32 0x00000000#32) = _
  rw [Ideal.ofBits_zero_f32]

/-- The second layer: at `(r, l)` it is `∑ k, a r k * w k l + b l`. -/
theorem affine2_apply (a : FVec Ideal S1024x512 .f32) (w : FVec Ideal S512x256 .bf16) (b : FVec Ideal S256 .f32)
    (ht : FTy.bits .bf16 < FTy.bits .f32) (hw : S512x256.ShapeCasts S512x256) (h1 : S256.ShapeCasts S1x256)
    (h2 : S1x256.Broadcasts S1024x256) (r : Fin 1024) (l : Fin 256) :
    addf (matmul dot_S1024x512_S512x256_S1024x256_1_0_0_1_n_n none (truncf .bf16 a ht) (shapeCast S512x256 w hw)
        (constant (F := Ideal) S1024x256 .f32 0x00000000#32))
      (broadcastTo S1024x256 (shapeCast S1x256 b h1) h2) (ix2 r l)
      = (∑ k : Fin 512, a (ix2 r k) * w (ix2 k l)) + b (ix1 l) := by
  rw [addf_apply, dot2_apply, biasRows_apply, shapeCast_self]
  rfl

/-- The third layer: at `(r, c)` it is `∑ l, a r l * w l c + b c`. -/
theorem affine3_apply (a : FVec Ideal S1024x256 .f32) (w : FVec Ideal S256x10 .bf16) (b : FVec Ideal S10 .f32)
    (ht : FTy.bits .bf16 < FTy.bits .f32) (hw : S256x10.ShapeCasts S256x10) (h1 : S10.ShapeCasts S1x10)
    (h2 : S1x10.Broadcasts S1024x10) (r : Fin 1024) (c : Fin 10) :
    addf (matmul dot_S1024x256_S256x10_S1024x10_1_0_0_1_n_n none (truncf .bf16 a ht) (shapeCast S256x10 w hw)
        (constant (F := Ideal) S1024x10 .f32 0x00000000#32))
      (broadcastTo S1024x10 (shapeCast S1x10 b h1) h2) (ix2 r c)
      = (∑ l : Fin 256, a (ix2 r l) * w (ix2 l c)) + b (ix1 c) := by
  rw [addf_apply, dot3_apply, biasRows_apply, shapeCast_self]
  rfl

/-! ## The stored values -/

/-- THE BLOCK OF `z` at `(r, c)`: the three layers composed. -/
theorem pay_repr (v0 : Vec Ideal S1024x1024 .f32) (v2 : Vec Ideal S1024x512 .bf16) (v5 : Vec Ideal S512 .f32)
    (v12 : Vec Ideal S512x256 .bf16) (v15 : Vec Ideal S256 .f32) (v20 : Vec Ideal S256x10 .bf16) (v23 : Vec Ideal S10 .f32)
    (r : Fin 1024) (c : Fin 10) :
    k0_pay1 (F := Ideal) v0 v2 v5 v12 v15 v20 v23 (ix2 r c)
      = (∑ l : Fin 256, ((∑ k : Fin 512, max ((∑ p : Fin 1024, v0 (ix2 r p) * v2 (ix2 p k)) + v5 (ix1 k)) 0 * v12 (ix2 k l)) + v15 (ix1 l)) * v20 (ix2 l c)) + v23 (ix1 c) := by
  unfold k0_pay1
  refine (affine3_apply _ _ _ _ _ _ _ r c).trans ?_
  refine congrArg (· + v23 (ix1 c)) (Finset.sum_congr rfl fun l _ => ?_)
  refine congrArg (· * v20 (ix2 l c)) ?_
  refine (affine2_apply _ _ _ _ _ _ _ r l).trans ?_
  refine congrArg (· + v15 (ix1 l)) (Finset.sum_congr rfl fun k _ => ?_)
  refine congrArg (· * v12 (ix2 k l)) ?_
  exact hidden1_apply _ _ _ _ _ _ _ r k

/-- THE SQUARED NORMS at row `r`: the sum over the ten columns of the square of `z r c`. -/
theorem pay_sqNorm (v0 : Vec Ideal S1024x1024 .f32) (v2 : Vec Ideal S1024x512 .bf16) (v5 : Vec Ideal S512 .f32)
    (v12 : Vec Ideal S512x256 .bf16) (v15 : Vec Ideal S256 .f32) (v20 : Vec Ideal S256x10 .bf16) (v23 : Vec Ideal S10 .f32)
    (r : Fin 1024) :
    k0_pay2 (F := Ideal) v0 v2 v5 v12 v15 v20 v23 (ix2 r 0)
      = ∑ c : Fin 10, k0_pay1 (F := Ideal) v0 v2 v5 v12 v15 v20 v23 (ix2 r c) * k0_pay1 (F := Ideal) v0 v2 v5 v12 v15 v20 v23 (ix2 r c) := by
  unfold k0_pay2
  refine (column_apply _ _ r 0).trans ?_
  refine (Ideal.multiReduction_add_single _ _ reduces_S1024x10_S1024 _ _ (ix1 r)).trans ?_
  refine Finset.sum_congr rfl fun (c : Fin 10) _ => ?_
  have e : reduces_S1024x10_S1024.lift (ix1 r) c = ix2 r c := funext fun ax => Fin.ext (by
    match ax with
    | ⟨0, _⟩ => rfl
    | ⟨1, _⟩ => rfl)
  rw [mulf_apply, e]

end Cert.KernelIdeal.MlpPayload

end
-- ==== Proof.KernelIdeal.MlpValue.lean ====
/-
  What the two result arrays of the first region hold once the region has run, at the extended reals.

  The region walks a grid of eight points. Point t is handed rows 1024·t … 1024·t + 1023 of the
  sample matrix and the whole of the three weight matrices and three bias vectors; it computes, for
  those rows, the ten-coordinate representation (three affine layers, the first rectified) and the
  sum of its squares, and writes both back as block t of a [8192, 10] and of a [8192, 1] array.

  Each loaded block read at an element is the argument array read at the element's place in the
  array (block index × block size + the coordinate inside the block), so what point t writes back
  is block t of ONE function of the argument arrays: the representation, respectively its squared
  norm, row by row. Row n lies in the block of point n / 1024, so the eight blocks cover each array,
  and each array ends holding that function.
-/
import proofs.«423389_j72705206387155_1_alg».proof.Proof.KernelIdeal.MlpRegion
import proofs.«423389_j72705206387155_1_alg».proof.Proof.MlpPayload
import proofs.«423389_j72705206387155_1_alg».proof.Proof.SpecArrays
import Idealize.ShloMosaic.Lib.Pipeline.Value
import Idealize.ShloMosaic.Lib.ValueIdx

noncomputable section

namespace Cert.KernelIdeal.MlpValue

open Cert.KernelIdeal Cert.KernelIdeal.Gen Cert.KernelIdeal.Hand Cert.KernelIdeal.MlpPayload
open Idealize.ShloMosaic Idealize.ShloMosaic.TcCoe Idealize.SL.Sem Idealize.ShloMosaic.ValueIdx ClassPosterior
open Idealize.ShloMosaic.Pipeline (Dat)

variable (V : (c : Dev nD) → (b : Ref sig .tc) → Buf (Elt Ideal) ((c : Thread nD τ).loc b)) (c : Dev nD)

/-! ## The windows' block indices over the grid

Point t of the eight-point grid takes block t of the sample rows, of the representations and of the
squared norms, and the one block of each weight matrix and bias vector. -/

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-! ## Each input block, read where it lies in its array -/

/-- The sample block at point t, at (r, p), is the sample matrix at (1024·t + r, p). -/
theorem iblk_x (t : Fin cfg0.N) (r p : Fin 1024) (n : Fin 8192) (hn : n.val = t.val * 1024 + r.val) :
    (iblk0 V c 0 t : Vec Ideal S1024x1024 .f32) (ix2 r p) = (V c main_arg0 : S8192x1024.Idx → EReal) (ix2 n p) := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 1024 + 1 * r.val = n.val; rw [e0, hn]; omega
  | ⟨1, _⟩ => show win0_0.index t 1 * 1024 + 1 * p.val = p.val; rw [e1]; omega

/-- The first weight matrix's block is the whole matrix. -/
theorem iblk_w1 (t : Fin cfg0.N) (p : Fin 1024) (k : Fin 512) :
    (iblk0 V c 1 t : Vec Ideal S1024x512 .bf16) (ix2 p k) = (V c main_v0 : S1024x512.Idx → EReal) (ix2 p k) := by
  obtain ⟨-, -, e0, e1, -⟩ := idx_facts t
  unfold iblk0
  rw [View.read_apply]
  show V c main_v0 _ = V c main_v0 _
  congr 1
  funext a
  apply Fin.ext
  match a with
  | ⟨0, _⟩ => show win0_1.index t 0 * 1024 + 1 * p.val = p.val; rw [e0]; omega
  | ⟨1, _⟩ => show win0_1.index t 1 * 512 + 1 * k.val = k.val; rw [e1]; omega

/-- The first bias vector's block is the whole vector. -/
theorem iblk_b1 (t : Fin cfg0.N) (k : Fin 512) :
    (iblk0 V c 2 t : Vec Ideal S512 .f32) (ix1 k) = (V c main_arg3 : S512.Idx → EReal) (ix1 k) := by
  obtain ⟨-, -, -, -, e0, -⟩ := idx_facts t
  unfold iblk0
  rw [View.read_apply]
  show V c main_arg3 _ = V c main_arg3 _
  congr 1
  funext a
  apply Fin.ext
  match a with
  | ⟨0, _⟩ => show win0_2.index t 0 * 512 + 1 * k.val = k.val; rw [e0]; omega

/-- The second weight matrix's block is the whole matrix. -/
theorem iblk_w2 (t : Fin cfg0.N) (k : Fin 512) (l : Fin 256) :
    (iblk0 V c 3 t : Vec Ideal S512x256 .bf16) (ix2 k l) = (V c main_v1 : S512x256.Idx → EReal) (ix2 k l) := by
  obtain ⟨-, -, -, -, -, e0, e1, -⟩ := idx_facts t
  unfold iblk0
  rw [View.read_apply]
  show V c main_v1 _ = V c main_v1 _
  congr 1
  funext a
  apply Fin.ext
  match a with
  | ⟨0, _⟩ => show win0_3.index t 0 * 512 + 1 * k.val = k.val; rw [e0]; omega
  | ⟨1, _⟩ => show win0_3.index t 1 * 256 + 1 * l.val = l.val; rw [e1]; omega

/-- The second bias vector's block is the whole vector. -/
theorem iblk_b2 (t : Fin cfg0.N) (l : Fin 256) :
    (iblk0 V c 4 t : Vec Ideal S256 .f32) (ix1 l) = (V c main_arg5 : S256.Idx → EReal) (ix1 l) := by
  obtain ⟨-, -, -, -, -, -, -, e0, -⟩ := idx_facts t
  unfold iblk0
  rw [View.read_apply]
  show V c main_arg5 _ = V c main_arg5 _
  congr 1
  funext a
  apply Fin.ext
  match a with
  | ⟨0, _⟩ => show win0_4.index t 0 * 256 + 1 * l.val = l.val; rw [e0]; omega

/-- The third weight matrix's block is the whole matrix. -/
theorem iblk_w3 (t : Fin cfg0.N) (l : Fin 256) (k : Fin 10) :
    (iblk0 V c 5 t : Vec Ideal S256x10 .bf16) (ix2 l k) = (V c main_v2 : S256x10.Idx → EReal) (ix2 l k) := by
  obtain ⟨-, -, -, -, -, -, -, -, e0, e1, -⟩ := idx_facts t
  unfold iblk0
  rw [View.read_apply]
  show V c main_v2 _ = V c main_v2 _
  congr 1
  funext a
  apply Fin.ext
  match a with
  | ⟨0, _⟩ => show win0_5.index t 0 * 256 + 1 * l.val = l.val; rw [e0]; omega
  | ⟨1, _⟩ => show win0_5.index t 1 * 10 + 1 * k.val = k.val; rw [e1]; omega

/-- The third bias vector's block is the whole vector. -/
theorem iblk_b3 (t : Fin cfg0.N) (k : Fin 10) :
    (iblk0 V c 6 t : Vec Ideal S10 .f32) (ix1 k) = (V c main_arg7 : S10.Idx → EReal) (ix1 k) := by
  obtain ⟨-, -, -, -, -, -, -, -, -, -, e0, -⟩ := idx_facts t
  unfold iblk0
  rw [View.read_apply]
  show V c main_arg7 _ = V c main_arg7 _
  congr 1
  funext a
  apply Fin.ext
  match a with
  | ⟨0, _⟩ => show win0_6.index t 0 * 10 + 1 * k.val = k.val; rw [e0]; omega

/-! ## What one point computes, in the specification's words -/

section Point

variable (x : S8192x1024.Idx → EReal) (w1 : S1024x512.Idx → EReal) (b1 : S512.Idx → EReal) (w2 : S512x256.Idx → EReal)
  (b2 : S256.Idx → EReal) (w3 : S256x10.Idx → EReal) (b3 : S10.Idx → EReal)

/-- Row r of the block of representations at point t is row 1024·t + r of the representation. -/
theorem repr_block (hx : V c main_arg0 = x) (hw1 : (V c main_v0 : S1024x512.Idx → EReal) = w1) (hb1 : V c main_arg3 = b1)
    (hw2 : (V c main_v1 : S512x256.Idx → EReal) = w2) (hb2 : V c main_arg5 = b2)
    (hw3 : (V c main_v2 : S256x10.Idx → EReal) = w3) (hb3 : V c main_arg7 = b3)
    (t : Fin cfg0.N) (r : Fin 1024) (k : Fin 10) (n : Fin 8192) (hn : n.val = t.val * 1024 + r.val) :
    k0_pay1 (F := Ideal) (iblk0 V c 0 t) (iblk0 V c 1 t) (iblk0 V c 2 t) (iblk0 V c 3 t) (iblk0 V c 4 t) (iblk0 V c 5 t) (iblk0 V c 6 t) (ix2 r k)
      = reprOf x w1 b1 w2 b2 w3 b3 n k := by
  refine (pay_repr _ _ _ _ _ _ _ r k).trans ?_
  show _ = (∑ l : Fin 256, ((∑ j : Fin 512, max ((∑ p : Fin 1024, x (ix2 n p) * w1 (ix2 p j)) + b1 (ix1 j)) 0 * w2 (ix2 j l)) + b2 (ix1 l)) * w3 (ix2 l k)) + b3 (ix1 k)
  rw [iblk_b3, hb3]
  refine congrArg (· + b3 (ix1 k)) (Finset.sum_congr rfl fun l _ => ?_)
  rw [iblk_w3, hw3, iblk_b2, hb2]
  refine congrArg (fun s => (s + b2 (ix1 l)) * w3 (ix2 l k)) (Finset.sum_congr rfl fun j _ => ?_)
  rw [iblk_w2, hw2, iblk_b1, hb1]
  refine congrArg (fun s => max (s + b1 (ix1 j)) 0 * w2 (ix2 j l)) (Finset.sum_congr rfl fun p _ => ?_)
  rw [iblk_x V c t r p n hn, hx, iblk_w1, hw1]

end Point

/-! ## What each point writes back is its block of one array -/

section Arrays

variable (x : S8192x1024.Idx → EReal) (w1 : S1024x512.Idx → EReal) (b1 : S512.Idx → EReal) (w2 : S512x256.Idx → EReal)
  (b2 : S256.Idx → EReal) (w3 : S256x10.Idx → EReal) (b3 : S10.Idx → EReal)

/-- The array of representations. -/
abbrev zArr : S8192x10.Idx → EReal := fun i => reprOf x w1 b1 w2 b2 w3 b3 (i 0) (i 1)
/-- The array of squared norms. -/
abbrev nArr : S8192x1.Idx → EReal := fun i => sqNorm (reprOf x w1 b1 w2 b2 w3 b3) (i 0)

/-- Point t writes back block t of the array of representations. -/
theorem flushed7_eq (hx : V c main_arg0 = x) (hw1 : (V c main_v0 : S1024x512.Idx → EReal) = w1) (hb1 : V c main_arg3 = b1)
    (hw2 : (V c main_v1 : S512x256.Idx → EReal) = w2) (hb2 : V c main_arg5 = b2)
    (hw3 : (V c main_v2 : S256x10.Idx → EReal) = w3) (hb3 : V c main_arg7 = b3) (t : Fin cfg0.N) :
    (dat0 (F := Ideal) V c).flushed 7 t = ((cfg0.win 7).blk t).view.read (Elt Ideal) (zArr x w1 b1 w2 b2 w3 b3) := by
  show (cfg0.win 7).cut (grid0.coords t) ((dat0 (F := Ideal) V c).after 7 t) = _
  rw [after0_7, out0_7_eq]
  obtain ⟨-, -, -, -, -, -, -, -, -, -, -, e0, e1, -⟩ := idx_facts t
  funext y
  obtain ⟨r, k, rfl⟩ : ∃ (r : Fin 1024) (k : Fin 10), y = ix2 r k := ⟨y 0, y 1, eq_ix2 y⟩
  have ht : t.val < 8 := lt_of_lt_of_eq t.isLt N_0
  have hr := r.isLt
  show k0_pay1 (F := Ideal) (iblk0 V c 0 t) (iblk0 V c 1 t) (iblk0 V c 2 t) (iblk0 V c 3 t) (iblk0 V c 4 t) (iblk0 V c 5 t) (iblk0 V c 6 t) (ix2 r k)
    = zArr x w1 b1 w2 b2 w3 b3 (((cfg0.win 7).blk t).view.emb (ix2 r k))
  rw [repr_block V c x w1 b1 w2 b2 w3 b3 hx hw1 hb1 hw2 hb2 hw3 hb3 t r k ⟨t.val * 1024 + r.val, by omega⟩ rfl]
  show reprOf x w1 b1 w2 b2 w3 b3 _ _ = reprOf x w1 b1 w2 b2 w3 b3 _ _
  refine congrArg₂ (reprOf x w1 b1 w2 b2 w3 b3) (Fin.ext ?_) (Fin.ext ?_)
  · show t.val * 1024 + r.val = win0_7.index t 0 * 1024 + 1 * r.val
    rw [e0]; omega
  · show k.val = win0_7.index t 1 * 10 + 1 * k.val
    rw [e1]; omega

/-- Point t writes back block t of the array of squared norms. -/
theorem flushed8_eq (hx : V c main_arg0 = x) (hw1 : (V c main_v0 : S1024x512.Idx → EReal) = w1) (hb1 : V c main_arg3 = b1)
    (hw2 : (V c main_v1 : S512x256.Idx → EReal) = w2) (hb2 : V c main_arg5 = b2)
    (hw3 : (V c main_v2 : S256x10.Idx → EReal) = w3) (hb3 : V c main_arg7 = b3) (t : Fin cfg0.N) :
    (dat0 (F := Ideal) V c).flushed 8 t = ((cfg0.win 8).blk t).view.read (Elt Ideal) (nArr x w1 b1 w2 b2 w3 b3) := by
  show (cfg0.win 8).cut (grid0.coords t) ((dat0 (F := Ideal) V c).after 8 t) = _
  rw [after0_8, out0_8_eq]
  obtain ⟨-, -, -, -, -, -, -, -, -, -, -, -, -, e0, e1⟩ := idx_facts t
  funext y
  obtain ⟨r, u, rfl⟩ : ∃ (r : Fin 1024) (u : Fin 1), y = ix2 r u := ⟨y 0, y 1, eq_ix2 y⟩
  obtain rfl : u = 0 := Subsingleton.elim _ _
  have ht : t.val < 8 := lt_of_lt_of_eq t.isLt N_0
  have hr := r.isLt
  show k0_pay2 (F := Ideal) (iblk0 V c 0 t) (iblk0 V c 1 t) (iblk0 V c 2 t) (iblk0 V c 3 t) (iblk0 V c 4 t) (iblk0 V c 5 t) (iblk0 V c 6 t) (ix2 r 0)
    = nArr x w1 b1 w2 b2 w3 b3 (((cfg0.win 8).blk t).view.emb (ix2 r 0))
  rw [pay_sqNorm]
  show _ = ∑ k : Fin 10, reprOf x w1 b1 w2 b2 w3 b3 _ k * reprOf x w1 b1 w2 b2 w3 b3 _ k
  refine Finset.sum_congr rfl fun k _ => ?_
  rw [repr_block V c x w1 b1 w2 b2 w3 b3 hx hw1 hb1 hw2 hb2 hw3 hb3 t r k ⟨t.val * 1024 + r.val, by omega⟩ rfl]
  have e : (⟨t.val * 1024 + r.val, by omega⟩ : Fin 8192) = ((cfg0.win 8).blk t).view.emb (ix2 r 0) 0 := Fin.ext (by
    show t.val * 1024 + r.val = win0_8.index t 0 * 1024 + 1 * r.val
    rw [e0]; omega)
  rw [e]

/-! ## Every row of either array lies in the block of the point that handles it -/

/-- A row lies in point t's block of the representations iff each coordinate is in the block's range. -/
theorem mem_blk7 (t : Fin cfg0.N) (i : S8192x10.Idx) :
    i ∈ ((cfg0.win 7).blk t).view.set ↔ ∀ a : Fin 2, win0_7.index t a * S1024x10.size a ≤ (i a).val ∧ (i a).val < win0_7.index t a * S1024x10.size a + S1024x10.size a := by
  show i ∈ ((View.whole main_v3_0).slice (win0_7.rect t)).set ↔ _
  rw [View.set_slice_whole, Rect.mem_set_unit]
  exact Iff.rfl

/-- The same for the squared norms. -/
theorem mem_blk8 (t : Fin cfg0.N) (i : S8192x1.Idx) :
    i ∈ ((cfg0.win 8).blk t).view.set ↔ ∀ a : Fin 2, win0_8.index t a * S1024x1.size a ≤ (i a).val ∧ (i a).val < win0_8.index t a * S1024x1.size a + S1024x1.size a := by
  show i ∈ ((View.whole main_v3_1).slice (win0_8.rect t)).set ↔ _
  rw [View.set_slice_whole, Rect.mem_set_unit]
  exact Iff.rfl

/-- Row n of the representations is written back by point n / 1024. -/
theorem cover7 (i : S8192x10.Idx) : ∃ t : Fin cfg0.N, (cfg0.win 7).flush t = true ∧ i ∈ ((cfg0.win 7).blk t).view.set := by
  have hi0 : (i 0).val < 8192 := (i 0).isLt
  have hi1 : (i 1).val < 10 := (i 1).isLt
  have hN : cfg0.N = 8 := N_0
  have ht : (i 0).val / 1024 < cfg0.N := by omega
  obtain ⟨-, -, -, -, -, -, -, -, -, -, -, e0, e1, -⟩ := idx_facts ⟨(i 0).val / 1024, ht⟩
  refine ⟨⟨(i 0).val / 1024, ht⟩, flush0_7 _, ?_⟩
  rw [mem_blk7]
  intro a
  match a with
  | ⟨0, _⟩ =>
    show win0_7.index ⟨(i 0).val / 1024, ht⟩ 0 * 1024 ≤ (i 0).val ∧ (i 0).val < win0_7.index ⟨(i 0).val / 1024, ht⟩ 0 * 1024 + 1024
    rw [e0]; show (i 0).val / 1024 * 1024 ≤ (i 0).val ∧ (i 0).val < (i 0).val / 1024 * 1024 + 1024; omega
  | ⟨1, _⟩ =>
    show win0_7.index ⟨(i 0).val / 1024, ht⟩ 1 * 10 ≤ (i 1).val ∧ (i 1).val < win0_7.index ⟨(i 0).val / 1024, ht⟩ 1 * 10 + 10
    rw [e1]; omega

/-- Row n of the squared norms is written back by point n / 1024. -/
theorem cover8 (i : S8192x1.Idx) : ∃ t : Fin cfg0.N, (cfg0.win 8).flush t = true ∧ i ∈ ((cfg0.win 8).blk t).view.set := by
  have hi0 : (i 0).val < 8192 := (i 0).isLt
  have hi1 : (i 1).val < 1 := (i 1).isLt
  have hN : cfg0.N = 8 := N_0
  have ht : (i 0).val / 1024 < cfg0.N := by omega
  obtain ⟨-, -, -, -, -, -, -, -, -, -, -, -, -, e0, e1⟩ := idx_facts ⟨(i 0).val / 1024, ht⟩
  refine ⟨⟨(i 0).val / 1024, ht⟩, flush0_8 _, ?_⟩
  rw [mem_blk8]
  intro a
  match a with
  | ⟨0, _⟩ =>
    show win0_8.index ⟨(i 0).val / 1024, ht⟩ 0 * 1024 ≤ (i 0).val ∧ (i 0).val < win0_8.index ⟨(i 0).val / 1024, ht⟩ 0 * 1024 + 1024
    rw [e0]; show (i 0).val / 1024 * 1024 ≤ (i 0).val ∧ (i 0).val < (i 0).val / 1024 * 1024 + 1024; omega
  | ⟨1, _⟩ =>
    show win0_8.index ⟨(i 0).val / 1024, ht⟩ 1 * 1 ≤ (i 1).val ∧ (i 1).val < win0_8.index ⟨(i 0).val / 1024, ht⟩ 1 * 1 + 1
    rw [e1]; omega

/-! ## The two arrays after the region -/

/-- After the region the first result array holds the representation of every row. -/
theorem z_array (hx : V c main_arg0 = x) (hw1 : (V c main_v0 : S1024x512.Idx → EReal) = w1) (hb1 : V c main_arg3 = b1)
    (hw2 : (V c main_v1 : S512x256.Idx → EReal) = w2) (hb2 : V c main_arg5 = b2)
    (hw3 : (V c main_v2 : S256x10.Idx → EReal) = w3) (hb3 : V c main_arg7 = b3) :
    (dat0 (F := Ideal) V c).arrAt 7 cfg0.N = fun i => reprOf x w1 b1 w2 b2 w3 b3 (i 0) (i 1) :=
  (dat0 (F := Ideal) V c).arrAt_eq_of_cover 7 (zArr x w1 b1 w2 b2 w3 b3)
    (fun t _ => flushed7_eq V c x w1 b1 w2 b2 w3 b3 hx hw1 hb1 hw2 hb2 hw3 hb3 t) cover7

/-- After the region the second result array holds the squared norm of every row's representation. -/
theorem sqNorm_array (hx : V c main_arg0 = x) (hw1 : (V c main_v0 : S1024x512.Idx → EReal) = w1) (hb1 : V c main_arg3 = b1)
    (hw2 : (V c main_v1 : S512x256.Idx → EReal) = w2) (hb2 : V c main_arg5 = b2)
    (hw3 : (V c main_v2 : S256x10.Idx → EReal) = w3) (hb3 : V c main_arg7 = b3) :
    (dat0 (F := Ideal) V c).arrAt 8 cfg0.N = fun i => sqNorm (reprOf x w1 b1 w2 b2 w3 b3) (i 0) :=
  (dat0 (F := Ideal) V c).arrAt_eq_of_cover 8 (nArr x w1 b1 w2 b2 w3 b3)
    (fun t _ => flushed8_eq V c x w1 b1 w2 b2 w3 b3 hx hw1 hb1 hw2 hb2 hw3 hb3 t) cover8

end Arrays

end Cert.KernelIdeal.MlpValue

end
-- ==== Proof.DistPayload.lean ====
/-
  The five pure terms of the pairwise-distance program, each read at ONE element, on the extended
  reals.

  The program walks an 8 × 8 grid of 1024 × 1024 tiles of the 8192 × 8192 affinity matrix. At grid
  position (a, b) it forms the tile of affinities of rows a·1024 + r against rows b·1024 + q: the
  inner products of the two [1024, 10] blocks of representations (a product into a zero tile, so a
  plain sum over the ten classes), the squared distance as the sum of the two squared norms minus
  twice the inner product, the Gaussian exp (−½ · distance), and zero where the two GLOBAL row
  numbers coincide. It adds the tile times the block of class indicators to the class weights
  gathered so far (which start from the zero block), and, once a row of tiles is finished, takes
  the logarithm of each class's share of the row's smoothed total and, from it, minus the sum of
  the log share times the row's own class indicator.

  Every layout step (a cast to the same shape, a transpose, a column or a row spread over a block,
  a lane sum kept as a column) reads one element of its operand, and every arithmetic step acts
  element by element; the theorems below say which element and which arithmetic.
-/
import proofs.«423389_j72705206387155_1_alg».proof.Proof.Gen.KernelIdeal.Skeleton
import proofs.«423389_j72705206387155_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.DistPayload

open Cert.KernelIdeal Cert.KernelIdeal.Gen Idealize.ShloMosaic Idealize.ShloMosaic.ValueIdx ClassPosterior

/-! ## Reading one element of a block: the layout steps

The class axis of a [1024, 10] block is summed along its lanes, the sum is kept as a [1024, 1]
column, and a column (or a [1, 1024] row) is spread over a block. Each step reads ONE element of
its operand. -/

section Layout
variable {α : Type}

/-- A vector of length a kept as an [a, 1] column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column spread over [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The lane sum over the ten classes -/

/-- The sum along the class axis of a [1024, 10] block, read at row r, is the sum over the ten
    classes of the block's row r. -/
theorem laneSum_apply (src : FVec Ideal S1024x10 .f32) (h : S1024x10.Reduces [1] S1024) (hφ : FKind.Formats .f32)
    (hacc : (0x00000000#32 : BitVec 32) = 0x00000000#32) (r : Fin 1024) :
    multiReduction (F := Ideal) .add [1] S1024 src 0x00000000#32 h hφ hacc (ix1 r) = ∑ c : Fin 10, src (ix2 r c) := by
  refine (Ideal.multiReduction_add_single src 0x00000000#32 h hφ hacc (ix1 r)).trans ?_
  refine Finset.sum_congr rfl fun c _ => congrArg src (funext fun a => Fin.ext ?_)
  match a with
  | ⟨0, _⟩ => rfl
  | ⟨1, _⟩ => rfl

/-! ## The two block products

A product into the zero block is the plain sum over the contracted axis. The contraction index of
each product has one axis; the four coordinate facts below say which coordinate of which operand it
is, and which coordinate the output index supplies. -/

theorem acc_lhs_0 (j : S1024x10.Idx) (k : dot_S1024x1024_S1024x10_S1024x10_1_0_0_1_n_n.contr.Idx) :
    (dot_S1024x1024_S1024x10_S1024x10_1_0_0_1_n_n.lhsIdx j k 0).val = (j 0).val := by
  unfold DotDims.lhsIdx
  rw [dif_neg (show ¬(0 : Fin S1024x1024.rank) ∈ dot_S1024x1024_S1024x10_S1024x10_1_0_0_1_n_n.lhsBatch by decide), dif_pos (show (0 : Fin S1024x1024.rank) ∈ dot_S1024x1024_S1024x10_S1024x10_1_0_0_1_n_n.lhsNonContracting by decide)]
  rfl
theorem acc_lhs_1 (j : S1024x10.Idx) (k : dot_S1024x1024_S1024x10_S1024x10_1_0_0_1_n_n.contr.Idx) :
    (dot_S1024x1024_S1024x10_S1024x10_1_0_0_1_n_n.lhsIdx j k 1).val = (k ⟨0, by decide⟩).val :=
  dot_S1024x1024_S1024x10_S1024x10_1_0_0_1_n_n.lhsIdx_val_of_single rfl j k
theorem acc_rhs_0 (j : S1024x10.Idx) (k : dot_S1024x1024_S1024x10_S1024x10_1_0_0_1_n_n.contr.Idx) :
    (dot_S1024x1024_S1024x10_S1024x10_1_0_0_1_n_n.rhsIdx j k 0).val = (k ⟨0, by decide⟩).val :=
  dot_S1024x1024_S1024x10_S1024x10_1_0_0_1_n_n.rhsIdx_val_of_single rfl j k
theorem acc_rhs_1 (j : S1024x10.Idx) (k : dot_S1024x1024_S1024x10_S1024x10_1_0_0_1_n_n.contr.Idx) :
    (dot_S1024x1024_S1024x10_S1024x10_1_0_0_1_n_n.rhsIdx j k 1).val = (j 1).val := by
  unfold DotDims.rhsIdx
  rw [dif_neg (show ¬(1 : Fin S1024x10.rank) ∈ dot_S1024x1024_S1024x10_S1024x10_1_0_0_1_n_n.rhsBatch by decide), dif_pos (show (1 : Fin S1024x10.rank) ∈ dot_S1024x1024_S1024x10_S1024x10_1_0_0_1_n_n.rhsNonContracting by decide)]
  rfl

/-- A [1024, 1024] tile times a [1024, 10] block, into the zero block: at (r, c) the sum over the
    tile's columns q of the tile at (r, q) times the block at (q, c). -/
theorem tileTimesBlock_apply (A : FVec Ideal S1024x1024 .f32) (B : FVec Ideal S1024x10 .f32) (prec : Option ContractPrecision)
    (r : Fin 1024) (c : Fin 10) :
    matmul dot_S1024x1024_S1024x10_S1024x10_1_0_0_1_n_n prec A B (constant (F := Ideal) S1024x10 .f32 0x00000000#32) (ix2 r c)
      = ∑ q : Fin 1024, A (ix2 r q) * B (ix2 q c) := by
  simp only [matmul]
  rw [Ideal.matmul_constant_zero_apply, ← Equiv.sum_comp (contrEquiv1 dot_S1024x1024_S1024x10_S1024x10_1_0_0_1_n_n 1024 rfl rfl).symm]
  refine Finset.sum_congr rfl fun k _ => ?_
  have hk := contrEquiv1_symm_val dot_S1024x1024_S1024x10_S1024x10_1_0_0_1_n_n 1024 rfl rfl k
  have el : dot_S1024x1024_S1024x10_S1024x10_1_0_0_1_n_n.lhsIdx (ix2 r c) ((contrEquiv1 dot_S1024x1024_S1024x10_S1024x10_1_0_0_1_n_n 1024 rfl rfl).symm k) = ix2 r k := funext fun a => Fin.ext (by
    match a with
    | ⟨0, _⟩ => exact acc_lhs_0 _ _
    | ⟨1, _⟩ => exact (acc_lhs_1 _ _).trans hk)
  have er : dot_S1024x1024_S1024x10_S1024x10_1_0_0_1_n_n.rhsIdx (ix2 r c) ((contrEquiv1 dot_S1024x1024_S1024x10_S1024x10_1_0_0_1_n_n 1024 rfl rfl).symm k) = ix2 k c := funext fun a => Fin.ext (by
    match a with
    | ⟨0, _⟩ => exact (acc_rhs_0 _ _).trans hk
    | ⟨1, _⟩ => exact acc_rhs_1 _ _)
  rw [el, er]

theorem gram_lhs_0 (j : S1024x1024.Idx) (k : dot_S1024x10_S10x1024_S1024x1024_1_0_0_1_n_n.contr.Idx) :
    (dot_S1024x10_S10x1024_S1024x1024_1_0_0_1_n_n.lhsIdx j k 0).val = (j 0).val := by
  unfold DotDims.lhsIdx
  rw [dif_neg (show ¬(0 : Fin S1024x10.rank) ∈ dot_S1024x10_S10x1024_S1024x1024_1_0_0_1_n_n.lhsBatch by decide), dif_pos (show (0 : Fin S1024x10.rank) ∈ dot_S1024x10_S10x1024_S1024x1024_1_0_0_1_n_n.lhsNonContracting by decide)]
  rfl
theorem gram_lhs_1 (j : S1024x1024.Idx) (k : dot_S1024x10_S10x1024_S1024x1024_1_0_0_1_n_n.contr.Idx) :
    (dot_S1024x10_S10x1024_S1024x1024_1_0_0_1_n_n.lhsIdx j k 1).val = (k ⟨0, by decide⟩).val :=
  dot_S1024x10_S10x1024_S1024x1024_1_0_0_1_n_n.lhsIdx_val_of_single rfl j k
theorem gram_rhs_0 (j : S1024x1024.Idx) (k : dot_S1024x10_S10x1024_S1024x1024_1_0_0_1_n_n.contr.Idx) :
    (dot_S1024x10_S10x1024_S1024x1024_1_0_0_1_n_n.rhsIdx j k 0).val = (k ⟨0, by decide⟩).val :=
  dot_S1024x10_S10x1024_S1024x1024_1_0_0_1_n_n.rhsIdx_val_of_single rfl j k
theorem gram_rhs_1 (j : S1024x1024.Idx) (k : dot_S1024x10_S10x1024_S1024x1024_1_0_0_1_n_n.contr.Idx) :
    (dot_S1024x10_S10x1024_S1024x1024_1_0_0_1_n_n.rhsIdx j k 1).val = (j 1).val := by
  unfold DotDims.rhsIdx
  rw [dif_neg (show ¬(1 : Fin S10x1024.rank) ∈ dot_S1024x10_S10x1024_S1024x1024_1_0_0_1_n_n.rhsBatch by decide), dif_pos (show (1 : Fin S10x1024.rank) ∈ dot_S1024x10_S10x1024_S1024x1024_1_0_0_1_n_n.rhsNonContracting by decide)]
  rfl

/-- A [1024, 10] block times a [10, 1024] block, into the zero tile: at (r, q) the sum over the
    ten classes c of the first at (r, c) times the second at (c, q). -/
theorem blockTimesBlock_apply (A : FVec Ideal S1024x10 .f32) (B : FVec Ideal S10x1024 .f32) (prec : Option ContractPrecision)
    (r q : Fin 1024) :
    matmul dot_S1024x10_S10x1024_S1024x1024_1_0_0_1_n_n prec A B (constant (F := Ideal) S1024x1024 .f32 0x00000000#32) (ix2 r q)
      = ∑ c : Fin 10, A (ix2 r c) * B (ix2 c q) := by
  simp only [matmul]
  rw [Ideal.matmul_constant_zero_apply, ← Equiv.sum_comp (contrEquiv1 dot_S1024x10_S10x1024_S1024x1024_1_0_0_1_n_n 10 rfl rfl).symm]
  refine Finset.sum_congr rfl fun k _ => ?_
  have hk := contrEquiv1_symm_val dot_S1024x10_S10x1024_S1024x1024_1_0_0_1_n_n 10 rfl rfl k
  have el : dot_S1024x10_S10x1024_S1024x1024_1_0_0_1_n_n.lhsIdx (ix2 r q) ((contrEquiv1 dot_S1024x10_S10x1024_S1024x1024_1_0_0_1_n_n 10 rfl rfl).symm k) = ix2 r k := funext fun a => Fin.ext (by
    match a with
    | ⟨0, _⟩ => exact gram_lhs_0 _ _
    | ⟨1, _⟩ => exact (gram_lhs_1 _ _).trans hk)
  have er : dot_S1024x10_S10x1024_S1024x1024_1_0_0_1_n_n.rhsIdx (ix2 r q) ((contrEquiv1 dot_S1024x10_S10x1024_S1024x1024_1_0_0_1_n_n 10 rfl rfl).symm k) = ix2 k q := funext fun a => Fin.ext (by
    match a with
    | ⟨0, _⟩ => exact (gram_rhs_0 _ _).trans hk
    | ⟨1, _⟩ => exact gram_rhs_1 _ _)
  rw [el, er]

/-! ## The elementwise steps at an element (true by computation) -/

theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-! ## The four short payloads -/

/-- The block the class weights start from is zero everywhere. -/
theorem pay_zero (r : Fin 1024) (c : Fin 10) : k1_pay4 (F := Ideal) (ix2 r c) = 0 := by
  unfold k1_pay4
  rw [shapeCast_self]
  exact Ideal.ofBits_zero_f32

/-- One step of the class weights: the weights so far plus, over the tile's columns, the affinity
    times the column's class indicator. -/
theorem pay_accumulate (v34 : FVec Ideal S1024x1024 .f32) (v35 v36 : Vec Ideal S1024x10 .f32) (r : Fin 1024) (c : Fin 10) :
    k1_pay1 (F := Ideal) v34 v35 v36 (ix2 r c) = v35 (ix2 r c) + ∑ q : Fin 1024, v34 (ix2 r q) * v36 (ix2 q c) := by
  unfold k1_pay1
  simp only [shapeCast_self]
  rw [addf_apply, tileTimesBlock_apply]

/-- The logarithm of a class's share of its row's smoothed total. -/
theorem pay_logPosterior (v46 : Vec Ideal S1024x10 .f32) (r : Fin 1024) (c : Fin 10) :
    k1_pay2 (F := Ideal) v46 (ix2 r c) = Ideal.log (Ideal.div (v46 (ix2 r c) + eps) (∑ c' : Fin 10, (v46 (ix2 r c') + eps))) := by
  unfold k1_pay2
  simp only [log_apply, divf_apply]
  rw [broadcastTo_a1_ab_apply, shapeCast_a_a1_apply, laneSum_apply]
  rfl

/-- Minus the sum, over the classes, of the log share times the row's own class indicator. -/
theorem pay_rowLoss (v46 v55 : Vec Ideal S1024x10 .f32) (r : Fin 1024) :
    k1_pay3 (F := Ideal) v46 v55 (ix2 r 0) = 0 - ∑ c : Fin 10, k1_pay2 (F := Ideal) v46 (ix2 r c) * v55 (ix2 r c) := by
  unfold k1_pay3
  simp only [shapeCast_self, subf_apply]
  rw [shapeCast_a_a1_apply, laneSum_apply]
  exact congrArg (· - _) Ideal.ofBits_zero_f32

/-! ## The diagonal of the whole affinity matrix

The tile at grid position (a, b) holds rows a·1024 + r and columns b·1024 + q of the 8192 × 8192
matrix. The program compares these two global indices as 32-bit words; both are below 2^32, so the
words are equal exactly when the numbers are. -/

/-- An equality test on words answers the bit one exactly when the words are equal. -/
theorem cmpi_eq_one_iff {w : ℕ} (x y : BitVec w) : IntOp.cmpi .eq x y = 1#1 ↔ x = y := by
  unfold IntOp.cmpi
  show BitVec.ofBool (x == y) = 1#1 ↔ x = y
  cases hxy : (x == y) with
  | false => exact ⟨fun h => absurd h (by decide), fun h => Bool.noConfusion (hxy.symm.trans (beq_iff_eq.mpr h))⟩
  | true => exact ⟨fun _ => beq_iff_eq.mp hxy, fun _ => rfl⟩

/-- With a, b below 8 and r, q below 1024 the words a·1024 + r and b·1024 + q do not wrap. -/
theorem globalIndex_word_eq_iff (a b : ℕ) (ha : a < 8) (hb : b < 8) (r q : Fin 1024) :
    BitVec.ofNat 32 a * 1024#32 + BitVec.ofNat 32 r.val = BitVec.ofNat 32 b * 1024#32 + BitVec.ofNat 32 q.val
      ↔ a * 1024 + r.val = b * 1024 + q.val := by
  have hr := r.isLt
  have hq := q.isLt
  rw [← BitVec.toNat_inj]
  simp only [BitVec.toNat_add, BitVec.toNat_mul, BitVec.toNat_ofNat]
  omega

/-- The mask of the tile at grid position (a, b), read at (r, q): set exactly on the diagonal of
    the whole matrix. -/
theorem onDiagonal_iff (a b : ℕ) (ha : a < 8) (hb : b < 8) (h0 : S1024x1.Iotas .tc 32 [0]) (h1 : S1x1024.Iotas .tc 32 [1])
    (hb0 : S1024x1.Broadcasts S1024x1024) (hb1 : S1x1024.Broadcasts S1024x1024) (r q : Fin 1024) :
    cmpi .eq (broadcastTo S1024x1024 (addi (broadcast S1024x1 (Scalar.muli (BitVec.ofNat 32 a) 1024#32)) (iota .tc S1024x1 32 [0] h0)) hb0)
        (broadcastTo S1024x1024 (addi (broadcast S1x1024 (Scalar.muli (BitVec.ofNat 32 b) 1024#32)) (iota .tc S1x1024 32 [1] h1)) hb1) (ix2 r q) = 1#1
      ↔ a * 1024 + r.val = b * 1024 + q.val := by
  show IntOp.cmpi .eq (broadcastTo S1024x1024 _ hb0 (ix2 r q)) (broadcastTo S1024x1024 _ hb1 (ix2 r q)) = 1#1 ↔ _
  rw [broadcastTo_a1_ab_apply, broadcastTo_1b_ab_apply, cmpi_eq_one_iff]
  show BitVec.ofNat 32 a * 1024#32 + iota .tc S1024x1 32 [0] h0 (ix2 r 0) = BitVec.ofNat 32 b * 1024#32 + iota .tc S1x1024 32 [1] h1 (ix2 0 q) ↔ _
  rw [iota_single_apply, iota_single_apply]
  exact globalIndex_word_eq_iff a b ha hb r q

/-! ## The tile of affinities -/

/-- A [1024, 10] block transposed reads, at (c, q), the block at (q, c). -/
theorem transposed_apply {α : Type} (B : S1024x10.Idx → α) (h : S1024x10.Transposes [1, 0] S10x1024) (c : Fin 10) (q : Fin 1024) :
    transpose S10x1024 [1, 0] B h (ix2 c q) = B (ix2 q c) :=
  transpose_ix2_apply B h c q

/-- The tile at grid position i, read at (r, q): zero on the diagonal of the whole matrix, and off
    it the Gaussian of the squared distance of the two rows, the distance written as the sum of
    the two squared norms minus twice the inner product. -/
theorem pay_affinity (i : grid1.Coords) (v3 v5 : Vec Ideal S1024x10 .f32) (v9 : Vec Ideal S1024x1 .f32) (v11 : Vec Ideal S1x1024 .f32) (r q : Fin 1024) :
    k1_pay5 (F := Ideal) i v3 v5 v9 v11 (ix2 r q)
      = if (i 0).val * 1024 + r.val = (i 1).val * 1024 + q.val then 0
        else Ideal.exp (negHalf * ((v9 (ix2 r 0) + v11 (ix2 0 q)) - two * ∑ c : Fin 10, v3 (ix2 r c) * v5 (ix2 q c))) := by
  have h0 : (i 0).val < 8 := (i 0).isLt
  have h1 : (i 1).val < 8 := (i 1).isLt
  unfold k1_pay5
  simp only [shapeCast_self]
  rw [select_apply]
  refine if_congr (onDiagonal_iff _ _ h0 h1 _ _ _ _ r q) Ideal.ofBits_zero_f32 ?_
  simp only [exp_apply, mulf_apply, subf_apply, addf_apply, broadcast_apply]
  rw [broadcastTo_a1_ab_apply, broadcastTo_1b_ab_apply, blockTimesBlock_apply]
  refine congrArg (fun s => Ideal.exp (negHalf * ((v9 (ix2 r 0) + v11 (ix2 0 q)) - two * s))) (Finset.sum_congr rfl fun c _ => ?_)
  rw [transposed_apply]

end Cert.KernelIdeal.DistPayload

end
-- ==== Proof.SumBlocks.lean ====
/-
  A sum over the 8192 rows, cut into 8 consecutive blocks of 1024.

  The pairs `(j, q)`, `j < 8` and `q < 1024`, are in bijection with the numbers below 8192 by
  `(j, q) ↦ j · 1024 + q`, and a finite sum in a commutative monoid does not depend on the order
  or the grouping of its terms: so the sum over all rows is the sum over the blocks of each block's
  sum. Nothing is assumed of the terms (the extended reals are a commutative monoid under addition,
  infinities included). The running form adds the blocks one after another from zero; after eight
  blocks it has added every row once.
-/
import Mathlib.Data.EReal.Basic
import Mathlib.Data.Fintype.BigOperators
import Mathlib.Logic.Equiv.Fin.Basic
import Mathlib.Algebra.BigOperators.Group.Finset.Basic
import Mathlib.Algebra.BigOperators.Fin

noncomputable section

namespace ClassPosterior

/-- A sum over `Fin (m * n)` is the double sum over the pairs `(j, q) ↦ q + n * j`. -/
theorem sum_fin_mul {M : Type} [AddCommMonoid M] (m n : ℕ) (f : Fin (m * n) → M) :
    ∑ i, f i = ∑ j : Fin m, ∑ q : Fin n, f (finProdFinEquiv (j, q)) := by
  rw [← Equiv.sum_comp finProdFinEquiv f, Fintype.sum_prod_type]

/-- The sum over the rows is the sum over the 8 blocks of 1024 of the blocks' sums. -/
theorem sum_blocks (f : Fin 8192 → EReal) :
    (∑ jj : Fin 8192, f jj)
      = ∑ j : Fin 8, ∑ q : Fin 1024, f ⟨j.val * 1024 + q.val, by have := j.isLt; have := q.isLt; omega⟩ := by
  have h := sum_fin_mul 8 1024 (f : Fin (8 * 1024) → EReal)
  refine h.trans (Finset.sum_congr rfl (fun j _ => Finset.sum_congr rfl (fun q _ => ?_)))
  congr 1
  apply Fin.ext
  show q.val + 1024 * j.val = j.val * 1024 + q.val
  omega

/-- The blocks added one after another from zero: after `k` blocks. -/
def partialSum (f : Fin 8192 → EReal) : Nat → EReal
  | 0 => 0
  | (k + 1) => partialSum f k + ∑ q : Fin 1024, (if h : k * 1024 + q.val < 8192 then f ⟨k * 1024 + q.val, h⟩ else 0)

/-- After `k` blocks the running sum is the sum of the first `k` blocks' sums. -/
theorem partialSum_range (f : Fin 8192 → EReal) (k : ℕ) :
    partialSum f k = ∑ j ∈ Finset.range k, ∑ q : Fin 1024,
      (if h : j * 1024 + q.val < 8192 then f ⟨j * 1024 + q.val, h⟩ else 0) := by
  induction k with
  | zero => rw [Finset.range_zero, Finset.sum_empty]; rfl
  | succ k ih =>
    rw [Finset.sum_range_succ, ← ih]
    rfl

/-- After eight blocks every row has been added once. -/
theorem partialSum_eight (f : Fin 8192 → EReal) : partialSum f 8 = ∑ jj : Fin 8192, f jj := by
  rw [partialSum_range, sum_blocks,
    ← Fin.sum_univ_eq_sum_range
      (fun j => ∑ q : Fin 1024, (if h : j * 1024 + q.val < 8192 then f ⟨j * 1024 + q.val, h⟩ else 0)) 8]
  refine Finset.sum_congr rfl (fun j _ => Finset.sum_congr rfl (fun q _ => ?_))
  have hlt : j.val * 1024 + q.val < 8192 := by have := j.isLt; have := q.isLt; omega
  rw [dif_pos hlt]

/-- Every row lies in one block: its block and its place in the block. -/
theorem row_split (n : Fin 8192) : ∃ (i : Fin 8) (r : Fin 1024), n.val = i.val * 1024 + r.val := by
  have hn := n.isLt
  exact ⟨⟨n.val / 1024, by omega⟩, ⟨n.val % 1024, by omega⟩, by
    show n.val = n.val / 1024 * 1024 + n.val % 1024
    omega⟩

end ClassPosterior

end
-- ==== Proof.KernelIdeal.DistValue.lean ====
/-
  The pairwise-affinity stage of the program (affinities, class weights, posterior), read as values.

  Its 8 × 8 grid walks the 8192 × 8192 affinity matrix tile by tile, a row of tiles at a time. Along a row of tiles
  it keeps, for the 1024 rows of that tile row, the class weights gathered so far: after column tile `j` they are
  the sums over the first `j + 1` blocks of 1024 rows of affinity times class indicator. After the eighth column
  tile every row has been added once, so they are the class weights themselves, and the point writes back, for its
  1024 rows, the logarithm of each class's share of the smoothed row total and minus the share-logarithms summed
  against the row's own class indicator. The eight written-back blocks of each result tile the result array.
-/
import proofs.«423389_j72705206387155_1_alg».proof.Proof.Gen.KernelIdeal.Launch
import proofs.«423389_j72705206387155_1_alg».proof.Proof.Gen.KernelIdeal.Skeleton
import proofs.«423389_j72705206387155_1_alg».proof.Proof.Gen.KernelIdeal.Points
import proofs.«423389_j72705206387155_1_alg».proof.Proof.KernelIdeal.DistRegion
import proofs.«423389_j72705206387155_1_alg».proof.Proof.DistPayload
import proofs.«423389_j72705206387155_1_alg».proof.Proof.SumBlocks
import proofs.«423389_j72705206387155_1_alg».proof.Proof.SpecArrays
import Idealize.ShloMosaic.Lib.Pipeline.Value
import Idealize.ShloMosaic.Lib.ValueIdx
import Idealize.ShloMosaic.PureOps.Ideal.Laws

noncomputable section

namespace Cert.KernelIdeal.DistValue

open Cert.KernelIdeal Cert.KernelIdeal.Gen Cert.KernelIdeal.Hand Idealize.ShloMosaic Idealize.ShloMosaic.ValueIdx ClassPosterior
  Idealize.ShloMosaic.TcCoe Idealize.SL.Sem
open Idealize.ShloMosaic.Pipeline (Dat)

variable (V : (c : Dev nD) → (b : Ref sig .tc) → Buf (Elt Ideal) ((c : Thread nD τ).loc b)) (c : Dev nD)
variable (z : S8192x10.Idx → EReal) (y : S8192.Idx → BitVec 32)

/-- What the call finds in the arrays it reads: the representation, its squared norms as a column and as a row,
    and the class indicators. -/
structure Reads : Prop where
  hz : V c main_v3_0 = z
  hn : ∀ n : Fin 8192, V c main_v3_1 (ix2 n (0 : Fin 1)) = sqNorm (rows2 z) n
  hnr : ∀ q : Fin 8192, V c main_v5 (ix2 (0 : Fin 1) q) = sqNorm (rows2 z) q
  hm : ∀ (j : Fin 8192) (k : Fin 10), V c main_v4 (ix2 j k) = isClass (rows1 y) j k

/-! ## Where the grid's points sit

  The 64 points run row tile by row tile: point `t` is column tile `t % 8` of row tile `t / 8`. Each window's block
  index at a point is one of those two numbers on the axis it walks and `0` on the other. -/

theorem idx_facts : ∀ t : Fin cfg1.N,
    (grid1.coords t 0).val = t.val / 8 ∧ (grid1.coords t 1).val = t.val % 8
    ∧ win1_0.index t 0 = t.val / 8 ∧ win1_0.index t 1 = 0
    ∧ win1_1.index t 0 = t.val % 8 ∧ win1_1.index t 1 = 0
    ∧ win1_2.index t 0 = t.val / 8 ∧ win1_2.index t 1 = 0
    ∧ win1_3.index t 0 = 0 ∧ win1_3.index t 1 = t.val % 8
    ∧ win1_4.index t 0 = t.val % 8 ∧ win1_4.index t 1 = 0
    ∧ win1_5.index t 0 = t.val / 8 ∧ win1_5.index t 1 = 0
    ∧ win1_6.index t 0 = t.val / 8 ∧ win1_6.index t 1 = 0
    ∧ win1_7.index t 0 = t.val / 8 ∧ win1_7.index t 1 = 0 :=
  (by decide +kernel : ∀ t : Fin grid1.N, _)

/-- Row `r` of row tile `a`, as a row of the whole matrix. -/
abbrev rowOf (a : Nat) (ha : a < 8) (r : Fin 1024) : Fin 8192 := ⟨a * 1024 + r.val, by have := r.isLt; omega⟩

/-! ## The blocks the windows read -/

/-- Window 0 at a point of row tile `a`: rows `1024·a …` of the representation. -/
theorem blk0_apply (hz : V c main_v3_0 = z) (t : Fin cfg1.N) (a : Nat) (ha : a < 8) (hta : t.val / 8 = a)
    (r : Fin 1024) (k : Fin 10) :
    (iblk1 V c 0 t : Vec Ideal S1024x10 .f32) (ix2 r k) = z (ix2 (rowOf a ha r) k) := by
  obtain ⟨-, -, e0, e1, -⟩ := idx_facts t
  unfold iblk1
  rw [View.read_apply]
  show V c main_v3_0 _ = _
  rw [hz]
  congr 1
  funext ax
  apply Fin.ext
  match ax with
  | ⟨0, _⟩ => show win1_0.index t 0 * 1024 + 1 * r.val = a * 1024 + r.val; rw [e0, hta]; omega
  | ⟨1, _⟩ => show win1_0.index t 1 * 10 + 1 * k.val = k.val; rw [e1]; omega

/-- Window 1 at a point of column tile `j`: rows `1024·j …` of the representation. -/
theorem blk1_apply (hz : V c main_v3_0 = z) (t : Fin cfg1.N) (j : Nat) (hj : j < 8) (htj : t.val % 8 = j)
    (q : Fin 1024) (k : Fin 10) :
    (iblk1 V c 1 t : Vec Ideal S1024x10 .f32) (ix2 q k) = z (ix2 (rowOf j hj q) k) := by
  obtain ⟨-, -, -, -, e0, e1, -⟩ := idx_facts t
  unfold iblk1
  rw [View.read_apply]
  show V c main_v3_0 _ = _
  rw [hz]
  congr 1
  funext ax
  apply Fin.ext
  match ax with
  | ⟨0, _⟩ => show win1_1.index t 0 * 1024 + 1 * q.val = j * 1024 + q.val; rw [e0, htj]; omega
  | ⟨1, _⟩ => show win1_1.index t 1 * 10 + 1 * k.val = k.val; rw [e1]; omega

/-- Window 2 at a point of row tile `a`: rows `1024·a …` of the norm column. -/
theorem blk2_apply (t : Fin cfg1.N) (a : Nat) (ha : a < 8) (hta : t.val / 8 = a) (r : Fin 1024) :
    (iblk1 V c 2 t : Vec Ideal S1024x1 .f32) (ix2 r (0 : Fin 1)) = V c main_v3_1 (ix2 (rowOf a ha r) (0 : Fin 1)) := by
  obtain ⟨-, -, -, -, -, -, e0, e1, -⟩ := idx_facts t
  unfold iblk1
  rw [View.read_apply]
  show V c main_v3_1 _ = _
  congr 1
  funext ax
  apply Fin.ext
  match ax with
  | ⟨0, _⟩ => show win1_2.index t 0 * 1024 + 1 * r.val = a * 1024 + r.val; rw [e0, hta]; omega
  | ⟨1, _⟩ => show win1_2.index t 1 * 1 + 1 * 0 = 0; rw [e1]

/-- Window 3 at a point of column tile `j`: columns `1024·j …` of the norm row. -/
theorem blk3_apply (t : Fin cfg1.N) (j : Nat) (hj : j < 8) (htj : t.val % 8 = j) (q : Fin 1024) :
    (iblk1 V c 3 t : Vec Ideal S1x1024 .f32) (ix2 (0 : Fin 1) q) = V c main_v5 (ix2 (0 : Fin 1) (rowOf j hj q)) := by
  obtain ⟨-, -, -, -, -, -, -, -, e0, e1, -⟩ := idx_facts t
  unfold iblk1
  rw [View.read_apply]
  show V c main_v5 _ = _
  congr 1
  funext ax
  apply Fin.ext
  match ax with
  | ⟨0, _⟩ => show win1_3.index t 0 * 1 + 1 * 0 = 0; rw [e0]
  | ⟨1, _⟩ => show win1_3.index t 1 * 1024 + 1 * q.val = j * 1024 + q.val; rw [e1, htj]; omega

/-- Window 4 at a point of column tile `j`: rows `1024·j …` of the class indicators. -/
theorem blk4_apply (t : Fin cfg1.N) (j : Nat) (hj : j < 8) (htj : t.val % 8 = j) (q : Fin 1024) (k : Fin 10) :
    (iblk1 V c 4 t : Vec Ideal S1024x10 .f32) (ix2 q k) = V c main_v4 (ix2 (rowOf j hj q) k) := by
  obtain ⟨-, -, -, -, -, -, -, -, -, -, e0, e1, -⟩ := idx_facts t
  unfold iblk1
  rw [View.read_apply]
  show V c main_v4 _ = _
  congr 1
  funext ax
  apply Fin.ext
  match ax with
  | ⟨0, _⟩ => show win1_4.index t 0 * 1024 + 1 * q.val = j * 1024 + q.val; rw [e0, htj]; omega
  | ⟨1, _⟩ => show win1_4.index t 1 * 10 + 1 * k.val = k.val; rw [e1]; omega

/-- Window 5 at a point of row tile `a`: rows `1024·a …` of the class indicators. -/
theorem blk5_apply (t : Fin cfg1.N) (a : Nat) (ha : a < 8) (hta : t.val / 8 = a) (r : Fin 1024) (k : Fin 10) :
    (iblk1 V c 5 t : Vec Ideal S1024x10 .f32) (ix2 r k) = V c main_v4 (ix2 (rowOf a ha r) k) := by
  obtain ⟨-, -, -, -, -, -, -, -, -, -, -, -, e0, e1, -⟩ := idx_facts t
  unfold iblk1
  rw [View.read_apply]
  show V c main_v4 _ = _
  congr 1
  funext ax
  apply Fin.ext
  match ax with
  | ⟨0, _⟩ => show win1_5.index t 0 * 1024 + 1 * r.val = a * 1024 + r.val; rw [e0, hta]; omega
  | ⟨1, _⟩ => show win1_5.index t 1 * 10 + 1 * k.val = k.val; rw [e1]; omega

/-! ## The tile of affinities at a point -/

/-- At column tile `j` of row tile `a` the tile's entry `(r, q)` is the affinity of the whole matrix's rows
    `1024·a + r` and `1024·j + q`: the two norms are the squared norms of those rows, the product is their inner
    product, and the diagonal test compares exactly those two row numbers. -/
theorem tile_apply (H : Reads V c z y) (t : Fin cfg1.N) (a j : Nat) (ha : a < 8) (hj : j < 8) (hta : t.val / 8 = a) (htj : t.val % 8 = j) (r q : Fin 1024) :
    k1_pay5 (F := Ideal) (grid1.coords t) (iblk1 V c 0 t) (iblk1 V c 1 t) (iblk1 V c 2 t) (iblk1 V c 3 t) (ix2 r q)
      = affinity (rows2 z) (rowOf a ha r) (rowOf j hj q) := by
  obtain ⟨c0, c1, -⟩ := idx_facts t
  rw [DistPayload.pay_affinity, c0, c1, hta, htj, blk2_apply V c t a ha hta r, blk3_apply V c t j hj htj q, H.hn, H.hnr]
  simp only [blk0_apply V c z H.hz t a ha hta, blk1_apply V c z H.hz t j hj htj]
  unfold affinity sqDist ClassPosterior.inner rows2
  exact if_congr ⟨fun h => Fin.ext h, fun h => congrArg Fin.val h⟩ rfl rfl

/-! ## The written-back blocks cover the two result arrays -/

/-- An index of the posterior array lies in the block point `t` writes back iff each coordinate is in the block's range. -/
theorem mem_blk6 (t : Fin cfg1.N) (i : S8192x10.Idx) :
    i ∈ ((cfg1.win 6).blk t).view.set ↔ ∀ ax : Fin 2, win1_6.index t ax * S1024x10.size ax ≤ (i ax).val
      ∧ (i ax).val < win1_6.index t ax * S1024x10.size ax + S1024x10.size ax := by
  show i ∈ ((View.whole main_v6_0).slice (win1_6.rect t)).set ↔ _
  rw [View.set_slice_whole, Rect.mem_set_unit]
  exact Iff.rfl

/-- The same for the loss column. -/
theorem mem_blk7 (t : Fin cfg1.N) (i : S8192x1.Idx) :
    i ∈ ((cfg1.win 7).blk t).view.set ↔ ∀ ax : Fin 2, win1_7.index t ax * S1024x1.size ax ≤ (i ax).val
      ∧ (i ax).val < win1_7.index t ax * S1024x1.size ax + S1024x1.size ax := by
  show i ∈ ((View.whole main_v6_1).slice (win1_7.rect t)).set ↔ _
  rw [View.set_slice_whole, Rect.mem_set_unit]
  exact Iff.rfl

/-- The last point of row tile `a`. -/
abbrev lastOf (a : Nat) (ha : a < 8) : Fin cfg1.N := ⟨8 * a + 7, by show 8 * a + 7 < grid1.N; rw [N_1]; omega⟩

/-- Row `n` of the posterior array is written back by the last point of its row tile. -/
theorem cover6 (i : S8192x10.Idx) : ∃ t : Fin cfg1.N, (cfg1.win 6).flush t = true ∧ i ∈ ((cfg1.win 6).blk t).view.set := by
  have h0 : (i 0).val < 8192 := (i 0).isLt
  have h1 : (i 1).val < 10 := (i 1).isLt
  have ha : (i 0).val / 1024 < 8 := by omega
  refine ⟨lastOf ((i 0).val / 1024) ha, (flush1_6 _).mpr (by show (8 * ((i 0).val / 1024) + 7) % 8 = 7; omega), ?_⟩
  obtain ⟨-, -, -, -, -, -, -, -, -, -, -, -, -, -, e0, e1, -⟩ := idx_facts (lastOf ((i 0).val / 1024) ha)
  have e0' : win1_6.index (lastOf ((i 0).val / 1024) ha) 0 = (i 0).val / 1024 := by
    rw [e0]; show (8 * ((i 0).val / 1024) + 7) / 8 = _; omega
  rw [mem_blk6]
  intro ax
  match ax with
  | ⟨0, _⟩ =>
    show win1_6.index (lastOf ((i 0).val / 1024) ha) 0 * 1024 ≤ (i 0).val
      ∧ (i 0).val < win1_6.index (lastOf ((i 0).val / 1024) ha) 0 * 1024 + 1024
    rw [e0']; omega
  | ⟨1, _⟩ =>
    show win1_6.index (lastOf ((i 0).val / 1024) ha) 1 * 10 ≤ (i 1).val
      ∧ (i 1).val < win1_6.index (lastOf ((i 0).val / 1024) ha) 1 * 10 + 10
    rw [e1]; omega

/-- The same for the loss column. -/
theorem cover7 (i : S8192x1.Idx) : ∃ t : Fin cfg1.N, (cfg1.win 7).flush t = true ∧ i ∈ ((cfg1.win 7).blk t).view.set := by
  have h0 : (i 0).val < 8192 := (i 0).isLt
  have h1 : (i 1).val < 1 := (i 1).isLt
  have ha : (i 0).val / 1024 < 8 := by omega
  refine ⟨lastOf ((i 0).val / 1024) ha, (flush1_7 _).mpr (by show (8 * ((i 0).val / 1024) + 7) % 8 = 7; omega), ?_⟩
  obtain ⟨-, -, -, -, -, -, -, -, -, -, -, -, -, -, -, -, e0, e1⟩ := idx_facts (lastOf ((i 0).val / 1024) ha)
  have e0' : win1_7.index (lastOf ((i 0).val / 1024) ha) 0 = (i 0).val / 1024 := by
    rw [e0]; show (8 * ((i 0).val / 1024) + 7) / 8 = _; omega
  rw [mem_blk7]
  intro ax
  match ax with
  | ⟨0, _⟩ =>
    show win1_7.index (lastOf ((i 0).val / 1024) ha) 0 * 1024 ≤ (i 0).val
      ∧ (i 0).val < win1_7.index (lastOf ((i 0).val / 1024) ha) 0 * 1024 + 1024
    rw [e0']; omega
  | ⟨1, _⟩ =>
    show win1_7.index (lastOf ((i 0).val / 1024) ha) 1 * 1 ≤ (i 1).val
      ∧ (i 1).val < win1_7.index (lastOf ((i 0).val / 1024) ha) 1 * 1 + 1
    rw [e1]; omega

/-! ## The class weights gathered along a row of tiles -/

/-- What row `n` gathers for class `k` from row `jj`. -/
abbrev term (n : Fin 8192) (k : Fin 10) (jj : Fin 8192) : EReal := affinity (rows2 z) n jj * isClass (rows1 y) jj k

/-- Column tile `j`'s contribution to row `1024·a + r`, class `k`: the tile against the tile's block of class
    indicators is the `j`-th block of 1024 terms. -/
theorem step_sum (H : Reads V c z y) (t : Fin cfg1.N) (a j : Nat) (ha : a < 8) (hj : j < 8) (hta : t.val / 8 = a)
    (htj : t.val % 8 = j) (r : Fin 1024) (k : Fin 10) :
    (∑ q : Fin 1024, k1_pay5 (F := Ideal) (grid1.coords t) (iblk1 V c 0 t) (iblk1 V c 1 t) (iblk1 V c 2 t) (iblk1 V c 3 t) (ix2 r q)
        * (iblk1 V c 4 t : Vec Ideal S1024x10 .f32) (ix2 q k))
      = ∑ q : Fin 1024, (if h : j * 1024 + q.val < 8192 then term z y (rowOf a ha r) k ⟨j * 1024 + q.val, h⟩ else 0) := by
  refine Finset.sum_congr rfl fun q _ => ?_
  rw [tile_apply V c z y H t a j ha hj hta htj r q, blk4_apply V c t j hj htj q k, H.hm,
    dif_pos (show j * 1024 + q.val < 8192 by have := q.isLt; omega)]

/-- THE INVARIANT: after column tile `j` of row tile `a` the accumulator holds, at `(r, k)`, the first `j + 1` blocks
    of terms of row `1024·a + r`, class `k`. By induction on the column tile: the first adds its block to the zero
    block, each later one adds its block to what the one before left. -/
theorem acc_inv (H : Reads V c z y) (a : Nat) (ha : a < 8) (j : Nat) : ∀ (hj : j < 8) (h : 8 * a + j < cfg1.N) (r : Fin 1024) (k : Fin 10),
    (accAt1 V c (8 * a + j) h) (ix2 r k) = partialSum (term z y (rowOf a ha r) k) (j + 1) := by
  induction j with
  | zero =>
    intro hj h r k
    have e := accAt1_A_eq V c ⟨8 * a + 0, h⟩ (by show (8 * a + 0) % 8 = 0; omega)
    rw [show accAt1 V c (8 * a + 0) h = _ from e, DistPayload.pay_accumulate, DistPayload.pay_zero,
      step_sum V c z y H ⟨8 * a + 0, h⟩ a 0 ha hj (by show (8 * a + 0) / 8 = a; omega) (by show (8 * a + 0) % 8 = 0; omega) r k]
    rfl
  | succ j ih =>
    intro hj h r k
    have e := accAt1_BC_eq V c ⟨8 * a + (j + 1), h⟩ (by show ¬(8 * a + (j + 1)) % 8 = 0; omega)
    rw [show accAt1 V c (8 * a + (j + 1)) h = _ from e, DistPayload.pay_accumulate,
      step_sum V c z y H ⟨8 * a + (j + 1), h⟩ a (j + 1) ha hj (by show (8 * a + (j + 1)) / 8 = a; omega)
        (by show (8 * a + (j + 1)) % 8 = j + 1; omega) r k]
    show accAt1 V c (8 * a + j) _ (ix2 r k) + _ = _
    rw [ih (by omega) (by omega) r k]
    rfl

/-- After the eighth column tile: the class weights of the row. -/
theorem acc_last (H : Reads V c z y) (t : Fin cfg1.N) (h7 : t.val % 8 = 7) (a : Nat) (ha : a < 8) (hta : t.val / 8 = a)
    (r : Fin 1024) (k : Fin 10) :
    (accAt1 V c t.val t.isLt) (ix2 r k) = classWeight (rows2 z) (rows1 y) (rowOf a ha r) k := by
  have ht : 8 * a + 7 = t.val := by omega
  have same : ∀ (n : Nat) (hn : n < cfg1.N), n = t.val → accAt1 V c n hn = accAt1 V c t.val t.isLt :=
    fun n hn e => by subst e; rfl
  rw [← same (8 * a + 7) (by rw [ht]; exact t.isLt) ht, acc_inv V c z y H a ha 7 (by omega) _ r k, partialSum_eight]
  rfl

/-! ## The two results at the last column tile -/

/-- The posterior block at the last point of row tile `a`. -/
theorem post_apply (H : Reads V c z y) (t : Fin cfg1.N) (h7 : t.val % 8 = 7) (a : Nat) (ha : a < 8) (hta : t.val / 8 = a)
    (r : Fin 1024) (k : Fin 10) :
    k1_pay2 (F := Ideal) (accAt1 V c t.val t.isLt) (ix2 r k) = logPosterior (rows2 z) (rows1 y) (rowOf a ha r) k := by
  rw [DistPayload.pay_logPosterior]
  simp only [acc_last V c z y H t h7 a ha hta]
  rfl

/-- The loss column's block there. -/
theorem rowLoss_apply (H : Reads V c z y) (t : Fin cfg1.N) (h7 : t.val % 8 = 7) (a : Nat) (ha : a < 8) (hta : t.val / 8 = a)
    (r : Fin 1024) :
    k1_pay3 (F := Ideal) (accAt1 V c t.val t.isLt) (iblk1 V c 5 t) (ix2 r (0 : Fin 1))
      = 0 - ∑ k : Fin 10, logPosterior (rows2 z) (rows1 y) (rowOf a ha r) k * isClass (rows1 y) (rowOf a ha r) k := by
  rw [DistPayload.pay_rowLoss]
  simp only [post_apply V c z y H t h7 a ha hta, blk5_apply V c t a ha hta, H.hm]

/-! ## From the written-back blocks to the arrays -/

/-- The posterior as an array. -/
abbrev postArr : S8192x10.Idx → EReal := fun i => logPosterior (rows2 z) (rows1 y) (i 0) (i 1)

/-- The per-row loss as a column. -/
abbrev lossCol : S8192x1.Idx → EReal :=
  fun i => 0 - ∑ k : Fin 10, logPosterior (rows2 z) (rows1 y) (i 0) k * isClass (rows1 y) (i 0) k

/-- What a point of the last column writes back into the posterior array is its block of the posterior. -/
theorem flushed6_eq (H : Reads V c z y) (t : Fin cfg1.N) (hf : (cfg1.win 6).flush t = true) :
    (dat1 (F := Ideal) V c).flushed 6 t = ((cfg1.win 6).blk t).view.read (Elt Ideal) (postArr z y) := by
  have h7 := (flush1_6 t).mp hf
  have hN : t.val < 64 := by have h := t.isLt; have e : cfg1.N = 64 := N_1; omega
  have ha : t.val / 8 < 8 := by omega
  obtain ⟨-, -, -, -, -, -, -, -, -, -, -, -, -, -, e0, e1, -⟩ := idx_facts t
  show (cfg1.win 6).cut (grid1.coords t) ((dat1 (F := Ideal) V c).after 6 t) = _
  rw [after1_6, out6At1_eq V c t h7]
  funext jj
  obtain ⟨r, k, rfl⟩ : ∃ (r : Fin 1024) (k : Fin 10), jj = ix2 r k := ⟨jj 0, jj 1, eq_ix2 jj⟩
  rw [View.read_apply]
  show k1_pay2 (F := Ideal) (accAt1 V c t.val t.isLt) (ix2 r k) = postArr z y (((cfg1.win 6).blk t).view.emb (ix2 r k))
  rw [post_apply V c z y H t h7 (t.val / 8) ha rfl r k]
  have en : rowOf (t.val / 8) ha r = (((cfg1.win 6).blk t).view.emb (ix2 r k)) 0 := by
    apply Fin.ext
    show t.val / 8 * 1024 + r.val = win1_6.index t 0 * 1024 + 1 * r.val
    rw [e0]; omega
  have ek : k = (((cfg1.win 6).blk t).view.emb (ix2 r k)) 1 := by
    apply Fin.ext
    show k.val = win1_6.index t 1 * 10 + 1 * k.val
    rw [e1]; omega
  exact congrArg₂ (logPosterior (rows2 z) (rows1 y)) en ek

/-- … and into the loss column its block of the per-row loss. -/
theorem flushed7_eq (H : Reads V c z y) (t : Fin cfg1.N) (hf : (cfg1.win 7).flush t = true) :
    (dat1 (F := Ideal) V c).flushed 7 t = ((cfg1.win 7).blk t).view.read (Elt Ideal) (lossCol z y) := by
  have h7 := (flush1_7 t).mp hf
  have hN : t.val < 64 := by have h := t.isLt; have e : cfg1.N = 64 := N_1; omega
  have ha : t.val / 8 < 8 := by omega
  obtain ⟨-, -, -, -, -, -, -, -, -, -, -, -, -, -, -, -, e0, e1⟩ := idx_facts t
  show (cfg1.win 7).cut (grid1.coords t) ((dat1 (F := Ideal) V c).after 7 t) = _
  rw [after1_7, out7At1_eq V c t h7]
  funext jj
  obtain ⟨r, u, rfl⟩ : ∃ (r : Fin 1024) (u : Fin 1), jj = ix2 r u := ⟨jj 0, jj 1, eq_ix2 jj⟩
  obtain rfl : u = 0 := Subsingleton.elim _ _
  rw [View.read_apply]
  show k1_pay3 (F := Ideal) (accAt1 V c t.val t.isLt) (iblk1 V c 5 t) (ix2 r (0 : Fin 1))
    = lossCol z y (((cfg1.win 7).blk t).view.emb (ix2 r (0 : Fin 1)))
  rw [rowLoss_apply V c z y H t h7 (t.val / 8) ha rfl r]
  have en : rowOf (t.val / 8) ha r = (((cfg1.win 7).blk t).view.emb (ix2 r (0 : Fin 1))) 0 := by
    apply Fin.ext
    show t.val / 8 * 1024 + r.val = win1_7.index t 0 * 1024 + 1 * r.val
    rw [e0]; omega
  rw [en]

/-- THE POSTERIOR ARRAY after the call. -/
theorem posterior_array (hz : V c main_v3_0 = z) (hn : ∀ n : Fin 8192, V c main_v3_1 (ix2 n 0) = sqNorm (rows2 z) n)
    (hnr : ∀ q : Fin 8192, V c main_v5 (ix2 0 q) = sqNorm (rows2 z) q)
    (hm : ∀ (j : Fin 8192) (k : Fin 10), V c main_v4 (ix2 j k) = isClass (rows1 y) j k) :
    (dat1 (F := Ideal) V c).arrAt 6 cfg1.N = fun i => logPosterior (rows2 z) (rows1 y) (i 0) (i 1) :=
  (dat1 (F := Ideal) V c).arrAt_eq_of_cover 6 (postArr z y) (flushed6_eq V c z y ⟨hz, hn, hnr, hm⟩) cover6

/-- THE PER-ROW LOSS COLUMN after the call, at row `n`. -/
theorem rowLoss_array (hz : V c main_v3_0 = z) (hn : ∀ n : Fin 8192, V c main_v3_1 (ix2 n 0) = sqNorm (rows2 z) n)
    (hnr : ∀ q : Fin 8192, V c main_v5 (ix2 0 q) = sqNorm (rows2 z) q)
    (hm : ∀ (j : Fin 8192) (k : Fin 10), V c main_v4 (ix2 j k) = isClass (rows1 y) j k) (n : Fin 8192) :
    (dat1 (F := Ideal) V c).arrAt 7 cfg1.N (ix2 n 0)
      = 0 - ∑ k : Fin 10, logPosterior (rows2 z) (rows1 y) n k * isClass (rows1 y) n k :=
  congrFun ((dat1 (F := Ideal) V c).arrAt_eq_of_cover 7 (lossCol z y) (flushed7_eq V c z y ⟨hz, hn, hnr, hm⟩) cover7) (ix2 n 0)

end Cert.KernelIdeal.DistValue

end
-- ==== Proof.PreFacts.lean ====
/-
  The printed precondition, read back. It is the conjunction of eight tests of the argument arrays:
  for each of the seven float arrays `a`, "every `|a i|` is below `+∞`", and for the label vector
  `y`, "every `y n` is at least 0 and below 10, read signed". Each test is a reduction by `and`, from 1,
  of an array of one-bit words, and the precondition says the conjunction of the eight results is 1.

  A conjunction of one-bit words is 1 exactly when both are; a reduction by `and` over all axes that
  is 1 met a 1 at every index. So at every index `|a i| < +∞` holds as an order fact on the extended
  reals: `a i` is neither `⊤` nor `⊥`, hence a real. For the labels, the two signed comparisons at
  index `n` say `0 ≤ (y n).toInt` and `(y n).toInt < 10`.
-/
import proofs.«423389_j72705206387155_1_alg».proof.Defs
import proofs.«423389_j72705206387155_1_alg».proof.Proof.Gen.Pre_finite_inputs
import proofs.«423389_j72705206387155_1_alg».proof.Proof.SpecArrays
import Idealize.ShloMosaic.Lib.ReduceAll
import Idealize.ShloMosaic.Lib.StableHlo.Predicate

noncomputable section

namespace Cert.KernelIdeal.PreFacts

open Idealize.ShloMosaic Idealize.ShloMosaic.ValueIdx Idealize.SL.Sem
open ClassPosterior (AllReal LabelsInRange)

/-- The shape of a scalar has one index. -/
instance : Subsingleton Cert.Pre_finite_inputs.S_.Idx := ⟨fun _ _ => funext fun d => d.elim0⟩

/-! ### One element -/

/-- `|x| < +∞` on the extended reals: `x` is a real. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  unfold Ideal.cmp at h
  rw [StableHlo.Predicate.ofBool_eq_one_iff] at h
  simp only [decide_eq_true_eq] at h
  induction x with
  | bot => simp at h
  | coe r => exact ⟨r, rfl⟩
  | top => simp at h

/-- A word at least zero, signed. -/
theorem sge_zero {w : BitVec 32} (h : IntOp.cmpi .sge w 0#32 = 1#1) : 0 ≤ w.toInt := by
  unfold IntOp.cmpi at h
  rw [StableHlo.Predicate.ofBool_eq_one_iff] at h
  simp only [BitVec.sle, decide_eq_true_eq] at h
  have h0 : (0#32 : BitVec 32).toInt = 0 := by decide
  omega

/-- A word below ten, signed. -/
theorem slt_ten {w : BitVec 32} (h : IntOp.cmpi .slt w 10#32 = 1#1) : w.toInt < 10 := by
  unfold IntOp.cmpi at h
  rw [StableHlo.Predicate.ofBool_eq_one_iff] at h
  simp only [BitVec.slt, decide_eq_true_eq] at h
  have h10 : (10#32 : BitVec 32).toInt = 10 := by decide
  omega

/-- A conjunction of two arrays of one-bit words is 1 at an index exactly when both are. -/
theorem andi_apply_eq_one {s : Shape} (x y : IVec s 1) (i : s.Idx) : andi x y i = 1#1 ↔ x i = 1#1 ∧ y i = 1#1 :=
  IntOp.andi_eq_one

/-! ### One array -/

/-- "All of `|a| < +∞`" is 1: every entry of `a` is a real. -/
theorem allReal_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (h0 : 0 < Cert.Pre_finite_inputs.S_.numel)
    (e : Host.reduce IntOp.andi
        (cmpf .olt (Host.absf a) (broadcastInDim s ![] hb (constant (F := Ideal) Cert.Pre_finite_inputs.S_ .f32 0x7F800000#32)))
        (constantI Cert.Pre_finite_inputs.S_ 1 1#1) hr h0 ix0 = 1#1) :
    AllReal a := fun i =>
  real_of_abs_lt_inf (a i) (Host.reduce_andi_all _ _ hr h0 ix0 e i)

/-- "All of `0 ≤ y` and `y < 10`" is 1: every label is in range. -/
theorem labels_of_all (y : IVec Cert.Pre_finite_inputs.S8192 32)
    (hb : Cert.Pre_finite_inputs.S_.BroadcastsInDim Cert.Pre_finite_inputs.S8192 (![] : Fin 0 → Fin Cert.Pre_finite_inputs.S8192.rank))
    (hr : Cert.Pre_finite_inputs.S8192.ReducesTo [0] Cert.Pre_finite_inputs.S_) (h0 : 0 < Cert.Pre_finite_inputs.S_.numel)
    (e : Host.reduce IntOp.andi
        (andi (cmpi .sge y (broadcastInDim Cert.Pre_finite_inputs.S8192 ![] hb (constantI Cert.Pre_finite_inputs.S_ 32 0#32)))
          (cmpi .slt y (broadcastInDim Cert.Pre_finite_inputs.S8192 ![] hb (constantI Cert.Pre_finite_inputs.S_ 32 10#32))))
        (constantI Cert.Pre_finite_inputs.S_ 1 1#1) hr h0 ix0 = 1#1) :
    LabelsInRange y := by
  intro n
  have e1 := Host.reduce_andi_all _ _ hr h0 ix0 e (ix1 n)
  change IntOp.andi (IntOp.cmpi .sge (y (ix1 n)) 0#32) (IntOp.cmpi .slt (y (ix1 n)) 10#32) = 1#1 at e1
  obtain ⟨hge, hlt⟩ := IntOp.andi_eq_one.1 e1
  exact ⟨sge_zero hge, slt_ten hlt⟩

/-! ### The whole predicate -/

open Cert.Pre_finite_inputs in
/-- The printed predicate is all ones: the seven float arrays are real entry by entry and the labels are in range. -/
theorem fn_decode [Cert.Pre_finite_inputs.Facts] (a0 : FVec Ideal S8192x1024 .f32) (a1 : IVec S8192 32)
    (a2 : FVec Ideal S1024x512 .f32) (a3 : FVec Ideal S512 .f32) (a4 : FVec Ideal S512x256 .f32)
    (a5 : FVec Ideal S256 .f32) (a6 : FVec Ideal S256x10 .f32) (a7 : FVec Ideal S10 .f32)
    (h : Cert.Pre_finite_inputs.fn (F := Ideal) a0 a1 a2 a3 a4 a5 a6 a7 = fun _ => 1#1) :
    AllReal a0 ∧ AllReal a2 ∧ AllReal a3 ∧ AllReal a4 ∧ AllReal a5 ∧ AllReal a6 ∧ AllReal a7 ∧ LabelsInRange a1 := by
  have e := congrFun h ix0
  dsimp only [Cert.Pre_finite_inputs.fn, Cert.Pre_finite_inputs.fn_part1, Cert.Pre_finite_inputs.fn_part2] at e
  simp only [andi_apply_eq_one] at e
  obtain ⟨⟨⟨⟨⟨⟨⟨e0, e2⟩, e3⟩, e4⟩, e5⟩, e6⟩, e7⟩, e1⟩ := e
  exact ⟨allReal_of_all a0 _ _ _ e0, allReal_of_all a2 _ _ _ e2, allReal_of_all a3 _ _ _ e3, allReal_of_all a4 _ _ _ e4,
    allReal_of_all a5 _ _ _ e5, allReal_of_all a6 _ _ _ e6, allReal_of_all a7 _ _ _ e7, labels_of_all a1 _ _ _ e1⟩

/-- THE PRECONDITION DECODED on device `c`: real float arguments, labels in range. -/
theorem facts [Cert.Pre_finite_inputs.Facts] (m : (l : Loc nD τ sig) → Buf (Elt Ideal) l) (h : Cert.Pre_KernelIdeal m) (c : Dev nD) :
    AllReal (m ((c.tc : Thread nD τ).loc main_arg0)) ∧ AllReal (m ((c.tc : Thread nD τ).loc main_arg2))
    ∧ AllReal (m ((c.tc : Thread nD τ).loc main_arg3)) ∧ AllReal (m ((c.tc : Thread nD τ).loc main_arg4))
    ∧ AllReal (m ((c.tc : Thread nD τ).loc main_arg5)) ∧ AllReal (m ((c.tc : Thread nD τ).loc main_arg6))
    ∧ AllReal (m ((c.tc : Thread nD τ).loc main_arg7)) ∧ LabelsInRange (m ((c.tc : Thread nD τ).loc main_arg1)) :=
  fn_decode _ _ _ _ _ _ _ _ (h c)

end Cert.KernelIdeal.PreFacts

end
-- ==== Proof.KernelIdeal.Results.lean ====
/-
  The kernel program's three results, as the specification's arrays.

  The run ends with every unscoped buffer at the last valuation. Walking it back: the first region's outputs are the
  representation `z` of the argument arrays and the column of its squared norms, because the first region is entered from
  the arguments themselves; so the second region is entered from `z`, its squared norms as a column and as a row, and the
  0/1 mask of the labels, and its outputs are the log-posterior array and the column of per-row losses
  `0 − ∑ k, ℓ n k · [y n = k]`. With every label in range that sum is `ℓ n (class of y n)`, a real number because the
  arguments are real; so the host tail's total is minus the sum of those, the loss, and its mean the loss over the
  number of rows.
-/
import proofs.«423389_j72705206387155_1_alg».proof.Proof.KernelIdeal.WholeRun
import proofs.«423389_j72705206387155_1_alg».proof.Proof.KernelIdeal.HostValues
import proofs.«423389_j72705206387155_1_alg».proof.Proof.KernelIdeal.MlpValue
import proofs.«423389_j72705206387155_1_alg».proof.Proof.KernelIdeal.DistValue
import proofs.«423389_j72705206387155_1_alg».proof.Proof.KernelIdeal.TailValue
import proofs.«423389_j72705206387155_1_alg».proof.Proof.SpecReal
import proofs.«423389_j72705206387155_1_alg».proof.Proof.PreFacts
import proofs.«423389_j72705206387155_1_alg».proof.Proof.SpecArrays

noncomputable section

namespace Cert.KernelIdeal.Results

open Cert.KernelIdeal Cert.KernelIdeal.Gen Cert.KernelIdeal.Hand Idealize.ShloMosaic Idealize.ShloMosaic.TcCoe
  Idealize.ShloMosaic.ValueIdx Idealize.SL.Sem ClassPosterior

section OneCore

variable (m : (ℓ : Loc nD τ sig) → Buf (Elt Ideal) ℓ) (c : Dev nD)

/-! ## The argument arrays on one core, and the representation they give -/

/-- The sample matrix. -/
abbrev argX : S8192x1024.Idx → EReal := m ((c.tc : Thread nD τ).loc main_arg0)
/-- The labels. -/
abbrev argY : S8192.Idx → BitVec 32 := m ((c.tc : Thread nD τ).loc main_arg1)
/-- The first layer's weights and bias. -/
abbrev argW1 : S1024x512.Idx → EReal := m ((c.tc : Thread nD τ).loc main_arg2)
abbrev argB1 : S512.Idx → EReal := m ((c.tc : Thread nD τ).loc main_arg3)
/-- The second layer's weights and bias. -/
abbrev argW2 : S512x256.Idx → EReal := m ((c.tc : Thread nD τ).loc main_arg4)
abbrev argB2 : S256.Idx → EReal := m ((c.tc : Thread nD τ).loc main_arg5)
/-- The third layer's weights and bias. -/
abbrev argW3 : S256x10.Idx → EReal := m ((c.tc : Thread nD τ).loc main_arg6)
abbrev argB3 : S10.Idx → EReal := m ((c.tc : Thread nD τ).loc main_arg7)

/-- The representation `z` of the argument arrays, by row and coordinate … -/
abbrev zFn : Fin 8192 → Fin 10 → EReal :=
  reprOf (argX m c) (argW1 m c) (argB1 m c) (argW2 m c) (argB2 m c) (argW3 m c) (argB3 m c)
/-- … and as a `[8192, 10]` array. -/
abbrev zArr : S8192x10.Idx → EReal := fun i => zFn m c (i 0) (i 1)

/-- The array `z` read by coordinates is the representation. -/
theorem rows2_zArr : rows2 (zArr m c) = zFn m c := rfl

/-! ## What the first region leaves -/

/-- The first region is entered from the arguments, so its first output is the representation of every row. -/
theorem region0_z : (dat0 (F := Ideal) (entry0 m) c).arrAt 7 cfg0.N = zArr m c :=
  MlpValue.z_array (entry0 m) c (argX m c) (argW1 m c) (argB1 m c) (argW2 m c) (argB2 m c) (argW3 m c) (argB3 m c)
    (HostValues.V1_x m c) (HostValues.V1_w1 m c) (HostValues.V1_b1 m c) (HostValues.V1_w2 m c) (HostValues.V1_b2 m c)
    (HostValues.V1_w3 m c) (HostValues.V1_b3 m c)

/-- … and its second output the squared norm of every row's representation. -/
theorem region0_n : (dat0 (F := Ideal) (entry0 m) c).arrAt 8 cfg0.N = fun i => sqNorm (zFn m c) (i 0) :=
  MlpValue.sqNorm_array (entry0 m) c (argX m c) (argW1 m c) (argB1 m c) (argW2 m c) (argB2 m c) (argW3 m c) (argB3 m c)
    (HostValues.V1_x m c) (HostValues.V1_w1 m c) (HostValues.V1_b1 m c) (HostValues.V1_w2 m c) (HostValues.V1_b2 m c)
    (HostValues.V1_w3 m c) (HostValues.V1_b3 m c)

/-! ## What the second region is entered from -/

/-- The second region reads `z`. -/
theorem entry1_z : entry1 m c main_v3_0 = zArr m c :=
  (HostValues.V4_z m (outs0 m) c).trans ((outs0_z m 2 c).trans (region0_z m c))

/-- It reads the squared norms as a column … -/
theorem entry1_nrm (n : Fin 8192) : entry1 m c main_v3_1 (ix2 n 0) = sqNorm (rows2 (zArr m c)) n :=
  congrFun ((HostValues.V4_nrm m (outs0 m) c).trans ((outs0_n m 2 c).trans (region0_n m c))) (ix2 n 0)

/-- … and as a row. -/
theorem entry1_nrmRow (q : Fin 8192) : entry1 m c main_v5 (ix2 0 q) = sqNorm (rows2 (zArr m c)) q :=
  (HostValues.V4_nrmRow m (outs0 m) c q).trans (congrFun ((outs0_n m 2 c).trans (region0_n m c)) (ix2 q 0))

/-- It reads the 0/1 mask of the labels. -/
theorem entry1_mask (j : Fin 8192) (k : Fin 10) : entry1 m c main_v4 (ix2 j k) = isClass (rows1 (argY m c)) j k :=
  HostValues.V4_mask m (outs0 m) c j k

/-! ## The posterior -/

/-- THE FIRST RESULT: the last valuation at the posterior's buffer is the specification's posterior array. -/
theorem probs_eq : V6 m (outsAll m) c main_v6_0 = posteriorArr (argX m c) (argY m c) (argW1 m c) (argB1 m c) (argW2 m c) (argB2 m c) (argW3 m c) (argB3 m c) :=
  (HostValues.V6_probs m (outsAll m) c).trans <| (outsAll_p m 5 c).trans <|
    (DistValue.posterior_array (entry1 m) c (zArr m c) (argY m c) (entry1_z m c) (entry1_nrm m c) (entry1_nrmRow m c)
      (entry1_mask m c)).trans rfl

/-! ## The two losses -/

/-- A row's log-posterior at the class its label names. -/
abbrev ownTerm (n : Fin 8192) : EReal :=
  logPosterior (zFn m c) (rows1 (argY m c)) n (classOf (rows1 (argY m c)) n)

variable [Cert.Pre_finite_inputs.Facts] (hpre : Cert.Pre_KernelIdeal m)
include hpre

/-- With real arguments every such term is a real number. -/
theorem ownTerm_real (n : Fin 8192) : ∃ r : ℝ, ownTerm m c n = r := by
  obtain ⟨h0, h2, h3, h4, h5, h6, h7, -⟩ := PreFacts.facts m hpre c
  exact logPosterior_real (rows2 (argX m c)) (rows2 (argW1 m c)) (rows1 (argB1 m c)) (rows2 (argW2 m c)) (rows1 (argB2 m c))
    (rows2 (argW3 m c)) (rows1 (argB3 m c)) (rows1 (argY m c))
    (fun n p => h0 (ix2 n p)) (fun p k => h2 (ix2 p k)) (fun k => h3 (ix1 k)) (fun k l => h4 (ix2 k l))
    (fun l => h5 (ix1 l)) (fun l k => h6 (ix2 l k)) (fun k => h7 (ix1 k)) n _

/-- The second region's per-row loss is minus the row's own term: with the label in range the masked sum over the ten
    classes picks the label's class. -/
theorem rowLoss_eq (n : Fin 8192) : outsAll m 5 main_v6_1 c (ix2 n 0) = 0 - ownTerm m c n := by
  obtain ⟨-, -, -, -, -, -, -, hy⟩ := PreFacts.facts m hpre c
  refine (congrFun (outsAll_l m 5 c) (ix2 n 0)).trans ?_
  refine (DistValue.rowLoss_array (entry1 m) c (zArr m c) (argY m c) (entry1_z m c) (entry1_nrm m c) (entry1_nrmRow m c)
    (entry1_mask m c) n).trans ?_
  exact congrArg (0 - ·)
    (sum_mul_isClass (rows1 (argY m c)) (fun k => logPosterior (zFn m c) (rows1 (argY m c)) n k) n (hy n))

/-- THE THIRD RESULT: the host tail's total is the specification's loss. -/
theorem total_eq : V6 m (outsAll m) c main_v11 = lossArr (argX m c) (argY m c) (argW1 m c) (argB1 m c) (argW2 m c) (argB2 m c) (argW3 m c) (argB3 m c) :=
  (HostValues.V6_total m (outsAll m) c).trans <|
    (TailValue.tailTotal_eq _ _ (ownTerm m c) (ownTerm_real m c hpre) (rowLoss_eq m c hpre)).trans rfl

/-- THE SECOND RESULT: the host tail's mean is the specification's mean loss. -/
theorem mean_eq : V6 m (outsAll m) c main_v12 = meanLossArr (argX m c) (argY m c) (argW1 m c) (argB1 m c) (argW2 m c) (argB2 m c) (argW3 m c) (argB3 m c) :=
  (HostValues.V6_mean m (outsAll m) c).trans <|
    (TailValue.tailMean_eq _ _ (ownTerm m c) (ownTerm_real m c hpre) (rowLoss_eq m c hpre)).trans rfl

end OneCore

/-! ## The run -/

/-- THE KERNEL PROGRAM'S RESULTS: from a memory whose arguments are real with labels in range, every weakly fair
    execution terminates with the posterior, the mean loss and the loss of the specification in the three result
    buffers, and the eight arguments as launched. -/
theorem results [Cert.Pre_finite_inputs.Facts] (m : (ℓ : Loc nD τ sig) → Buf (Elt Ideal) ℓ) (ρ : Dev nD → PrngReg)
    (hpre : Cert.Pre_KernelIdeal m) :
    θ_run (defs (F := Ideal)) (onTc (τ := τ) (main (F := Ideal))) ⟨m, fun _ => 0, ρ⟩ fun r => ∀ c : Dev nD,
      r.2.mem ((c.tc : Thread nD τ).loc main_v6_0) = posteriorArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v12) = meanLossArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v11) = lossArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c =>
    ⟨(h c _ (mem_uc main_v6_0 (by decide))).trans (probs_eq m c),
      (h c _ (mem_uc main_v12 (by decide))).trans (mean_eq m c hpre),
      (h c _ (mem_uc main_v11 (by decide))).trans (total_eq m c hpre),
      (h c _ (mem_uc main_arg0 (by decide))).trans (V6_main_arg0 m (outsAll m) c),
      (h c _ (mem_uc main_arg1 (by decide))).trans (V6_main_arg1 m (outsAll m) c),
      (h c _ (mem_uc main_arg2 (by decide))).trans (V6_main_arg2 m (outsAll m) c),
      (h c _ (mem_uc main_arg3 (by decide))).trans (V6_main_arg3 m (outsAll m) c),
      (h c _ (mem_uc main_arg4 (by decide))).trans (V6_main_arg4 m (outsAll m) c),
      (h c _ (mem_uc main_arg5 (by decide))).trans (V6_main_arg5 m (outsAll m) c),
      (h c _ (mem_uc main_arg6 (by decide))).trans (V6_main_arg6 m (outsAll m) c),
      (h c _ (mem_uc main_arg7 (by decide))).trans (V6_main_arg7 m (outsAll m) c)⟩) (whole_run m ρ)

end Cert.KernelIdeal.Results

end
-- ==== Proof.RefValue.lean ====
/-
  The reference program's three results, read off its run one operation at a time, are the
  class-posterior specification of `Spec.lean` at the argument arrays.
-/
import proofs.«423389_j72705206387155_1_alg».proof.Proof.Gen.ReferenceIdeal.Run
import proofs.«423389_j72705206387155_1_alg».proof.Proof.Gen.ReferenceIdeal.Read
import proofs.«423389_j72705206387155_1_alg».proof.Proof.SpecArrays
import Idealize.ShloMosaic.Lib.ValueIdx
import Idealize.ShloMosaic.Lib.ValueIdxRank1
import Idealize.ShloMosaic.Lib.IdealHost
import Idealize.ShloMosaic.Lib.Pipeline.Value
import Idealize.ShloMosaic.PureOps.Ideal.Laws
import Idealize.ShloMosaic.Lib.StableHlo.Predicate

noncomputable section

namespace Cert.ReferenceIdeal.RefValue

open Cert.ReferenceIdeal Cert.ReferenceIdeal.Gen ClassPosterior Idealize.ShloMosaic Idealize.ShloMosaic.ValueIdx
  Idealize.ShloMosaic.TcCoe Idealize.SL.Sem Idealize.ShloMosaic.StableHlo

variable (x0 : (⟨S8192x1024, .f32⟩ : BufTy).Contents (Elt Ideal)) (x1 : (⟨S8192, .i32⟩ : BufTy).Contents (Elt Ideal))
  (x2 : (⟨S1024x512, .f32⟩ : BufTy).Contents (Elt Ideal)) (x3 : (⟨S512, .f32⟩ : BufTy).Contents (Elt Ideal))
  (x4 : (⟨S512x256, .f32⟩ : BufTy).Contents (Elt Ideal)) (x5 : (⟨S256, .f32⟩ : BufTy).Contents (Elt Ideal))
  (x6 : (⟨S256x10, .f32⟩ : BufTy).Contents (Elt Ideal)) (x7 : (⟨S10, .f32⟩ : BufTy).Contents (Elt Ideal))

/-! ## The three layers

  A product of a row with a column is the sum over the contracted coordinate; a bias vector is read at the column;
  the rectifier is the maximum with the zero word's value, which is `0`. -/

/-- The first layer at row `n`, unit `k`. -/
theorem hidden1_eq (n : Fin 8192) (k : Fin 512) :
    Read.val_main_v4 (F := Ideal) x0 x2 x3 (ix2 n k) = hidden1 (rows2 x0) (rows2 x2) (rows1 x3) n k := by
  have el : ∀ p : Fin 1024, Read.lidx_main_v0 (ix2 n k) p = ix2 n p := fun p => funext fun a => by
    match a with
    | ⟨0, _⟩ => rfl
    | ⟨1, _⟩ => rfl
  have er : ∀ p : Fin 1024, Read.ridx_main_v0 (ix2 n k) p = ix2 p k := fun p => funext fun a => by
    match a with
    | ⟨0, _⟩ => rfl
    | ⟨1, _⟩ => rfl
  have eb : Read.idx_main_v1 (Read.idx_main_v2 (ix2 n k)) = ix1 k := funext fun a => by
    match a with
    | ⟨0, _⟩ => rfl
  rw [Read.val_main_v4_apply, Read.val_main_v3_apply, Read.val_main_v0_apply, Read.val_main_v2_apply,
    Read.val_main_v1_apply, Read.val_main_call0_v0_apply, Read.val_main_call0_cst_apply]
  simp only [el, er, eb, Ideal.maximumf_def, Ideal.addf_def, Ideal.ofBits_def, Ideal.ofBits_zero_f32]
  rfl

/-- The second layer at row `n`, unit `l`. -/
theorem hidden2_eq (n : Fin 8192) (l : Fin 256) :
    Read.val_main_v8 (F := Ideal) x0 x2 x3 x4 x5 (ix2 n l)
      = hidden2 (rows2 x0) (rows2 x2) (rows1 x3) (rows2 x4) (rows1 x5) n l := by
  have el : ∀ k : Fin 512, Read.lidx_main_v5 (ix2 n l) k = ix2 n k := fun k => funext fun a => by
    match a with
    | ⟨0, _⟩ => rfl
    | ⟨1, _⟩ => rfl
  have er : ∀ k : Fin 512, Read.ridx_main_v5 (ix2 n l) k = ix2 k l := fun k => funext fun a => by
    match a with
    | ⟨0, _⟩ => rfl
    | ⟨1, _⟩ => rfl
  have eb : Read.idx_main_v6 (Read.idx_main_v7 (ix2 n l)) = ix1 l := funext fun a => by
    match a with
    | ⟨0, _⟩ => rfl
  rw [Read.val_main_v8_apply, Read.val_main_v5_apply, Read.val_main_v7_apply, Read.val_main_v6_apply]
  simp only [el, er, eb, hidden1_eq, Ideal.addf_def]
  rfl

/-- The representation at row `n`, class `c`. -/
theorem repr_eq (n : Fin 8192) (c : Fin 10) :
    Read.val_main_v12 (F := Ideal) x0 x2 x3 x4 x5 x6 x7 (ix2 n c) = reprOf x0 x2 x3 x4 x5 x6 x7 n c := by
  have el : ∀ l : Fin 256, Read.lidx_main_v9 (ix2 n c) l = ix2 n l := fun l => funext fun a => by
    match a with
    | ⟨0, _⟩ => rfl
    | ⟨1, _⟩ => rfl
  have er : ∀ l : Fin 256, Read.ridx_main_v9 (ix2 n c) l = ix2 l c := fun l => funext fun a => by
    match a with
    | ⟨0, _⟩ => rfl
    | ⟨1, _⟩ => rfl
  have eb : Read.idx_main_v10 (Read.idx_main_v11 (ix2 n c)) = ix1 c := funext fun a => by
    match a with
    | ⟨0, _⟩ => rfl
  rw [Read.val_main_v12_apply, Read.val_main_v9_apply, Read.val_main_v11_apply, Read.val_main_v10_apply]
  simp only [el, er, eb, hidden2_eq, Ideal.addf_def]
  rfl

/-! ## Squared norms, distances, affinities -/

/-- The squared norm of row `n`: the sum starts from the zero word's value, `0`. -/
theorem sqNorm_eq (n : Fin 8192) :
    Read.val_main_v14 (F := Ideal) x0 x2 x3 x4 x5 x6 x7 (ix1 n) = sqNorm (reprOf x0 x2 x3 x4 x5 x6 x7) n := by
  have e : ∀ c : Fin 10, Read.idx_main_v14 (ix1 n) c = ix2 n c := fun c => funext fun a => by
    match a with
    | ⟨0, _⟩ => rfl
    | ⟨1, _⟩ => rfl
  rw [Read.val_main_v14_apply, Read.val_main_cst_apply]
  simp only [e, Read.val_main_v13_apply, repr_eq, Ideal.mulf_def, Ideal.ofBits_def, Ideal.ofBits_zero_f32, zero_add]
  rfl

/-- The squared distance of rows `i` and `j`: the two norms are read along the row and along the column, the inner
    product is the row of `z` against the column of its transpose. -/
theorem sqDist_eq (i j : Fin 8192) :
    Read.val_main_v24 (F := Ideal) x0 x2 x3 x4 x5 x6 x7 (ix2 i j) = sqDist (reprOf x0 x2 x3 x4 x5 x6 x7) i j := by
  have er : Read.idx_main_v15 (Read.idx_main_v17 (ix2 i j)) = ix1 i := funext fun a => by
    match a with
    | ⟨0, _⟩ => rfl
  have ec : Read.idx_main_v16 (Read.idx_main_v18 (ix2 i j)) = ix1 j := funext fun a => by
    match a with
    | ⟨0, _⟩ => rfl
  have el : ∀ c : Fin 10, Read.lidx_main_v21 (ix2 i j) c = ix2 i c := fun c => funext fun a => by
    match a with
    | ⟨0, _⟩ => rfl
    | ⟨1, _⟩ => rfl
  have et : ∀ c : Fin 10, Read.idx_main_v20 (Read.ridx_main_v21 (ix2 i j) c) = ix2 j c := fun c => funext fun a => by
    match a with
    | ⟨0, _⟩ => rfl
    | ⟨1, _⟩ => rfl
  rw [Read.val_main_v24_apply, Read.val_main_v19_apply, Read.val_main_v17_apply, Read.val_main_v15_apply,
    Read.val_main_v18_apply, Read.val_main_v16_apply, Read.val_main_v23_apply, Read.val_main_v22_apply,
    Read.val_main_cst_0_apply, Read.val_main_v21_apply]
  simp only [er, ec, el, et, Read.val_main_v20_apply, sqNorm_eq, repr_eq, Ideal.subf_def, Ideal.addf_def,
    Ideal.mulf_def, Ideal.ofBits_def]
  rfl

/-- Two row numbers with the same 32-bit word are the same row. -/
theorem word_inj {n : Nat} (hn : n ≤ 2 ^ 32) {a b : Fin n} (h : BitVec.ofNat 32 a.val = BitVec.ofNat 32 b.val) : a = b := by
  have h' := congrArg BitVec.toNat h
  simp only [BitVec.toNat_ofNat] at h'
  have ha := a.isLt
  have hb := b.isLt
  apply Fin.ext
  rw [Nat.mod_eq_of_lt (by omega), Nat.mod_eq_of_lt (by omega)] at h'
  exact h'

/-- The truth value of a word comparison, converted to a float, is `1` when the words agree and `0` when not. -/
theorem eqBit_real (a b : BitVec 32) :
    (FloatOps.uitofp (F := Ideal) .f32 (IntOp.cmpi .eq a b) : EReal) = if a = b then 1 else 0 := by
  show (((IntOp.cmpi .eq a b).toNat : ℝ) : EReal) = _
  by_cases h : a = b
  · rw [if_pos h, Predicate.cmpi_eq_iff.mpr h]
    simp
  · rw [if_neg h, eq_zero_of_ne_one (fun h' => h (Predicate.cmpi_eq_iff.mp h'))]
    simp

/-- One minus the identity matrix: `0` on the diagonal, `1` off it. -/
theorem offDiag_eq (i j : Fin 8192) :
    Read.val_main_v35 (F := Ideal) (ix2 i j) = if i = j then 0 else 1 := by
  rw [Read.val_main_v35_apply, Read.val_main_v34_apply, Read.val_main_cst_2_apply, Read.val_main_v33_apply,
    Read.val_main_v32_apply, Read.val_main_v31_apply, Read.val_main_v28_apply, Read.val_main_v30_apply,
    Read.val_main_c_apply, Read.val_main_v29_apply, eqBit_real]
  show Ideal.ofBits .f32 0x3F800000#32 - (if BitVec.ofNat 32 i.val + 0#32 = BitVec.ofNat 32 j.val then 1 else 0) = _
  rw [Ideal.ofBits_one_f32, BitVec.add_zero]
  by_cases h : i = j
  · subst h
    rw [if_pos rfl, if_pos rfl]
    rw [show (1 : EReal) = ((1 : ℝ) : EReal) from rfl, ← EReal.coe_sub, sub_self]
    rfl
  · rw [if_neg (fun h' => h (word_inj (by norm_num) h')), if_neg h, sub_zero]

/-- The affinity of rows `i` and `j`: the Gaussian of the distance times `0` on the diagonal (a product with zero
    is zero on the extended reals, whatever the other factor), times `1` off it. -/
theorem affinity_eq (i j : Fin 8192) :
    Read.val_main_v36 (F := Ideal) x0 x2 x3 x4 x5 x6 x7 (ix2 i j) = affinity (reprOf x0 x2 x3 x4 x5 x6 x7) i j := by
  rw [Read.val_main_v36_apply, Read.val_main_v27_apply, Read.val_main_v26_apply, Read.val_main_v25_apply,
    Read.val_main_cst_1_apply, sqDist_eq, offDiag_eq]
  simp only [Ideal.mulf_def, Ideal.hostUnary_exp_def, Ideal.ofBits_def]
  unfold affinity
  by_cases h : i = j
  · rw [if_pos h, if_pos h, mul_zero]
  · rw [if_neg h, if_neg h, mul_one]

/-! ## Class weights and the posterior -/

/-- The one-hot entry `(j, c)`: the label word of row `j` against the numeral `c`. -/
theorem isClass_eq (j : Fin 8192) (c : Fin 10) :
    Read.val_main_v37 (F := Ideal) x1 (ix2 j c) = isClass (rows1 x1) j c := by
  have ey : Read.idx_main_call1_v0 (Read.idx_main_call1_v2 (ix2 j c)) = ix1 j := funext fun a => by
    match a with
    | ⟨0, _⟩ => rfl
  rw [Read.val_main_v37_apply, Read.val_main_call1_v4_apply, Read.val_main_call1_v2_apply,
    Read.val_main_call1_v0_apply, Read.val_main_call1_v3_apply, Read.val_main_call1_v1_apply, eqBit_real, ey]
  rfl

/-- The affinity class `c` gathers at row `i`: the product of the affinity matrix with the one-hot matrix. -/
theorem classWeight_eq (i : Fin 8192) (c : Fin 10) :
    Read.val_main_v38 (F := Ideal) x0 x1 x2 x3 x4 x5 x6 x7 (ix2 i c)
      = classWeight (reprOf x0 x2 x3 x4 x5 x6 x7) (rows1 x1) i c := by
  have el : ∀ j : Fin 8192, Read.lidx_main_v38 (ix2 i c) j = ix2 i j := fun j => funext fun a => by
    match a with
    | ⟨0, _⟩ => rfl
    | ⟨1, _⟩ => rfl
  have er : ∀ j : Fin 8192, Read.ridx_main_v38 (ix2 i c) j = ix2 j c := fun j => funext fun a => by
    match a with
    | ⟨0, _⟩ => rfl
    | ⟨1, _⟩ => rfl
  rw [Read.val_main_v38_apply]
  simp only [el, er, affinity_eq, isClass_eq]
  rfl

/-- … smoothed by the word of `ε`. -/
theorem smoothed_eq (i : Fin 8192) (c : Fin 10) :
    Read.val_main_v40 (F := Ideal) x0 x1 x2 x3 x4 x5 x6 x7 (ix2 i c)
      = smoothed (reprOf x0 x2 x3 x4 x5 x6 x7) (rows1 x1) i c := by
  rw [Read.val_main_v40_apply, Read.val_main_v39_apply, Read.val_main_cst_3_apply, classWeight_eq]
  rfl

/-- The total of row `i`, again a sum from the zero word's value. -/
theorem rowTotal_eq (i : Fin 8192) :
    Read.val_main_v41 (F := Ideal) x0 x1 x2 x3 x4 x5 x6 x7 (ix1 i)
      = rowTotal (reprOf x0 x2 x3 x4 x5 x6 x7) (rows1 x1) i := by
  have e : ∀ c : Fin 10, Read.idx_main_v41 (ix1 i) c = ix2 i c := fun c => funext fun a => by
    match a with
    | ⟨0, _⟩ => rfl
    | ⟨1, _⟩ => rfl
  rw [Read.val_main_v41_apply, Read.val_main_cst_4_apply]
  simp only [e, smoothed_eq, Ideal.ofBits_def, Ideal.ofBits_zero_f32, zero_add]
  rfl

/-- The class posterior at row `i`, class `c`. -/
theorem logPosterior_eq (i : Fin 8192) (c : Fin 10) :
    Read.val_main_v45 (F := Ideal) x0 x1 x2 x3 x4 x5 x6 x7 (ix2 i c)
      = logPosterior (reprOf x0 x2 x3 x4 x5 x6 x7) (rows1 x1) i c := by
  have e : Read.idx_main_v42 (Read.idx_main_v43 (ix2 i c)) = ix1 i := funext fun a => by
    match a with
    | ⟨0, _⟩ => rfl
  rw [Read.val_main_v45_apply, Read.val_main_v44_apply, Read.val_main_v43_apply, Read.val_main_v42_apply, e,
    smoothed_eq, rowTotal_eq]
  rfl

/-- THE FIRST RESULT as an array. -/
theorem posterior_eq :
    Read.val_main_v45 (F := Ideal) x0 x1 x2 x3 x4 x5 x6 x7 = posteriorArr x0 x1 x2 x3 x4 x5 x6 x7 := by
  funext q
  obtain ⟨i, c, rfl⟩ : ∃ (i : Fin 8192) (c : Fin 10), q = ix2 i c := ⟨q 0, q 1, eq_ix2 q⟩
  rw [logPosterior_eq]
  rfl

/-! ## The gathered loss

  The gather takes, for each row `n`, a pair of start indices (row, column) out of a two-column index array, reads
  each as a signed integer, clamps it into the operand's range, and reads the operand there. -/

/-- The gather's dimension numbers. -/
abbrev pick : GatherDims S8192x10 S8192x2 S8192 := gather_S8192x10_S8192x2_S8192_n_01_n_n_01_1_11

/-- The operand row the gather reads for result `n`: the first start index, signed and clamped into `[0, 8191]`. -/
theorem pick_row {w : Nat} (idx : IVec S8192x2 w) (n : Fin 8192) :
    (pick.operandIdx (ix1 n) idx (0 : Fin 2)).val = min (idx (ix2 n (0 : Fin 2))).toInt.toNat 8191 := by
  show pick.start (ix1 n) idx (0 : Fin 2) + pick.batchCoord (ix1 n) (0 : Fin 2) + pick.offCoord (ix1 n) (0 : Fin 2) = _
  rw [GatherDims.batchCoord_eq_zero _ _ _ List.not_mem_nil,
    GatherDims.offCoord_eq_zero _ _ _ (fun h => ((GatherDims.mem_sKept _ _).mp h).1 (List.mem_cons_self ..))]
  simp only [Nat.add_zero]
  unfold GatherDims.start
  rw [dif_pos (show (0 : Fin 2) ∈ pick.startIndexMap from List.mem_cons_self ..)]
  have hsi : pick.siIdx (ix1 n) ⟨List.idxOf (0 : Fin 2) pick.startIndexMap,
      List.idxOf_lt_length_iff.2 (List.mem_cons_self ..)⟩ = ix2 n (0 : Fin 2) := by
    funext b; refine Fin.ext ?_
    match b with
    | ⟨0, _⟩ => rfl
    | ⟨1, _⟩ => rfl
  rw [hsi]
  rfl

/-- The operand column it reads: the second start index, signed and clamped into `[0, 9]`. -/
theorem pick_col {w : Nat} (idx : IVec S8192x2 w) (n : Fin 8192) :
    (pick.operandIdx (ix1 n) idx (1 : Fin 2)).val = min (idx (ix2 n (1 : Fin 2))).toInt.toNat 9 := by
  show pick.start (ix1 n) idx (1 : Fin 2) + pick.batchCoord (ix1 n) (1 : Fin 2) + pick.offCoord (ix1 n) (1 : Fin 2) = _
  rw [GatherDims.batchCoord_eq_zero _ _ _ List.not_mem_nil,
    GatherDims.offCoord_eq_zero _ _ _ (fun h => ((GatherDims.mem_sKept _ _).mp h).1
      (List.mem_cons_of_mem _ (List.mem_cons_self ..)))]
  simp only [Nat.add_zero]
  unfold GatherDims.start
  rw [dif_pos (show (1 : Fin 2) ∈ pick.startIndexMap from List.mem_cons_of_mem _ (List.mem_cons_self ..))]
  have hsi : pick.siIdx (ix1 n) ⟨List.idxOf (1 : Fin 2) pick.startIndexMap,
      List.idxOf_lt_length_iff.2 (List.mem_cons_of_mem _ (List.mem_cons_self ..))⟩ = ix2 n (1 : Fin 2) := by
    funext b; refine Fin.ext ?_
    match b with
    | ⟨0, _⟩ => rfl
    | ⟨1, _⟩ => rfl
  rw [hsi]
  rfl

/-- THE GATHER READ AT `n`: the operand at the clamped (row, column) pair. -/
theorem pick_apply {α : Type} {w : Nat} (x : S8192x10.Idx → α) (idx : IVec S8192x2 w) (n r : Fin 8192) (c : Fin 10)
    (hr : min (idx (ix2 n (0 : Fin 2))).toInt.toNat 8191 = r.val)
    (hc : min (idx (ix2 n (1 : Fin 2))).toInt.toNat 9 = c.val) :
    Host.gather pick x idx (ix1 n) = x (ix2 r c) := by
  unfold Host.gather
  congr 1
  funext a
  refine Fin.ext ?_
  match a with
  | ⟨0, _⟩ => exact (pick_row idx n).trans hr
  | ⟨1, _⟩ => exact (pick_col idx n).trans hc

/-- A word that is not negative when read signed is left alone by "add the extent if negative". -/
theorem wrap_nonneg (a b : BitVec 32) (h : 0 ≤ a.toInt) : Scalar.select (IntOp.cmpi .slt a 0#32) b a = a := by
  have hs : IntOp.cmpi .slt a 0#32 = 0#1 := by
    unfold IntOp.cmpi
    show BitVec.ofBool (a.slt 0#32) = 0#1
    have hf : a.slt 0#32 = false := by
      simp only [BitVec.slt, BitVec.toInt_zero, decide_eq_false_iff_not, not_lt]
      exact h
    rw [hf]
    rfl
  rw [hs, select_zero]

/-- A word whose signed reading lies in `[0, 10)` has that reading as its value. -/
theorem small_word (a : BitVec 32) (h0 : 0 ≤ a.toInt) (h1 : a.toInt < 10) : a.toInt.toNat = a.toNat ∧ a.toNat < 10 := by
  have hc := BitVec.toInt_eq_toNat_cond a
  have hlt := a.isLt
  split at hc <;> omega

/-- The index array's first column at row `n`: the row number itself (never negative, so not wrapped). -/
theorem pair_row (n : Fin 8192) :
    Read.val_main_v59 (F := Ideal) x1 (ix2 n (0 : Fin 2)) = BitVec.ofNat 32 n.val := by
  unfold Read.val_main_v59
  refine (concatenate_pair_apply_left (t := S8192x2) (s₁ := S8192x1) (s₂ := S8192x1) _ _ _ _ (ix2 n (0 : Fin 2)) rfl
    (ix2 n (0 : Fin 1)) (fun b => ?_)).trans ?_
  · match b with
    | ⟨0, _⟩ => rfl
    | ⟨1, _⟩ => rfl
  · have e : Read.idx_main_v57 (ix2 n (0 : Fin 1)) = ix1 n := funext fun a => by
      match a with
      | ⟨0, _⟩ => rfl
    rw [Read.val_main_v57_apply, e, Read.val_main_v51_apply, Read.val_main_v48_apply, Read.val_main_v46_apply,
      Read.val_main_v47_apply, Read.val_main_c_5_apply]
    exact wrap_nonneg (BitVec.ofNat 32 n.val) _ (by
      rw [Predicate.toInt_ofNat_small n.val (by have := n.isLt; omega)]
      exact Int.natCast_nonneg _)

/-- Its second column at row `n`, for a label that is not negative: the label word. -/
theorem pair_col (n : Fin 8192) (h : 0 ≤ (x1 (ix1 n)).toInt) :
    Read.val_main_v59 (F := Ideal) x1 (ix2 n (1 : Fin 2)) = x1 (ix1 n) := by
  unfold Read.val_main_v59
  refine (concatenate_pair_apply_right (t := S8192x2) (s₁ := S8192x1) (s₂ := S8192x1) _ _ _ _ (ix2 n (1 : Fin 2)) rfl rfl
    (ix2 n (0 : Fin 1)) (fun b hb => ?_) rfl).trans ?_
  · match b with
    | ⟨0, _⟩ => rfl
    | ⟨1, _⟩ => exact absurd rfl hb
  · have e : Read.idx_main_v58 (ix2 n (0 : Fin 1)) = ix1 n := funext fun a => by
      match a with
      | ⟨0, _⟩ => rfl
    rw [Read.val_main_v58_apply, e, Read.val_main_v56_apply, Read.val_main_v53_apply, Read.val_main_v52_apply,
      Read.val_main_c_7_apply]
    exact wrap_nonneg _ _ h

/-- The gathered entry of row `n`: the posterior at the row's own class, for labels in range. -/
theorem gathered_eq (hy : LabelsInRange x1) (n : Fin 8192) :
    Read.val_main_v60 (F := Ideal) x0 x1 x2 x3 x4 x5 x6 x7 (ix1 n)
      = logPosterior (reprOf x0 x2 x3 x4 x5 x6 x7) (rows1 x1) n (classOf (rows1 x1) n) := by
  unfold Read.val_main_v60
  refine (pick_apply _ _ n n (classOf (rows1 x1) n) ?_ ?_).trans (logPosterior_eq x0 x1 x2 x3 x4 x5 x6 x7 n _)
  · rw [pair_row, Predicate.toInt_ofNat_small n.val (by have := n.isLt; omega), Int.toNat_natCast]
    have := n.isLt
    omega
  · rw [pair_col x1 n (hy n).1]
    obtain ⟨e, hlt⟩ := small_word (x1 (ix1 n)) (hy n).1 (hy n).2
    show min (x1 (ix1 n)).toInt.toNat 9 = (x1 (ix1 n)).toNat % 10
    rw [e]
    omega

/-! ## The two losses

  The regulariser is the zero word's value times a mean: `0` times anything is `0` on the extended reals, and adding
  `0` changes nothing. The sum over the rows' one-coordinate indices is the sum over the rows. -/

/-- THE THIRD RESULT as an array, for labels in range. -/
theorem loss_eq (hy : LabelsInRange x1) :
    Read.val_main_v67 (F := Ideal) x0 x1 x2 x3 x4 x5 x6 x7 = lossArr x0 x1 x2 x3 x4 x5 x6 x7 := by
  funext q
  have hs : ∑ j : S8192.Idx, Read.val_main_v60 (F := Ideal) x0 x1 x2 x3 x4 x5 x6 x7 j
      = ∑ n : Fin 8192, logPosterior (reprOf x0 x2 x3 x4 x5 x6 x7) (rows1 x1) n (classOf (rows1 x1) n) :=
    (Equiv.sum_comp (idxEquiv1 (n := 8192)).symm _).symm.trans
      (Finset.sum_congr rfl fun n _ => gathered_eq x0 x1 x2 x3 x4 x5 x6 x7 hy n)
  rw [Read.val_main_v67_apply, Read.val_main_v62_apply, Read.val_main_v61_apply, Read.val_main_cst_9_apply,
    Read.val_main_v66_apply, Read.val_main_cst_12_apply, hs]
  simp only [Ideal.addf_def, Ideal.mulf_def, Ideal.hostNegf_def, Ideal.negf_def, Ideal.ofBits_def,
    Ideal.ofBits_zero_f32, zero_mul, zero_add, add_zero]
  rfl

/-- THE SECOND RESULT as an array, for labels in range. -/
theorem meanLoss_eq (hy : LabelsInRange x1) :
    Read.val_main_v68 (F := Ideal) x0 x1 x2 x3 x4 x5 x6 x7 = meanLossArr x0 x1 x2 x3 x4 x5 x6 x7 := by
  funext q
  rw [Read.val_main_v68_apply, Read.val_main_cst_13_apply, loss_eq x0 x1 x2 x3 x4 x5 x6 x7 hy]
  rfl

/-! ## The run -/

/-- On every device, from any memory with zero counters whose labels are in range: every weakly fair execution of the
    reference terminates with the three results at the specification's arrays of the arguments, the arguments unchanged. -/
theorem run_spec (m : (l : Loc nD τ sig) → Buf (Elt Ideal) l) (ρ : Dev nD → PrngReg)
    (hy : ∀ c : Dev nD, LabelsInRange (m ((c.tc : Thread nD τ).loc main_arg1))) :
    θ_run (defs (F := Ideal)) (onTc (τ := τ) (main (F := Ideal))) ⟨m, fun _ => 0, ρ⟩ fun r => ∀ c : Dev nD,
      r.2.mem ((c.tc : Thread nD τ).loc main_v45)
        = posteriorArr (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_v68)
        = meanLossArr (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_v67)
        = lossArr (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run (defs (F := Ideal)) _ _).mono (fun _ h c =>
    ⟨(h c).1.trans ((Read.val_main_v45_eq (F := Ideal) m c).trans (posterior_eq _ _ _ _ _ _ _ _)),
      (h c).2.1.trans ((Read.val_main_v68_eq (F := Ideal) m c).trans (meanLoss_eq _ _ _ _ _ _ _ _ (hy c))),
      (h c).2.2.1.trans ((Read.val_main_v67_eq (F := Ideal) m c).trans (loss_eq _ _ _ _ _ _ _ _ (hy c))),
      (h c).2.2.2⟩)
    (Cert.ReferenceIdeal.Value.run (F := Ideal) m ρ)

end Cert.ReferenceIdeal.RefValue

end
-- ==== Proof.lean ====
/-
  The certificate of `Cert.Claim`: a two-kernel program — a three-layer perceptron that sends each of
  8192 rows to a 10-vector `z`, then a tiled pass over the 8192 × 8192 Gaussian affinities of those
  vectors that gathers, per row and class, the affinity of the rows labelled with that class, and
  turns it into the logarithm of the class posterior and a negative log-likelihood — against the
  same computation written as whole-array host operations.

  Both programs compute the specification of `Proof/Spec.lean`. The kernel side: each region's body is
  run symbolically at every grid point, the launch carries the buffers through @main, the first
  region's blocks tile `z` and its squared norms, the second region's accumulator over the eight
  column tiles of a row tile is the row's whole class weight (a sum over 8192 rows cut into eight
  blocks of 1024), and the host tail sums the rows' losses. The reference side: its run read one
  operation at a time. Where they differ in form: the kernel selects `0` on the diagonal where the
  reference multiplies the affinity by `1 − 1`; the kernel reads a row's own class by multiplying
  with its indicator row and summing where the reference gathers at the label; and the kernel
  negates each row's loss before summing where the reference negates the sum — equal because every
  log-posterior is a real number when the inputs are finite.

  The precondition: every float input finite, and every label in `[0, 10)` — outside that range the
  reference's gather reads another column (its index is wrapped and clamped) while an indicator row
  is all zeros.
-/
import proofs.«423389_j72705206387155_1_alg».proof.Defs
import proofs.«423389_j72705206387155_1_alg».proof.Proof.Gen.Kernel
import proofs.«423389_j72705206387155_1_alg».proof.Proof.Gen.KernelIdeal
import proofs.«423389_j72705206387155_1_alg».proof.Proof.Gen.ReferenceIdeal
import proofs.«423389_j72705206387155_1_alg».proof.Proof.Gen.Pre_finite_inputs
import proofs.«423389_j72705206387155_1_alg».proof.Proof.Gen.ReferenceIdeal.Run
import proofs.«423389_j72705206387155_1_alg».proof.Proof.Kernel.WholeRun
import proofs.«423389_j72705206387155_1_alg».proof.Proof.KernelIdeal.WholeRun
import proofs.«423389_j72705206387155_1_alg».proof.Proof.KernelIdeal.Results
import proofs.«423389_j72705206387155_1_alg».proof.Proof.RefValue
import proofs.«423389_j72705206387155_1_alg».proof.Proof.PreFacts
import Idealize.ShloMosaic.Adequacy
import Idealize.ShloMosaic.Init

noncomputable section

namespace Cert.Proof

open Idealize.ShloMosaic Idealize.SL.Sem ClassPosterior

/-- The word-level program runs and leaves its arguments as launched. -/
theorem frame_kernel : Cert.frame_Kernel := fun m ρ _ => Cert.Kernel.Hand.frame (F := Bits) m ρ

/-- So does its idealization: the same text read at the extended reals. -/
theorem frame_kernelIdeal : Cert.frame_KernelIdeal := fun m ρ _ => Cert.KernelIdeal.Hand.frame (F := Ideal) m ρ

/-- The reference is host operations only: its run, with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

/-- From memories that agree on the arguments both programs end at the specification's three results of those
    arguments: the kernel's by `Results.results`, the reference's by `RefValue.run_spec` (its labels are the kernel's,
    which the precondition keeps in range). -/
theorem algebraic : Cert.algebraic_KernelIdeal_ReferenceIdeal := by
  intro m ρ m' ρ' hpre hagree
  refine ⟨_, _, _, Cert.KernelIdeal.Results.results m ρ hpre, ?_⟩
  have hy : ∀ c : Dev Cert.ReferenceIdeal.nD, LabelsInRange (m' ((c.tc : Thread Cert.ReferenceIdeal.nD Cert.ReferenceIdeal.τ).loc Cert.ReferenceIdeal.main_arg1)) := fun c => by
    rw [(hagree c).2.1]; exact (Cert.KernelIdeal.PreFacts.facts m hpre c).2.2.2.2.2.2.2
  refine (θ_run Cert.ReferenceIdeal.defs _ _).mono (fun _ h c => ?_) (Cert.ReferenceIdeal.RefValue.run_spec m' ρ' hy)
  obtain ⟨h0, h1, h2, hargs⟩ := h c
  obtain ⟨a0, a1, a2, a3, a4, a5, a6, a7⟩ := hagree c
  refine ⟨?_, ?_, ?_, hargs⟩
  · rw [h0, a0, a1, a2, a3, a4, a5, a6, a7]
  · rw [h1, a0, a1, a2, a3, a4, a5, a6, a7]
  · rw [h2, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
